-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x13 : Shape := ⟨2, ![4096, 13]⟩
abbrev S4096x26 : Shape := ⟨2, ![4096, 26]⟩
abbrev S4096x1 : Shape := ⟨2, ![4096, 1]⟩
abbrev S100000x40 : Shape := ⟨2, ![100000, 40]⟩
abbrev S8x40 : Shape := ⟨2, ![8, 40]⟩
abbrev S8 : Shape := ⟨1, ![8]⟩
abbrev S1x8 : Shape := ⟨2, ![1, 8]⟩
abbrev S1x40 : Shape := ⟨2, ![1, 40]⟩
abbrev S1 : Shape := ⟨1, ![1]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S100000x40 : S_.BroadcastsInDim S100000x40 (![] : Fin 0 → Fin S100000x40.rank)
  reducesTo_S100000x40_S_d0_1 : S100000x40.ReducesTo [0, 1] S_
  bcast_S_S8x40 : S_.BroadcastsInDim S8x40 (![] : Fin 0 → Fin S8x40.rank)
  reducesTo_S8x40_S_d0_1 : S8x40.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1x40 : S_.BroadcastsInDim S1x40 (![] : Fin 0 → Fin S1x40.rank)
  reducesTo_S1x40_S_d0_1 : S1x40.ReducesTo [0, 1] S_
  bcast_S_S1 : S_.BroadcastsInDim S1 (![] : Fin 0 → Fin S1.rank)
  reducesTo_S1_S_d0 : S1.ReducesTo [0] S_
  bcast_S_S4096x26 : S_.BroadcastsInDim S4096x26 (![] : Fin 0 → Fin S4096x26.rank)
  reducesTo_S4096x26_S_d0_1 : S4096x26.ReducesTo [0, 1] S_

variable [Facts]

def fn_part2 {F : FTy → Type} [FloatOps F] (main_arg1 : IVec S4096x26 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S4096x26 32 := broadcastInDim S4096x26 ![] bcast_S_S4096x26 main_c_14
  let main_v40 : IVec S4096x26 1 := cmpi .sge main_arg1 main_v39
  let main_c_15 : IVec S_ 32 := constantI S_ 32 100000#32
  let main_v41 : IVec S4096x26 32 := broadcastInDim S4096x26 ![] bcast_S_S4096x26 main_c_15
  let main_v42 : IVec S4096x26 1 := cmpi .slt main_arg1 main_v41
  let main_v43 : IVec S4096x26 1 := andi main_v40 main_v42
  let main_c_16 : IVec S_ 1 := constantI S_ 1 1#1
  let main_v44 : IVec S_ 1 := (fun x v => Host.reduce IntOp.andi x v reducesTo_S4096x26_S_d0_1 h_S_) main_v43 main_c_16
  let main_v45 : IVec S_ 1 := andi main_v38 main_v44
  main_v45

def fn_part1 {F : FTy → Type} [FloatOps F] (main_arg1 : IVec S4096x26 32) (main_arg5 : FVec F S8 .f32) (main_arg6 : FVec F S1x8 .f32) (main_arg7 : FVec F S1x40 .f32) (main_arg8 : FVec F S1 .f32) (main_v13 : IVec S_ 1) (main_v16 : IVec S8x40 1) : IVec S_ 1 :=
  let main_c_5 : IVec S_ 1 := constantI S_ 1 1#1
  let main_v17 : IVec S_ 1 := (fun x v => Host.reduce IntOp.andi x v reducesTo_S8x40_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1x8 .f32 := Host.absf main_arg6
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  let main_v29 : FVec F S1x40 .f32 := Host.absf main_arg7
  let main_cst_10 : FVec F S_ .f32 := constant S_ .f32 0x7F800000#32
  let main_v30 : FVec F S1x40 .f32 := broadcastInDim S1x40 ![] bcast_S_S1x40 main_cst_10
  let main_v31 : IVec S1x40 1 := cmpf .olt main_v29 main_v30
  let main_c_11 : IVec S_ 1 := constantI S_ 1 1#1
  let main_v32 : IVec S_ 1 := (fun x v => Host.reduce IntOp.andi x v reducesTo_S1x40_S_d0_1 h_S_) main_v31 main_c_11
  let main_v33 : IVec S_ 1 := andi main_v28 main_v32
  fn_part2 (F := F) main_arg1 main_arg8 main_v33

def fn {F : FTy → Type} [FloatOps F] (main_arg0 : FVec F S4096x13 .f32) (main_arg1 : IVec S4096x26 32) (main_arg2 : FVec F S4096x1 .f32) (main_arg3 : FVec F S100000x40 .f32) (main_arg4 : FVec F S8x40 .f32) (main_arg5 : FVec F S8 .f32) (main_arg6 : FVec F S1x8 .f32) (main_arg7 : FVec F S1x40 .f32) (main_arg8 : FVec F S1 .f32) : IVec S_ 1 :=
  let main_v0 : FVec F S4096x13 .f32 := Host.absf main_arg0
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S100000x40 .f32 := Host.absf main_arg3
  let main_cst_2 : FVec F S_ .f32 := constant S_ .f32 0x7F800000#32
  let main_v10 : FVec F S100000x40 .f32 := broadcastInDim S100000x40 ![] bcast_S_S100000x40 main_cst_2
  let main_v11 : IVec S100000x40 1 := cmpf .olt main_v9 main_v10
  let main_c_3 : IVec S_ 1 := constantI S_ 1 1#1
  let main_v12 : IVec S_ 1 := (fun x v => Host.reduce IntOp.andi x v reducesTo_S100000x40_S_d0_1 h_S_) main_v11 main_c_3
  let main_v13 : IVec S_ 1 := andi main_v8 main_v12
  let main_v14 : FVec F S8x40 .f32 := Host.absf main_arg4
  let main_cst_4 : FVec F S_ .f32 := constant S_ .f32 0x7F800000#32
  let main_v15 : FVec F S8x40 .f32 := broadcastInDim S8x40 ![] bcast_S_S8x40 main_cst_4
  let main_v16 : IVec S8x40 1 := cmpf .olt main_v14 main_v15
  fn_part1 (F := F) main_arg1 main_arg5 main_arg6 main_arg7 main_arg8 main_v13 main_v16
-- ==== Kernel.lean ====
abbrev S4096x13 : Shape := ⟨2, ![4096, 13]⟩
abbrev S4096x26 : Shape := ⟨2, ![4096, 26]⟩
abbrev S4096x1 : Shape := ⟨2, ![4096, 1]⟩
abbrev S100000x40 : Shape := ⟨2, ![100000, 40]⟩
abbrev S8x40 : Shape := ⟨2, ![8, 40]⟩
abbrev S8 : Shape := ⟨1, ![8]⟩
abbrev S1x8 : Shape := ⟨2, ![1, 8]⟩
abbrev S1x40 : Shape := ⟨2, ![1, 40]⟩
abbrev S1 : Shape := ⟨1, ![1]⟩
abbrev S13x40 : Shape := ⟨2, ![13, 40]⟩
abbrev S1x13x40 : Shape := ⟨3, ![1, 13, 40]⟩
abbrev S4096x13x1 : Shape := ⟨3, ![4096, 13, 1]⟩
abbrev S4096x13x40 : Shape := ⟨3, ![4096, 13, 40]⟩
abbrev S_ : Shape := ⟨0, ![]⟩
abbrev S4096x26x1 : Shape := ⟨3, ![4096, 26, 1]⟩
abbrev S1x1x1 : Shape := ⟨3, ![1, 1, 1]⟩
abbrev S4096x26x40 : Shape := ⟨3, ![4096, 26, 40]⟩
abbrev S4096x39x40 : Shape := ⟨3, ![4096, 39, 40]⟩
abbrev S1x1 : Shape := ⟨2, ![1, 1]⟩
abbrev S1x4096 : Shape := ⟨2, ![1, 4096]⟩
abbrev S512x39x40 : Shape := ⟨3, ![512, 39, 40]⟩
abbrev S1x512 : Shape := ⟨2, ![1, 512]⟩
abbrev S39x512x40 : Shape := ⟨3, ![39, 512, 40]⟩
abbrev S512x1 : Shape := ⟨2, ![512, 1]⟩
abbrev S512x40 : Shape := ⟨2, ![512, 40]⟩
abbrev S1x512x40 : Shape := ⟨3, ![1, 512, 40]⟩
abbrev S38x512x40 : Shape := ⟨3, ![38, 512, 40]⟩
abbrev S19456x40 : Shape := ⟨2, ![19456, 40]⟩
abbrev S40x8 : Shape := ⟨2, ![40, 8]⟩
abbrev S19456x8 : Shape := ⟨2, ![19456, 8]⟩
abbrev S8x1 : Shape := ⟨2, ![8, 1]⟩
abbrev S19456x1 : Shape := ⟨2, ![19456, 1]⟩
abbrev S38x512x1 : Shape := ⟨3, ![38, 512, 1]⟩
abbrev S1x512x1 : Shape := ⟨3, ![1, 512, 1]⟩
abbrev S37x512x40 : Shape := ⟨3, ![37, 512, 40]⟩
abbrev S18944x40 : Shape := ⟨2, ![18944, 40]⟩
abbrev S18944x8 : Shape := ⟨2, ![18944, 8]⟩
abbrev S18944x1 : Shape := ⟨2, ![18944, 1]⟩
abbrev S37x512x1 : Shape := ⟨3, ![37, 512, 1]⟩
abbrev S36x512x40 : Shape := ⟨3, ![36, 512, 40]⟩
abbrev S18432x40 : Shape := ⟨2, ![18432, 40]⟩
abbrev S18432x8 : Shape := ⟨2, ![18432, 8]⟩
abbrev S18432x1 : Shape := ⟨2, ![18432, 1]⟩
abbrev S36x512x1 : Shape := ⟨3, ![36, 512, 1]⟩
abbrev S35x512x40 : Shape := ⟨3, ![35, 512, 40]⟩
abbrev S17920x40 : Shape := ⟨2, ![17920, 40]⟩
abbrev S17920x8 : Shape := ⟨2, ![17920, 8]⟩
abbrev S17920x1 : Shape := ⟨2, ![17920, 1]⟩
abbrev S35x512x1 : Shape := ⟨3, ![35, 512, 1]⟩
abbrev S34x512x40 : Shape := ⟨3, ![34, 512, 40]⟩
abbrev S17408x40 : Shape := ⟨2, ![17408, 40]⟩
abbrev S17408x8 : Shape := ⟨2, ![17408, 8]⟩
abbrev S17408x1 : Shape := ⟨2, ![17408, 1]⟩
abbrev S34x512x1 : Shape := ⟨3, ![34, 512, 1]⟩
abbrev S33x512x40 : Shape := ⟨3, ![33, 512, 40]⟩
abbrev S16896x40 : Shape := ⟨2, ![16896, 40]⟩
abbrev S16896x8 : Shape := ⟨2, ![16896, 8]⟩
abbrev S16896x1 : Shape := ⟨2, ![16896, 1]⟩
abbrev S33x512x1 : Shape := ⟨3, ![33, 512, 1]⟩
abbrev S32x512x40 : Shape := ⟨3, ![32, 512, 40]⟩
abbrev S16384x40 : Shape := ⟨2, ![16384, 40]⟩
abbrev S16384x8 : Shape := ⟨2, ![16384, 8]⟩
abbrev S16384x1 : Shape := ⟨2, ![16384, 1]⟩
abbrev S32x512x1 : Shape := ⟨3, ![32, 512, 1]⟩
abbrev S31x512x40 : Shape := ⟨3, ![31, 512, 40]⟩
abbrev S15872x40 : Shape := ⟨2, ![15872, 40]⟩
abbrev S15872x8 : Shape := ⟨2, ![15872, 8]⟩
abbrev S15872x1 : Shape := ⟨2, ![15872, 1]⟩
abbrev S31x512x1 : Shape := ⟨3, ![31, 512, 1]⟩
abbrev S30x512x40 : Shape := ⟨3, ![30, 512, 40]⟩
abbrev S15360x40 : Shape := ⟨2, ![15360, 40]⟩
abbrev S15360x8 : Shape := ⟨2, ![15360, 8]⟩
abbrev S15360x1 : Shape := ⟨2, ![15360, 1]⟩
abbrev S30x512x1 : Shape := ⟨3, ![30, 512, 1]⟩
abbrev S29x512x40 : Shape := ⟨3, ![29, 512, 40]⟩
abbrev S14848x40 : Shape := ⟨2, ![14848, 40]⟩
abbrev S14848x8 : Shape := ⟨2, ![14848, 8]⟩
abbrev S14848x1 : Shape := ⟨2, ![14848, 1]⟩
abbrev S29x512x1 : Shape := ⟨3, ![29, 512, 1]⟩
abbrev S28x512x40 : Shape := ⟨3, ![28, 512, 40]⟩
abbrev S14336x40 : Shape := ⟨2, ![14336, 40]⟩
abbrev S14336x8 : Shape := ⟨2, ![14336, 8]⟩
abbrev S14336x1 : Shape := ⟨2, ![14336, 1]⟩
abbrev S28x512x1 : Shape := ⟨3, ![28, 512, 1]⟩
abbrev S27x512x40 : Shape := ⟨3, ![27, 512, 40]⟩
abbrev S13824x40 : Shape := ⟨2, ![13824, 40]⟩
abbrev S13824x8 : Shape := ⟨2, ![13824, 8]⟩
abbrev S13824x1 : Shape := ⟨2, ![13824, 1]⟩
abbrev S27x512x1 : Shape := ⟨3, ![27, 512, 1]⟩
abbrev S26x512x40 : Shape := ⟨3, ![26, 512, 40]⟩
abbrev S13312x40 : Shape := ⟨2, ![13312, 40]⟩
abbrev S13312x8 : Shape := ⟨2, ![13312, 8]⟩
abbrev S13312x1 : Shape := ⟨2, ![13312, 1]⟩
abbrev S26x512x1 : Shape := ⟨3, ![26, 512, 1]⟩
abbrev S25x512x40 : Shape := ⟨3, ![25, 512, 40]⟩
abbrev S12800x40 : Shape := ⟨2, ![12800, 40]⟩
abbrev S12800x8 : Shape := ⟨2, ![12800, 8]⟩
abbrev S12800x1 : Shape := ⟨2, ![12800, 1]⟩
abbrev S25x512x1 : Shape := ⟨3, ![25, 512, 1]⟩
abbrev S24x512x40 : Shape := ⟨3, ![24, 512, 40]⟩
abbrev S12288x40 : Shape := ⟨2, ![12288, 40]⟩
abbrev S12288x8 : Shape := ⟨2, ![12288, 8]⟩
abbrev S12288x1 : Shape := ⟨2, ![12288, 1]⟩
abbrev S24x512x1 : Shape := ⟨3, ![24, 512, 1]⟩
abbrev S23x512x40 : Shape := ⟨3, ![23, 512, 40]⟩
abbrev S11776x40 : Shape := ⟨2, ![11776, 40]⟩
abbrev S11776x8 : Shape := ⟨2, ![11776, 8]⟩
abbrev S11776x1 : Shape := ⟨2, ![11776, 1]⟩
abbrev S23x512x1 : Shape := ⟨3, ![23, 512, 1]⟩
abbrev S22x512x40 : Shape := ⟨3, ![22, 512, 40]⟩
abbrev S11264x40 : Shape := ⟨2, ![11264, 40]⟩
abbrev S11264x8 : Shape := ⟨2, ![11264, 8]⟩
abbrev S11264x1 : Shape := ⟨2, ![11264, 1]⟩
abbrev S22x512x1 : Shape := ⟨3, ![22, 512, 1]⟩
abbrev S21x512x40 : Shape := ⟨3, ![21, 512, 40]⟩
abbrev S10752x40 : Shape := ⟨2, ![10752, 40]⟩
abbrev S10752x8 : Shape := ⟨2, ![10752, 8]⟩
abbrev S10752x1 : Shape := ⟨2, ![10752, 1]⟩
abbrev S21x512x1 : Shape := ⟨3, ![21, 512, 1]⟩
abbrev S20x512x40 : Shape := ⟨3, ![20, 512, 40]⟩
abbrev S10240x40 : Shape := ⟨2, ![10240, 40]⟩
abbrev S10240x8 : Shape := ⟨2, ![10240, 8]⟩
abbrev S10240x1 : Shape := ⟨2, ![10240, 1]⟩
abbrev S20x512x1 : Shape := ⟨3, ![20, 512, 1]⟩
abbrev S19x512x40 : Shape := ⟨3, ![19, 512, 40]⟩
abbrev S9728x40 : Shape := ⟨2, ![9728, 40]⟩
abbrev S9728x8 : Shape := ⟨2, ![9728, 8]⟩
abbrev S9728x1 : Shape := ⟨2, ![9728, 1]⟩
abbrev S19x512x1 : Shape := ⟨3, ![19, 512, 1]⟩
abbrev S18x512x40 : Shape := ⟨3, ![18, 512, 40]⟩
abbrev S9216x40 : Shape := ⟨2, ![9216, 40]⟩
abbrev S9216x8 : Shape := ⟨2, ![9216, 8]⟩
abbrev S9216x1 : Shape := ⟨2, ![9216, 1]⟩
abbrev S18x512x1 : Shape := ⟨3, ![18, 512, 1]⟩
abbrev S17x512x40 : Shape := ⟨3, ![17, 512, 40]⟩
abbrev S8704x40 : Shape := ⟨2, ![8704, 40]⟩
abbrev S8704x8 : Shape := ⟨2, ![8704, 8]⟩
abbrev S8704x1 : Shape := ⟨2, ![8704, 1]⟩
abbrev S17x512x1 : Shape := ⟨3, ![17, 512, 1]⟩
abbrev S16x512x40 : Shape := ⟨3, ![16, 512, 40]⟩
abbrev S8192x40 : Shape := ⟨2, ![8192, 40]⟩
abbrev S8192x8 : Shape := ⟨2, ![8192, 8]⟩
abbrev S8192x1 : Shape := ⟨2, ![8192, 1]⟩
abbrev S16x512x1 : Shape := ⟨3, ![16, 512, 1]⟩
abbrev S15x512x40 : Shape := ⟨3, ![15, 512, 40]⟩
abbrev S7680x40 : Shape := ⟨2, ![7680, 40]⟩
abbrev S7680x8 : Shape := ⟨2, ![7680, 8]⟩
abbrev S7680x1 : Shape := ⟨2, ![7680, 1]⟩
abbrev S15x512x1 : Shape := ⟨3, ![15, 512, 1]⟩
abbrev S14x512x40 : Shape := ⟨3, ![14, 512, 40]⟩
abbrev S7168x40 : Shape := ⟨2, ![7168, 40]⟩
abbrev S7168x8 : Shape := ⟨2, ![7168, 8]⟩
abbrev S7168x1 : Shape := ⟨2, ![7168, 1]⟩
abbrev S14x512x1 : Shape := ⟨3, ![14, 512, 1]⟩
abbrev S13x512x40 : Shape := ⟨3, ![13, 512, 40]⟩
abbrev S6656x40 : Shape := ⟨2, ![6656, 40]⟩
abbrev S6656x8 : Shape := ⟨2, ![6656, 8]⟩
abbrev S6656x1 : Shape := ⟨2, ![6656, 1]⟩
abbrev S13x512x1 : Shape := ⟨3, ![13, 512, 1]⟩
abbrev S12x512x40 : Shape := ⟨3, ![12, 512, 40]⟩
abbrev S6144x40 : Shape := ⟨2, ![6144, 40]⟩
abbrev S6144x8 : Shape := ⟨2, ![6144, 8]⟩
abbrev S6144x1 : Shape := ⟨2, ![6144, 1]⟩
abbrev S12x512x1 : Shape := ⟨3, ![12, 512, 1]⟩
abbrev S11x512x40 : Shape := ⟨3, ![11, 512, 40]⟩
abbrev S5632x40 : Shape := ⟨2, ![5632, 40]⟩
abbrev S5632x8 : Shape := ⟨2, ![5632, 8]⟩
abbrev S5632x1 : Shape := ⟨2, ![5632, 1]⟩
abbrev S11x512x1 : Shape := ⟨3, ![11, 512, 1]⟩
abbrev S10x512x40 : Shape := ⟨3, ![10, 512, 40]⟩
abbrev S5120x40 : Shape := ⟨2, ![5120, 40]⟩
abbrev S5120x8 : Shape := ⟨2, ![5120, 8]⟩
abbrev S5120x1 : Shape := ⟨2, ![5120, 1]⟩
abbrev S10x512x1 : Shape := ⟨3, ![10, 512, 1]⟩
abbrev S9x512x40 : Shape := ⟨3, ![9, 512, 40]⟩
abbrev S4608x40 : Shape := ⟨2, ![4608, 40]⟩
abbrev S4608x8 : Shape := ⟨2, ![4608, 8]⟩
abbrev S4608x1 : Shape := ⟨2, ![4608, 1]⟩
abbrev S9x512x1 : Shape := ⟨3, ![9, 512, 1]⟩
abbrev S8x512x40 : Shape := ⟨3, ![8, 512, 40]⟩
abbrev S4096x40 : Shape := ⟨2, ![4096, 40]⟩
abbrev S4096x8 : Shape := ⟨2, ![4096, 8]⟩
abbrev S8x512x1 : Shape := ⟨3, ![8, 512, 1]⟩
abbrev S7x512x40 : Shape := ⟨3, ![7, 512, 40]⟩
abbrev S3584x40 : Shape := ⟨2, ![3584, 40]⟩
abbrev S3584x8 : Shape := ⟨2, ![3584, 8]⟩
abbrev S3584x1 : Shape := ⟨2, ![3584, 1]⟩
abbrev S7x512x1 : Shape := ⟨3, ![7, 512, 1]⟩
abbrev S6x512x40 : Shape := ⟨3, ![6, 512, 40]⟩
abbrev S3072x40 : Shape := ⟨2, ![3072, 40]⟩
abbrev S3072x8 : Shape := ⟨2, ![3072, 8]⟩
abbrev S3072x1 : Shape := ⟨2, ![3072, 1]⟩
abbrev S6x512x1 : Shape := ⟨3, ![6, 512, 1]⟩
abbrev S5x512x40 : Shape := ⟨3, ![5, 512, 40]⟩
abbrev S2560x40 : Shape := ⟨2, ![2560, 40]⟩
abbrev S2560x8 : Shape := ⟨2, ![2560, 8]⟩
abbrev S2560x1 : Shape := ⟨2, ![2560, 1]⟩
abbrev S5x512x1 : Shape := ⟨3, ![5, 512, 1]⟩
abbrev S4x512x40 : Shape := ⟨3, ![4, 512, 40]⟩
abbrev S2048x40 : Shape := ⟨2, ![2048, 40]⟩
abbrev S2048x8 : Shape := ⟨2, ![2048, 8]⟩
abbrev S2048x1 : Shape := ⟨2, ![2048, 1]⟩
abbrev S4x512x1 : Shape := ⟨3, ![4, 512, 1]⟩
abbrev S3x512x40 : Shape := ⟨3, ![3, 512, 40]⟩
abbrev S1536x40 : Shape := ⟨2, ![1536, 40]⟩
abbrev S1536x8 : Shape := ⟨2, ![1536, 8]⟩
abbrev S1536x1 : Shape := ⟨2, ![1536, 1]⟩
abbrev S3x512x1 : Shape := ⟨3, ![3, 512, 1]⟩
abbrev S2x512x40 : Shape := ⟨3, ![2, 512, 40]⟩
abbrev S1024x40 : Shape := ⟨2, ![1024, 40]⟩
abbrev S1024x8 : Shape := ⟨2, ![1024, 8]⟩
abbrev S1024x1 : Shape := ⟨2, ![1024, 1]⟩
abbrev S2x512x1 : Shape := ⟨3, ![2, 512, 1]⟩
abbrev S512x8 : Shape := ⟨2, ![512, 8]⟩
abbrev S40x1 : Shape := ⟨2, ![40, 1]⟩

abbrev nBuf : Space → Nat
  | .hbm => 44
  | .vmem => 9
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S4096x1, .f32⟩
  | .hbm, ⟨3, _⟩ => ⟨S100000x40, .f32⟩
  | .hbm, ⟨4, _⟩ => ⟨S8x40, .f32⟩
  | .hbm, ⟨5, _⟩ => ⟨S8, .f32⟩
  | .hbm, ⟨6, _⟩ => ⟨S1x8, .f32⟩
  | .hbm, ⟨7, _⟩ => ⟨S1x40, .f32⟩
  | .hbm, ⟨8, _⟩ => ⟨S1, .f32⟩
  | .hbm, ⟨9, _⟩ => ⟨S13x40, .f32⟩
  | .hbm, ⟨10, _⟩ => ⟨S1x13x40, .f32⟩
  | .hbm, ⟨11, _⟩ => ⟨S4096x13x1, .f32⟩
  | .hbm, ⟨12, _⟩ => ⟨S4096x13x40, .f32⟩
  | .hbm, ⟨13, _⟩ => ⟨S4096x13x40, .f32⟩
  | .hbm, ⟨14, _⟩ => ⟨S4096x13x40, .f32⟩
  | .hbm, ⟨15, _⟩ => ⟨S_, .i32⟩
  | .hbm, ⟨16, _⟩ => ⟨S4096x26, .i32⟩
  | .hbm, ⟨17, _⟩ => ⟨S4096x26, .i1⟩
  | .hbm, ⟨18, _⟩ => ⟨S_, .i32⟩
  | .hbm, ⟨19, _⟩ => ⟨S4096x26, .i32⟩
  | .hbm, ⟨20, _⟩ => ⟨S4096x26, .i32⟩
  | .hbm, ⟨21, _⟩ => ⟨S4096x26, .i32⟩
  | .hbm, ⟨22, _⟩ => ⟨S4096x26x1, .i32⟩
  | .hbm, ⟨23, _⟩ => ⟨S1, .i32⟩
  | .hbm, ⟨24, _⟩ => ⟨S_, .i32⟩
  | .hbm, ⟨25, _⟩ => ⟨S4096x26x1, .i32⟩
  | .hbm, ⟨26, _⟩ => ⟨S4096x26x1, .i1⟩
  | .hbm, ⟨27, _⟩ => ⟨S1x1x1, .i32⟩
  | .hbm, ⟨28, _⟩ => ⟨S4096x26x1, .i32⟩
  | .hbm, ⟨29, _⟩ => ⟨S4096x26x1, .i1⟩
  | .hbm, ⟨30, _⟩ => ⟨S4096x26x1, .i1⟩
  | .hbm, ⟨31, _⟩ => ⟨S_, .i1⟩
  | .hbm, ⟨32, _⟩ => ⟨S4096x26, .i1⟩
  | .hbm, ⟨33, _⟩ => ⟨S4096x26x40, .f32⟩
  | .hbm, ⟨34, _⟩ => ⟨S4096x26x40, .i1⟩
  | .hbm, ⟨35, _⟩ => ⟨S_, .f32⟩
  | .hbm, ⟨36, _⟩ => ⟨S4096x26x40, .f32⟩
  | .hbm, ⟨37, _⟩ => ⟨S4096x26x40, .f32⟩
  | .hbm, ⟨38, _⟩ => ⟨S4096x39x40, .f32⟩
  | .hbm, ⟨39, _⟩ => ⟨S4096x39x40, .bf16⟩
  | .hbm, ⟨40, _⟩ => ⟨S1x8, .f32⟩
  | .hbm, ⟨41, _⟩ => ⟨S1x1, .f32⟩
  | .hbm, ⟨42, _⟩ => ⟨S1x4096, .f32⟩
  | .hbm, ⟨43, _⟩ => ⟨S4096x1, .f32⟩
  | .local _ .vmem, ⟨0, _⟩ => ⟨S512x39x40, .bf16⟩
  | .local _ .vmem, ⟨1, _⟩ => ⟨S512x39x40, .bf16⟩
  | .local _ .vmem, ⟨2, _⟩ => ⟨S8x40, .f32⟩
  | .local _ .vmem, ⟨3, _⟩ => ⟨S1x8, .f32⟩
  | .local _ .vmem, ⟨4, _⟩ => ⟨S1x8, .f32⟩
  | .local _ .vmem, ⟨5, _⟩ => ⟨S1x40, .f32⟩
  | .local _ .vmem, ⟨6, _⟩ => ⟨S1x1, .f32⟩
  | .local _ .vmem, ⟨7, _⟩ => ⟨S1x512, .f32⟩
  | .local _ .vmem, ⟨8, _⟩ => ⟨S1x512, .f32⟩
  | _, _ => ⟨S4096x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x39x40 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100000x40_S13x40_0_0 : S100000x40.Slices ![0, 0] S13x40
  bcast_S13x40_S1x13x40_1_2 : S13x40.BroadcastsInDim S1x13x40 (![1, 2] : Fin 2 → Fin S1x13x40.rank)
  bcast_S4096x13_S4096x13x1_0_1 : S4096x13.BroadcastsInDim S4096x13x1 (![0, 1] : Fin 2 → Fin S4096x13x1.rank)
  bcast_S1x13x40_S4096x13x40_0_1_2 : S1x13x40.BroadcastsInDim S4096x13x40 (![0, 1, 2] : Fin 3 → Fin S4096x13x40.rank)
  bcast_S4096x13x1_S4096x13x40_0_1_2 : S4096x13x1.BroadcastsInDim S4096x13x40 (![0, 1, 2] : Fin 3 → Fin S4096x13x40.rank)
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  h_S_ : 0 < S_.numel
  bcast_S4096x26_S4096x26x40_0_1 : S4096x26.BroadcastsInDim S4096x26x40 (![0, 1] : Fin 2 → Fin S4096x26x40.rank)
  bcast_S_S4096x26x40 : S_.BroadcastsInDim S4096x26x40 (![] : Fin 0 → Fin S4096x26x40.rank)
  concatenates_S4096x13x40_S4096x26x40_S4096x39x40_d1 : Shape.Concatenates [S4096x13x40, S4096x26x40] S4096x39x40 1
  bitsLt_bf16_f32 : FTy.bits .bf16 < FTy.bits .f32
  shapeCasts_S8_S1x8 : S8.ShapeCasts S1x8
  shapeCasts_S1_S1x1 : S1.ShapeCasts S1x1
  inb_S512x39x40_S512x39x40_0_0_0 : ∀ a, (![0, 0, 0] : Fin 3 → Nat) a + S512x39x40.size a ≤ S512x39x40.size a
  h_S512x39x40 : 0 < S512x39x40.numel
  shapeCasts_S512x39x40_S512x39x40 : S512x39x40.ShapeCasts S512x39x40
  transposes_S512x39x40_p1_0_2_S39x512x40 : S512x39x40.Transposes [1, 0, 2] S39x512x40
  inb_S8x40_S8x40_0_0 : ∀ a, (![0, 0] : Fin 2 → Nat) a + S8x40.size a ≤ S8x40.size a
  h_S8x40 : 0 < S8x40.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x40_S1x40_0_0 : ∀ a, (![0, 0] : Fin 2 → Nat) a + S1x40.size a ≤ S1x40.size a
  h_S1x40 : 0 < S1x40.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S39x512x40_o0_0_0_S1x512x40 : S39x512x40.Slices ![0, 0, 0] S1x512x40
  shapeCasts_S1x512x40_S512x40 : S1x512x40.ShapeCasts S512x40
  slices_S39x512x40_o1_0_0_S38x512x40 : S39x512x40.Slices ![1, 0, 0] S38x512x40
  shapeCasts_S512x40_S1x512x40 : S512x40.ShapeCasts S1x512x40
  broadcasts_S1x512x40_S38x512x40 : S1x512x40.Broadcasts S38x512x40
  shapeCasts_S38x512x40_S19456x40 : S38x512x40.ShapeCasts S19456x40
  transposes_S8x40_p1_0_S40x8 : S8x40.Transposes [1, 0] S40x8
  broadcasts_S1x8_S19456x8 : S1x8.Broadcasts S19456x8
  transposes_S1x8_p1_0_S8x1 : S1x8.Transposes [1, 0] S8x1
  shapeCasts_S19456x1_S38x512x1 : S19456x1.ShapeCasts S38x512x1
  reduces_S38x512x1_S512x1 : S38x512x1.Reduces [0] S512x1
  shapeCasts_S512x1_S1x512x1 : S512x1.ShapeCasts S1x512x1
  broadcasts_S1x512x1_S38x512x1 : S1x512x1.Broadcasts S38x512x1
  broadcasts_S512x1_S512x40 : S512x1.Broadcasts S512x40
  broadcasts_S38x512x1_S38x512x40 : S38x512x1.Broadcasts S38x512x40
  reduces_S38x512x40_S512x40 : S38x512x40.Reduces [0] S512x40
  slices_S39x512x40_o1_0_0_S1x512x40 : S39x512x40.Slices ![1, 0, 0] S1x512x40
  slices_S39x512x40_o2_0_0_S37x512x40 : S39x512x40.Slices ![2, 0, 0] S37x512x40
  broadcasts_S1x512x40_S37x512x40 : S1x512x40.Broadcasts S37x512x40
  shapeCasts_S37x512x40_S18944x40 : S37x512x40.ShapeCasts S18944x40
  broadcasts_S1x8_S18944x8 : S1x8.Broadcasts S18944x8
  shapeCasts_S18944x1_S37x512x1 : S18944x1.ShapeCasts S37x512x1
  reduces_S37x512x1_S512x1 : S37x512x1.Reduces [0] S512x1
  broadcasts_S1x512x1_S37x512x1 : S1x512x1.Broadcasts S37x512x1
  broadcasts_S37x512x1_S37x512x40 : S37x512x1.Broadcasts S37x512x40
  reduces_S37x512x40_S512x40 : S37x512x40.Reduces [0] S512x40
  slices_S39x512x40_o2_0_0_S1x512x40 : S39x512x40.Slices ![2, 0, 0] S1x512x40
  slices_S39x512x40_o3_0_0_S36x512x40 : S39x512x40.Slices ![3, 0, 0] S36x512x40
  broadcasts_S1x512x40_S36x512x40 : S1x512x40.Broadcasts S36x512x40
  shapeCasts_S36x512x40_S18432x40 : S36x512x40.ShapeCasts S18432x40
  broadcasts_S1x8_S18432x8 : S1x8.Broadcasts S18432x8
  shapeCasts_S18432x1_S36x512x1 : S18432x1.ShapeCasts S36x512x1
  reduces_S36x512x1_S512x1 : S36x512x1.Reduces [0] S512x1
  broadcasts_S1x512x1_S36x512x1 : S1x512x1.Broadcasts S36x512x1
  broadcasts_S36x512x1_S36x512x40 : S36x512x1.Broadcasts S36x512x40
  reduces_S36x512x40_S512x40 : S36x512x40.Reduces [0] S512x40
  slices_S39x512x40_o3_0_0_S1x512x40 : S39x512x40.Slices ![3, 0, 0] S1x512x40
  slices_S39x512x40_o4_0_0_S35x512x40 : S39x512x40.Slices ![4, 0, 0] S35x512x40
  broadcasts_S1x512x40_S35x512x40 : S1x512x40.Broadcasts S35x512x40
  shapeCasts_S35x512x40_S17920x40 : S35x512x40.ShapeCasts S17920x40
  broadcasts_S1x8_S17920x8 : S1x8.Broadcasts S17920x8
  shapeCasts_S17920x1_S35x512x1 : S17920x1.ShapeCasts S35x512x1
  reduces_S35x512x1_S512x1 : S35x512x1.Reduces [0] S512x1
  broadcasts_S1x512x1_S35x512x1 : S1x512x1.Broadcasts S35x512x1
  broadcasts_S35x512x1_S35x512x40 : S35x512x1.Broadcasts S35x512x40
  reduces_S35x512x40_S512x40 : S35x512x40.Reduces [0] S512x40
  slices_S39x512x40_o4_0_0_S1x512x40 : S39x512x40.Slices ![4, 0, 0] S1x512x40
  slices_S39x512x40_o5_0_0_S34x512x40 : S39x512x40.Slices ![5, 0, 0] S34x512x40
  broadcasts_S1x512x40_S34x512x40 : S1x512x40.Broadcasts S34x512x40
  shapeCasts_S34x512x40_S17408x40 : S34x512x40.ShapeCasts S17408x40
  broadcasts_S1x8_S17408x8 : S1x8.Broadcasts S17408x8
  shapeCasts_S17408x1_S34x512x1 : S17408x1.ShapeCasts S34x512x1
  reduces_S34x512x1_S512x1 : S34x512x1.Reduces [0] S512x1
  broadcasts_S1x512x1_S34x512x1 : S1x512x1.Broadcasts S34x512x1
  broadcasts_S34x512x1_S34x512x40 : S34x512x1.Broadcasts S34x512x40
  reduces_S34x512x40_S512x40 : S34x512x40.Reduces [0] S512x40
  slices_S39x512x40_o5_0_0_S1x512x40 : S39x512x40.Slices ![5, 0, 0] S1x512x40
  slices_S39x512x40_o6_0_0_S33x512x40 : S39x512x40.Slices ![6, 0, 0] S33x512x40
  broadcasts_S1x512x40_S33x512x40 : S1x512x40.Broadcasts S33x512x40
  shapeCasts_S33x512x40_S16896x40 : S33x512x40.ShapeCasts S16896x40
  broadcasts_S1x8_S16896x8 : S1x8.Broadcasts S16896x8
  shapeCasts_S16896x1_S33x512x1 : S16896x1.ShapeCasts S33x512x1
  reduces_S33x512x1_S512x1 : S33x512x1.Reduces [0] S512x1
  broadcasts_S1x512x1_S33x512x1 : S1x512x1.Broadcasts S33x512x1
  broadcasts_S33x512x1_S33x512x40 : S33x512x1.Broadcasts S33x512x40
  reduces_S33x512x40_S512x40 : S33x512x40.Reduces [0] S512x40
  slices_S39x512x40_o6_0_0_S1x512x40 : S39x512x40.Slices ![6, 0, 0] S1x512x40
  slices_S39x512x40_o7_0_0_S32x512x40 : S39x512x40.Slices ![7, 0, 0] S32x512x40
  broadcasts_S1x512x40_S32x512x40 : S1x512x40.Broadcasts S32x512x40
  shapeCasts_S32x512x40_S16384x40 : S32x512x40.ShapeCasts S16384x40
  broadcasts_S1x8_S16384x8 : S1x8.Broadcasts S16384x8
  shapeCasts_S16384x1_S32x512x1 : S16384x1.ShapeCasts S32x512x1
  reduces_S32x512x1_S512x1 : S32x512x1.Reduces [0] S512x1
  broadcasts_S1x512x1_S32x512x1 : S1x512x1.Broadcasts S32x512x1
  broadcasts_S32x512x1_S32x512x40 : S32x512x1.Broadcasts S32x512x40
  reduces_S32x512x40_S512x40 : S32x512x40.Reduces [0] S512x40
  slices_S39x512x40_o7_0_0_S1x512x40 : S39x512x40.Slices ![7, 0, 0] S1x512x40
  slices_S39x512x40_o8_0_0_S31x512x40 : S39x512x40.Slices ![8, 0, 0] S31x512x40
  broadcasts_S1x512x40_S31x512x40 : S1x512x40.Broadcasts S31x512x40
  shapeCasts_S31x512x40_S15872x40 : S31x512x40.ShapeCasts S15872x40
  broadcasts_S1x8_S15872x8 : S1x8.Broadcasts S15872x8
  shapeCasts_S15872x1_S31x512x1 : S15872x1.ShapeCasts S31x512x1
  reduces_S31x512x1_S512x1 : S31x512x1.Reduces [0] S512x1
  broadcasts_S1x512x1_S31x512x1 : S1x512x1.Broadcasts S31x512x1
  broadcasts_S31x512x1_S31x512x40 : S31x512x1.Broadcasts S31x512x40
  reduces_S31x512x40_S512x40 : S31x512x40.Reduces [0] S512x40
  slices_S39x512x40_o8_0_0_S1x512x40 : S39x512x40.Slices ![8, 0, 0] S1x512x40
  slices_S39x512x40_o9_0_0_S30x512x40 : S39x512x40.Slices ![9, 0, 0] S30x512x40
  broadcasts_S1x512x40_S30x512x40 : S1x512x40.Broadcasts S30x512x40
  shapeCasts_S30x512x40_S15360x40 : S30x512x40.ShapeCasts S15360x40
  broadcasts_S1x8_S15360x8 : S1x8.Broadcasts S15360x8
  shapeCasts_S15360x1_S30x512x1 : S15360x1.ShapeCasts S30x512x1
  reduces_S30x512x1_S512x1 : S30x512x1.Reduces [0] S512x1
  broadcasts_S1x512x1_S30x512x1 : S1x512x1.Broadcasts S30x512x1
  broadcasts_S30x512x1_S30x512x40 : S30x512x1.Broadcasts S30x512x40
  reduces_S30x512x40_S512x40 : S30x512x40.Reduces [0] S512x40
  slices_S39x512x40_o9_0_0_S1x512x40 : S39x512x40.Slices ![9, 0, 0] S1x512x40
  slices_S39x512x40_o10_0_0_S29x512x40 : S39x512x40.Slices ![10, 0, 0] S29x512x40
  broadcasts_S1x512x40_S29x512x40 : S1x512x40.Broadcasts S29x512x40
  shapeCasts_S29x512x40_S14848x40 : S29x512x40.ShapeCasts S14848x40
  broadcasts_S1x8_S14848x8 : S1x8.Broadcasts S14848x8
  shapeCasts_S14848x1_S29x512x1 : S14848x1.ShapeCasts S29x512x1
  reduces_S29x512x1_S512x1 : S29x512x1.Reduces [0] S512x1
  broadcasts_S1x512x1_S29x512x1 : S1x512x1.Broadcasts S29x512x1
  broadcasts_S29x512x1_S29x512x40 : S29x512x1.Broadcasts S29x512x40
  reduces_S29x512x40_S512x40 : S29x512x40.Reduces [0] S512x40
  slices_S39x512x40_o10_0_0_S1x512x40 : S39x512x40.Slices ![10, 0, 0] S1x512x40
  slices_S39x512x40_o11_0_0_S28x512x40 : S39x512x40.Slices ![11, 0, 0] S28x512x40
  broadcasts_S1x512x40_S28x512x40 : S1x512x40.Broadcasts S28x512x40
  shapeCasts_S28x512x40_S14336x40 : S28x512x40.ShapeCasts S14336x40
  broadcasts_S1x8_S14336x8 : S1x8.Broadcasts S14336x8
  shapeCasts_S14336x1_S28x512x1 : S14336x1.ShapeCasts S28x512x1
  reduces_S28x512x1_S512x1 : S28x512x1.Reduces [0] S512x1
  broadcasts_S1x512x1_S28x512x1 : S1x512x1.Broadcasts S28x512x1
  broadcasts_S28x512x1_S28x512x40 : S28x512x1.Broadcasts S28x512x40
  reduces_S28x512x40_S512x40 : S28x512x40.Reduces [0] S512x40
  slices_S39x512x40_o11_0_0_S1x512x40 : S39x512x40.Slices ![11, 0, 0] S1x512x40
  slices_S39x512x40_o12_0_0_S27x512x40 : S39x512x40.Slices ![12, 0, 0] S27x512x40
  broadcasts_S1x512x40_S27x512x40 : S1x512x40.Broadcasts S27x512x40
  shapeCasts_S27x512x40_S13824x40 : S27x512x40.ShapeCasts S13824x40
  broadcasts_S1x8_S13824x8 : S1x8.Broadcasts S13824x8
  shapeCasts_S13824x1_S27x512x1 : S13824x1.ShapeCasts S27x512x1
  reduces_S27x512x1_S512x1 : S27x512x1.Reduces [0] S512x1
  broadcasts_S1x512x1_S27x512x1 : S1x512x1.Broadcasts S27x512x1
  broadcasts_S27x512x1_S27x512x40 : S27x512x1.Broadcasts S27x512x40
  reduces_S27x512x40_S512x40 : S27x512x40.Reduces [0] S512x40
  slices_S39x512x40_o12_0_0_S1x512x40 : S39x512x40.Slices ![12, 0, 0] S1x512x40
  slices_S39x512x40_o13_0_0_S26x512x40 : S39x512x40.Slices ![13, 0, 0] S26x512x40
  broadcasts_S1x512x40_S26x512x40 : S1x512x40.Broadcasts S26x512x40
  shapeCasts_S26x512x40_S13312x40 : S26x512x40.ShapeCasts S13312x40
  broadcasts_S1x8_S13312x8 : S1x8.Broadcasts S13312x8
  shapeCasts_S13312x1_S26x512x1 : S13312x1.ShapeCasts S26x512x1
  reduces_S26x512x1_S512x1 : S26x512x1.Reduces [0] S512x1
  broadcasts_S1x512x1_S26x512x1 : S1x512x1.Broadcasts S26x512x1
  broadcasts_S26x512x1_S26x512x40 : S26x512x1.Broadcasts S26x512x40
  reduces_S26x512x40_S512x40 : S26x512x40.Reduces [0] S512x40
  slices_S39x512x40_o13_0_0_S1x512x40 : S39x512x40.Slices ![13, 0, 0] S1x512x40
  slices_S39x512x40_o14_0_0_S25x512x40 : S39x512x40.Slices ![14, 0, 0] S25x512x40
  broadcasts_S1x512x40_S25x512x40 : S1x512x40.Broadcasts S25x512x40
  shapeCasts_S25x512x40_S12800x40 : S25x512x40.ShapeCasts S12800x40
  broadcasts_S1x8_S12800x8 : S1x8.Broadcasts S12800x8
  shapeCasts_S12800x1_S25x512x1 : S12800x1.ShapeCasts S25x512x1
  reduces_S25x512x1_S512x1 : S25x512x1.Reduces [0] S512x1
  broadcasts_S1x512x1_S25x512x1 : S1x512x1.Broadcasts S25x512x1
  broadcasts_S25x512x1_S25x512x40 : S25x512x1.Broadcasts S25x512x40
  reduces_S25x512x40_S512x40 : S25x512x40.Reduces [0] S512x40
  slices_S39x512x40_o14_0_0_S1x512x40 : S39x512x40.Slices ![14, 0, 0] S1x512x40
  slices_S39x512x40_o15_0_0_S24x512x40 : S39x512x40.Slices ![15, 0, 0] S24x512x40
  broadcasts_S1x512x40_S24x512x40 : S1x512x40.Broadcasts S24x512x40
  shapeCasts_S24x512x40_S12288x40 : S24x512x40.ShapeCasts S12288x40
  broadcasts_S1x8_S12288x8 : S1x8.Broadcasts S12288x8
  shapeCasts_S12288x1_S24x512x1 : S12288x1.ShapeCasts S24x512x1
  reduces_S24x512x1_S512x1 : S24x512x1.Reduces [0] S512x1
  broadcasts_S1x512x1_S24x512x1 : S1x512x1.Broadcasts S24x512x1
  broadcasts_S24x512x1_S24x512x40 : S24x512x1.Broadcasts S24x512x40
  reduces_S24x512x40_S512x40 : S24x512x40.Reduces [0] S512x40
  slices_S39x512x40_o15_0_0_S1x512x40 : S39x512x40.Slices ![15, 0, 0] S1x512x40
  slices_S39x512x40_o16_0_0_S23x512x40 : S39x512x40.Slices ![16, 0, 0] S23x512x40
  broadcasts_S1x512x40_S23x512x40 : S1x512x40.Broadcasts S23x512x40
  shapeCasts_S23x512x40_S11776x40 : S23x512x40.ShapeCasts S11776x40
  broadcasts_S1x8_S11776x8 : S1x8.Broadcasts S11776x8
  shapeCasts_S11776x1_S23x512x1 : S11776x1.ShapeCasts S23x512x1
  reduces_S23x512x1_S512x1 : S23x512x1.Reduces [0] S512x1
  broadcasts_S1x512x1_S23x512x1 : S1x512x1.Broadcasts S23x512x1
  broadcasts_S23x512x1_S23x512x40 : S23x512x1.Broadcasts S23x512x40
  reduces_S23x512x40_S512x40 : S23x512x40.Reduces [0] S512x40
  slices_S39x512x40_o16_0_0_S1x512x40 : S39x512x40.Slices ![16, 0, 0] S1x512x40
  slices_S39x512x40_o17_0_0_S22x512x40 : S39x512x40.Slices ![17, 0, 0] S22x512x40
  broadcasts_S1x512x40_S22x512x40 : S1x512x40.Broadcasts S22x512x40
  shapeCasts_S22x512x40_S11264x40 : S22x512x40.ShapeCasts S11264x40
  broadcasts_S1x8_S11264x8 : S1x8.Broadcasts S11264x8
  shapeCasts_S11264x1_S22x512x1 : S11264x1.ShapeCasts S22x512x1
  reduces_S22x512x1_S512x1 : S22x512x1.Reduces [0] S512x1
  broadcasts_S1x512x1_S22x512x1 : S1x512x1.Broadcasts S22x512x1
  broadcasts_S22x512x1_S22x512x40 : S22x512x1.Broadcasts S22x512x40
  reduces_S22x512x40_S512x40 : S22x512x40.Reduces [0] S512x40
  slices_S39x512x40_o17_0_0_S1x512x40 : S39x512x40.Slices ![17, 0, 0] S1x512x40
  slices_S39x512x40_o18_0_0_S21x512x40 : S39x512x40.Slices ![18, 0, 0] S21x512x40
  broadcasts_S1x512x40_S21x512x40 : S1x512x40.Broadcasts S21x512x40
  shapeCasts_S21x512x40_S10752x40 : S21x512x40.ShapeCasts S10752x40
  broadcasts_S1x8_S10752x8 : S1x8.Broadcasts S10752x8
  shapeCasts_S10752x1_S21x512x1 : S10752x1.ShapeCasts S21x512x1
  reduces_S21x512x1_S512x1 : S21x512x1.Reduces [0] S512x1
  broadcasts_S1x512x1_S21x512x1 : S1x512x1.Broadcasts S21x512x1
  broadcasts_S21x512x1_S21x512x40 : S21x512x1.Broadcasts S21x512x40
  reduces_S21x512x40_S512x40 : S21x512x40.Reduces [0] S512x40
  slices_S39x512x40_o18_0_0_S1x512x40 : S39x512x40.Slices ![18, 0, 0] S1x512x40
  slices_S39x512x40_o19_0_0_S20x512x40 : S39x512x40.Slices ![19, 0, 0] S20x512x40
  broadcasts_S1x512x40_S20x512x40 : S1x512x40.Broadcasts S20x512x40
  shapeCasts_S20x512x40_S10240x40 : S20x512x40.ShapeCasts S10240x40
  broadcasts_S1x8_S10240x8 : S1x8.Broadcasts S10240x8
  shapeCasts_S10240x1_S20x512x1 : S10240x1.ShapeCasts S20x512x1
  reduces_S20x512x1_S512x1 : S20x512x1.Reduces [0] S512x1
  broadcasts_S1x512x1_S20x512x1 : S1x512x1.Broadcasts S20x512x1
  broadcasts_S20x512x1_S20x512x40 : S20x512x1.Broadcasts S20x512x40
  reduces_S20x512x40_S512x40 : S20x512x40.Reduces [0] S512x40
  slices_S39x512x40_o19_0_0_S1x512x40 : S39x512x40.Slices ![19, 0, 0] S1x512x40
  slices_S39x512x40_o20_0_0_S19x512x40 : S39x512x40.Slices ![20, 0, 0] S19x512x40
  broadcasts_S1x512x40_S19x512x40 : S1x512x40.Broadcasts S19x512x40
  shapeCasts_S19x512x40_S9728x40 : S19x512x40.ShapeCasts S9728x40
  broadcasts_S1x8_S9728x8 : S1x8.Broadcasts S9728x8
  shapeCasts_S9728x1_S19x512x1 : S9728x1.ShapeCasts S19x512x1
  reduces_S19x512x1_S512x1 : S19x512x1.Reduces [0] S512x1
  broadcasts_S1x512x1_S19x512x1 : S1x512x1.Broadcasts S19x512x1
  broadcasts_S19x512x1_S19x512x40 : S19x512x1.Broadcasts S19x512x40
  reduces_S19x512x40_S512x40 : S19x512x40.Reduces [0] S512x40
  slices_S39x512x40_o20_0_0_S1x512x40 : S39x512x40.Slices ![20, 0, 0] S1x512x40
  slices_S39x512x40_o21_0_0_S18x512x40 : S39x512x40.Slices ![21, 0, 0] S18x512x40
  broadcasts_S1x512x40_S18x512x40 : S1x512x40.Broadcasts S18x512x40
  shapeCasts_S18x512x40_S9216x40 : S18x512x40.ShapeCasts S9216x40
  broadcasts_S1x8_S9216x8 : S1x8.Broadcasts S9216x8
  shapeCasts_S9216x1_S18x512x1 : S9216x1.ShapeCasts S18x512x1
  reduces_S18x512x1_S512x1 : S18x512x1.Reduces [0] S512x1
  broadcasts_S1x512x1_S18x512x1 : S1x512x1.Broadcasts S18x512x1
  broadcasts_S18x512x1_S18x512x40 : S18x512x1.Broadcasts S18x512x40
  reduces_S18x512x40_S512x40 : S18x512x40.Reduces [0] S512x40
  slices_S39x512x40_o21_0_0_S1x512x40 : S39x512x40.Slices ![21, 0, 0] S1x512x40
  slices_S39x512x40_o22_0_0_S17x512x40 : S39x512x40.Slices ![22, 0, 0] S17x512x40
  broadcasts_S1x512x40_S17x512x40 : S1x512x40.Broadcasts S17x512x40
  shapeCasts_S17x512x40_S8704x40 : S17x512x40.ShapeCasts S8704x40
  broadcasts_S1x8_S8704x8 : S1x8.Broadcasts S8704x8
  shapeCasts_S8704x1_S17x512x1 : S8704x1.ShapeCasts S17x512x1
  reduces_S17x512x1_S512x1 : S17x512x1.Reduces [0] S512x1
  broadcasts_S1x512x1_S17x512x1 : S1x512x1.Broadcasts S17x512x1
  broadcasts_S17x512x1_S17x512x40 : S17x512x1.Broadcasts S17x512x40
  reduces_S17x512x40_S512x40 : S17x512x40.Reduces [0] S512x40
  slices_S39x512x40_o22_0_0_S1x512x40 : S39x512x40.Slices ![22, 0, 0] S1x512x40
  slices_S39x512x40_o23_0_0_S16x512x40 : S39x512x40.Slices ![23, 0, 0] S16x512x40
  broadcasts_S1x512x40_S16x512x40 : S1x512x40.Broadcasts S16x512x40
  shapeCasts_S16x512x40_S8192x40 : S16x512x40.ShapeCasts S8192x40
  broadcasts_S1x8_S8192x8 : S1x8.Broadcasts S8192x8
  shapeCasts_S8192x1_S16x512x1 : S8192x1.ShapeCasts S16x512x1
  reduces_S16x512x1_S512x1 : S16x512x1.Reduces [0] S512x1
  broadcasts_S1x512x1_S16x512x1 : S1x512x1.Broadcasts S16x512x1
  broadcasts_S16x512x1_S16x512x40 : S16x512x1.Broadcasts S16x512x40
  reduces_S16x512x40_S512x40 : S16x512x40.Reduces [0] S512x40
  slices_S39x512x40_o23_0_0_S1x512x40 : S39x512x40.Slices ![23, 0, 0] S1x512x40
  slices_S39x512x40_o24_0_0_S15x512x40 : S39x512x40.Slices ![24, 0, 0] S15x512x40
  broadcasts_S1x512x40_S15x512x40 : S1x512x40.Broadcasts S15x512x40
  shapeCasts_S15x512x40_S7680x40 : S15x512x40.ShapeCasts S7680x40
  broadcasts_S1x8_S7680x8 : S1x8.Broadcasts S7680x8
  shapeCasts_S7680x1_S15x512x1 : S7680x1.ShapeCasts S15x512x1
  reduces_S15x512x1_S512x1 : S15x512x1.Reduces [0] S512x1
  broadcasts_S1x512x1_S15x512x1 : S1x512x1.Broadcasts S15x512x1
  broadcasts_S15x512x1_S15x512x40 : S15x512x1.Broadcasts S15x512x40
  reduces_S15x512x40_S512x40 : S15x512x40.Reduces [0] S512x40
  slices_S39x512x40_o24_0_0_S1x512x40 : S39x512x40.Slices ![24, 0, 0] S1x512x40
  slices_S39x512x40_o25_0_0_S14x512x40 : S39x512x40.Slices ![25, 0, 0] S14x512x40
  broadcasts_S1x512x40_S14x512x40 : S1x512x40.Broadcasts S14x512x40
  shapeCasts_S14x512x40_S7168x40 : S14x512x40.ShapeCasts S7168x40
  broadcasts_S1x8_S7168x8 : S1x8.Broadcasts S7168x8
  shapeCasts_S7168x1_S14x512x1 : S7168x1.ShapeCasts S14x512x1
  reduces_S14x512x1_S512x1 : S14x512x1.Reduces [0] S512x1
  broadcasts_S1x512x1_S14x512x1 : S1x512x1.Broadcasts S14x512x1
  broadcasts_S14x512x1_S14x512x40 : S14x512x1.Broadcasts S14x512x40
  reduces_S14x512x40_S512x40 : S14x512x40.Reduces [0] S512x40
  slices_S39x512x40_o25_0_0_S1x512x40 : S39x512x40.Slices ![25, 0, 0] S1x512x40
  slices_S39x512x40_o26_0_0_S13x512x40 : S39x512x40.Slices ![26, 0, 0] S13x512x40
  broadcasts_S1x512x40_S13x512x40 : S1x512x40.Broadcasts S13x512x40
  shapeCasts_S13x512x40_S6656x40 : S13x512x40.ShapeCasts S6656x40
  broadcasts_S1x8_S6656x8 : S1x8.Broadcasts S6656x8
  shapeCasts_S6656x1_S13x512x1 : S6656x1.ShapeCasts S13x512x1
  reduces_S13x512x1_S512x1 : S13x512x1.Reduces [0] S512x1
  broadcasts_S1x512x1_S13x512x1 : S1x512x1.Broadcasts S13x512x1
  broadcasts_S13x512x1_S13x512x40 : S13x512x1.Broadcasts S13x512x40
  reduces_S13x512x40_S512x40 : S13x512x40.Reduces [0] S512x40
  slices_S39x512x40_o26_0_0_S1x512x40 : S39x512x40.Slices ![26, 0, 0] S1x512x40
  slices_S39x512x40_o27_0_0_S12x512x40 : S39x512x40.Slices ![27, 0, 0] S12x512x40
  broadcasts_S1x512x40_S12x512x40 : S1x512x40.Broadcasts S12x512x40
  shapeCasts_S12x512x40_S6144x40 : S12x512x40.ShapeCasts S6144x40
  broadcasts_S1x8_S6144x8 : S1x8.Broadcasts S6144x8
  shapeCasts_S6144x1_S12x512x1 : S6144x1.ShapeCasts S12x512x1
  reduces_S12x512x1_S512x1 : S12x512x1.Reduces [0] S512x1
  broadcasts_S1x512x1_S12x512x1 : S1x512x1.Broadcasts S12x512x1
  broadcasts_S12x512x1_S12x512x40 : S12x512x1.Broadcasts S12x512x40
  reduces_S12x512x40_S512x40 : S12x512x40.Reduces [0] S512x40
  slices_S39x512x40_o27_0_0_S1x512x40 : S39x512x40.Slices ![27, 0, 0] S1x512x40
  slices_S39x512x40_o28_0_0_S11x512x40 : S39x512x40.Slices ![28, 0, 0] S11x512x40
  broadcasts_S1x512x40_S11x512x40 : S1x512x40.Broadcasts S11x512x40
  shapeCasts_S11x512x40_S5632x40 : S11x512x40.ShapeCasts S5632x40
  broadcasts_S1x8_S5632x8 : S1x8.Broadcasts S5632x8
  shapeCasts_S5632x1_S11x512x1 : S5632x1.ShapeCasts S11x512x1
  reduces_S11x512x1_S512x1 : S11x512x1.Reduces [0] S512x1
  broadcasts_S1x512x1_S11x512x1 : S1x512x1.Broadcasts S11x512x1
  broadcasts_S11x512x1_S11x512x40 : S11x512x1.Broadcasts S11x512x40
  reduces_S11x512x40_S512x40 : S11x512x40.Reduces [0] S512x40
  slices_S39x512x40_o28_0_0_S1x512x40 : S39x512x40.Slices ![28, 0, 0] S1x512x40
  slices_S39x512x40_o29_0_0_S10x512x40 : S39x512x40.Slices ![29, 0, 0] S10x512x40
  broadcasts_S1x512x40_S10x512x40 : S1x512x40.Broadcasts S10x512x40
  shapeCasts_S10x512x40_S5120x40 : S10x512x40.ShapeCasts S5120x40
  broadcasts_S1x8_S5120x8 : S1x8.Broadcasts S5120x8
  shapeCasts_S5120x1_S10x512x1 : S5120x1.ShapeCasts S10x512x1
  reduces_S10x512x1_S512x1 : S10x512x1.Reduces [0] S512x1
  broadcasts_S1x512x1_S10x512x1 : S1x512x1.Broadcasts S10x512x1
  broadcasts_S10x512x1_S10x512x40 : S10x512x1.Broadcasts S10x512x40
  reduces_S10x512x40_S512x40 : S10x512x40.Reduces [0] S512x40
  slices_S39x512x40_o29_0_0_S1x512x40 : S39x512x40.Slices ![29, 0, 0] S1x512x40
  slices_S39x512x40_o30_0_0_S9x512x40 : S39x512x40.Slices ![30, 0, 0] S9x512x40
  broadcasts_S1x512x40_S9x512x40 : S1x512x40.Broadcasts S9x512x40
  shapeCasts_S9x512x40_S4608x40 : S9x512x40.ShapeCasts S4608x40
  broadcasts_S1x8_S4608x8 : S1x8.Broadcasts S4608x8
  shapeCasts_S4608x1_S9x512x1 : S4608x1.ShapeCasts S9x512x1
  reduces_S9x512x1_S512x1 : S9x512x1.Reduces [0] S512x1
  broadcasts_S1x512x1_S9x512x1 : S1x512x1.Broadcasts S9x512x1
  broadcasts_S9x512x1_S9x512x40 : S9x512x1.Broadcasts S9x512x40
  reduces_S9x512x40_S512x40 : S9x512x40.Reduces [0] S512x40
  slices_S39x512x40_o30_0_0_S1x512x40 : S39x512x40.Slices ![30, 0, 0] S1x512x40
  slices_S39x512x40_o31_0_0_S8x512x40 : S39x512x40.Slices ![31, 0, 0] S8x512x40
  broadcasts_S1x512x40_S8x512x40 : S1x512x40.Broadcasts S8x512x40
  shapeCasts_S8x512x40_S4096x40 : S8x512x40.ShapeCasts S4096x40
  broadcasts_S1x8_S4096x8 : S1x8.Broadcasts S4096x8
  shapeCasts_S4096x1_S8x512x1 : S4096x1.ShapeCasts S8x512x1
  reduces_S8x512x1_S512x1 : S8x512x1.Reduces [0] S512x1
  broadcasts_S1x512x1_S8x512x1 : S1x512x1.Broadcasts S8x512x1
  broadcasts_S8x512x1_S8x512x40 : S8x512x1.Broadcasts S8x512x40
  reduces_S8x512x40_S512x40 : S8x512x40.Reduces [0] S512x40
  slices_S39x512x40_o31_0_0_S1x512x40 : S39x512x40.Slices ![31, 0, 0] S1x512x40
  slices_S39x512x40_o32_0_0_S7x512x40 : S39x512x40.Slices ![32, 0, 0] S7x512x40
  broadcasts_S1x512x40_S7x512x40 : S1x512x40.Broadcasts S7x512x40
  shapeCasts_S7x512x40_S3584x40 : S7x512x40.ShapeCasts S3584x40
  broadcasts_S1x8_S3584x8 : S1x8.Broadcasts S3584x8
  shapeCasts_S3584x1_S7x512x1 : S3584x1.ShapeCasts S7x512x1
  reduces_S7x512x1_S512x1 : S7x512x1.Reduces [0] S512x1
  broadcasts_S1x512x1_S7x512x1 : S1x512x1.Broadcasts S7x512x1
  broadcasts_S7x512x1_S7x512x40 : S7x512x1.Broadcasts S7x512x40
  reduces_S7x512x40_S512x40 : S7x512x40.Reduces [0] S512x40
  slices_S39x512x40_o32_0_0_S1x512x40 : S39x512x40.Slices ![32, 0, 0] S1x512x40
  slices_S39x512x40_o33_0_0_S6x512x40 : S39x512x40.Slices ![33, 0, 0] S6x512x40
  broadcasts_S1x512x40_S6x512x40 : S1x512x40.Broadcasts S6x512x40
  shapeCasts_S6x512x40_S3072x40 : S6x512x40.ShapeCasts S3072x40
  broadcasts_S1x8_S3072x8 : S1x8.Broadcasts S3072x8
  shapeCasts_S3072x1_S6x512x1 : S3072x1.ShapeCasts S6x512x1
  reduces_S6x512x1_S512x1 : S6x512x1.Reduces [0] S512x1
  broadcasts_S1x512x1_S6x512x1 : S1x512x1.Broadcasts S6x512x1
  broadcasts_S6x512x1_S6x512x40 : S6x512x1.Broadcasts S6x512x40
  reduces_S6x512x40_S512x40 : S6x512x40.Reduces [0] S512x40
  slices_S39x512x40_o33_0_0_S1x512x40 : S39x512x40.Slices ![33, 0, 0] S1x512x40
  slices_S39x512x40_o34_0_0_S5x512x40 : S39x512x40.Slices ![34, 0, 0] S5x512x40
  broadcasts_S1x512x40_S5x512x40 : S1x512x40.Broadcasts S5x512x40
  shapeCasts_S5x512x40_S2560x40 : S5x512x40.ShapeCasts S2560x40
  broadcasts_S1x8_S2560x8 : S1x8.Broadcasts S2560x8
  shapeCasts_S2560x1_S5x512x1 : S2560x1.ShapeCasts S5x512x1
  reduces_S5x512x1_S512x1 : S5x512x1.Reduces [0] S512x1
  broadcasts_S1x512x1_S5x512x1 : S1x512x1.Broadcasts S5x512x1
  broadcasts_S5x512x1_S5x512x40 : S5x512x1.Broadcasts S5x512x40
  reduces_S5x512x40_S512x40 : S5x512x40.Reduces [0] S512x40
  slices_S39x512x40_o34_0_0_S1x512x40 : S39x512x40.Slices ![34, 0, 0] S1x512x40
  slices_S39x512x40_o35_0_0_S4x512x40 : S39x512x40.Slices ![35, 0, 0] S4x512x40
  broadcasts_S1x512x40_S4x512x40 : S1x512x40.Broadcasts S4x512x40
  shapeCasts_S4x512x40_S2048x40 : S4x512x40.ShapeCasts S2048x40
  broadcasts_S1x8_S2048x8 : S1x8.Broadcasts S2048x8
  shapeCasts_S2048x1_S4x512x1 : S2048x1.ShapeCasts S4x512x1
  reduces_S4x512x1_S512x1 : S4x512x1.Reduces [0] S512x1
  broadcasts_S1x512x1_S4x512x1 : S1x512x1.Broadcasts S4x512x1
  broadcasts_S4x512x1_S4x512x40 : S4x512x1.Broadcasts S4x512x40
  reduces_S4x512x40_S512x40 : S4x512x40.Reduces [0] S512x40
  slices_S39x512x40_o35_0_0_S1x512x40 : S39x512x40.Slices ![35, 0, 0] S1x512x40
  slices_S39x512x40_o36_0_0_S3x512x40 : S39x512x40.Slices ![36, 0, 0] S3x512x40
  broadcasts_S1x512x40_S3x512x40 : S1x512x40.Broadcasts S3x512x40
  shapeCasts_S3x512x40_S1536x40 : S3x512x40.ShapeCasts S1536x40
  broadcasts_S1x8_S1536x8 : S1x8.Broadcasts S1536x8
  shapeCasts_S1536x1_S3x512x1 : S1536x1.ShapeCasts S3x512x1
  reduces_S3x512x1_S512x1 : S3x512x1.Reduces [0] S512x1
  broadcasts_S1x512x1_S3x512x1 : S1x512x1.Broadcasts S3x512x1
  broadcasts_S3x512x1_S3x512x40 : S3x512x1.Broadcasts S3x512x40
  reduces_S3x512x40_S512x40 : S3x512x40.Reduces [0] S512x40
  slices_S39x512x40_o36_0_0_S1x512x40 : S39x512x40.Slices ![36, 0, 0] S1x512x40
  slices_S39x512x40_o37_0_0_S2x512x40 : S39x512x40.Slices ![37, 0, 0] S2x512x40
  broadcasts_S1x512x40_S2x512x40 : S1x512x40.Broadcasts S2x512x40
  shapeCasts_S2x512x40_S1024x40 : S2x512x40.ShapeCasts S1024x40
  broadcasts_S1x8_S1024x8 : S1x8.Broadcasts S1024x8
  shapeCasts_S1024x1_S2x512x1 : S1024x1.ShapeCasts S2x512x1
  reduces_S2x512x1_S512x1 : S2x512x1.Reduces [0] S512x1
  broadcasts_S1x512x1_S2x512x1 : S1x512x1.Broadcasts S2x512x1
  broadcasts_S2x512x1_S2x512x40 : S2x512x1.Broadcasts S2x512x40
  reduces_S2x512x40_S512x40 : S2x512x40.Reduces [0] S512x40
  slices_S39x512x40_o37_0_0_S1x512x40 : S39x512x40.Slices ![37, 0, 0] S1x512x40
  slices_S39x512x40_o38_0_0_S1x512x40 : S39x512x40.Slices ![38, 0, 0] S1x512x40
  broadcasts_S1x8_S512x8 : S1x8.Broadcasts S512x8
  reduces_S1x512x1_S512x1 : S1x512x1.Reduces [0] S512x1
  broadcasts_S1x512x1_S1x512x40 : S1x512x1.Broadcasts S1x512x40
  reduces_S1x512x40_S512x40 : S1x512x40.Reduces [0] S512x40
  transposes_S1x40_p1_0_S40x1 : S1x40.Transposes [1, 0] S40x1
  broadcasts_S1x1_S512x1 : S1x1.Broadcasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  transposes_S1x4096_S4096x1_1_0 : S1x4096.Transposes [1, 0] S4096x1
  gather_S100000x40_S4096x26x1_S4096x26x40_2_0_n_n_0_2_140_wf : GatherDims.WF S100000x40 S4096x26x1 S4096x26x40 [2] [0] [] [0] [] 2 ![1, 40]
  dot_S19456x40_S40x8_S19456x8_1_0_0_1_n_n_wf : DotDims.WF S19456x40 S40x8 S19456x8 [1] [0] [0] [1] [] []
  dot_S19456x8_S8x1_S19456x1_1_0_0_1_n_n_wf : DotDims.WF S19456x8 S8x1 S19456x1 [1] [0] [0] [1] [] []
  dot_S18944x40_S40x8_S18944x8_1_0_0_1_n_n_wf : DotDims.WF S18944x40 S40x8 S18944x8 [1] [0] [0] [1] [] []
  dot_S18944x8_S8x1_S18944x1_1_0_0_1_n_n_wf : DotDims.WF S18944x8 S8x1 S18944x1 [1] [0] [0] [1] [] []
  dot_S18432x40_S40x8_S18432x8_1_0_0_1_n_n_wf : DotDims.WF S18432x40 S40x8 S18432x8 [1] [0] [0] [1] [] []
  dot_S18432x8_S8x1_S18432x1_1_0_0_1_n_n_wf : DotDims.WF S18432x8 S8x1 S18432x1 [1] [0] [0] [1] [] []
  dot_S17920x40_S40x8_S17920x8_1_0_0_1_n_n_wf : DotDims.WF S17920x40 S40x8 S17920x8 [1] [0] [0] [1] [] []
  dot_S17920x8_S8x1_S17920x1_1_0_0_1_n_n_wf : DotDims.WF S17920x8 S8x1 S17920x1 [1] [0] [0] [1] [] []
  dot_S17408x40_S40x8_S17408x8_1_0_0_1_n_n_wf : DotDims.WF S17408x40 S40x8 S17408x8 [1] [0] [0] [1] [] []
  dot_S17408x8_S8x1_S17408x1_1_0_0_1_n_n_wf : DotDims.WF S17408x8 S8x1 S17408x1 [1] [0] [0] [1] [] []
  dot_S16896x40_S40x8_S16896x8_1_0_0_1_n_n_wf : DotDims.WF S16896x40 S40x8 S16896x8 [1] [0] [0] [1] [] []
  dot_S16896x8_S8x1_S16896x1_1_0_0_1_n_n_wf : DotDims.WF S16896x8 S8x1 S16896x1 [1] [0] [0] [1] [] []
  dot_S16384x40_S40x8_S16384x8_1_0_0_1_n_n_wf : DotDims.WF S16384x40 S40x8 S16384x8 [1] [0] [0] [1] [] []
  dot_S16384x8_S8x1_S16384x1_1_0_0_1_n_n_wf : DotDims.WF S16384x8 S8x1 S16384x1 [1] [0] [0] [1] [] []
  dot_S15872x40_S40x8_S15872x8_1_0_0_1_n_n_wf : DotDims.WF S15872x40 S40x8 S15872x8 [1] [0] [0] [1] [] []
  dot_S15872x8_S8x1_S15872x1_1_0_0_1_n_n_wf : DotDims.WF S15872x8 S8x1 S15872x1 [1] [0] [0] [1] [] []
  dot_S15360x40_S40x8_S15360x8_1_0_0_1_n_n_wf : DotDims.WF S15360x40 S40x8 S15360x8 [1] [0] [0] [1] [] []
  dot_S15360x8_S8x1_S15360x1_1_0_0_1_n_n_wf : DotDims.WF S15360x8 S8x1 S15360x1 [1] [0] [0] [1] [] []
  dot_S14848x40_S40x8_S14848x8_1_0_0_1_n_n_wf : DotDims.WF S14848x40 S40x8 S14848x8 [1] [0] [0] [1] [] []
  dot_S14848x8_S8x1_S14848x1_1_0_0_1_n_n_wf : DotDims.WF S14848x8 S8x1 S14848x1 [1] [0] [0] [1] [] []
  dot_S14336x40_S40x8_S14336x8_1_0_0_1_n_n_wf : DotDims.WF S14336x40 S40x8 S14336x8 [1] [0] [0] [1] [] []
  dot_S14336x8_S8x1_S14336x1_1_0_0_1_n_n_wf : DotDims.WF S14336x8 S8x1 S14336x1 [1] [0] [0] [1] [] []
  dot_S13824x40_S40x8_S13824x8_1_0_0_1_n_n_wf : DotDims.WF S13824x40 S40x8 S13824x8 [1] [0] [0] [1] [] []
  dot_S13824x8_S8x1_S13824x1_1_0_0_1_n_n_wf : DotDims.WF S13824x8 S8x1 S13824x1 [1] [0] [0] [1] [] []
  dot_S13312x40_S40x8_S13312x8_1_0_0_1_n_n_wf : DotDims.WF S13312x40 S40x8 S13312x8 [1] [0] [0] [1] [] []
  dot_S13312x8_S8x1_S13312x1_1_0_0_1_n_n_wf : DotDims.WF S13312x8 S8x1 S13312x1 [1] [0] [0] [1] [] []
  dot_S12800x40_S40x8_S12800x8_1_0_0_1_n_n_wf : DotDims.WF S12800x40 S40x8 S12800x8 [1] [0] [0] [1] [] []
  dot_S12800x8_S8x1_S12800x1_1_0_0_1_n_n_wf : DotDims.WF S12800x8 S8x1 S12800x1 [1] [0] [0] [1] [] []
  dot_S12288x40_S40x8_S12288x8_1_0_0_1_n_n_wf : DotDims.WF S12288x40 S40x8 S12288x8 [1] [0] [0] [1] [] []
  dot_S12288x8_S8x1_S12288x1_1_0_0_1_n_n_wf : DotDims.WF S12288x8 S8x1 S12288x1 [1] [0] [0] [1] [] []
  dot_S11776x40_S40x8_S11776x8_1_0_0_1_n_n_wf : DotDims.WF S11776x40 S40x8 S11776x8 [1] [0] [0] [1] [] []
  dot_S11776x8_S8x1_S11776x1_1_0_0_1_n_n_wf : DotDims.WF S11776x8 S8x1 S11776x1 [1] [0] [0] [1] [] []
  dot_S11264x40_S40x8_S11264x8_1_0_0_1_n_n_wf : DotDims.WF S11264x40 S40x8 S11264x8 [1] [0] [0] [1] [] []
  dot_S11264x8_S8x1_S11264x1_1_0_0_1_n_n_wf : DotDims.WF S11264x8 S8x1 S11264x1 [1] [0] [0] [1] [] []
  dot_S10752x40_S40x8_S10752x8_1_0_0_1_n_n_wf : DotDims.WF S10752x40 S40x8 S10752x8 [1] [0] [0] [1] [] []
  dot_S10752x8_S8x1_S10752x1_1_0_0_1_n_n_wf : DotDims.WF S10752x8 S8x1 S10752x1 [1] [0] [0] [1] [] []
  dot_S10240x40_S40x8_S10240x8_1_0_0_1_n_n_wf : DotDims.WF S10240x40 S40x8 S10240x8 [1] [0] [0] [1] [] []
  dot_S10240x8_S8x1_S10240x1_1_0_0_1_n_n_wf : DotDims.WF S10240x8 S8x1 S10240x1 [1] [0] [0] [1] [] []
  dot_S9728x40_S40x8_S9728x8_1_0_0_1_n_n_wf : DotDims.WF S9728x40 S40x8 S9728x8 [1] [0] [0] [1] [] []
  dot_S9728x8_S8x1_S9728x1_1_0_0_1_n_n_wf : DotDims.WF S9728x8 S8x1 S9728x1 [1] [0] [0] [1] [] []
  dot_S9216x40_S40x8_S9216x8_1_0_0_1_n_n_wf : DotDims.WF S9216x40 S40x8 S9216x8 [1] [0] [0] [1] [] []
  dot_S9216x8_S8x1_S9216x1_1_0_0_1_n_n_wf : DotDims.WF S9216x8 S8x1 S9216x1 [1] [0] [0] [1] [] []
  dot_S8704x40_S40x8_S8704x8_1_0_0_1_n_n_wf : DotDims.WF S8704x40 S40x8 S8704x8 [1] [0] [0] [1] [] []
  dot_S8704x8_S8x1_S8704x1_1_0_0_1_n_n_wf : DotDims.WF S8704x8 S8x1 S8704x1 [1] [0] [0] [1] [] []
  dot_S8192x40_S40x8_S8192x8_1_0_0_1_n_n_wf : DotDims.WF S8192x40 S40x8 S8192x8 [1] [0] [0] [1] [] []
  dot_S8192x8_S8x1_S8192x1_1_0_0_1_n_n_wf : DotDims.WF S8192x8 S8x1 S8192x1 [1] [0] [0] [1] [] []
  dot_S7680x40_S40x8_S7680x8_1_0_0_1_n_n_wf : DotDims.WF S7680x40 S40x8 S7680x8 [1] [0] [0] [1] [] []
  dot_S7680x8_S8x1_S7680x1_1_0_0_1_n_n_wf : DotDims.WF S7680x8 S8x1 S7680x1 [1] [0] [0] [1] [] []
  dot_S7168x40_S40x8_S7168x8_1_0_0_1_n_n_wf : DotDims.WF S7168x40 S40x8 S7168x8 [1] [0] [0] [1] [] []
  dot_S7168x8_S8x1_S7168x1_1_0_0_1_n_n_wf : DotDims.WF S7168x8 S8x1 S7168x1 [1] [0] [0] [1] [] []
  dot_S6656x40_S40x8_S6656x8_1_0_0_1_n_n_wf : DotDims.WF S6656x40 S40x8 S6656x8 [1] [0] [0] [1] [] []
  dot_S6656x8_S8x1_S6656x1_1_0_0_1_n_n_wf : DotDims.WF S6656x8 S8x1 S6656x1 [1] [0] [0] [1] [] []
  dot_S6144x40_S40x8_S6144x8_1_0_0_1_n_n_wf : DotDims.WF S6144x40 S40x8 S6144x8 [1] [0] [0] [1] [] []
  dot_S6144x8_S8x1_S6144x1_1_0_0_1_n_n_wf : DotDims.WF S6144x8 S8x1 S6144x1 [1] [0] [0] [1] [] []
  dot_S5632x40_S40x8_S5632x8_1_0_0_1_n_n_wf : DotDims.WF S5632x40 S40x8 S5632x8 [1] [0] [0] [1] [] []
  dot_S5632x8_S8x1_S5632x1_1_0_0_1_n_n_wf : DotDims.WF S5632x8 S8x1 S5632x1 [1] [0] [0] [1] [] []
  dot_S5120x40_S40x8_S5120x8_1_0_0_1_n_n_wf : DotDims.WF S5120x40 S40x8 S5120x8 [1] [0] [0] [1] [] []
  dot_S5120x8_S8x1_S5120x1_1_0_0_1_n_n_wf : DotDims.WF S5120x8 S8x1 S5120x1 [1] [0] [0] [1] [] []
  dot_S4608x40_S40x8_S4608x8_1_0_0_1_n_n_wf : DotDims.WF S4608x40 S40x8 S4608x8 [1] [0] [0] [1] [] []
  dot_S4608x8_S8x1_S4608x1_1_0_0_1_n_n_wf : DotDims.WF S4608x8 S8x1 S4608x1 [1] [0] [0] [1] [] []
  dot_S4096x40_S40x8_S4096x8_1_0_0_1_n_n_wf : DotDims.WF S4096x40 S40x8 S4096x8 [1] [0] [0] [1] [] []
  dot_S4096x8_S8x1_S4096x1_1_0_0_1_n_n_wf : DotDims.WF S4096x8 S8x1 S4096x1 [1] [0] [0] [1] [] []
  dot_S3584x40_S40x8_S3584x8_1_0_0_1_n_n_wf : DotDims.WF S3584x40 S40x8 S3584x8 [1] [0] [0] [1] [] []
  dot_S3584x8_S8x1_S3584x1_1_0_0_1_n_n_wf : DotDims.WF S3584x8 S8x1 S3584x1 [1] [0] [0] [1] [] []
  dot_S3072x40_S40x8_S3072x8_1_0_0_1_n_n_wf : DotDims.WF S3072x40 S40x8 S3072x8 [1] [0] [0] [1] [] []
  dot_S3072x8_S8x1_S3072x1_1_0_0_1_n_n_wf : DotDims.WF S3072x8 S8x1 S3072x1 [1] [0] [0] [1] [] []
  dot_S2560x40_S40x8_S2560x8_1_0_0_1_n_n_wf : DotDims.WF S2560x40 S40x8 S2560x8 [1] [0] [0] [1] [] []
  dot_S2560x8_S8x1_S2560x1_1_0_0_1_n_n_wf : DotDims.WF S2560x8 S8x1 S2560x1 [1] [0] [0] [1] [] []
  dot_S2048x40_S40x8_S2048x8_1_0_0_1_n_n_wf : DotDims.WF S2048x40 S40x8 S2048x8 [1] [0] [0] [1] [] []
  dot_S2048x8_S8x1_S2048x1_1_0_0_1_n_n_wf : DotDims.WF S2048x8 S8x1 S2048x1 [1] [0] [0] [1] [] []
  dot_S1536x40_S40x8_S1536x8_1_0_0_1_n_n_wf : DotDims.WF S1536x40 S40x8 S1536x8 [1] [0] [0] [1] [] []
  dot_S1536x8_S8x1_S1536x1_1_0_0_1_n_n_wf : DotDims.WF S1536x8 S8x1 S1536x1 [1] [0] [0] [1] [] []
  dot_S1024x40_S40x8_S1024x8_1_0_0_1_n_n_wf : DotDims.WF S1024x40 S40x8 S1024x8 [1] [0] [0] [1] [] []
  dot_S1024x8_S8x1_S1024x1_1_0_0_1_n_n_wf : DotDims.WF S1024x8 S8x1 S1024x1 [1] [0] [0] [1] [] []
  dot_S512x40_S40x8_S512x8_1_0_0_1_n_n_wf : DotDims.WF S512x40 S40x8 S512x8 [1] [0] [0] [1] [] []
  dot_S512x8_S8x1_S512x1_1_0_0_1_n_n_wf : DotDims.WF S512x8 S8x1 S512x1 [1] [0] [0] [1] [] []
  dot_S512x40_S40x1_S512x1_1_0_0_1_n_n_wf : DotDims.WF S512x40 S40x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x39x40.size a ≤ S4096x39x40.size a
  hwx0_0 : ∀ i : grid0.Coords, EltTy.bits .bf16 = 32 ∨ (Rect.block (s := S4096x39x40) S512x39x40.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x40.size a ≤ S8x40.size a
  hwx0_1 : ∀ i : grid0.Coords, EltTy.bits .f32 = 32 ∨ (Rect.block (s := S8x40) S8x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)

variable [Facts₀]

def gather_S100000x40_S4096x26x1_S4096x26x40_2_0_n_n_0_2_140 : GatherDims S100000x40 S4096x26x1 S4096x26x40 where
  offsetDims := [2]
  collapsedSliceDims := [0]
  operandBatchingDims := []
  startIndicesBatchingDims := []
  startIndexMap := [0]
  indexVectorDim := 2
  sliceSizes := ![1, 40]
  wf := gather_S100000x40_S4096x26x1_S4096x26x40_2_0_n_n_0_2_140_wf
def dot_S19456x40_S40x8_S19456x8_1_0_0_1_n_n : DotDims S19456x40 S40x8 S19456x8 where
  lhsContracting := [1]
  rhsContracting := [0]
  lhsNonContracting := [0]
  rhsNonContracting := [1]
  lhsBatch := []
  rhsBatch := []
  wf := dot_S19456x40_S40x8_S19456x8_1_0_0_1_n_n_wf
def dot_S19456x8_S8x1_S19456x1_1_0_0_1_n_n : DotDims S19456x8 S8x1 S19456x1 where
  lhsContracting := [1]
  rhsContracting := [0]
  lhsNonContracting := [0]
  rhsNonContracting := [1]
  lhsBatch := []
  rhsBatch := []
  wf := dot_S19456x8_S8x1_S19456x1_1_0_0_1_n_n_wf
def dot_S18944x40_S40x8_S18944x8_1_0_0_1_n_n : DotDims S18944x40 S40x8 S18944x8 where
  lhsContracting := [1]
  rhsContracting := [0]
  lhsNonContracting := [0]
  rhsNonContracting := [1]
  lhsBatch := []
  rhsBatch := []
  wf := dot_S18944x40_S40x8_S18944x8_1_0_0_1_n_n_wf
def dot_S18944x8_S8x1_S18944x1_1_0_0_1_n_n : DotDims S18944x8 S8x1 S18944x1 where
  lhsContracting := [1]
  rhsContracting := [0]
  lhsNonContracting := [0]
  rhsNonContracting := [1]
  lhsBatch := []
  rhsBatch := []
  wf := dot_S18944x8_S8x1_S18944x1_1_0_0_1_n_n_wf
def dot_S18432x40_S40x8_S18432x8_1_0_0_1_n_n : DotDims S18432x40 S40x8 S18432x8 where
  lhsContracting := [1]
  rhsContracting := [0]
  lhsNonContracting := [0]
  rhsNonContracting := [1]
  lhsBatch := []
  rhsBatch := []
  wf := dot_S18432x40_S40x8_S18432x8_1_0_0_1_n_n_wf
def dot_S18432x8_S8x1_S18432x1_1_0_0_1_n_n : DotDims S18432x8 S8x1 S18432x1 where
  lhsContracting := [1]
  rhsContracting := [0]
  lhsNonContracting := [0]
  rhsNonContracting := [1]
  lhsBatch := []
  rhsBatch := []
  wf := dot_S18432x8_S8x1_S18432x1_1_0_0_1_n_n_wf
def dot_S17920x40_S40x8_S17920x8_1_0_0_1_n_n : DotDims S17920x40 S40x8 S17920x8 where
  lhsContracting := [1]
  rhsContracting := [0]
  lhsNonContracting := [0]
  rhsNonContracting := [1]
  lhsBatch := []
  rhsBatch := []
  wf := dot_S17920x40_S40x8_S17920x8_1_0_0_1_n_n_wf
def dot_S17920x8_S8x1_S17920x1_1_0_0_1_n_n : DotDims S17920x8 S8x1 S17920x1 where
  lhsContracting := [1]
  rhsContracting := [0]
  lhsNonContracting := [0]
  rhsNonContracting := [1]
  lhsBatch := []
  rhsBatch := []
  wf := dot_S17920x8_S8x1_S17920x1_1_0_0_1_n_n_wf
def dot_S17408x40_S40x8_S17408x8_1_0_0_1_n_n : DotDims S17408x40 S40x8 S17408x8 where
  lhsContracting := [1]
  rhsContracting := [0]
  lhsNonContracting := [0]
  rhsNonContracting := [1]
  lhsBatch := []
  rhsBatch := []
  wf := dot_S17408x40_S40x8_S17408x8_1_0_0_1_n_n_wf
def dot_S17408x8_S8x1_S17408x1_1_0_0_1_n_n : DotDims S17408x8 S8x1 S17408x1 where
  lhsContracting := [1]
  rhsContracting := [0]
  lhsNonContracting := [0]
  rhsNonContracting := [1]
  lhsBatch := []
  rhsBatch := []
  wf := dot_S17408x8_S8x1_S17408x1_1_0_0_1_n_n_wf
def dot_S16896x40_S40x8_S16896x8_1_0_0_1_n_n : DotDims S16896x40 S40x8 S16896x8 where
  lhsContracting := [1]
  rhsContracting := [0]
  lhsNonContracting := [0]
  rhsNonContracting := [1]
  lhsBatch := []
  rhsBatch := []
  wf := dot_S16896x40_S40x8_S16896x8_1_0_0_1_n_n_wf
def dot_S16896x8_S8x1_S16896x1_1_0_0_1_n_n : DotDims S16896x8 S8x1 S16896x1 where
  lhsContracting := [1]
  rhsContracting := [0]
  lhsNonContracting := [0]
  rhsNonContracting := [1]
  lhsBatch := []
  rhsBatch := []
  wf := dot_S16896x8_S8x1_S16896x1_1_0_0_1_n_n_wf
def dot_S16384x40_S40x8_S16384x8_1_0_0_1_n_n : DotDims S16384x40 S40x8 S16384x8 where
  lhsContracting := [1]
  rhsContracting := [0]
  lhsNonContracting := [0]
  rhsNonContracting := [1]
  lhsBatch := []
  rhsBatch := []
  wf := dot_S16384x40_S40x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf
def dot_S15872x40_S40x8_S15872x8_1_0_0_1_n_n : DotDims S15872x40 S40x8 S15872x8 where
  lhsContracting := [1]
  rhsContracting := [0]
  lhsNonContracting := [0]
  rhsNonContracting := [1]
  lhsBatch := []
  rhsBatch := []
  wf := dot_S15872x40_S40x8_S15872x8_1_0_0_1_n_n_wf
def dot_S15872x8_S8x1_S15872x1_1_0_0_1_n_n : DotDims S15872x8 S8x1 S15872x1 where
  lhsContracting := [1]
  rhsContracting := [0]
  lhsNonContracting := [0]
  rhsNonContracting := [1]
  lhsBatch := []
  rhsBatch := []
  wf := dot_S15872x8_S8x1_S15872x1_1_0_0_1_n_n_wf
def dot_S15360x40_S40x8_S15360x8_1_0_0_1_n_n : DotDims S15360x40 S40x8 S15360x8 where
  lhsContracting := [1]
  rhsContracting := [0]
  lhsNonContracting := [0]
  rhsNonContracting := [1]
  lhsBatch := []
  rhsBatch := []
  wf := dot_S15360x40_S40x8_S15360x8_1_0_0_1_n_n_wf
def dot_S15360x8_S8x1_S15360x1_1_0_0_1_n_n : DotDims S15360x8 S8x1 S15360x1 where
  lhsContracting := [1]
  rhsContracting := [0]
  lhsNonContracting := [0]
  rhsNonContracting := [1]
  lhsBatch := []
  rhsBatch := []
  wf := dot_S15360x8_S8x1_S15360x1_1_0_0_1_n_n_wf
def dot_S14848x40_S40x8_S14848x8_1_0_0_1_n_n : DotDims S14848x40 S40x8 S14848x8 where
  lhsContracting := [1]
  rhsContracting := [0]
  lhsNonContracting := [0]
  rhsNonContracting := [1]
  lhsBatch := []
  rhsBatch := []
  wf := dot_S14848x40_S40x8_S14848x8_1_0_0_1_n_n_wf
def dot_S14848x8_S8x1_S14848x1_1_0_0_1_n_n : DotDims S14848x8 S8x1 S14848x1 where
  lhsContracting := [1]
  rhsContracting := [0]
  lhsNonContracting := [0]
  rhsNonContracting := [1]
  lhsBatch := []
  rhsBatch := []
  wf := dot_S14848x8_S8x1_S14848x1_1_0_0_1_n_n_wf
def dot_S14336x40_S40x8_S14336x8_1_0_0_1_n_n : DotDims S14336x40 S40x8 S14336x8 where
  lhsContracting := [1]
  rhsContracting := [0]
  lhsNonContracting := [0]
  rhsNonContracting := [1]
  lhsBatch := []
  rhsBatch := []
  wf := dot_S14336x40_S40x8_S14336x8_1_0_0_1_n_n_wf
def dot_S14336x8_S8x1_S14336x1_1_0_0_1_n_n : DotDims S14336x8 S8x1 S14336x1 where
  lhsContracting := [1]
  rhsContracting := [0]
  lhsNonContracting := [0]
  rhsNonContracting := [1]
  lhsBatch := []
  rhsBatch := []
  wf := dot_S14336x8_S8x1_S14336x1_1_0_0_1_n_n_wf
def dot_S13824x40_S40x8_S13824x8_1_0_0_1_n_n : DotDims S13824x40 S40x8 S13824x8 where
  lhsContracting := [1]
  rhsContracting := [0]
  lhsNonContracting := [0]
  rhsNonContracting := [1]
  lhsBatch := []
  rhsBatch := []
  wf := dot_S13824x40_S40x8_S13824x8_1_0_0_1_n_n_wf
def dot_S13824x8_S8x1_S13824x1_1_0_0_1_n_n : DotDims S13824x8 S8x1 S13824x1 where
  lhsContracting := [1]
  rhsContracting := [0]
  lhsNonContracting := [0]
  rhsNonContracting := [1]
  lhsBatch := []
  rhsBatch := []
  wf := dot_S13824x8_S8x1_S13824x1_1_0_0_1_n_n_wf
def dot_S13312x40_S40x8_S13312x8_1_0_0_1_n_n : DotDims S13312x40 S40x8 S13312x8 where
  lhsContracting := [1]
  rhsContracting := [0]
  lhsNonContracting := [0]
  rhsNonContracting := [1]
  lhsBatch := []
  rhsBatch := []
  wf := dot_S13312x40_S40x8_S13312x8_1_0_0_1_n_n_wf
def dot_S13312x8_S8x1_S13312x1_1_0_0_1_n_n : DotDims S13312x8 S8x1 S13312x1 where
  lhsContracting := [1]
  rhsContracting := [0]
  lhsNonContracting := [0]
  rhsNonContracting := [1]
  lhsBatch := []
  rhsBatch := []
  wf := dot_S13312x8_S8x1_S13312x1_1_0_0_1_n_n_wf
def dot_S12800x40_S40x8_S12800x8_1_0_0_1_n_n : DotDims S12800x40 S40x8 S12800x8 where
  lhsContracting := [1]
  rhsContracting := [0]
  lhsNonContracting := [0]
  rhsNonContracting := [1]
  lhsBatch := []
  rhsBatch := []
  wf := dot_S12800x40_S40x8_S12800x8_1_0_0_1_n_n_wf
def dot_S12800x8_S8x1_S12800x1_1_0_0_1_n_n : DotDims S12800x8 S8x1 S12800x1 where
  lhsContracting := [1]
  rhsContracting := [0]
  lhsNonContracting := [0]
  rhsNonContracting := [1]
  lhsBatch := []
  rhsBatch := []
  wf := dot_S12800x8_S8x1_S12800x1_1_0_0_1_n_n_wf
def dot_S12288x40_S40x8_S12288x8_1_0_0_1_n_n : DotDims S12288x40 S40x8 S12288x8 where
  lhsContracting := [1]
  rhsContracting := [0]
  lhsNonContracting := [0]
  rhsNonContracting := [1]
  lhsBatch := []
  rhsBatch := []
  wf := dot_S12288x40_S40x8_S12288x8_1_0_0_1_n_n_wf
def dot_S12288x8_S8x1_S12288x1_1_0_0_1_n_n : DotDims S12288x8 S8x1 S12288x1 where
  lhsContracting := [1]
  rhsContracting := [0]
  lhsNonContracting := [0]
  rhsNonContracting := [1]
  lhsBatch := []
  rhsBatch := []
  wf := dot_S12288x8_S8x1_S12288x1_1_0_0_1_n_n_wf
def dot_S11776x40_S40x8_S11776x8_1_0_0_1_n_n : DotDims S11776x40 S40x8 S11776x8 where
  lhsContracting := [1]
  rhsContracting := [0]
  lhsNonContracting := [0]
  rhsNonContracting := [1]
  lhsBatch := []
  rhsBatch := []
  wf := dot_S11776x40_S40x8_S11776x8_1_0_0_1_n_n_wf
def dot_S11776x8_S8x1_S11776x1_1_0_0_1_n_n : DotDims S11776x8 S8x1 S11776x1 where
  lhsContracting := [1]
  rhsContracting := [0]
  lhsNonContracting := [0]
  rhsNonContracting := [1]
  lhsBatch := []
  rhsBatch := []
  wf := dot_S11776x8_S8x1_S11776x1_1_0_0_1_n_n_wf
def dot_S11264x40_S40x8_S11264x8_1_0_0_1_n_n : DotDims S11264x40 S40x8 S11264x8 where
  lhsContracting := [1]
  rhsContracting := [0]
  lhsNonContracting := [0]
  rhsNonContracting := [1]
  lhsBatch := []
  rhsBatch := []
  wf := dot_S11264x40_S40x8_S11264x8_1_0_0_1_n_n_wf
def dot_S11264x8_S8x1_S11264x1_1_0_0_1_n_n : DotDims S11264x8 S8x1 S11264x1 where
  lhsContracting := [1]
  rhsContracting := [0]
  lhsNonContracting := [0]
  rhsNonContracting := [1]
  lhsBatch := []
  rhsBatch := []
  wf := dot_S11264x8_S8x1_S11264x1_1_0_0_1_n_n_wf
def dot_S10752x40_S40x8_S10752x8_1_0_0_1_n_n : DotDims S10752x40 S40x8 S10752x8 where
  lhsContracting := [1]
  rhsContracting := [0]
  lhsNonContracting := [0]
  rhsNonContracting := [1]
  lhsBatch := []
  rhsBatch := []
  wf := dot_S10752x40_S40x8_S10752x8_1_0_0_1_n_n_wf
def dot_S10752x8_S8x1_S10752x1_1_0_0_1_n_n : DotDims S10752x8 S8x1 S10752x1 where
  lhsContracting := [1]
  rhsContracting := [0]
  lhsNonContracting := [0]
  rhsNonContracting := [1]
  lhsBatch := []
  rhsBatch := []
  wf := dot_S10752x8_S8x1_S10752x1_1_0_0_1_n_n_wf
def dot_S10240x40_S40x8_S10240x8_1_0_0_1_n_n : DotDims S10240x40 S40x8 S10240x8 where
  lhsContracting := [1]
  rhsContracting := [0]
  lhsNonContracting := [0]
  rhsNonContracting := [1]
  lhsBatch := []
  rhsBatch := []
  wf := dot_S10240x40_S40x8_S10240x8_1_0_0_1_n_n_wf
def dot_S10240x8_S8x1_S10240x1_1_0_0_1_n_n : DotDims S10240x8 S8x1 S10240x1 where
  lhsContracting := [1]
  rhsContracting := [0]
  lhsNonContracting := [0]
  rhsNonContracting := [1]
  lhsBatch := []
  rhsBatch := []
  wf := dot_S10240x8_S8x1_S10240x1_1_0_0_1_n_n_wf
def dot_S9728x40_S40x8_S9728x8_1_0_0_1_n_n : DotDims S9728x40 S40x8 S9728x8 where
  lhsContracting := [1]
  rhsContracting := [0]
  lhsNonContracting := [0]
  rhsNonContracting := [1]
  lhsBatch := []
  rhsBatch := []
  wf := dot_S9728x40_S40x8_S9728x8_1_0_0_1_n_n_wf
def dot_S9728x8_S8x1_S9728x1_1_0_0_1_n_n : DotDims S9728x8 S8x1 S9728x1 where
  lhsContracting := [1]
  rhsContracting := [0]
  lhsNonContracting := [0]
  rhsNonContracting := [1]
  lhsBatch := []
  rhsBatch := []
  wf := dot_S9728x8_S8x1_S9728x1_1_0_0_1_n_n_wf
def dot_S9216x40_S40x8_S9216x8_1_0_0_1_n_n : DotDims S9216x40 S40x8 S9216x8 where
  lhsContracting := [1]
  rhsContracting := [0]
  lhsNonContracting := [0]
  rhsNonContracting := [1]
  lhsBatch := []
  rhsBatch := []
  wf := dot_S9216x40_S40x8_S9216x8_1_0_0_1_n_n_wf
def dot_S9216x8_S8x1_S9216x1_1_0_0_1_n_n : DotDims S9216x8 S8x1 S9216x1 where
  lhsContracting := [1]
  rhsContracting := [0]
  lhsNonContracting := [0]
  rhsNonContracting := [1]
  lhsBatch := []
  rhsBatch := []
  wf := dot_S9216x8_S8x1_S9216x1_1_0_0_1_n_n_wf
def dot_S8704x40_S40x8_S8704x8_1_0_0_1_n_n : DotDims S8704x40 S40x8 S8704x8 where
  lhsContracting := [1]
  rhsContracting := [0]
  lhsNonContracting := [0]
  rhsNonContracting := [1]
  lhsBatch := []
  rhsBatch := []
  wf := dot_S8704x40_S40x8_S8704x8_1_0_0_1_n_n_wf
def dot_S8704x8_S8x1_S8704x1_1_0_0_1_n_n : DotDims S8704x8 S8x1 S8704x1 where
  lhsContracting := [1]
  rhsContracting := [0]
  lhsNonContracting := [0]
  rhsNonContracting := [1]
  lhsBatch := []
  rhsBatch := []
  wf := dot_S8704x8_S8x1_S8704x1_1_0_0_1_n_n_wf
def dot_S8192x40_S40x8_S8192x8_1_0_0_1_n_n : DotDims S8192x40 S40x8 S8192x8 where
  lhsContracting := [1]
  rhsContracting := [0]
  lhsNonContracting := [0]
  rhsNonContracting := [1]
  lhsBatch := []
  rhsBatch := []
  wf := dot_S8192x40_S40x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf
def dot_S7680x40_S40x8_S7680x8_1_0_0_1_n_n : DotDims S7680x40 S40x8 S7680x8 where
  lhsContracting := [1]
  rhsContracting := [0]
  lhsNonContracting := [0]
  rhsNonContracting := [1]
  lhsBatch := []
  rhsBatch := []
  wf := dot_S7680x40_S40x8_S7680x8_1_0_0_1_n_n_wf
def dot_S7680x8_S8x1_S7680x1_1_0_0_1_n_n : DotDims S7680x8 S8x1 S7680x1 where
  lhsContracting := [1]
  rhsContracting := [0]
  lhsNonContracting := [0]
  rhsNonContracting := [1]
  lhsBatch := []
  rhsBatch := []
  wf := dot_S7680x8_S8x1_S7680x1_1_0_0_1_n_n_wf
def dot_S7168x40_S40x8_S7168x8_1_0_0_1_n_n : DotDims S7168x40 S40x8 S7168x8 where
  lhsContracting := [1]
  rhsContracting := [0]
  lhsNonContracting := [0]
  rhsNonContracting := [1]
  lhsBatch := []
  rhsBatch := []
  wf := dot_S7168x40_S40x8_S7168x8_1_0_0_1_n_n_wf
def dot_S7168x8_S8x1_S7168x1_1_0_0_1_n_n : DotDims S7168x8 S8x1 S7168x1 where
  lhsContracting := [1]
  rhsContracting := [0]
  lhsNonContracting := [0]
  rhsNonContracting := [1]
  lhsBatch := []
  rhsBatch := []
  wf := dot_S7168x8_S8x1_S7168x1_1_0_0_1_n_n_wf
def dot_S6656x40_S40x8_S6656x8_1_0_0_1_n_n : DotDims S6656x40 S40x8 S6656x8 where
  lhsContracting := [1]
  rhsContracting := [0]
  lhsNonContracting := [0]
  rhsNonContracting := [1]
  lhsBatch := []
  rhsBatch := []
  wf := dot_S6656x40_S40x8_S6656x8_1_0_0_1_n_n_wf
def dot_S6656x8_S8x1_S6656x1_1_0_0_1_n_n : DotDims S6656x8 S8x1 S6656x1 where
  lhsContracting := [1]
  rhsContracting := [0]
  lhsNonContracting := [0]
  rhsNonContracting := [1]
  lhsBatch := []
  rhsBatch := []
  wf := dot_S6656x8_S8x1_S6656x1_1_0_0_1_n_n_wf
def dot_S6144x40_S40x8_S6144x8_1_0_0_1_n_n : DotDims S6144x40 S40x8 S6144x8 where
  lhsContracting := [1]
  rhsContracting := [0]
  lhsNonContracting := [0]
  rhsNonContracting := [1]
  lhsBatch := []
  rhsBatch := []
  wf := dot_S6144x40_S40x8_S6144x8_1_0_0_1_n_n_wf
def dot_S6144x8_S8x1_S6144x1_1_0_0_1_n_n : DotDims S6144x8 S8x1 S6144x1 where
  lhsContracting := [1]
  rhsContracting := [0]
  lhsNonContracting := [0]
  rhsNonContracting := [1]
  lhsBatch := []
  rhsBatch := []
  wf := dot_S6144x8_S8x1_S6144x1_1_0_0_1_n_n_wf
def dot_S5632x40_S40x8_S5632x8_1_0_0_1_n_n : DotDims S5632x40 S40x8 S5632x8 where
  lhsContracting := [1]
  rhsContracting := [0]
  lhsNonContracting := [0]
  rhsNonContracting := [1]
  lhsBatch := []
  rhsBatch := []
  wf := dot_S5632x40_S40x8_S5632x8_1_0_0_1_n_n_wf
def dot_S5632x8_S8x1_S5632x1_1_0_0_1_n_n : DotDims S5632x8 S8x1 S5632x1 where
  lhsContracting := [1]
  rhsContracting := [0]
  lhsNonContracting := [0]
  rhsNonContracting := [1]
  lhsBatch := []
  rhsBatch := []
  wf := dot_S5632x8_S8x1_S5632x1_1_0_0_1_n_n_wf
def dot_S5120x40_S40x8_S5120x8_1_0_0_1_n_n : DotDims S5120x40 S40x8 S5120x8 where
  lhsContracting := [1]
  rhsContracting := [0]
  lhsNonContracting := [0]
  rhsNonContracting := [1]
  lhsBatch := []
  rhsBatch := []
  wf := dot_S5120x40_S40x8_S5120x8_1_0_0_1_n_n_wf
def dot_S5120x8_S8x1_S5120x1_1_0_0_1_n_n : DotDims S5120x8 S8x1 S5120x1 where
  lhsContracting := [1]
  rhsContracting := [0]
  lhsNonContracting := [0]
  rhsNonContracting := [1]
  lhsBatch := []
  rhsBatch := []
  wf := dot_S5120x8_S8x1_S5120x1_1_0_0_1_n_n_wf
def dot_S4608x40_S40x8_S4608x8_1_0_0_1_n_n : DotDims S4608x40 S40x8 S4608x8 where
  lhsContracting := [1]
  rhsContracting := [0]
  lhsNonContracting := [0]
  rhsNonContracting := [1]
  lhsBatch := []
  rhsBatch := []
  wf := dot_S4608x40_S40x8_S4608x8_1_0_0_1_n_n_wf
def dot_S4608x8_S8x1_S4608x1_1_0_0_1_n_n : DotDims S4608x8 S8x1 S4608x1 where
  lhsContracting := [1]
  rhsContracting := [0]
  lhsNonContracting := [0]
  rhsNonContracting := [1]
  lhsBatch := []
  rhsBatch := []
  wf := dot_S4608x8_S8x1_S4608x1_1_0_0_1_n_n_wf
def dot_S4096x40_S40x8_S4096x8_1_0_0_1_n_n : DotDims S4096x40 S40x8 S4096x8 where
  lhsContracting := [1]
  rhsContracting := [0]
  lhsNonContracting := [0]
  rhsNonContracting := [1]
  lhsBatch := []
  rhsBatch := []
  wf := dot_S4096x40_S40x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf
def dot_S3584x40_S40x8_S3584x8_1_0_0_1_n_n : DotDims S3584x40 S40x8 S3584x8 where
  lhsContracting := [1]
  rhsContracting := [0]
  lhsNonContracting := [0]
  rhsNonContracting := [1]
  lhsBatch := []
  rhsBatch := []
  wf := dot_S3584x40_S40x8_S3584x8_1_0_0_1_n_n_wf
def dot_S3584x8_S8x1_S3584x1_1_0_0_1_n_n : DotDims S3584x8 S8x1 S3584x1 where
  lhsContracting := [1]
  rhsContracting := [0]
  lhsNonContracting := [0]
  rhsNonContracting := [1]
  lhsBatch := []
  rhsBatch := []
  wf := dot_S3584x8_S8x1_S3584x1_1_0_0_1_n_n_wf
def dot_S3072x40_S40x8_S3072x8_1_0_0_1_n_n : DotDims S3072x40 S40x8 S3072x8 where
  lhsContracting := [1]
  rhsContracting := [0]
  lhsNonContracting := [0]
  rhsNonContracting := [1]
  lhsBatch := []
  rhsBatch := []
  wf := dot_S3072x40_S40x8_S3072x8_1_0_0_1_n_n_wf
def dot_S3072x8_S8x1_S3072x1_1_0_0_1_n_n : DotDims S3072x8 S8x1 S3072x1 where
  lhsContracting := [1]
  rhsContracting := [0]
  lhsNonContracting := [0]
  rhsNonContracting := [1]
  lhsBatch := []
  rhsBatch := []
  wf := dot_S3072x8_S8x1_S3072x1_1_0_0_1_n_n_wf
def dot_S2560x40_S40x8_S2560x8_1_0_0_1_n_n : DotDims S2560x40 S40x8 S2560x8 where
  lhsContracting := [1]
  rhsContracting := [0]
  lhsNonContracting := [0]
  rhsNonContracting := [1]
  lhsBatch := []
  rhsBatch := []
  wf := dot_S2560x40_S40x8_S2560x8_1_0_0_1_n_n_wf
def dot_S2560x8_S8x1_S2560x1_1_0_0_1_n_n : DotDims S2560x8 S8x1 S2560x1 where
  lhsContracting := [1]
  rhsContracting := [0]
  lhsNonContracting := [0]
  rhsNonContracting := [1]
  lhsBatch := []
  rhsBatch := []
  wf := dot_S2560x8_S8x1_S2560x1_1_0_0_1_n_n_wf
def dot_S2048x40_S40x8_S2048x8_1_0_0_1_n_n : DotDims S2048x40 S40x8 S2048x8 where
  lhsContracting := [1]
  rhsContracting := [0]
  lhsNonContracting := [0]
  rhsNonContracting := [1]
  lhsBatch := []
  rhsBatch := []
  wf := dot_S2048x40_S40x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf
def dot_S1536x40_S40x8_S1536x8_1_0_0_1_n_n : DotDims S1536x40 S40x8 S1536x8 where
  lhsContracting := [1]
  rhsContracting := [0]
  lhsNonContracting := [0]
  rhsNonContracting := [1]
  lhsBatch := []
  rhsBatch := []
  wf := dot_S1536x40_S40x8_S1536x8_1_0_0_1_n_n_wf
def dot_S1536x8_S8x1_S1536x1_1_0_0_1_n_n : DotDims S1536x8 S8x1 S1536x1 where
  lhsContracting := [1]
  rhsContracting := [0]
  lhsNonContracting := [0]
  rhsNonContracting := [1]
  lhsBatch := []
  rhsBatch := []
  wf := dot_S1536x8_S8x1_S1536x1_1_0_0_1_n_n_wf
def dot_S1024x40_S40x8_S1024x8_1_0_0_1_n_n : DotDims S1024x40 S40x8 S1024x8 where
  lhsContracting := [1]
  rhsContracting := [0]
  lhsNonContracting := [0]
  rhsNonContracting := [1]
  lhsBatch := []
  rhsBatch := []
  wf := dot_S1024x40_S40x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf
def dot_S512x40_S40x8_S512x8_1_0_0_1_n_n : DotDims S512x40 S40x8 S512x8 where
  lhsContracting := [1]
  rhsContracting := [0]
  lhsNonContracting := [0]
  rhsNonContracting := [1]
  lhsBatch := []
  rhsBatch := []
  wf := dot_S512x40_S40x8_S512x8_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf
def dot_S512x40_S40x1_S512x1_1_0_0_1_n_n : DotDims S512x40 S40x1 S512x1 where
  lhsContracting := [1]
  rhsContracting := [0]
  lhsNonContracting := [0]
  rhsNonContracting := [1]
  lhsBatch := []
  rhsBatch := []
  wf := dot_S512x40_S40x1_S512x1_1_0_0_1_n_n_wf

abbrev win0_0 : Pipeline.Window sig grid0 :=
  Pipeline.Window.ofSpec (Memref.whole main_v8) S512x39x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x13 : Shape := ⟨2, ![4096, 13]⟩
abbrev S4096x26 : Shape := ⟨2, ![4096, 26]⟩
abbrev S4096x1 : Shape := ⟨2, ![4096, 1]⟩
abbrev S100000x40 : Shape := ⟨2, ![100000, 40]⟩
abbrev S8x40 : Shape := ⟨2, ![8, 40]⟩
abbrev S8 : Shape := ⟨1, ![8]⟩
abbrev S1x8 : Shape := ⟨2, ![1, 8]⟩
abbrev S1x40 : Shape := ⟨2, ![1, 40]⟩
abbrev S1 : Shape := ⟨1, ![1]⟩
abbrev S13 : Shape := ⟨1, ![13]⟩
abbrev S_ : Shape := ⟨0, ![]⟩
abbrev S13x1 : Shape := ⟨2, ![13, 1]⟩
abbrev S13x40 : Shape := ⟨2, ![13, 40]⟩
abbrev S1x13x40 : Shape := ⟨3, ![1, 13, 40]⟩
abbrev S4096x13x1 : Shape := ⟨3, ![4096, 13, 1]⟩
abbrev S4096x13x40 : Shape := ⟨3, ![4096, 13, 40]⟩
abbrev S4096x26x1 : Shape := ⟨3, ![4096, 26, 1]⟩
abbrev S4096x26x40 : Shape := ⟨3, ![4096, 26, 40]⟩
abbrev S4096x39x40 : Shape := ⟨3, ![4096, 39, 40]⟩
abbrev S39x39 : Shape := ⟨2, ![39, 39]⟩
abbrev S1521 : Shape := ⟨1, ![1521]⟩
abbrev S741 : Shape := ⟨1, ![741]⟩
abbrev S1521x1 : Shape := ⟨2, ![1521, 1]⟩
abbrev S741x1 : Shape := ⟨2, ![741, 1]⟩
abbrev S4096x741x40 : Shape := ⟨3, ![4096, 741, 40]⟩
abbrev S4096x741x8 : Shape := ⟨3, ![4096, 741, 8]⟩
abbrev S1x1x8 : Shape := ⟨3, ![1, 1, 8]⟩
abbrev S4096x741x1 : Shape := ⟨3, ![4096, 741, 1]⟩
abbrev S4096x1x1 : Shape := ⟨3, ![4096, 1, 1]⟩
abbrev S4096x40 : Shape := ⟨2, ![4096, 40]⟩
abbrev S40x1 : Shape := ⟨2, ![40, 1]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S4096x13, .f32⟩
  | 1 => ⟨S4096x26, .i32⟩
  | 2 => ⟨S4096x1, .f32⟩
  | 3 => ⟨S100000x40, .f32⟩
  | 4 => ⟨S8x40, .f32⟩
  | 5 => ⟨S8, .f32⟩
  | 6 => ⟨S1x8, .f32⟩
  | 7 => ⟨S1x40, .f32⟩
  | 8 => ⟨S1, .f32⟩
  | 9 => ⟨S13, .i32⟩
  | 10 => ⟨S_, .i32⟩
  | 11 => ⟨S13, .i32⟩
  | 12 => ⟨S13, .i1⟩
  | 13 => ⟨S_, .i32⟩
  | 14 => ⟨S13, .i32⟩
  | 15 => ⟨S13, .i32⟩
  | 16 => ⟨S13, .i32⟩
  | 17 => ⟨S13x1, .i32⟩
  | 18 => ⟨S13x40, .f32⟩
  | 19 => ⟨S1x13x40, .f32⟩
  | 20 => ⟨S4096x13x1, .f32⟩
  | 21 => ⟨S4096x13x40, .f32⟩
  | 22 => ⟨S4096x13x40, .f32⟩
  | 23 => ⟨S4096x13x40, .f32⟩
  | 24 => ⟨S_, .i32⟩
  | 25 => ⟨S4096x26, .i32⟩
  | 26 => ⟨S4096x26, .i1⟩
  | 27 => ⟨S_, .i32⟩
  | 28 => ⟨S4096x26, .i32⟩
  | 29 => ⟨S4096x26, .i32⟩
  | 30 => ⟨S4096x26, .i32⟩
  | 31 => ⟨S4096x26x1, .i32⟩
  | 32 => ⟨S4096x26x40, .f32⟩
  | 33 => ⟨S4096x39x40, .f32⟩
  | 34 => ⟨S_, .f32⟩
  | 35 => ⟨S39x39, .f32⟩
  | 36 => ⟨S39x39, .i32⟩
  | 37 => ⟨S_, .i32⟩
  | 38 => ⟨S39x39, .i32⟩
  | 39 => ⟨S39x39, .i32⟩
  | 40 => ⟨S39x39, .i32⟩
  | 41 => ⟨S39x39, .i1⟩
  | 42 => ⟨S_, .f32⟩
  | 43 => ⟨S39x39, .f32⟩
  | 44 => ⟨S39x39, .f32⟩
  | 45 => ⟨S_, .f32⟩
  | 46 => ⟨S39x39, .f32⟩
  | 47 => ⟨S39x39, .i1⟩
  | 48 => ⟨S1521, .i1⟩
  | 49 => ⟨S1521, .i32⟩
  | 50 => ⟨S_, .i32⟩
  | 51 => ⟨S_, .i32⟩
  | 52 => ⟨S1521, .i32⟩
  | 53 => ⟨S_, .i32⟩
  | 54 => ⟨S741, .i32⟩
  | 55 => ⟨S_, .i32⟩
  | 56 => ⟨S_, .i32⟩
  | 57 => ⟨S1521, .i32⟩
  | 58 => ⟨S1521, .i32⟩
  | 59 => ⟨S_, .i32⟩
  | 60 => ⟨S1521, .i32⟩
  | 61 => ⟨S1521, .i1⟩
  | 62 => ⟨S_, .i32⟩
  | 63 => ⟨S1521, .i32⟩
  | 64 => ⟨S1521, .i32⟩
  | 65 => ⟨S1521, .i32⟩
  | 66 => ⟨S1521x1, .i32⟩
  | 67 => ⟨S_, .i32⟩
  | 68 => ⟨S1521, .i32⟩
  | 69 => ⟨S741, .i32⟩
  | 70 => ⟨S_, .i32⟩
  | 71 => ⟨S_, .i32⟩
  | 72 => ⟨S741, .i32⟩
  | 73 => ⟨S_, .i32⟩
  | 74 => ⟨S741, .i32⟩
  | 75 => ⟨S741, .i32⟩
  | 76 => ⟨S741, .i32⟩
  | 77 => ⟨S_, .i32⟩
  | 78 => ⟨S741, .i32⟩
  | 79 => ⟨S741, .i1⟩
  | 80 => ⟨S741, .i32⟩
  | 81 => ⟨S741, .i32⟩
  | 82 => ⟨S_, .i32⟩
  | 83 => ⟨S741, .i32⟩
  | 84 => ⟨S741, .i1⟩
  | 85 => ⟨S741, .i1⟩
  | 86 => ⟨S_, .i32⟩
  | 87 => ⟨S741, .i32⟩
  | 88 => ⟨S741, .i32⟩
  | 89 => ⟨S741, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S741, .i32⟩
  | 97 => ⟨S741, .i32⟩
  | 98 => ⟨S_, .i32⟩
  | 99 => ⟨S741, .i32⟩
  | 100 => ⟨S741, .i1⟩
  | 101 => ⟨S_, .i32⟩
  | 102 => ⟨S741, .i32⟩
  | 103 => ⟨S741, .i1⟩
  | 104 => ⟨S_, .i32⟩
  | 105 => ⟨S_, .i1⟩
  | 106 => ⟨S741, .i1⟩
  | 107 => ⟨S741, .i1⟩
  | 108 => ⟨S741, .i1⟩
  | 109 => ⟨S741, .i32⟩
  | 110 => ⟨S741, .i32⟩
  | 111 => ⟨S741, .i32⟩
  | 112 => ⟨S_, .i32⟩
  | 113 => ⟨S741, .i32⟩
  | 114 => ⟨S741, .i32⟩
  | 115 => ⟨S741, .i32⟩
  | 116 => ⟨S_, .i32⟩
  | 117 => ⟨S741, .i32⟩
  | 118 => ⟨S741, .i1⟩
  | 119 => ⟨S741, .i32⟩
  | 120 => ⟨S741, .i32⟩
  | 121 => ⟨S_, .i32⟩
  | 122 => ⟨S741, .i32⟩
  | 123 => ⟨S741, .i1⟩
  | 124 => ⟨S741, .i1⟩
  | 125 => ⟨S_, .i32⟩
  | 126 => ⟨S741, .i32⟩
  | 127 => ⟨S741, .i32⟩
  | _ => ⟨S4096x13, .f32⟩

abbrev hbmTy0_1 (i : Nat) : BufTy := match i % 128 with
  | 0 => ⟨S741, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S741, .i32⟩
  | 8 => ⟨S741, .i32⟩
  | 9 => ⟨S_, .i32⟩
  | 10 => ⟨S741, .i32⟩
  | 11 => ⟨S741, .i1⟩
  | 12 => ⟨S_, .i32⟩
  | 13 => ⟨S741, .i32⟩
  | 14 => ⟨S741, .i1⟩
  | 15 => ⟨S_, .i32⟩
  | 16 => ⟨S_, .i1⟩
  | 17 => ⟨S741, .i1⟩
  | 18 => ⟨S741, .i1⟩
  | 19 => ⟨S741, .i1⟩
  | 20 => ⟨S741, .i32⟩
  | 21 => ⟨S741, .i32⟩
  | 22 => ⟨S741, .i32⟩
  | 23 => ⟨S_, .i32⟩
  | 24 => ⟨S741, .i32⟩
  | 25 => ⟨S741, .i1⟩
  | 26 => ⟨S_, .i32⟩
  | 27 => ⟨S741, .i32⟩
  | 28 => ⟨S741, .i32⟩
  | 29 => ⟨S741, .i32⟩
  | 30 => ⟨S741x1, .i32⟩
  | 31 => ⟨S4096x741x40, .f32⟩
  | 32 => ⟨S_, .i32⟩
  | 33 => ⟨S741, .i32⟩
  | 34 => ⟨S741, .i1⟩
  | 35 => ⟨S_, .i32⟩
  | 36 => ⟨S741, .i32⟩
  | 37 => ⟨S741, .i32⟩
  | 38 => ⟨S741, .i32⟩
  | 39 => ⟨S741x1, .i32⟩
  | 40 => ⟨S4096x741x40, .f32⟩
  | 41 => ⟨S4096x741x40, .f32⟩
  | 42 => ⟨S4096x741x8, .f32⟩
  | 43 => ⟨S1x1x8, .f32⟩
  | 44 => ⟨S4096x741x8, .f32⟩
  | 45 => ⟨S4096x741x8, .f32⟩
  | 46 => ⟨S_, .f32⟩
  | 47 => ⟨S4096x741x8, .f32⟩
  | 48 => ⟨S4096x741x8, .f32⟩
  | 49 => ⟨S4096x741x1, .f32⟩
  | 50 => ⟨S_, .f32⟩
  | 51 => ⟨S4096x1, .f32⟩
  | 52 => ⟨S_, .f32⟩
  | 53 => ⟨S4096x1, .f32⟩
  | 54 => ⟨S4096x1, .f32⟩
  | 55 => ⟨S4096x1x1, .f32⟩
  | 56 => ⟨S4096x741x1, .f32⟩
  | 57 => ⟨S4096x741x1, .f32⟩
  | 58 => ⟨S4096x741x1, .f32⟩
  | 59 => ⟨S_, .f32⟩
  | 60 => ⟨S4096x1, .f32⟩
  | 61 => ⟨S4096x1x1, .f32⟩
  | 62 => ⟨S4096x741x1, .f32⟩
  | 63 => ⟨S4096x741x1, .f32⟩
  | 64 => ⟨S4096x741x40, .f32⟩
  | 65 => ⟨S4096x741x40, .f32⟩
  | 66 => ⟨S_, .f32⟩
  | 67 => ⟨S4096x40, .f32⟩
  | 68 => ⟨S40x1, .f32⟩
  | 69 => ⟨S4096x1, .f32⟩
  | 70 => ⟨S1x1, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096x1, .f32⟩
  | 80 => ⟨S4096x1, .f32⟩
  | _ => ⟨S4096x13, .f32⟩

abbrev hbmTy (i : Nat) : BufTy := match i / 128 with
  | 0 => hbmTy0_0 i
  | 1 => hbmTy0_1 i
  | _ => ⟨S4096x13, .f32⟩

abbrev bufTy : (tb : Table) → Fin (tcTables nBuf tb) → BufTy
  | .hbm, ⟨i, _⟩ => hbmTy i
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_cst : Ref sig .tc := ⟨.hbm, 42, rfl⟩
abbrev main_call0_v5 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_call0_c : Ref sig .tc := ⟨.hbm, 50, rfl⟩
abbrev main_call1_call0_v0 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_call3_call0_c : Ref sig .tc := ⟨.hbm, 70, rfl⟩
abbrev main_call3_call0_v0 : Ref sig .tc := ⟨.hbm, 71, rfl⟩
abbrev main_v36 : Ref sig .tc := ⟨.hbm, 72, rfl⟩
abbrev main_c_9 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_v6 : Ref sig .tc := ⟨.hbm, 80, rfl⟩
abbrev main_call4_v7 : Ref sig .tc := ⟨.hbm, 81, rfl⟩
abbrev main_call4_c : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_c_0 : Ref sig .tc := ⟨.hbm, 86, rfl⟩
abbrev main_call4_v11 : Ref sig .tc := ⟨.hbm, 87, rfl⟩
abbrev main_call4_v12 : Ref sig .tc := ⟨.hbm, 88, rfl⟩
abbrev main_v37 : Ref sig .tc := ⟨.hbm, 89, rfl⟩
abbrev main_c_10 : Ref sig .tc := ⟨.hbm, 90, rfl⟩
abbrev main_call5_v0 : Ref sig .tc := ⟨.hbm, 91, rfl⟩
abbrev main_call5_c : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_c_1 : Ref sig .tc := ⟨.hbm, 98, rfl⟩
abbrev main_call5_v5 : Ref sig .tc := ⟨.hbm, 99, rfl⟩
abbrev main_call5_v6 : Ref sig .tc := ⟨.hbm, 100, rfl⟩
abbrev main_call5_c_2 : Ref sig .tc := ⟨.hbm, 101, rfl⟩
abbrev main_call5_v7 : Ref sig .tc := ⟨.hbm, 102, rfl⟩
abbrev main_call5_v8 : Ref sig .tc := ⟨.hbm, 103, rfl⟩
abbrev main_call5_c_3 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_v38 : Ref sig .tc := ⟨.hbm, 111, rfl⟩
abbrev main_c_11 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_v6 : Ref sig .tc := ⟨.hbm, 119, rfl⟩
abbrev main_call6_v7 : Ref sig .tc := ⟨.hbm, 120, rfl⟩
abbrev main_call6_c : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_c_0 : Ref sig .tc := ⟨.hbm, 125, rfl⟩
abbrev main_call6_v11 : Ref sig .tc := ⟨.hbm, 126, rfl⟩
abbrev main_call6_v12 : Ref sig .tc := ⟨.hbm, 127, rfl⟩
abbrev main_v39 : Ref sig .tc := ⟨.hbm, 128, rfl⟩
abbrev main_c_12 : Ref sig .tc := ⟨.hbm, 129, rfl⟩
abbrev main_call7_v0 : Ref sig .tc := ⟨.hbm, 130, rfl⟩
abbrev main_call7_c : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_1 : Ref sig .tc := ⟨.hbm, 137, rfl⟩
abbrev main_call7_v5 : Ref sig .tc := ⟨.hbm, 138, rfl⟩
abbrev main_call7_v6 : Ref sig .tc := ⟨.hbm, 139, rfl⟩
abbrev main_call7_c_2 : Ref sig .tc := ⟨.hbm, 140, rfl⟩
abbrev main_call7_v7 : Ref sig .tc := ⟨.hbm, 141, rfl⟩
abbrev main_call7_v8 : Ref sig .tc := ⟨.hbm, 142, rfl⟩
abbrev main_call7_c_3 : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_v12 : Ref sig .tc := ⟨.hbm, 147, rfl⟩
abbrev main_call7_v13 : Ref sig .tc := ⟨.hbm, 148, rfl⟩
abbrev main_call7_v14 : Ref sig .tc := ⟨.hbm, 149, rfl⟩
abbrev main_v40 : Ref sig .tc := ⟨.hbm, 150, rfl⟩
abbrev main_c_13 : Ref sig .tc := ⟨.hbm, 151, rfl⟩
abbrev main_v41 : Ref sig .tc := ⟨.hbm, 152, rfl⟩
abbrev main_v42 : Ref sig .tc := ⟨.hbm, 153, rfl⟩
abbrev main_c_14 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_c_15 : Ref sig .tc := ⟨.hbm, 160, rfl⟩
abbrev main_v48 : Ref sig .tc := ⟨.hbm, 161, rfl⟩
abbrev main_v49 : Ref sig .tc := ⟨.hbm, 162, rfl⟩
abbrev main_c_16 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_call8_cst : Ref sig .tc := ⟨.hbm, 174, rfl⟩
abbrev main_call8_v0 : Ref sig .tc := ⟨.hbm, 175, rfl⟩
abbrev main_v60 : Ref sig .tc := ⟨.hbm, 176, rfl⟩
abbrev main_v61 : Ref sig .tc := ⟨.hbm, 177, rfl⟩
abbrev main_cst_17 : Ref sig .tc := ⟨.hbm, 178, rfl⟩
abbrev main_v62 : Ref sig .tc := ⟨.hbm, 179, rfl⟩
abbrev main_cst_18 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_cst_19 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_cst_20 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_cst_21 : Ref sig .tc := ⟨.hbm, 203, rfl⟩
abbrev main_v83 : Ref sig .tc := ⟨.hbm, 204, rfl⟩
abbrev main_v84 : Ref sig .tc := ⟨.hbm, 205, rfl⟩
abbrev main_cst_22 : Ref sig .tc := ⟨.hbm, 206, rfl⟩
abbrev main_v85 : Ref sig .tc := ⟨.hbm, 207, rfl⟩
abbrev main_v86 : Ref sig .tc := ⟨.hbm, 208, rfl⟩

abbrev nD : Nat := 1
abbrev τ : Topo := Topo.v7x

variable {F : FTy → Type} [FloatOps F]

class Facts₀ : Prop where
  bcast_S_S13 : S_.BroadcastsInDim S13 (![] : Fin 0 → Fin S13.rank)
  bcast_S13_S13x1_0 : S13.BroadcastsInDim S13x1 (![0] : Fin 1 → Fin S13x1.rank)
  bcast_S13x40_S1x13x40_1_2 : S13x40.BroadcastsInDim S1x13x40 (![1, 2] : Fin 2 → Fin S1x13x40.rank)
  bcast_S4096x13_S4096x13x1_0_1 : S4096x13.BroadcastsInDim S4096x13x1 (![0, 1] : Fin 2 → Fin S4096x13x1.rank)
  bcast_S1x13x40_S4096x13x40_0_1_2 : S1x13x40.BroadcastsInDim S4096x13x40 (![0, 1, 2] : Fin 3 → Fin S4096x13x40.rank)
  bcast_S4096x13x1_S4096x13x40_0_1_2 : S4096x13x1.BroadcastsInDim S4096x13x40 (![0, 1, 2] : Fin 3 → Fin S4096x13x40.rank)
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  concatenates_S4096x13x40_S4096x26x40_S4096x39x40_d1 : Shape.Concatenates [S4096x13x40, S4096x26x40] S4096x39x40 1
  bcast_S_S39x39 : S_.BroadcastsInDim S39x39 (![] : Fin 0 → Fin S39x39.rank)
  shapeCasts_S39x39_S1521 : S39x39.ShapeCasts S1521
  natLt_1_32 : 1 < 32
  bcast_S_S_ : S_.BroadcastsInDim S_ (![] : Fin 0 → Fin S_.rank)
  reduceWindows_S1521_S1521_w1521s1p1520_0 : S1521.ReduceWindows (![1521] : Fin 1 → Nat) ![1] ![1520] ![0] S1521
  h_S_ : 0 < S_.numel
  bcast_S_S741 : S_.BroadcastsInDim S741 (![] : Fin 0 → Fin S741.rank)
  bcast_S_S1521 : S_.BroadcastsInDim S1521 (![] : Fin 0 → Fin S1521.rank)
  bcast_S1521_S1521x1_0 : S1521.BroadcastsInDim S1521x1 (![0] : Fin 1 → Fin S1521x1.rank)
  reduceWindows_S741_S741_w741s1p740_0 : S741.ReduceWindows (![741] : Fin 1 → Nat) ![1] ![740] ![0] S741
  bcast_S741_S741x1_0 : S741.BroadcastsInDim S741x1 (![0] : Fin 1 → Fin S741x1.rank)
  bcast_S8_S1x1x8_2 : S8.BroadcastsInDim S1x1x8 (![2] : Fin 1 → Fin S1x1x8.rank)
  bcast_S1x1x8_S4096x741x8_0_1_2 : S1x1x8.BroadcastsInDim S4096x741x8 (![0, 1, 2] : Fin 3 → Fin S4096x741x8.rank)
  bcast_S_S4096x741x8 : S_.BroadcastsInDim S4096x741x8 (![] : Fin 0 → Fin S4096x741x8.rank)
  reducesTo_S4096x741x1_S4096x1_d1 : S4096x741x1.ReducesTo [1] S4096x1
  bcast_S_S4096x1 : S_.BroadcastsInDim S4096x1 (![] : Fin 0 → Fin S4096x1.rank)
  bcast_S4096x1_S4096x1x1_0_2 : S4096x1.BroadcastsInDim S4096x1x1 (![0, 2] : Fin 2 → Fin S4096x1x1.rank)
  bcast_S4096x1x1_S4096x741x1_0_1_2 : S4096x1x1.BroadcastsInDim S4096x741x1 (![0, 1, 2] : Fin 3 → Fin S4096x741x1.rank)
  bcast_S4096x741x1_S4096x741x40_0_1_2 : S4096x741x1.BroadcastsInDim S4096x741x40 (![0, 1, 2] : Fin 3 → Fin S4096x741x40.rank)
  reducesTo_S4096x741x40_S4096x40_d1 : S4096x741x40.ReducesTo [1] S4096x40
  transposes_S1x40_S40x1_1_0 : S1x40.Transposes [1, 0] S40x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100000x40_S13x1_S13x40_1_0_n_n_0_1_140_wf : GatherDims.WF S100000x40 S13x1 S13x40 [1] [0] [] [0] [] 1 ![1, 40]
  gather_S100000x40_S4096x26x1_S4096x26x40_2_0_n_n_0_2_140_wf : GatherDims.WF S100000x40 S4096x26x1 S4096x26x40 [2] [0] [] [0] [] 2 ![1, 40]
  scatter_S741_S1521x1_S1521_n_0_0_1_wf : ScatterDims.WF S741 S1521x1 S1521 [] [0] [0] 1
  gather_S4096x39x40_S741x1_S4096x741x40_02_1_n_n_1_1_4096140_wf : GatherDims.WF S4096x39x40 S741x1 S4096x741x40 [0, 2] [1] [] [1] [] 1 ![4096, 1, 40]
  dot_S4096x741x40_S8x40_S4096x741x8_2_1_01_0_n_n_wf : DotDims.WF S4096x741x40 S8x40 S4096x741x8 [2] [1] [0, 1] [0] [] []
  dot_S4096x741x8_S1x8_S4096x741x1_2_1_01_0_n_n_wf : DotDims.WF S4096x741x8 S1x8 S4096x741x1 [2] [1] [0, 1] [0] [] []
  dot_S4096x40_S40x1_S4096x1_1_0_0_1_n_n_wf : DotDims.WF S4096x40 S40x1 S4096x1 [1] [0] [0] [1] [] []

variable [Facts₀]

def gather_S100000x40_S13x1_S13x40_1_0_n_n_0_1_140 : GatherDims S100000x40 S13x1 S13x40 where
  offsetDims := [1]
  collapsedSliceDims := [0]
  operandBatchingDims := []
  startIndicesBatchingDims := []
  startIndexMap := [0]
  indexVectorDim := 1
  sliceSizes := ![1, 40]
  wf := gather_S100000x40_S13x1_S13x40_1_0_n_n_0_1_140_wf
def gather_S100000x40_S4096x26x1_S4096x26x40_2_0_n_n_0_2_140 : GatherDims S100000x40 S4096x26x1 S4096x26x40 where
  offsetDims := [2]
  collapsedSliceDims := [0]
  operandBatchingDims := []
  startIndicesBatchingDims := []
  startIndexMap := [0]
  indexVectorDim := 2
  sliceSizes := ![1, 40]
  wf := gather_S100000x40_S4096x26x1_S4096x26x40_2_0_n_n_0_2_140_wf
def scatter_S741_S1521x1_S1521_n_0_0_1 : ScatterDims S741 S1521x1 S1521 where
  updateWindowDims := []
  insertedWindowDims := [0]
  scatterDimsToOperandDims := [0]
  indexVectorDim := 1
  wf := scatter_S741_S1521x1_S1521_n_0_0_1_wf
def gather_S4096x39x40_S741x1_S4096x741x40_02_1_n_n_1_1_4096140 : GatherDims S4096x39x40 S741x1 S4096x741x40 where
  offsetDims := [0, 2]
  collapsedSliceDims := [1]
  operandBatchingDims := []
  startIndicesBatchingDims := []
  startIndexMap := [1]
  indexVectorDim := 1
  sliceSizes := ![4096, 1, 40]
  wf := gather_S4096x39x40_S741x1_S4096x741x40_02_1_n_n_1_1_4096140_wf
def dot_S4096x741x40_S8x40_S4096x741x8_2_1_01_0_n_n : DotDims S4096x741x40 S8x40 S4096x741x8 where
  lhsContracting := [2]
  rhsContracting := [1]
  lhsNonContracting := [0, 1]
  rhsNonContracting := [0]
  lhsBatch := []
  rhsBatch := []
  wf := dot_S4096x741x40_S8x40_S4096x741x8_2_1_01_0_n_n_wf
def dot_S4096x741x8_S1x8_S4096x741x1_2_1_01_0_n_n : DotDims S4096x741x8 S1x8 S4096x741x1 where
  lhsContracting := [2]
  rhsContracting := [1]
  lhsNonContracting := [0, 1]
  rhsNonContracting := [0]
  lhsBatch := []
  rhsBatch := []
  wf := dot_S4096x741x8_S1x8_S4096x741x1_2_1_01_0_n_n_wf
def dot_S4096x40_S40x1_S4096x1_1_0_0_1_n_n : DotDims S4096x40 S40x1 S4096x1 where
  lhsContracting := [1]
  rhsContracting := [0]
  lhsNonContracting := [0]
  rhsNonContracting := [1]
  lhsBatch := []
  rhsBatch := []
  wf := dot_S4096x40_S40x1_S4096x1_1_0_0_1_n_n_wf

class Facts : Prop extends Facts₀ where

variable [Facts]
-- ==== Proof.Spec.lean ====
/-
  The mathematics of the attentional factorization machine, over the reals, for one batch row.

  A row has 39 fields, each a vector of 40 reals.  Every unordered pair of distinct fields (i < j) gives the
  elementwise product of the two field vectors; a one-hidden-layer network (8 rectified units, then a linear
  read-out) scores each pair; the scores are turned into softmax weights over the 741 pairs; the weighted sum
  of the pair products is projected to a scalar and passed through the logistic function.

  Both programs compute exactly this number when every float input is finite and every categorical index is
  inside the table: the reference in two passes over the 741 pairs listed in row-major order of the strict
  upper triangle, the kernel in one streaming pass, field by field, rescaling its running sums whenever the
  running maximum of the scores grows.
-/
import Mathlib.Analysis.SpecialFunctions.Exp
import Mathlib.Data.Finset.Lattice.Fold
import Mathlib.Data.Fintype.Prod
import Mathlib.Algebra.BigOperators.Fin

noncomputable section

namespace Cert.Afm

open Finset

/-! ## The pairs of fields -/

/-- The unordered pairs of distinct fields, each written with the smaller field first. -/
def pairs : Finset (Fin 39 × Fin 39) := Finset.univ.filter fun q => q.1 < q.2

theorem mem_pairs {q : Fin 39 × Fin 39} : q ∈ pairs ↔ q.1 < q.2 := by simp [pairs]

theorem pairs_nonempty : pairs.Nonempty := ⟨(0, 1), by decide⟩

/-- The pairs in row-major order of the strict upper triangle: (0,1), (0,2), …, (0,38), (1,2), …, (37,38). -/
def pairList : List (Fin 39 × Fin 39) :=
  (List.finRange 39).flatMap fun i => ((List.finRange 39).filter fun j => i < j).map fun j => (i, j)

theorem pairList_length : pairList.length = 741 := by decide

/-- The p-th pair in that order. -/
def pairOf (p : Fin 741) : Fin 39 × Fin 39 := pairList.get (p.cast pairList_length.symm)

/-! ## One batch row -/

section Row

variable (x : Fin 39 → Fin 40 → ℝ) (W : Fin 8 → Fin 40 → ℝ) (bA : Fin 8 → ℝ) (P : Fin 8 → ℝ)
  (fcW : Fin 40 → ℝ) (fcB : ℝ)

/-- The elementwise product of fields i and j. -/
def ew (i j : Fin 39) (d : Fin 40) : ℝ := x i d * x j d

/-- The score of the pair (i, j): eight rectified units on the product vector, then a linear read-out. -/
def score (i j : Fin 39) : ℝ := ∑ k : Fin 8, max (∑ d : Fin 40, ew x i j d * W k d + bA k) 0 * P k

/-- The largest score over all pairs. -/
def topScore : ℝ := pairs.sup' pairs_nonempty fun q => score x W bA P q.1 q.2

/-- The softmax denominator: the exponentials of the scores, shifted by the largest. -/
def norm : ℝ := ∑ q ∈ pairs, Real.exp (score x W bA P q.1 q.2 - topScore x W bA P)

/-- The attention-weighted sum of the pair products, coordinate d. -/
def pooled (d : Fin 40) : ℝ :=
  ∑ q ∈ pairs, Real.exp (score x W bA P q.1 q.2 - topScore x W bA P) / norm x W bA P * ew x q.1 q.2 d

/-- The row's output: the logistic function of the projected pooled vector. -/
def outRow : ℝ := 1 / (1 + Real.exp (-(∑ d : Fin 40, pooled x W bA P d * fcW d + fcB)))

end Row

/-! ## The embedded row -/

/-- Field f of batch row b: the first 13 fields are rows 0..12 of the table scaled by the row's continuous
    values, the other 26 are the table rows the row's categorical indices select. -/
def fieldRow (conts : Fin 4096 → Fin 13 → ℝ) (cat : Fin 4096 → Fin 26 → Fin 100000)
    (emb : Fin 100000 → Fin 40 → ℝ) (b : Fin 4096) (f : Fin 39) (d : Fin 40) : ℝ :=
  if h : f.val < 13 then emb ⟨f.val, by omega⟩ d * conts b ⟨f.val, h⟩
  else emb (cat b ⟨f.val - 13, by omega⟩) d

end Cert.Afm

end
-- ==== Proof.SpecArr.lean ====
/-
  The common value of both programs, as one array: entry b of the result is the row output of Spec.lean on
  batch row b, read off the argument arrays (each float entry through its real value, each categorical index
  through its value as a table row).
-/
import proofs.«413975_j5944234738104_2_alg».proof.Proof.Spec
import Idealize.ShloMosaic.PureOps.Ideal
import Idealize.ShloMosaic.Lib.ValueIdx

noncomputable section
namespace Cert.Afm
open Idealize.ShloMosaic Idealize.ShloMosaic.ValueIdx

/-- A categorical word as a row of the table (any word; inside the table's range it is the word's value). -/
def catRow (w : BitVec 32) : Fin 100000 := ⟨w.toNat % 100000, Nat.mod_lt _ (by norm_num)⟩

theorem catRow_of_lt (w : BitVec 32) (h : w.toNat < 100000) : catRow w = ⟨w.toNat, h⟩ := by
  simp [catRow, Nat.mod_eq_of_lt h]

/-- The embedded fields of batch row b, from the argument arrays. -/
def rowsOf (a0 : FVec Ideal ⟨2, ![4096, 13]⟩ .f32) (a1 : IVec ⟨2, ![4096, 26]⟩ 32) (a3 : FVec Ideal ⟨2, ![100000, 40]⟩ .f32)
    (b : Fin 4096) : Fin 39 → Fin 40 → ℝ :=
  fieldRow (fun b f => (a0 (ix2 b f)).toReal) (fun b f => catRow (a1 (ix2 b f))) (fun v d => (a3 (ix2 v d)).toReal) b

/-- The result array both programs compute. -/
def G (a0 : FVec Ideal ⟨2, ![4096, 13]⟩ .f32) (a1 : IVec ⟨2, ![4096, 26]⟩ 32) (a3 : FVec Ideal ⟨2, ![100000, 40]⟩ .f32)
    (a4 : FVec Ideal ⟨2, ![8, 40]⟩ .f32) (a5 : FVec Ideal ⟨1, ![8]⟩ .f32) (a6 : FVec Ideal ⟨2, ![1, 8]⟩ .f32)
    (a7 : FVec Ideal ⟨2, ![1, 40]⟩ .f32) (a8 : FVec Ideal ⟨1, ![1]⟩ .f32) : FVec Ideal ⟨2, ![4096, 1]⟩ .f32 :=
  fun idx => ((outRow (rowsOf a0 a1 a3 ⟨(idx 0).val, (idx 0).isLt⟩) (fun k d => (a4 (ix2 k d)).toReal) (fun k => (a5 (ix1 k)).toReal)
    (fun k => (a6 (ix2 0 k)).toReal) (fun d => (a7 (ix2 0 d)).toReal) (a8 (ix1 0)).toReal : ℝ) : EReal)

end Cert.Afm
end
-- ==== Proof.Glue.lean ====
/-
  Small facts shared by both sides: an extended real known to be a real is the coercion of its real part, and
  under the precondition the embedded field array is the coercion of the real rows of SpecArr.lean.
-/
import proofs.«413975_j5944234738104_2_alg».proof.Proof.SpecArr
import Mathlib.Data.EReal.Basic
import Mathlib.Data.EReal.Operations

noncomputable section
namespace Cert.Afm.Glue
open Idealize.ShloMosaic Idealize.ShloMosaic.ValueIdx Cert.Afm

/-- A finite extended real is its real part. -/
theorem coe_toReal_of {x : EReal} (h : ∃ r : ℝ, x = (r : EReal)) : x = ((x.toReal : ℝ) : EReal) := by
  obtain ⟨r, rfl⟩ := h
  simp

/-- Inside the table's range, field f of row b is the coercion of the real row of SpecArr.lean: a scaled
    table row for the continuous fields, the selected table row for the categorical ones. -/
theorem field_coe (a0 : FVec Ideal ⟨2, ![4096, 13]⟩ .f32) (a1 : IVec ⟨2, ![4096, 26]⟩ 32) (a3 : FVec Ideal ⟨2, ![100000, 40]⟩ .f32)
    (h0 : ∀ i, ∃ r : ℝ, a0 i = (r : EReal)) (h3 : ∀ i, ∃ r : ℝ, a3 i = (r : EReal)) (hc : ∀ i, (a1 i).toNat < 100000)
    (b : Fin 4096) (f : Fin 39) (d : Fin 40) :
    (if h : f.val < 13 then a3 (ix2 (⟨f.val, by omega⟩ : Fin 100000) d) * a0 (ix2 b (⟨f.val, h⟩ : Fin 13))
      else a3 (ix2 (⟨(a1 (ix2 b (⟨f.val - 13, by omega⟩ : Fin 26))).toNat, hc _⟩ : Fin 100000) d))
      = ((rowsOf a0 a1 a3 b f d : ℝ) : EReal) := by
  unfold rowsOf fieldRow
  by_cases h : f.val < 13
  · rw [dif_pos h, dif_pos h]
    rw [coe_toReal_of (h3 _), coe_toReal_of (h0 (ix2 b (⟨f.val, h⟩ : Fin 13))), ← EReal.coe_mul]
  · rw [dif_neg h, dif_neg h]
    show _ = ((EReal.toReal (a3 (ix2 (catRow (a1 (ix2 b (⟨f.val - 13, by omega⟩ : Fin 26)))) d)) : ℝ) : EReal)
    rw [catRow_of_lt _ (hc _)]
    exact coe_toReal_of (h3 _)

end Cert.Afm.Glue
end
-- ==== Proof.PreFacts.lean ====
/-
  The precondition decoded. The printed predicate is the conjunction, over the eight float
  arguments, of "every entry has magnitude below +∞" and, for the integer argument, of "every entry e has 0 ≤ e and
  e < 100000, signed". Read at the ideal floats (extended reals), a magnitude max x (−x) below ⊤ excludes both
  infinities, so the entry is a real; a 32-bit word that is non-negative signed has its top bit clear, so its signed and
  unsigned readings agree and the unsigned one is below 100000.
-/
import proofs.«413975_j5944234738104_2_alg».proof.Pre_finite_inputs
import proofs.«413975_j5944234738104_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Afm.PreFacts

open Idealize.ShloMosaic

/-- The scalar shape has one index. -/
instance subsingleton_scalar_idx : Subsingleton (⟨0, ![]⟩ : Shape).Idx := ⟨fun a b => funext fun d => d.elim0⟩

/-- The pattern 0x7F800000 is +∞. -/
theorem inf_bits : Ideal.ofBits .f32 0x7F800000#32 = (⊤ : EReal) := by
  simp [Ideal.ofBits, Ideal.ieee]

/-- An extended real whose magnitude max x (−x) is strictly below +∞ is a real. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact of one `jnp.all(|a| < +inf)`: the compare bit set makes the entry a real. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [inf_bits] at h'
  unfold Ideal.cmp at h'
  rw [StableHlo.Predicate.ofBool_eq_one_iff] at h'
  exact of_decide_eq_true h'

/-- One float argument: the `and`-reduction over all axes of the compare bits being 1 makes every entry a real. -/
theorem real_of_all {s : Shape} {axes : List (Fin s.rank)} (hb : (⟨0, ![]⟩ : Shape).BroadcastsInDim s ![])
    (hr : s.ReducesTo axes ⟨0, ![]⟩) (hu : 0 < (⟨0, ![]⟩ : Shape).numel) (x : FVec Ideal s .f32)
    (e : Host.reduce IntOp.andi
          (cmpf .olt (Host.absf x) (broadcastInDim s ![] hb (constant (F := Ideal) ⟨0, ![]⟩ .f32 0x7F800000#32)))
          (constantI ⟨0, ![]⟩ 1 1#1) hr hu ValueIdx.ix0 = 1#1) :
    ∀ i, ∃ r : ℝ, x i = (r : EReal) := by
  intro i
  have hi := Host.reduce_andi_all _ _ hr hu ValueIdx.ix0 e i
  exact real_of_cmp (x i) hi

/-- A 32-bit word that is ≥ 0 and < 100000 as a signed number has its top bit clear and is below 100000 unsigned. -/
theorem word_range (w : BitVec 32) (h0 : IntOp.cmpi .sge w 0#32 = 1#1) (h1 : IntOp.cmpi .slt w 100000#32 = 1#1) :
    w.toNat < 100000 ∧ w.msb = false := by
  unfold IntOp.cmpi at h0 h1
  rw [StableHlo.Predicate.ofBool_eq_one_iff] at h0 h1
  simp only [BitVec.sle, BitVec.slt, decide_eq_true_eq] at h0 h1
  have h32 := w.isLt
  have ht := BitVec.toInt_eq_msb_cond w
  have hz : (0#32 : BitVec 32).toInt = 0 := by decide
  have hc : (100000#32 : BitVec 32).toInt = 100000 := by decide
  rw [hz] at h0
  rw [hc] at h1
  cases hm : w.msb <;> simp only [hm, Bool.false_eq_true, if_true, if_false] at ht <;> refine ⟨?_, ?_⟩ <;> first | rfl | omega

/-- The integer argument: the `and`-reduction of (e ≥ 0) ∧ (e < 100000) being 1 bounds every entry. -/
theorem range_of_all {s : Shape} {axes : List (Fin s.rank)} (hb : (⟨0, ![]⟩ : Shape).BroadcastsInDim s ![])
    (hr : s.ReducesTo axes ⟨0, ![]⟩) (hu : 0 < (⟨0, ![]⟩ : Shape).numel) (x : IVec s 32)
    (e : Host.reduce IntOp.andi
          (andi (cmpi .sge x (broadcastInDim s ![] hb (constantI ⟨0, ![]⟩ 32 0#32)))
                (cmpi .slt x (broadcastInDim s ![] hb (constantI ⟨0, ![]⟩ 32 100000#32))))
          (constantI ⟨0, ![]⟩ 1 1#1) hr hu ValueIdx.ix0 = 1#1) :
    ∀ i, (x i).toNat < 100000 ∧ (x i).msb = false := by
  intro i
  have hi := Host.reduce_andi_all _ _ hr hu ValueIdx.ix0 e i
  obtain ⟨h0, h1⟩ := IntOp.andi_eq_one.1 hi
  exact word_range (x i) h0 h1

open Cert.Pre_finite_inputs in
/-- THE PRECONDITION DECODED: every entry of every float argument is a real, and every entry of the integer argument,
    read unsigned, is below 100000 with its top bit clear (0 ≤ e < 100000 signed). -/
theorem decoded (a0 : FVec Ideal ⟨2, ![4096, 13]⟩ .f32) (a1 : IVec ⟨2, ![4096, 26]⟩ 32) (a2 : FVec Ideal ⟨2, ![4096, 1]⟩ .f32)
    (a3 : FVec Ideal ⟨2, ![100000, 40]⟩ .f32) (a4 : FVec Ideal ⟨2, ![8, 40]⟩ .f32) (a5 : FVec Ideal ⟨1, ![8]⟩ .f32)
    (a6 : FVec Ideal ⟨2, ![1, 8]⟩ .f32) (a7 : FVec Ideal ⟨2, ![1, 40]⟩ .f32) (a8 : FVec Ideal ⟨1, ![1]⟩ .f32)
    (h : Cert.Pre_finite_inputs.fn (F := Ideal) a0 a1 a2 a3 a4 a5 a6 a7 a8 = fun _ => 1#1) :
    ((∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)))
    ∧ (∀ i, (a1 i).toNat < 100000 ∧ (a1 i).msb = false) := by
  have e := congrFun h ValueIdx.ix0
  dsimp only [Cert.Pre_finite_inputs.fn, Cert.Pre_finite_inputs.fn_part1, Cert.Pre_finite_inputs.fn_part2] at e
  obtain ⟨h8', e1⟩ := IntOp.andi_eq_one.1 e
  obtain ⟨h7', e8⟩ := IntOp.andi_eq_one.1 h8'
  obtain ⟨h6', e7⟩ := IntOp.andi_eq_one.1 h7'
  obtain ⟨h5', e6⟩ := IntOp.andi_eq_one.1 h6'
  obtain ⟨h4', e5⟩ := IntOp.andi_eq_one.1 h5'
  obtain ⟨h3', e4⟩ := IntOp.andi_eq_one.1 h4'
  obtain ⟨h2', e3⟩ := IntOp.andi_eq_one.1 h3'
  obtain ⟨e0, e2⟩ := IntOp.andi_eq_one.1 h2'
  exact ⟨⟨real_of_all _ _ _ a0 e0, real_of_all _ _ _ a2 e2, real_of_all _ _ _ a3 e3, real_of_all _ _ _ a4 e4,
    real_of_all _ _ _ a5 e5, real_of_all _ _ _ a6 e6, real_of_all _ _ _ a7 e7, real_of_all _ _ _ a8 e8⟩,
    range_of_all _ _ _ a1 e1⟩

/-- The form consumers take: the float arguments the law reads are real-valued, and the integer argument is in range. -/
theorem finite_of_pre (a0 : FVec Ideal ⟨2, ![4096, 13]⟩ .f32) (a1 : IVec ⟨2, ![4096, 26]⟩ 32) (a2 : FVec Ideal ⟨2, ![4096, 1]⟩ .f32)
    (a3 : FVec Ideal ⟨2, ![100000, 40]⟩ .f32) (a4 : FVec Ideal ⟨2, ![8, 40]⟩ .f32) (a5 : FVec Ideal ⟨1, ![8]⟩ .f32)
    (a6 : FVec Ideal ⟨2, ![1, 8]⟩ .f32) (a7 : FVec Ideal ⟨2, ![1, 40]⟩ .f32) (a8 : FVec Ideal ⟨1, ![1]⟩ .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal))
      ∧ (∀ i, (a1 i).toNat < 100000 ∧ (a1 i).msb = false) := by
  obtain ⟨⟨h0, -, h3, h4, h5, h6, h7, h8⟩, h1⟩ := decoded a0 a1 a2 a3 a4 a5 a6 a7 a8 h
  exact ⟨h0, h3, h4, h5, h6, h7, h8, h1⟩

/-- The third argument (which the precondition also constrains) is real-valued too. -/
theorem arg2_real_of_pre (a0 : FVec Ideal ⟨2, ![4096, 13]⟩ .f32) (a1 : IVec ⟨2, ![4096, 26]⟩ 32) (a2 : FVec Ideal ⟨2, ![4096, 1]⟩ .f32)
    (a3 : FVec Ideal ⟨2, ![100000, 40]⟩ .f32) (a4 : FVec Ideal ⟨2, ![8, 40]⟩ .f32) (a5 : FVec Ideal ⟨1, ![8]⟩ .f32)
    (a6 : FVec Ideal ⟨2, ![1, 8]⟩ .f32) (a7 : FVec Ideal ⟨2, ![1, 40]⟩ .f32) (a8 : FVec Ideal ⟨1, ![1]⟩ .f32)
    (h : Cert.Pre_finite_inputs.fn (F := Ideal) a0 a1 a2 a3 a4 a5 a6 a7 a8 = fun _ => 1#1) :
    ∀ i, ∃ r : ℝ, a2 i = (r : EReal) :=
  (decoded a0 a1 a2 a3 a4 a5 a6 a7 a8 h).1.2.1

/-- A word with its top bit clear reads the same signed and unsigned; so a word in range unsigned with its top bit clear
    is in [0, 100000) signed. -/
theorem toInt_of_range (w : BitVec 32) (h : w.toNat < 100000 ∧ w.msb = false) :
    w.toInt = (w.toNat : Int) ∧ 0 ≤ w.toInt ∧ w.toInt < 100000 := by
  have ht := BitVec.toInt_eq_msb_cond w
  simp only [h.2, Bool.false_eq_true, if_false] at ht
  have := h.1
  refine ⟨ht, ?_, ?_⟩ <;> omega

end Cert.Afm.PreFacts

end
-- ==== Proof.KStep.lean ====
/-
  The kernel body as a recurrence.

  The body streams over the fields: for field i it forms the products of field i with the n = 38 - i later
  fields, scores them, and folds them into three running quantities per batch row — the largest score seen
  (m), the sum of exp(score - m) (l) and the sum of exp(score - m) times the product vector (acc) — rescaling
  l and acc by exp(m_old - m_new) whenever the maximum grows.  After the last field the pooled vector is
  acc / l, and the output is the logistic function of its projection.

  Here the pure operations of ONE such step are written once, for any i and n, over vectors; the whole body
  is the 38-fold iteration of the step.
-/
import proofs.«413975_j5944234738104_2_alg».proof.KernelIdeal

noncomputable section
namespace Cert.Afm.KStep
open Idealize.ShloMosaic Cert.KernelIdeal

variable {F : FTy → Type} [FloatOps F]

/-- n later fields, 512 batch rows, d coordinates. -/
abbrev T3 (n d : ℕ) : Shape := ⟨3, ![n, 512, d]⟩
/-- The same with the field and row axes merged. -/
abbrev T2 (n d : ℕ) : Shape := ⟨2, ![n * 512, d]⟩

/-- The shape facts one step's operations need. -/
structure Evid (i n : ℕ) : Prop where
  sl1 : S39x512x40.Slices ![i, 0, 0] S1x512x40
  sl2 : S39x512x40.Slices ![i + 1, 0, 0] (T3 n 40)
  bc1 : S1x512x40.Broadcasts (T3 n 40)
  sc1 : (T3 n 40).ShapeCasts (T2 n 40)
  bc2 : S1x8.Broadcasts (T2 n 8)
  sc2 : (T2 n 1).ShapeCasts (T3 n 1)
  rd1 : (T3 n 1).Reduces [0] S512x1
  bc3 : S1x512x1.Broadcasts (T3 n 1)
  bc4 : (T3 n 1).Broadcasts (T3 n 40)
  rd2 : (T3 n 40).Reduces [0] S512x40

instance (i n : ℕ) : Decidable (Evid i n) :=
  decidable_of_iff (S39x512x40.Slices ![i, 0, 0] S1x512x40 ∧ S39x512x40.Slices ![i + 1, 0, 0] (T3 n 40) ∧
    S1x512x40.Broadcasts (T3 n 40) ∧ (T3 n 40).ShapeCasts (T2 n 40) ∧ S1x8.Broadcasts (T2 n 8) ∧
    (T2 n 1).ShapeCasts (T3 n 1) ∧ (T3 n 1).Reduces [0] S512x1 ∧ S1x512x1.Broadcasts (T3 n 1) ∧
    (T3 n 1).Broadcasts (T3 n 40) ∧ (T3 n 40).Reduces [0] S512x40)
    ⟨fun ⟨a, b, c, d, e, f, g, h, i, j⟩ => ⟨a, b, c, d, e, f, g, h, i, j⟩,
     fun ⟨a, b, c, d, e, f, g, h, i, j⟩ => ⟨a, b, c, d, e, f, g, h, i, j⟩⟩

/-- Field i of the transposed block, as a 512 × 40 matrix. -/
def fieldAt (i : ℕ) (v3 : FVec F S39x512x40 .f32) (h : S39x512x40.Slices ![i, 0, 0] S1x512x40) : FVec F S512x40 .f32 :=
  shapeCast S512x40 (extractStridedSlice S1x512x40 ![i, 0, 0] v3 h) (by decide)

/-- The products of field i with the n later fields. -/
def ewp (i n : ℕ) (ev : Evid i n) (v3 : FVec F S39x512x40 .f32) : FVec F (T3 n 40) .f32 :=
  mulf (broadcastTo (T3 n 40) (shapeCast S1x512x40 (fieldAt i v3 ev.sl1) (by decide)) ev.bc1)
    (extractStridedSlice (T3 n 40) ![i + 1, 0, 0] v3 ev.sl2)

/-- The scores of n product vectors per row: eight rectified units, then the read-out. -/
def logits (n : ℕ) (sc1 : (T3 n 40).ShapeCasts (T2 n 40)) (bc2 : S1x8.Broadcasts (T2 n 8)) (sc2 : (T2 n 1).ShapeCasts (T3 n 1))
    (e : FVec F (T3 n 40) .f32) (v4 : FVec F S8x40 .f32) (v6 v7 : FVec F S1x8 .f32) : FVec F (T3 n 1) .f32 :=
  shapeCast (T3 n 1)
    (matmul (DotDims.plain (n * 512) 8 1) none
      (maximumf (addf (matmul (DotDims.plain (n * 512) 40 8) none (shapeCast (T2 n 40) e sc1) (transpose S40x8 [1, 0] v4 (by decide)) (constant (T2 n 8) .f32 0x00000000#32))
          (broadcastTo (T2 n 8) v6 bc2)) (broadcast (T2 n 8) (Scalar.ofBits .f32 0x00000000#32)))
      (transpose S8x1 [1, 0] v7 (by decide)) (constant (T2 n 1) .f32 0x00000000#32)) sc2

/-- The running maximum, sum and weighted sum, per batch row. -/
structure State (F : FTy → Type) where
  m : FVec F S512x1 .f32
  l : FVec F S512x1 .f32
  acc : FVec F S512x40 .f32

/-- The new running maximum. -/
def newM (n : ℕ) (rd1 : (T3 n 1).Reduces [0] S512x1) (lg : FVec F (T3 n 1) .f32) (m : FVec F S512x1 .f32) : FVec F S512x1 .f32 :=
  maximumf m (multiReduction .maximumf [0] S512x1 lg 0xFF800000#32 rd1 (.inl rfl) rfl)

/-- The factor that rescales the old sums. -/
def corr (m m' : FVec F S512x1 .f32) : FVec F S512x1 .f32 := exp (subf m m')

/-- The new weights exp(score - m'). -/
def wts (n : ℕ) (bc3 : S1x512x1.Broadcasts (T3 n 1)) (lg : FVec F (T3 n 1) .f32) (m' : FVec F S512x1 .f32) : FVec F (T3 n 1) .f32 :=
  exp (subf lg (broadcastTo (T3 n 1) (shapeCast S1x512x1 m' (by decide)) bc3))

def newL (n : ℕ) (rd1 : (T3 n 1).Reduces [0] S512x1) (l c : FVec F S512x1 .f32) (p : FVec F (T3 n 1) .f32) : FVec F S512x1 .f32 :=
  addf (mulf l c) (multiReduction .add [0] S512x1 p 0x00000000#32 rd1 (.inl rfl) rfl)

def newAcc (n : ℕ) (bc4 : (T3 n 1).Broadcasts (T3 n 40)) (rd2 : (T3 n 40).Reduces [0] S512x40)
    (acc : FVec F S512x40 .f32) (c : FVec F S512x1 .f32) (p : FVec F (T3 n 1) .f32) (e : FVec F (T3 n 40) .f32) : FVec F S512x40 .f32 :=
  addf (mulf acc (broadcastTo S512x40 c (by decide)))
    (multiReduction .add [0] S512x40 (mulf (broadcastTo (T3 n 40) p bc4) e) 0x00000000#32 rd2 (.inl rfl) rfl)

/-- One step: fold field i's n products into the state. -/
def step (i n : ℕ) (ev : Evid i n) (v3 : FVec F S39x512x40 .f32) (v4 : FVec F S8x40 .f32) (v6 v7 : FVec F S1x8 .f32) (s : State F) : State F :=
  let e := ewp i n ev v3
  let lg := logits n ev.sc1 ev.bc2 ev.sc2 e v4 v6 v7
  let m' := newM n ev.rd1 lg s.m
  let c := corr s.m m'
  let p := wts n ev.bc3 lg m'
  ⟨m', newL n ev.rd1 s.l c p, newAcc n ev.bc4 ev.rd2 s.acc c p e⟩

/-! ## The last field pair: one later field, so nothing is broadcast along the field axis -/

structure EvidLast : Prop where
  sl1 : S39x512x40.Slices ![37, 0, 0] S1x512x40
  sl2 : S39x512x40.Slices ![38, 0, 0] S1x512x40

def ewpLast (ev : EvidLast) (v3 : FVec F S39x512x40 .f32) : FVec F S1x512x40 .f32 :=
  mulf (shapeCast S1x512x40 (fieldAt 37 v3 ev.sl1) (by decide)) (extractStridedSlice S1x512x40 ![38, 0, 0] v3 ev.sl2)

def wtsLast (lg : FVec F S1x512x1 .f32) (m' : FVec F S512x1 .f32) : FVec F S1x512x1 .f32 :=
  exp (subf lg (shapeCast S1x512x1 m' (by decide)))

def stepLast (ev : EvidLast) (v3 : FVec F S39x512x40 .f32) (v4 : FVec F S8x40 .f32) (v6 v7 : FVec F S1x8 .f32) (s : State F) : State F :=
  let e := ewpLast ev v3
  let lg := logits 1 (by decide) (by decide) (by decide) e v4 v6 v7
  let m' := newM 1 (by decide) lg s.m
  let c := corr s.m m'
  let p := wtsLast lg m'
  ⟨m', newL 1 (by decide) s.l c p, newAcc 1 (by decide) (by decide) s.acc c p e⟩

/-! ## Start, iteration, finish -/

/-- Before any field: maximum -∞, sums zero. -/
def init : State F :=
  ⟨broadcast S512x1 (Scalar.ofBits .f32 0xFF800000#32), broadcast S512x1 (Scalar.ofBits .f32 0x00000000#32),
   broadcast S512x40 (Scalar.ofBits .f32 0x00000000#32)⟩

theorem evid_all : ∀ i : Fin 37, Evid i.val (38 - i.val) := by decide
theorem evidLast : EvidLast := ⟨by decide, by decide⟩

/-- The state after the first k fields (k ≤ 37) have been folded in. -/
def iter (v3 : FVec F S39x512x40 .f32) (v4 : FVec F S8x40 .f32) (v6 v7 : FVec F S1x8 .f32) : ℕ → State F
  | 0 => init
  | k + 1 => if h : k < 37 then step k (38 - k) (evid_all ⟨k, h⟩) v3 v4 v6 v7 (iter v3 v4 v6 v7 k) else iter v3 v4 v6 v7 k

/-- The output row block from the final state: pooled = acc / l, projected, logistic, laid out as one row. -/
def finish (v8 : FVec F S1x40 .f32) (v10 : FVec F S1x1 .f32) (s : State F) : FVec F S1x512 .f32 :=
  transpose S1x512 [1, 0]
    (logistic (addf (matmul (DotDims.plain 512 40 1) none (divf s.acc (broadcastTo S512x40 s.l (by decide))) (transpose S40x1 [1, 0] v8 (by decide)) (constant S512x1 .f32 0x00000000#32))
      (broadcastTo S512x1 v10 (by decide)))) (by decide)

/-- The whole body on a block: x-block, attention weights and bias, read-out, projection weights and bias. -/
def body (x0 : Vec F S512x39x40 .bf16) (x1 : Vec F S8x40 .f32) (x2 x3 : Vec F S1x8 .f32) (x4 : Vec F S1x40 .f32) (x5 : Vec F S1x1 .f32) : FVec F S1x512 .f32 :=
  let v3 : FVec F S39x512x40 .f32 := transpose S39x512x40 [1, 0, 2] (extf .f32 (shapeCast S512x39x40 x0 (by decide)) (by decide)) (by decide)
  let v6 : FVec F S1x8 .f32 := shapeCast S1x8 x2 (by decide)
  finish x4 (shapeCast S1x1 x5 (by decide)) (stepLast evidLast v3 x1 v6 x3 (iter v3 x1 v6 x3 37))

end Cert.Afm.KStep
end
-- ==== Proof.KBridge.lean ====
/-
  The block the kernel body leaves in its output window, as the recurrence of KStep.lean: the body's stores
  are one whole-block store whose value is, operation for operation, the 38-fold iteration of the step
  followed by the normalisation and the logistic read-out.
-/
import proofs.«413975_j5944234738104_2_alg».proof.Proof.Gen.KernelIdeal.Frame
import proofs.«413975_j5944234738104_2_alg».proof.Proof.KStep

set_option maxRecDepth 65536

noncomputable section
namespace Cert.Afm.KBridge
open Idealize.ShloMosaic Cert.KernelIdeal Cert.KernelIdeal.Gen Cert.Afm.KStep

variable {F : FTy → Type} [FloatOps F]

set_option maxHeartbeats 1000000 in
/-- What the body stores is the recurrence's result on the loaded blocks: both sides are the same pure
    operations in the same order, so the equation holds by unfolding. -/
theorem out_eq_body (x0 : Vec F S512x39x40 .bf16) (x1 : Vec F S8x40 .f32) (x2 x3 : Vec F S1x8 .f32) (x4 : Vec F S1x40 .f32) (x5 : Vec F S1x1 .f32) :
    out0_6 x0 x1 x2 x3 x4 x5 = View.canon [⟨r0_5, body (View.ld x0 r0_0) (View.ld x1 r0_1) (View.ld x2 r0_2) (View.ld x3 r0_2) (View.ld x4 r0_3) (View.ld x5 r0_4)⟩] := rfl

end Cert.Afm.KBridge
end
-- ==== Proof.KArr.lean ====
/-
  From the kernel program's run to the value of its result array.

  The program runs one pipelined region over a grid of 8 points and then transposes the region's row
  vector into a column.  Point t of the grid reads rows 512 t … 512 t + 511 of the embedded batch (all of
  the five small arrays) and writes columns 512 t … 512 t + 511 of the [1, 4096] row.  So entry b of the final
  [4096, 1] column is entry (0, b mod 512) of the body's result on block b / 512 of the batch.
-/
import proofs.«413975_j5944234738104_2_alg».proof.Proof.Gen.KernelIdeal.Frame
import proofs.«413975_j5944234738104_2_alg».proof.Proof.KStep
import proofs.«413975_j5944234738104_2_alg».proof.Proof.KBridge
import Idealize.ShloMosaic.Lib.Pipeline.Value
import Idealize.ShloMosaic.Lib.ValueIdx
import Idealize.ShloMosaic.Lib.Tactic

set_option maxRecDepth 65536

noncomputable section

namespace Cert.Afm.KArr

open Idealize.ShloMosaic Idealize.ShloMosaic.TcCoe Idealize.SL.Sem Idealize.ShloMosaic.ValueIdx
open Idealize.ShloMosaic.Pipeline (Dat)
open Cert.KernelIdeal Cert.KernelIdeal.Gen Cert.Afm.KStep

variable {F : FTy → Type} [FloatOps F]
variable (m : (ℓ : Loc nD τ sig) → Buf (Elt F) ℓ) (ρ : Dev nD → PrngReg)

/-! ## The body's block -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output window's buffer is the recurrence's result on the six input blocks: its one
    store covers the whole block, and each load reads a whole block. -/
theorem out_block (x0 : Vec F S512x39x40 .bf16) (x1 : Vec F S8x40 .f32) (x2 x3 : Vec F S1x8 .f32) (x4 : Vec F S1x40 .f32) (x5 : Vec F S1x1 .f32) :
    out0_6 x0 x1 x2 x3 x4 x5 = body x0 x1 x2 x3 x4 x5 := by
  rw [Cert.Afm.KBridge.out_eq_body, View.canon_unit_zero hz2,
    View.ld_unit_zero (S := S512x39x40) hz3 _ x0, View.ld_unit_zero (S := S8x40) hz2 _ x1,
    View.ld_unit_zero (S := S1x8) hz2 _ x2, View.ld_unit_zero (S := S1x8) hz2 _ x3,
    View.ld_unit_zero (S := S1x40) hz2 _ x4, View.ld_unit_zero (S := S1x1) hz2 _ x5]

/-! ## The input blocks -/

/-- Rows 512 t … 512 t + 511 of the embedded batch. -/
def blockOf (X : Vec F S4096x39x40 .bf16) (t : Fin 8) : Vec F S512x39x40 .bf16 :=
  fun y => X (ix3 (⟨512 * t.val + (y 0).val, by have := (y 0).isLt; have h : (y 0).val < 512 := this; omega⟩ : Fin 4096)
    (⟨(y 1).val, (y 1).isLt⟩ : Fin 39) (⟨(y 2).val, (y 2).isLt⟩ : Fin 40))

/-- The grid's points as numbers below 8. -/
def pt (t : Fin cfg0.N) : Fin 8 := ⟨t.val, by have := t.isLt; have h : cfg0.N = 8 := N_0; omega⟩

/-- The windows' index maps over the grid: the batch window moves one block of rows per point, the output window one
    block of columns, the five small windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The batch window's block at point t is block t of the batch as the region finds it. -/
theorem iblk0_eq (c : Dev nD) (t : Fin cfg0.N) : (iblk m c 0 t : Vec F S512x39x40 .bf16) = blockOf (V m c main_v8) (pt t) := by
  obtain ⟨e0, e1, e2, -⟩ := idx_facts t
  funext y
  show V m c main_v8 (((cfg0.win 0).blk t).view.emb y) = V m c main_v8 (ix3 _ _ _)
  refine congrArg (V m c main_v8) (funext fun a => Fin.ext ?_)
  match a with
  | ⟨0, _⟩ => show win0_0.index t (0 : Fin 3) * 512 + 1 * (y 0).val = 512 * t.val + (y 0).val; rw [e0]; omega
  | ⟨1, _⟩ => show win0_0.index t (1 : Fin 3) * 39 + 1 * (y 1).val = (y 1).val; rw [e1]; omega
  | ⟨2, _⟩ => show win0_0.index t (2 : Fin 3) * 40 + 1 * (y 2).val = (y 2).val; rw [e2]; omega

theorem iblk1_eq (c : Dev nD) (t : Fin cfg0.N) : (iblk m c 1 t : Vec F S8x40 .f32) = V m c main_arg4 := by
  obtain ⟨-, -, -, e0, e1, -⟩ := idx_facts t
  funext y
  show V m c main_arg4 (((cfg0.win 1).blk t).view.emb y) = V m c main_arg4 y
  refine congrArg (V m c main_arg4) (funext fun a => Fin.ext ?_)
  match a with
  | ⟨0, _⟩ => show win0_1.index t (0 : Fin 2) * 8 + 1 * (y 0).val = (y 0).val; rw [e0]; omega
  | ⟨1, _⟩ => show win0_1.index t (1 : Fin 2) * 40 + 1 * (y 1).val = (y 1).val; rw [e1]; omega
theorem iblk2_eq (c : Dev nD) (t : Fin cfg0.N) : (iblk m c 2 t : Vec F S1x8 .f32) = V m c main_v9 := by
  obtain ⟨-, -, -, -, -, e0, e1, -⟩ := idx_facts t
  funext y
  show V m c main_v9 (((cfg0.win 2).blk t).view.emb y) = V m c main_v9 y
  refine congrArg (V m c main_v9) (funext fun a => Fin.ext ?_)
  match a with
  | ⟨0, _⟩ => show win0_2.index t (0 : Fin 2) * 1 + 1 * (y 0).val = (y 0).val; rw [e0]; omega
  | ⟨1, _⟩ => show win0_2.index t (1 : Fin 2) * 8 + 1 * (y 1).val = (y 1).val; rw [e1]; omega
theorem iblk3_eq (c : Dev nD) (t : Fin cfg0.N) : (iblk m c 3 t : Vec F S1x8 .f32) = V m c main_arg6 := by
  obtain ⟨-, -, -, -, -, -, -, e0, e1, -⟩ := idx_facts t
  funext y
  show V m c main_arg6 (((cfg0.win 3).blk t).view.emb y) = V m c main_arg6 y
  refine congrArg (V m c main_arg6) (funext fun a => Fin.ext ?_)
  match a with
  | ⟨0, _⟩ => show win0_3.index t (0 : Fin 2) * 1 + 1 * (y 0).val = (y 0).val; rw [e0]; omega
  | ⟨1, _⟩ => show win0_3.index t (1 : Fin 2) * 8 + 1 * (y 1).val = (y 1).val; rw [e1]; omega
theorem iblk4_eq (c : Dev nD) (t : Fin cfg0.N) : (iblk m c 4 t : Vec F S1x40 .f32) = V m c main_arg7 := by
  obtain ⟨-, -, -, -, -, -, -, -, -, e0, e1, -⟩ := idx_facts t
  funext y
  show V m c main_arg7 (((cfg0.win 4).blk t).view.emb y) = V m c main_arg7 y
  refine congrArg (V m c main_arg7) (funext fun a => Fin.ext ?_)
  match a with
  | ⟨0, _⟩ => show win0_4.index t (0 : Fin 2) * 1 + 1 * (y 0).val = (y 0).val; rw [e0]; omega
  | ⟨1, _⟩ => show win0_4.index t (1 : Fin 2) * 40 + 1 * (y 1).val = (y 1).val; rw [e1]; omega
theorem iblk5_eq (c : Dev nD) (t : Fin cfg0.N) : (iblk m c 5 t : Vec F S1x1 .f32) = V m c main_v10 := by
  obtain ⟨-, -, -, -, -, -, -, -, -, -, -, e0, e1, -⟩ := idx_facts t
  funext y
  show V m c main_v10 (((cfg0.win 5).blk t).view.emb y) = V m c main_v10 y
  refine congrArg (V m c main_v10) (funext fun a => Fin.ext ?_)
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

/-! ## The row the region leaves -/

/-- Column j of the region's [1, 4096] row: the body on block j / 512 of the batch, read at column j mod 512. -/
def G6 (c : Dev nD) : Vec F S1x4096 .f32 := fun i =>
  body (blockOf (V m c main_v8) ⟨(i 1).val / 512, by have h : (i 1).val < 4096 := (i 1).isLt; omega⟩)
    (V m c main_arg4) (V m c main_v9) (V m c main_arg6) (V m c main_arg7) (V m c main_v10)
    (ix2 (0 : Fin 1) (⟨(i 1).val % 512, Nat.mod_lt _ (by norm_num)⟩ : Fin 512))

/-- The body depends on its six blocks only. -/
theorem body_congr {x0 x0' : Vec F S512x39x40 .bf16} {x1 x1' : Vec F S8x40 .f32} {x2 x2' x3 x3' : Vec F S1x8 .f32}
    {x4 x4' : Vec F S1x40 .f32} {x5 x5' : Vec F S1x1 .f32}
    (h0 : x0 = x0') (h1 : x1 = x1') (h2 : x2 = x2') (h3 : x3 = x3') (h4 : x4 = x4') (h5 : x5 = x5') :
    body x0 x1 x2 x3 x4 x5 = body x0' x1' x2' x3' x4' x5' := by
  subst h0 h1 h2 h3 h4 h5; rfl

/-- The row at column 512 t + q, with the quotient and the remainder named. -/
theorem G6_at (c : Dev nD) (t : Fin 8) (q : Fin 512) (i : S1x4096.Idx) (hi : (i 1).val = 512 * t.val + q.val) :
    G6 m c i = body (blockOf (V m c main_v8) t) (V m c main_arg4) (V m c main_v9) (V m c main_arg6) (V m c main_arg7)
      (V m c main_v10) (ix2 (0 : Fin 1) q) := by
  have hq : q.val < 512 := q.isLt
  have h1 : (⟨(i 1).val / 512, by have h : (i 1).val < 4096 := (i 1).isLt; omega⟩ : Fin 8) = t :=
    Fin.ext (by show (i 1).val / 512 = t.val; omega)
  have h2 : (⟨(i 1).val % 512, Nat.mod_lt _ (by norm_num)⟩ : Fin 512) = q :=
    Fin.ext (by show (i 1).val % 512 = q.val; omega)
  show body (blockOf (V m c main_v8) ⟨(i 1).val / 512, _⟩) _ _ _ _ _ (ix2 (0 : Fin 1) ⟨(i 1).val % 512, _⟩) = _
  rw [h1, h2]

/-- What point t writes back is block t of that row. -/
theorem flushed_eq (c : Dev nD) (t : Fin cfg0.N) :
    (dats m 0 c).flushed 6 t = ((cfg0.win 6).blk t).view.read (Elt F) (G6 m c) := by
  obtain ⟨-, -, -, -, -, -, -, -, -, -, -, -, -, e0, e1⟩ := idx_facts t
  show (cfg0.win 6).cut (grid0.coords t) ((dats m 0 c).after 6 t) = _
  rw [after0_6,
    out_block (iblk m c 0 t) (iblk m c 1 t) (iblk m c 2 t) (iblk m c 3 t) (iblk m c 4 t) (iblk m c 5 t),
    body_congr (iblk0_eq m c t) (iblk1_eq m c t) (iblk2_eq m c t) (iblk3_eq m c t) (iblk4_eq m c t) (iblk5_eq m c t)]
  funext j
  have hj1 : (j 1).val < 512 := (j 1).isLt
  have hj0 : (j 0).val < 1 := (j 0).isLt
  refine Eq.trans ?_ (G6_at m c (pt t) ⟨(j 1).val, hj1⟩ (((cfg0.win 6).blk t).view.emb j) ?_).symm
  · refine congrArg (body (blockOf (V m c main_v8) (pt t)) (V m c main_arg4) (V m c main_v9) (V m c main_arg6) (V m c main_arg7)
      (V m c main_v10)) (funext fun a => Fin.ext ?_)
    match a with
    | ⟨0, _⟩ => show (j 0).val = 0; omega
    | ⟨1, _⟩ => rfl
  · show win0_6.index t (1 : Fin 2) * 512 + 1 * (j 1).val = 512 * t.val + (j 1).val
    rw [e1]; omega

/-- Column j lies in the block of point j / 512, and every point writes its block back. -/
theorem cover6 (i : S1x4096.Idx) : ∃ t : Fin cfg0.N, (cfg0.win 6).flush t = true ∧ i ∈ ((cfg0.win 6).blk t).view.set := by
  have hN : cfg0.N = 8 := N_0
  have hi1 : (i 1).val < 4096 := (i 1).isLt
  have hi0 : (i 0).val < 1 := (i 0).isLt
  let t : Fin cfg0.N := ⟨(i 1).val / 512, by omega⟩
  obtain ⟨-, -, -, -, -, -, -, -, -, -, -, -, -, e0, e1⟩ := idx_facts t
  have ht : t.val = (i 1).val / 512 := rfl
  refine ⟨t, flush0_6 t, ?_⟩
  show i ∈ ((View.whole main_v11).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 512 ≤ (i 1).val ∧ (i 1).val < win0_6.index t (1 : Fin 2) * 512 + 512; rw [e1, ht]; omega

/-- The region's row after the run. -/
theorem final6 (c : Dev nD) : (dats m 0 c).arrAt 6 cfg0.N = G6 m c :=
  (dats m 0 c).arrAt_eq_of_cover 6 (G6 m c) (fun t _ => flushed_eq m c t) cover6

/-! ## The transposed result -/

/-- The program's result buffer after the host's transpose of the region's row. -/
theorem tail_value (c : Dev nD) :
    Pipeline.afterTail₀ cfgs (dats m) 0 (V0 m) [hostOps1] c main_v12
      = (fun idx : S4096x1.Idx => body (blockOf (V m c main_v8) ⟨(idx 0).val / 512, by have h : (idx 0).val < 4096 := (idx 0).isLt; omega⟩)
          (V m c main_arg4) (V m c main_v9) (V m c main_arg6) (V m c main_arg7) (V m c main_v10)
          (ix2 (0 : Fin 1) (⟨(idx 0).val % 512, Nat.mod_lt _ (by norm_num)⟩ : Fin 512))) := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11) = G6 m c :=
    (Pipeline.withArrays_arr spec0 launch0.win.arr_inj c _ _ 6).trans (final6 m c)
  rw [hw]
  funext idx
  refine (transpose_apply [1, 0] (G6 m c) transposes_S1x4096_S4096x1_1_0 idx
    (ix2 (0 : Fin 1) (⟨(idx 0).val, (idx 0).isLt⟩ : Fin 4096)) (fun b => ?_)).trans ?_
  · match b with
    | ⟨0, _⟩ => rfl
    | ⟨1, _⟩ => show (0 : ℕ) = (idx 1).val; have h : (idx 1).val < 1 := (idx 1).isLt; omega
  · rfl

/-- THE RUN, READ: the result column entry by entry, and the nine arguments as launched. -/
theorem run_value : θ_run defs (onTc (τ := τ) (main (F := F))) ⟨m, fun _ => 0, ρ⟩ (fun r => ∀ c : Dev nD,
      r.2.mem ((c.tc : Thread nD τ).loc main_v12)
        = (fun idx : S4096x1.Idx => body (blockOf (V m c main_v8) ⟨(idx 0).val / 512, by have h : (idx 0).val < 4096 := (idx 0).isLt; omega⟩)
          (V m c main_arg4) (V m c main_v9) (V m c main_arg6) (V m c main_arg7) (V m c main_v10)
          (ix2 (0 : Fin 1) (⟨(idx 0).val % 512, Nat.mod_lt _ (by norm_num)⟩ : Fin 512)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun _ h c => ⟨((h c).2 main_v12 (Pipeline.mem_restRefs_of main_v12 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c))⟩) (run_main m ρ)

end Cert.Afm.KArr

end
-- ==== Proof.KerX.lean ====
/-
  The kernel program's host operations before its region, read at an index over the extended reals.

  Before the region the program builds the array of 39 field vectors per batch row: rows 0 to 12 of the
  embedding table scaled by the row's continuous values, then the table rows selected by the row's 26
  categorical indices (a negative index wrapped round the table's end, an index outside the table replaced by
  a junk value, the selection itself clamped into the table), the two laid side by side along the field axis,
  and two bias vectors reshaped to one-row matrices.  With every categorical index inside the table the wrap,
  the mask and the clamp are all the identity, and the array is the table read at the index.
-/
import proofs.«413975_j5944234738104_2_alg».proof.Proof.Gen.KernelIdeal.Frame
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.Lib.StableHlo.Run
import Idealize.ShloMosaic.Lib.ReduceAll

noncomputable section

namespace Cert.Afm.KerX

open Idealize.ShloMosaic Idealize.ShloMosaic.ValueIdx Idealize.ShloMosaic.TcCoe
open Cert.KernelIdeal Cert.KernelIdeal.Facts₀

/-! ## The printed values, one definition each -/

section Defs
variable {F : FTy → Type} [FloatOps F]

/-- Rows 0 to 12 of the table. -/
def k0 (a3 : FVec F S100000x40 .f32) : FVec F S13x40 .f32 :=
  extractStridedSlice S13x40 ![0, 0] a3 slices_S100000x40_S13x40_0_0
def k1 (a3 : FVec F S100000x40 .f32) : FVec F S1x13x40 .f32 :=
  broadcastInDim S1x13x40 ![1, 2] bcast_S13x40_S1x13x40_1_2 (k0 a3)
def k2 (a0 : FVec F S4096x13 .f32) : FVec F S4096x13x1 .f32 :=
  broadcastInDim S4096x13x1 ![0, 1] bcast_S4096x13_S4096x13x1_0_1 a0
def k3 (a3 : FVec F S100000x40 .f32) : FVec F S4096x13x40 .f32 :=
  broadcastInDim S4096x13x40 ![0, 1, 2] bcast_S1x13x40_S4096x13x40_0_1_2 (k1 a3)
def k4 (a0 : FVec F S4096x13 .f32) : FVec F S4096x13x40 .f32 :=
  broadcastInDim S4096x13x40 ![0, 1, 2] bcast_S4096x13x1_S4096x13x40_0_1_2 (k2 a0)
/-- The continuous fields: table row f scaled by the row's f-th continuous value. -/
def k5 (a0 : FVec F S4096x13 .f32) (a3 : FVec F S100000x40 .f32) : FVec F S4096x13x40 .f32 :=
  mulf (k3 a3) (k4 a0)

def t0 : IVec S4096x26 32 := broadcastInDim S4096x26 ![] bcast_S_S4096x26 (constantI S_ 32 0#32)
/-- Which categorical indices are negative. -/
def t1 (a1 : IVec S4096x26 32) : IVec S4096x26 1 := cmpi .slt a1 t0
def t2 : IVec S4096x26 32 := broadcastInDim S4096x26 ![] bcast_S_S4096x26 (constantI S_ 32 100000#32)
def t3 (a1 : IVec S4096x26 32) : IVec S4096x26 32 := addi a1 t2
/-- A negative index wrapped round the table's end, the others kept. -/
def t4 (a1 : IVec S4096x26 32) : IVec S4096x26 32 := select (t1 a1) (t3 a1) a1
def t5 (a1 : IVec S4096x26 32) : IVec S4096x26x1 32 :=
  broadcastInDim S4096x26x1 ![0, 1] bcast_S4096x26_S4096x26x1_0_1 (t4 a1)
def t6 : IVec S4096x26x1 32 := broadcastInDim S4096x26x1 ![] bcast_S_S4096x26x1 (constantI S_ 32 0#32)
def t7 (a1 : IVec S4096x26 32) : IVec S4096x26x1 1 := cmpi .sge (t5 a1) t6
def t8 : IVec S1x1x1 32 := broadcastInDim S1x1x1 ![2] bcast_S1_S1x1x1_2 (constantI S1 32 99999#32)
def t9 : IVec S4096x26x1 32 := broadcastInDim S4096x26x1 ![0, 1, 2] bcast_S1x1x1_S4096x26x1_0_1_2 t8
def t10 (a1 : IVec S4096x26 32) : IVec S4096x26x1 1 := cmpi .sle (t5 a1) t9
def t11 (a1 : IVec S4096x26 32) : IVec S4096x26x1 1 := andi (t7 a1) (t10 a1)
/-- Which wrapped indices lie inside the table. -/
def t12 (a1 : IVec S4096x26 32) : IVec S4096x26 1 :=
  Host.reduce IntOp.andi (t11 a1) (constantI S_ 1 1#1) reducesTo_S4096x26x1_S4096x26_d2 h_S_
/-- The table rows at the wrapped indices, the selection clamped into the table. -/
def t13 (a1 : IVec S4096x26 32) (a3 : FVec F S100000x40 .f32) : FVec F S4096x26x40 .f32 :=
  Host.gather gather_S100000x40_S4096x26x1_S4096x26x40_2_0_n_n_0_2_140 a3 (t5 a1)
def t14 (a1 : IVec S4096x26 32) : IVec S4096x26x40 1 :=
  broadcastInDim S4096x26x40 ![0, 1] bcast_S4096x26_S4096x26x40_0_1 (t12 a1)
def t15 : FVec F S4096x26x40 .f32 :=
  broadcastInDim S4096x26x40 ![] bcast_S_S4096x26x40 (constant S_ .f32 0x7FC00000#32)
/-- The categorical fields: the selected row where the index lies inside the table, a junk value elsewhere. -/
def t16 (a1 : IVec S4096x26 32) (a3 : FVec F S100000x40 .f32) : FVec F S4096x26x40 .f32 :=
  select (t14 a1) (t13 a1 a3) t15
/-- The 39 fields of every row, the continuous ones first. -/
def k7 (a0 : FVec F S4096x13 .f32) (a1 : IVec S4096x26 32) (a3 : FVec F S100000x40 .f32) : FVec F S4096x39x40 .f32 :=
  concatenate S4096x39x40 1 [⟨S4096x13x40, k5 a0 a3⟩, ⟨S4096x26x40, t16 a1 a3⟩]
    concatenates_S4096x13x40_S4096x26x40_S4096x39x40_d1
/-- The same array narrowed to the kernel's input format. -/
def xKerF (a0 : FVec F S4096x13 .f32) (a1 : IVec S4096x26 32) (a3 : FVec F S100000x40 .f32) : FVec F S4096x39x40 .bf16 :=
  truncf .bf16 (k7 a0 a1 a3) bitsLt_bf16_f32

end Defs

/-- The field array the kernel's region reads, over the extended reals. -/
def xKer (a0 : FVec Ideal S4096x13 .f32) (a1 : IVec S4096x26 32) (a3 : FVec Ideal S100000x40 .f32) :
    Vec Ideal S4096x39x40 .bf16 := xKerF a0 a1 a3

/-! ## Words -/

/-- A left fold by `and` from 1 over words that are all 1 is 1. -/
theorem foldl_andi_one {ι : Type} (f : ι → BitVec 1) : ∀ (l : List ι), (∀ n ∈ l, f n = 1#1) →
    l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- An `and`-reduction from 1 of an array of ones is 1 everywhere. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ fun n _ => hx n

/-- A word below 100000 is not negative: the wrap keeps it. -/
theorem wrap_id (w : BitVec 32) (hw : w.toNat < 100000) :
    Scalar.select (IntOp.cmpi .slt w 0#32) (IntOp.addi w 100000#32) w = w := by
  have h0 : IntOp.cmpi .slt w 0#32 = 0#1 := by
    apply eq_zero_of_ne_one
    rw [StableHlo.Predicate.slt_iff_toNat (by omega) (by decide)]
    show ¬ w.toNat < 0
    omega
  rw [h0, select_zero]

/-- A word below 100000 passes the in-bounds test 0 ≤ w ≤ 99999. -/
theorem inb_one (w : BitVec 32) (hw : w.toNat < 100000) :
    IntOp.andi (IntOp.cmpi .sge w 0#32) (IntOp.cmpi .sle w 99999#32) = 1#1 := by
  rw [IntOp.andi_eq_one, StableHlo.Predicate.sge_iff_toNat (by omega) (by decide),
    StableHlo.Predicate.sle_iff_toNat (by omega) (by decide)]
  constructor
  · show 0 ≤ w.toNat
    omega
  · show w.toNat ≤ 99999
    omega

/-- A word below 100000, read signed and clamped into the table, is itself. -/
theorem clamp_id (w : BitVec 32) (hw : w.toNat < 100000) : min w.toInt.toNat (100000 - 1) = w.toNat := by
  rw [StableHlo.Predicate.toInt_eq_toNat_of_lt (by omega)]
  simp only [Int.toNat_natCast]
  omega

/-! ## The selection read at an index -/

/-- The table rows selected at start indices `idx`: entry (b, g, d) is the table at the row that the start index (b, g)
    names, read signed and clamped into the table, and column d. -/
theorem gather_rows_apply {F : FTy → Type} [FloatOps F] (a3 : FVec F S100000x40 .f32) (idx : IVec S4096x26x1 32)
    (b : Fin 4096) (g : Fin 26) (d : Fin 40) :
    Host.gather gather_S100000x40_S4096x26x1_S4096x26x40_2_0_n_n_0_2_140 a3 idx (ix3 b g d)
      = a3 (ix2 (⟨min (idx (ix3 b g (0 : Fin 1))).toInt.toNat (100000 - 1), by omega⟩ : Fin 100000) d) := by
  unfold Host.gather
  congr 1
  funext a
  refine Fin.ext ?_
  match a with
  | ⟨0, _⟩ =>
    show gather_S100000x40_S4096x26x1_S4096x26x40_2_0_n_n_0_2_140.start (ix3 b g d) idx 0
      + gather_S100000x40_S4096x26x1_S4096x26x40_2_0_n_n_0_2_140.batchCoord (ix3 b g d) 0
      + gather_S100000x40_S4096x26x1_S4096x26x40_2_0_n_n_0_2_140.offCoord (ix3 b g d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x40_S4096x26x1_S4096x26x40_2_0_n_n_0_2_140.startIndexMap from List.mem_singleton.mpr rfl)]
    have hsi : gather_S100000x40_S4096x26x1_S4096x26x40_2_0_n_n_0_2_140.siIdx (ix3 b g d)
        ⟨List.idxOf (0 : Fin 2) gather_S100000x40_S4096x26x1_S4096x26x40_2_0_n_n_0_2_140.startIndexMap,
          List.idxOf_lt_length_iff.2 (List.mem_singleton.mpr rfl)⟩ = ix3 b g (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S100000x40_S4096x26x1_S4096x26x40_2_0_n_n_0_2_140.start (ix3 b g d) idx 1
      + gather_S100000x40_S4096x26x1_S4096x26x40_2_0_n_n_0_2_140.batchCoord (ix3 b g d) 1
      + gather_S100000x40_S4096x26x1_S4096x26x40_2_0_n_n_0_2_140.offCoord (ix3 b g d) 1 = d.val
    rw [GatherDims.batchCoord_eq_zero _ _ _ List.not_mem_nil]
    unfold GatherDims.start
    rw [dif_neg (show (1 : Fin 2) ∉ gather_S100000x40_S4096x26x1_S4096x26x40_2_0_n_n_0_2_140.startIndexMap from by decide)]
    unfold GatherDims.offCoord
    rw [dif_pos (show (1 : Fin 2) ∈ gather_S100000x40_S4096x26x1_S4096x26x40_2_0_n_n_0_2_140.sKept from by decide)]
    simp only [Nat.zero_add]
    rfl

/-! ## The continuous fields read at an index -/

section Layout
variable {F : FTy → Type} [FloatOps F]

theorem k0_apply (a3 : FVec F S100000x40 .f32) (r : Fin 13) (d : Fin 40) :
    k0 a3 (ix2 r d) = a3 (ix2 (⟨r.val, by omega⟩ : Fin 100000) d) := by
  unfold k0
  refine extractStridedSlice_apply _ _ _ _ _ fun a => ?_
  match a with
  | ⟨0, _⟩ => exact (Nat.zero_add _).symm
  | ⟨1, _⟩ => exact (Nat.zero_add _).symm

theorem k1_apply (a3 : FVec F S100000x40 .f32) (u : Fin 1) (r : Fin 13) (d : Fin 40) :
    k1 a3 (ix3 u r d) = k0 a3 (ix2 r d) := by
  unfold k1
  refine broadcastInDim_apply _ _ _ _ _ fun a => ?_
  fin_cases a <;> first | (rw [if_neg (by decide)]; rfl) | (rw [if_pos (by decide)]; rfl)

theorem k3_apply (a3 : FVec F S100000x40 .f32) (b : Fin 4096) (r : Fin 13) (d : Fin 40) :
    k3 a3 (ix3 b r d) = k1 a3 (ix3 (0 : Fin 1) r d) := by
  unfold k3
  refine broadcastInDim_apply _ _ _ _ _ fun a => ?_
  fin_cases a <;> first | (rw [if_neg (by decide)]; rfl) | (rw [if_pos (by decide)]; rfl)

theorem k2_apply (a0 : FVec F S4096x13 .f32) (b : Fin 4096) (r : Fin 13) (u : Fin 1) :
    k2 a0 (ix3 b r u) = a0 (ix2 b r) := by
  unfold k2
  refine broadcastInDim_apply _ _ _ _ _ fun a => ?_
  fin_cases a <;> first | (rw [if_neg (by decide)]; rfl) | (rw [if_pos (by decide)]; rfl)

theorem k4_apply (a0 : FVec F S4096x13 .f32) (b : Fin 4096) (r : Fin 13) (d : Fin 40) :
    k4 a0 (ix3 b r d) = k2 a0 (ix3 b r (0 : Fin 1)) := by
  unfold k4
  refine broadcastInDim_apply _ _ _ _ _ fun a => ?_
  fin_cases a <;> first | (rw [if_neg (by decide)]; rfl) | (rw [if_pos (by decide)]; rfl)

/-! ## The categorical fields read at an index -/

/-- The wrapped index at (b, g) is the index itself when it lies inside the table. -/
theorem t4_apply (a1 : IVec S4096x26 32) (hc : ∀ i, (a1 i).toNat < 100000) (i : S4096x26.Idx) : t4 a1 i = a1 i :=
  wrap_id (a1 i) (hc i)

theorem t5_apply (a1 : IVec S4096x26 32) (b : Fin 4096) (g : Fin 26) (u : Fin 1) :
    t5 a1 (ix3 b g u) = t4 a1 (ix2 b g) := by
  unfold t5
  refine broadcastInDim_apply _ _ _ _ _ fun a => ?_
  fin_cases a <;> first | (rw [if_neg (by decide)]; rfl) | (rw [if_pos (by decide)]; rfl)

/-- Every wrapped index passes the in-bounds test. -/
theorem t11_one (a1 : IVec S4096x26 32) (hc : ∀ i, (a1 i).toNat < 100000) (i : S4096x26x1.Idx) : t11 a1 i = 1#1 := by
  obtain ⟨b, g, u, rfl⟩ : ∃ b g u, i = ix3 b g u := ⟨_, _, _, eq_ix3 i⟩
  show IntOp.andi (IntOp.cmpi .sge (t5 a1 (ix3 b g u)) 0#32) (IntOp.cmpi .sle (t5 a1 (ix3 b g u)) 99999#32) = 1#1
  rw [t5_apply, t4_apply a1 hc]
  exact inb_one _ (hc _)

theorem t12_one (a1 : IVec S4096x26 32) (hc : ∀ i, (a1 i).toNat < 100000) (j : S4096x26.Idx) : t12 a1 j = 1#1 :=
  reduce_andi_of_all _ _ _ (t11_one a1 hc) j

theorem t14_one (a1 : IVec S4096x26 32) (hc : ∀ i, (a1 i).toNat < 100000) (j : S4096x26x40.Idx) : t14 a1 j = 1#1 := by
  unfold t14 broadcastInDim
  exact t12_one a1 hc _

theorem t13_apply (a1 : IVec S4096x26 32) (a3 : FVec F S100000x40 .f32) (hc : ∀ i, (a1 i).toNat < 100000)
    (b : Fin 4096) (g : Fin 26) (d : Fin 40) :
    t13 a1 a3 (ix3 b g d) = a3 (ix2 (⟨(a1 (ix2 b g)).toNat, hc _⟩ : Fin 100000) d) := by
  unfold t13
  rw [gather_rows_apply]
  congr 1
  funext e
  match e with
  | ⟨0, _⟩ =>
    refine Fin.ext ?_
    show min (t5 a1 (ix3 b g (0 : Fin 1))).toInt.toNat (100000 - 1) = (a1 (ix2 b g)).toNat
    rw [t5_apply, t4_apply a1 hc]
    exact clamp_id _ (hc _)
  | ⟨1, _⟩ => rfl

theorem t16_apply (a1 : IVec S4096x26 32) (a3 : FVec F S100000x40 .f32) (hc : ∀ i, (a1 i).toNat < 100000)
    (b : Fin 4096) (g : Fin 26) (d : Fin 40) :
    t16 a1 a3 (ix3 b g d) = a3 (ix2 (⟨(a1 (ix2 b g)).toNat, hc _⟩ : Fin 100000) d) := by
  show Scalar.select (t14 a1 (ix3 b g d)) (t13 a1 a3 (ix3 b g d)) (t15 (ix3 b g d)) = _
  rw [t14_one a1 hc, select_one, t13_apply a1 a3 hc]

end Layout

/-! ## The field array read at an index -/

/-- With every categorical index inside the table, field `f` of row `b` at coordinate `d` is the table's
    row `f` scaled by the row's `f`-th continuous value for `f < 13`, and the table's row at the row's
    `(f - 13)`-th categorical index otherwise. -/
theorem xKer_apply (a0 : FVec Ideal S4096x13 .f32) (a1 : IVec S4096x26 32) (a3 : FVec Ideal S100000x40 .f32)
    (hc : ∀ i, (a1 i).toNat < 100000) (b : Fin 4096) (f : Fin 39) (d : Fin 40) :
    xKer a0 a1 a3 (ix3 b f d)
      = if h : f.val < 13 then a3 (ix2 (⟨f.val, by omega⟩ : Fin 100000) d) * a0 (ix2 b (⟨f.val, h⟩ : Fin 13))
        else a3 (ix2 (⟨(a1 (ix2 b (⟨f.val - 13, by omega⟩ : Fin 26))).toNat, hc _⟩ : Fin 100000) d) := by
  show k7 a0 a1 a3 (ix3 b f d) = _
  unfold k7
  by_cases h : f.val < 13
  · rw [dif_pos h]
    refine (concatenate_pair_apply_left (t := S4096x39x40) (s₁ := S4096x13x40) (s₂ := S4096x26x40) (1 : Fin 3) _ _ _ (ix3 b f d) rfl (ix3 b (⟨f.val, h⟩ : Fin 13) d) fun e => ?_).trans ?_
    · match e with
      | ⟨0, _⟩ => rfl
      | ⟨1, _⟩ => rfl
      | ⟨2, _⟩ => rfl
    · show k3 a3 (ix3 b (⟨f.val, h⟩ : Fin 13) d) * k4 a0 (ix3 b (⟨f.val, h⟩ : Fin 13) d) = _
      rw [k3_apply, k1_apply, k0_apply, k4_apply, k2_apply]
  · rw [dif_neg h]
    refine (concatenate_pair_apply_right (t := S4096x39x40) (s₁ := S4096x13x40) (s₂ := S4096x26x40) (1 : Fin 3) _ _ _ (ix3 b f d) rfl rfl (ix3 b (⟨f.val - 13, by omega⟩ : Fin 26) d) (fun e he => ?_) ?_).trans ?_
    · match e with
      | ⟨0, _⟩ => rfl
      | ⟨1, _⟩ => exact absurd rfl he
      | ⟨2, _⟩ => rfl
    · show f.val - 13 + 13 = f.val
      omega
    · exact t16_apply a1 a3 hc b _ d

/-- The same with the precondition's decoded form of the range fact. -/
theorem xKer_apply_of_pre (a0 : FVec Ideal S4096x13 .f32) (a1 : IVec S4096x26 32) (a3 : FVec Ideal S100000x40 .f32)
    (hc : ∀ i, (a1 i).toNat < 100000 ∧ (a1 i).msb = false) (b : Fin 4096) (f : Fin 39) (d : Fin 40) :
    xKer a0 a1 a3 (ix3 b f d)
      = if h : f.val < 13 then a3 (ix2 (⟨f.val, by omega⟩ : Fin 100000) d) * a0 (ix2 b (⟨f.val, h⟩ : Fin 13))
        else a3 (ix2 (⟨(a1 (ix2 b (⟨f.val - 13, by omega⟩ : Fin 26))).toNat, (hc _).1⟩ : Fin 100000) d) :=
  xKer_apply a0 a1 a3 (fun i => (hc i).1) b f d

/-! ## What the region finds in the arrays the host operations wrote -/

section Run
variable {F : FTy → Type} [FloatOps F]
variable (m : (ℓ : Loc nD τ sig) → Buf (Elt F) ℓ)

/-- The first bias vector as a one-row matrix. -/
theorem V_v9 (c : Dev nD) :
    (Gen.V m c main_v9 : S1x8.Idx → F .f32) = shapeCast S1x8 (m ((c : Thread nD τ).loc main_arg5) : S8.Idx → F .f32) shapeCasts_S8_S1x8 := by
  dsimp only [Gen.V, Gen.V0]
  simp only [Gen.hostOps0, Gen.hostOps0_1, Gen.hostOps0_2, List.flatten_cons, List.flatten_nil, List.append_nil, List.cons_append,
    List.nil_append]
  after_results
  rfl

/-- Its entry (0, k) is entry k of the vector. -/
theorem V_v9_apply (c : Dev nD) (k : Fin 8) :
    (Gen.V m c main_v9 : S1x8.Idx → F .f32) (ix2 (0 : Fin 1) k) = (m ((c : Thread nD τ).loc main_arg5) : S8.Idx → F .f32) (ix1 k) := by
  rw [V_v9]
  exact shapeCast_a_1a_apply _ _ _ _

/-- The second bias, a single number, as a one-by-one matrix. -/
theorem V_v10 (c : Dev nD) :
    (Gen.V m c main_v10 : S1x1.Idx → F .f32) = shapeCast S1x1 (m ((c : Thread nD τ).loc main_arg8) : S1.Idx → F .f32) shapeCasts_S1_S1x1 := by
  dsimp only [Gen.V, Gen.V0]
  simp only [Gen.hostOps0, Gen.hostOps0_1, Gen.hostOps0_2, List.flatten_cons, List.flatten_nil, List.append_nil, List.cons_append,
    List.nil_append]
  after_results
  rfl

/-- Its one entry is the number. -/
theorem V_v10_apply (c : Dev nD) :
    (Gen.V m c main_v10 : S1x1.Idx → F .f32) (ix2 (0 : Fin 1) (0 : Fin 1)) = (m ((c : Thread nD τ).loc main_arg8) : S1.Idx → F .f32) (ix1 (0 : Fin 1)) := by
  rw [V_v10]
  exact shapeCast_a_1a_apply _ _ _ _

set_option maxHeartbeats 4000000 in
set_option maxRecDepth 65536 in
/-- The field array: the composition of the printed operations on the three arguments it reads. -/
theorem V_v8F (c : Dev nD) :
    (Gen.V m c main_v8 : S4096x39x40.Idx → F .bf16)
      = xKerF (m ((c : Thread nD τ).loc main_arg0) : S4096x13.Idx → F .f32) (m ((c : Thread nD τ).loc main_arg1) : S4096x26.Idx → BitVec 32)
          (m ((c : Thread nD τ).loc main_arg3) : S100000x40.Idx → F .f32) := by
  dsimp only [Gen.V, Gen.V0]
  simp only [Gen.hostOps0, Gen.hostOps0_1, Gen.hostOps0_2, List.flatten_cons, List.flatten_nil, List.append_nil, List.cons_append,
    List.nil_append]
  after_results
  simp only [StableHlo.TRef.ofBuf, StableHlo.TRef.toBuf, cast_eq]
  rfl

end Run

/-- The field array over the extended reals. -/
theorem V_v8 (m : (ℓ : Loc nD τ sig) → Buf (Elt Ideal) ℓ) (c : Dev nD) :
    (Gen.V m c main_v8 : S4096x39x40.Idx → EReal)
      = xKer (m ((c : Thread nD τ).loc main_arg0) : S4096x13.Idx → EReal) (m ((c : Thread nD τ).loc main_arg1) : S4096x26.Idx → BitVec 32)
          (m ((c : Thread nD τ).loc main_arg3) : S100000x40.Idx → EReal) :=
  V_v8F m c

end Cert.Afm.KerX

end
-- ==== Proof.KScalar.lean ====
/-
  The kernel's streaming softmax, one batch row at a time, on the extended reals.

  A state is the running maximum m of the scores seen so far (-∞ before any), the running sum l of
  exp(score - m) and the running sum acc of exp(score - m) times the product vector.  Folding in the n
  products of one field with its later fields replaces m by the larger of m and the new scores' maximum and
  rescales l and acc by exp(m_old - m_new) before adding the new terms.
-/
import Idealize.ShloMosaic.PureOps.Ideal
import Mathlib.Algebra.BigOperators.Fin
import Mathlib.Data.Finset.Lattice.Fold

noncomputable section
namespace Cert.Afm.KScalar
open Idealize.ShloMosaic

/-- The score of one product vector e: eight rectified units, then the read-out. -/
def scE (W : Fin 8 → Fin 40 → EReal) (bA P : Fin 8 → EReal) (e : Fin 40 → EReal) : EReal :=
  ∑ k : Fin 8, max (∑ d : Fin 40, e d * W k d + bA k) 0 * P k

/-- Running maximum, running sum, running weighted sum. -/
structure St where
  m : EReal
  l : EReal
  acc : Fin 40 → EReal

/-- Before any field. -/
def initE : St := ⟨⊥, 0, fun _ => 0⟩

/-- Fold in the products of the field vector xi with the n later field vectors xc. -/
def stepE (W : Fin 8 → Fin 40 → EReal) (bA P : Fin 8 → EReal) (n : ℕ) (xi : Fin 40 → EReal) (xc : Fin n → Fin 40 → EReal) (s : St) : St :=
  let sc : Fin n → EReal := fun j => scE W bA P fun d => xi d * xc j d
  let m' : EReal := max s.m (Finset.univ.sup sc)
  let c : EReal := Ideal.exp (s.m - m')
  ⟨m', s.l * c + ∑ j : Fin n, Ideal.exp (sc j - m'),
    fun d => s.acc d * c + ∑ j : Fin n, Ideal.exp (sc j - m') * (xi d * xc j d)⟩

/-- The state after the first k fields of the row x (39 fields) have been folded in, k ≤ 38. -/
def iterE (W : Fin 8 → Fin 40 → EReal) (bA P : Fin 8 → EReal) (x : Fin 39 → Fin 40 → EReal) : ℕ → St
  | 0 => initE
  | k + 1 =>
    if h : k < 38 then
      stepE W bA P (38 - k) (x ⟨k, by omega⟩) (fun j => x ⟨k + 1 + j.val, by have := j.isLt; omega⟩) (iterE W bA P x k)
    else iterE W bA P x k

/-- The row's output from the final state. -/
def finishE (fcW : Fin 40 → EReal) (fcB : EReal) (s : St) : EReal :=
  Ideal.logistic (∑ d : Fin 40, Ideal.div (s.acc d) s.l * fcW d + fcB)

/-- The whole row. -/
def rowE (W : Fin 8 → Fin 40 → EReal) (bA P : Fin 8 → EReal) (fcW : Fin 40 → EReal) (fcB : EReal) (x : Fin 39 → Fin 40 → EReal) : EReal :=
  finishE fcW fcB (iterE W bA P x 38)

end Cert.Afm.KScalar
end
-- ==== Proof.KStepIdxA.lean ====
/-
  Reading the kernel step's vector operations at one index.

  Every operation of one step of the streaming softmax is either pointwise or a re-indexing (a slice, a
  broadcast, a merge or split of the field and row axes, a matrix product, a reduction over the field axis).
  This file reads each of them at an index built from a field j, a batch row r and a coordinate d.
-/
import proofs.«413975_j5944234738104_2_alg».proof.Proof.KStep
import proofs.«413975_j5944234738104_2_alg».proof.Proof.KScalar
import Idealize.ShloMosaic.Lib.ValueLayout
import Idealize.ShloMosaic.PureOps.Ideal.Laws

noncomputable section
namespace Cert.Afm.KStepIdx
open Idealize.ShloMosaic Idealize.ShloMosaic.ValueIdx Cert.KernelIdeal Cert.Afm.KStep

variable {α : Type}

/-- The position of (field j, row r) on the merged axis: j * 512 + r. -/
def mrow {n : ℕ} (j : Fin n) (r : Fin 512) : Fin (n * 512) :=
  ⟨j.val * 512 + r.val, by have := j.isLt; have := r.isLt; omega⟩

/-- Merging the field and row axes: position (j * 512 + r, c) of the merged array is (j, r, c) of the operand. -/
theorem shapeCast_merge_apply {n d : ℕ} (x : (T3 n d).Idx → α) (h : (T3 n d).ShapeCasts (T2 n d))
    (j : Fin n) (r : Fin 512) (c : Fin d) : shapeCast (T2 n d) x h (ix2 (mrow j r) c) = x (ix3 j r c) :=
  shapeCast_apply x h _ _ (by
    rw [Shape.rowMajor_val_three, Shape.rowMajor_val_two]
    rfl)

/-- Splitting the merged axis again: (j, r, c) of the split array is position (j * 512 + r, c) of the operand. -/
theorem shapeCast_split_apply {n d : ℕ} (x : (T2 n d).Idx → α) (h : (T2 n d).ShapeCasts (T3 n d))
    (j : Fin n) (r : Fin 512) (c : Fin d) : shapeCast (T3 n d) x h (ix3 j r c) = x (ix2 (mrow j r) c) :=
  shapeCast_apply x h _ _ (by
    rw [Shape.rowMajor_val_three, Shape.rowMajor_val_two]
    rfl)

/-- A plain matrix product into the zero accumulator, read at (a, b): the sum over the contracted coordinate. -/
theorem matmul_plain_zero_apply {m k n : ℕ} (A : FVec Ideal ⟨2, ![m, k]⟩ .f32) (B : FVec Ideal ⟨2, ![k, n]⟩ .f32)
    (a : Fin m) (b : Fin n) :
    matmul (DotDims.plain m k n) none A B (constant ⟨2, ![m, n]⟩ .f32 0x00000000#32) (ix2 a b)
      = ∑ c : Fin k, A (ix2 a c) * B (ix2 c b) := by
  refine (Ideal.matmul_constant_zero_apply (DotDims.plain m k n) none A B (ix2 a b)).trans ?_
  rw [← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 (DotDims.plain m k n) k rfl rfl).symm c) = ix2 a c := by
    funext ax
    match ax with
    | ⟨0, _⟩ => rfl
    | ⟨1, _⟩ => exact Fin.ext (((DotDims.plain m k n).lhsIdx_val_of_single (cl := 1) rfl _ _).trans hc)
  have hr : (DotDims.plain m k n).rhsIdx (ix2 a b) ((contrEquiv1 (DotDims.plain m k n) k rfl rfl).symm c) = ix2 c b := by
    funext ax
    match ax with
    | ⟨0, _⟩ => exact Fin.ext (((DotDims.plain m k n).rhsIdx_val_of_single (cr := 0) rfl _ _).trans hc)
    | ⟨1, _⟩ => rfl
  rw [hl, hr]

/-! ## The parameters and the state, one batch row at a time -/

/-- The eight units' weight vectors. -/
def Wk (v4 : FVec Ideal S8x40 .f32) : Fin 8 → Fin 40 → EReal := fun k d => v4 (ix2 k d)
/-- The eight units' biases. -/
def bk (v6 : FVec Ideal S1x8 .f32) : Fin 8 → EReal := fun k => v6 (ix2 0 k)
/-- The read-out weights. -/
def Pk (v7 : FVec Ideal S1x8 .f32) : Fin 8 → EReal := fun k => v7 (ix2 0 k)

/-- Batch row r of a state: its running maximum, running sum and running weighted sum. -/
def rowSt (s : State Ideal) (r : Fin 512) : KScalar.St :=
  ⟨s.m (ix2 r 0), s.l (ix2 r 0), fun d => s.acc (ix2 r d)⟩

/-- Two scalar states with the same three components are equal. -/
theorem St_ext {a b : KScalar.St} (h1 : a.m = b.m) (h2 : a.l = b.l) (h3 : a.acc = b.acc) : a = b := by
  cases a; cases b; simp only [KScalar.St.mk.injEq]; exact ⟨h1, h2, h3⟩

/-! ## The scores -/

/-- The score of product vector (j, r): the scalar score of its forty coordinates. -/
theorem logits_apply (n : ℕ) (sc1 : (T3 n 40).ShapeCasts (T2 n 40)) (bc2 : S1x8.Broadcasts (T2 n 8))
    (sc2 : (T2 n 1).ShapeCasts (T3 n 1)) (e : FVec Ideal (T3 n 40) .f32) (v4 : FVec Ideal S8x40 .f32)
    (v6 v7 : FVec Ideal S1x8 .f32) (j : Fin n) (r : Fin 512) (u : Fin 1) :
    logits n sc1 bc2 sc2 e v4 v6 v7 (ix3 j r u) = KScalar.scE (Wk v4) (bk v6) (Pk v7) (fun d => e (ix3 j r d)) := by
  unfold logits
  refine (shapeCast_split_apply _ sc2 j r u).trans ?_
  refine (matmul_plain_zero_apply _ _ (mrow j r) u).trans ?_
  unfold KScalar.scE
  refine Finset.sum_congr rfl fun k _ => ?_
  obtain rfl : u = 0 := Subsingleton.elim _ _
  have h1 : matmul (DotDims.plain (n * 512) 40 8) none (shapeCast (T2 n 40) e sc1) (transpose S40x8 [1, 0] v4 (by decide))
      (constant (T2 n 8) .f32 0x00000000#32) (ix2 (mrow j r) k) = ∑ d : Fin 40, e (ix3 j r d) * v4 (ix2 k d) := by
    refine (matmul_plain_zero_apply _ _ (mrow j r) k).trans ?_
    refine Finset.sum_congr rfl fun d _ => ?_
    rw [shapeCast_merge_apply, transpose_ix2_apply]
  have h2 : broadcastTo (T2 n 8) v6 bc2 (ix2 (mrow j r) k) = v6 (ix2 0 k) := broadcastTo_1b_ab_apply v6 bc2 _ k
  have h3 : transpose S8x1 [1, 0] v7 (by decide) (ix2 k (0 : Fin 1)) = v7 (ix2 0 k) := transpose_ix2_apply v7 _ k 0
  show max (_ + _) (Ideal.ofBits .f32 0x00000000#32) * _ = _
  rw [h1, h2, h3, Ideal.ofBits_zero_f32]
  rfl

/-! ## Broadcasts and the slice along the field axis -/

/-- A column broadcast along the rows: (p, c) reads the column at p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A unit last axis broadcast: (j, r, c) reads (j, r, 0). -/
theorem broadcastTo_last3_apply {n a b : ℕ} (v : (⟨3, ![n, a, 1]⟩ : Shape).Idx → α)
    (h : (⟨3, ![n, a, 1]⟩ : Shape).Broadcasts ⟨3, ![n, a, b]⟩) (j : Fin n) (r : Fin a) (c : Fin b) :
    broadcastTo ⟨3, ![n, a, b]⟩ v h (ix3 j r c) = v (ix3 j r (0 : Fin 1)) := by
  refine broadcastTo_apply v h (ix3 j r c) (ix3 j r (0 : Fin 1)) fun ax => ?_
  match ax with
  | ⟨0, _⟩ =>
    show j.val = if n = 1 then 0 else j.val
    split
    · have := j.isLt; omega
    · rfl
  | ⟨1, _⟩ =>
    show r.val = if a = 1 then 0 else r.val
    split
    · have := r.isLt; omega
    · rfl
  | ⟨2, _⟩ => rfl

/-- A unit leading axis broadcast: (j, r, c) reads (0, r, c). -/
theorem broadcastTo_lead3_apply {n a b : ℕ} (v : (⟨3, ![1, a, b]⟩ : Shape).Idx → α)
    (h : (⟨3, ![1, a, b]⟩ : Shape).Broadcasts ⟨3, ![n, a, b]⟩) (j : Fin n) (r : Fin a) (c : Fin b) :
    broadcastTo ⟨3, ![n, a, b]⟩ v h (ix3 j r c) = v (ix3 (0 : Fin 1) r c) := by
  refine broadcastTo_apply v h (ix3 j r c) (ix3 (0 : Fin 1) r c) fun ax => ?_
  match ax with
  | ⟨0, _⟩ => rfl
  | ⟨1, _⟩ =>
    show r.val = if a = 1 then 0 else r.val
    split
    · have := r.isLt; omega
    · rfl
  | ⟨2, _⟩ =>
    show c.val = if b = 1 then 0 else c.val
    split
    · have := c.isLt; omega
    · rfl

/-- A slab of fields cut from field o on: (j, r, c) reads (k, r, c) with k = o + j. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## The products of one field with the later fields -/

/-- Field i of the block at (r, d). -/
theorem fieldAt_apply (i : ℕ) (hi : i < 39) (v3 : FVec Ideal S39x512x40 .f32)
    (h : S39x512x40.Slices ![i, 0, 0] S1x512x40) (r : Fin 512) (d : Fin 40) :
    fieldAt i v3 h (ix2 r d) = v3 (ix3 ⟨i, hi⟩ r d) := by
  unfold fieldAt
  refine (shapeCast_1ab_ab_apply _ _ r d).trans ?_
  exact slice3_axis0_apply i v3 h (0 : Fin 1) r d ⟨i, hi⟩ rfl

/-- The product of field i with later field i + 1 + j, at row r and coordinate d. -/
theorem ewp_apply (i n : ℕ) (hn : i + 1 + n = 39) (ev : Evid i n) (v3 : FVec Ideal S39x512x40 .f32)
    (j : Fin n) (r : Fin 512) (d : Fin 40) :
    ewp i n ev v3 (ix3 j r d)
      = v3 (ix3 ⟨i, by omega⟩ r d) * v3 (ix3 ⟨i + 1 + j.val, by have := j.isLt; omega⟩ r d) := by
  unfold ewp
  have h1 : broadcastTo (T3 n 40) (shapeCast S1x512x40 (fieldAt i v3 ev.sl1) (by decide)) ev.bc1 (ix3 j r d)
      = v3 (ix3 ⟨i, by omega⟩ r d) := by
    refine (broadcastTo_lead3_apply _ ev.bc1 j r d).trans ?_
    refine (shapeCast_ab_1ab_apply _ _ (0 : Fin 1) r d).trans ?_
    exact fieldAt_apply i (by omega) v3 ev.sl1 r d
  have h2 : extractStridedSlice (T3 n 40) ![i + 1, 0, 0] v3 ev.sl2 (ix3 j r d)
      = v3 (ix3 ⟨i + 1 + j.val, by have := j.isLt; omega⟩ r d) :=
    slice3_axis0_apply (i + 1) v3 ev.sl2 j r d _ rfl
  show _ * _ = _
  rw [h1, h2]

/-! ## The reductions over the field axis -/

/-- The source index over (r, c) with field j inserted is (j, r, c). -/
theorem lift0 {n d : ℕ} (h : (T3 n d).Reduces [0] ⟨2, ![512, d]⟩) (r : Fin 512) (c : Fin d) (j : Fin n) :
    h.lift (ix2 r c) j = ix3 j r c := by
  funext ax
  match ax with
  | ⟨0, _⟩ => rfl
  | ⟨1, _⟩ => rfl
  | ⟨2, _⟩ => rfl

/-- The new running maximum of row r: the larger of the old one and the largest new score. -/
theorem newM_apply (n : ℕ) (rd1 : (T3 n 1).Reduces [0] S512x1) (lg : FVec Ideal (T3 n 1) .f32)
    (m : FVec Ideal S512x1 .f32) (r : Fin 512) (u : Fin 1) :
    newM n rd1 lg m (ix2 r u) = max (m (ix2 r u)) (Finset.univ.sup fun j : Fin n => lg (ix3 j r u)) := by
  unfold newM
  show max (m (ix2 r u)) (multiReduction .maximumf [0] S512x1 lg 0xFF800000#32 rd1 (.inl rfl) rfl (ix2 r u)) = _
  refine congrArg (max (m (ix2 r u))) ?_
  refine (Ideal.multiReduction_maximumf_single lg 0xFF800000#32 rd1 (.inl rfl) rfl (ix2 r u)).trans ?_
  have hb : FloatOps.ofBits (F := Ideal) .f32 0xFF800000#32 = (⊥ : EReal) := by simp [Ideal.ofBits, Ideal.ieee]
  rw [hb]
  have hf : (lg ∘ rd1.lift (ix2 r u)) = fun j : Fin n => lg (ix3 j r u) := funext fun j => congrArg lg (lift0 rd1 r u j)
  rw [hf]
  rfl

/-- The new running sum of row r. -/
theorem newL_apply (n : ℕ) (rd1 : (T3 n 1).Reduces [0] S512x1) (l c : FVec Ideal S512x1 .f32)
    (p : FVec Ideal (T3 n 1) .f32) (r : Fin 512) (u : Fin 1) :
    newL n rd1 l c p (ix2 r u) = l (ix2 r u) * c (ix2 r u) + ∑ j : Fin n, p (ix3 j r u) := by
  unfold newL
  show l (ix2 r u) * c (ix2 r u) + multiReduction .add [0] S512x1 p 0x00000000#32 rd1 (.inl rfl) rfl (ix2 r u) = _
  refine congrArg (l (ix2 r u) * c (ix2 r u) + ·) ?_
  refine (Ideal.multiReduction_add_single p 0x00000000#32 rd1 (.inl rfl) rfl (ix2 r u)).trans ?_
  exact Finset.sum_congr rfl fun j _ => congrArg p (lift0 rd1 r u j)

/-- The new running weighted sum of row r at coordinate d. -/
theorem newAcc_apply (n : ℕ) (bc4 : (T3 n 1).Broadcasts (T3 n 40)) (rd2 : (T3 n 40).Reduces [0] S512x40)
    (acc : FVec Ideal S512x40 .f32) (c : FVec Ideal S512x1 .f32) (p : FVec Ideal (T3 n 1) .f32)
    (e : FVec Ideal (T3 n 40) .f32) (r : Fin 512) (d : Fin 40) :
    newAcc n bc4 rd2 acc c p e (ix2 r d)
      = acc (ix2 r d) * c (ix2 r 0) + ∑ j : Fin n, p (ix3 j r 0) * e (ix3 j r d) := by
  unfold newAcc
  show acc (ix2 r d) * broadcastTo S512x40 c (by decide) (ix2 r d)
      + multiReduction .add [0] S512x40 (mulf (broadcastTo (T3 n 40) p bc4) e) 0x00000000#32 rd2 (.inl rfl) rfl (ix2 r d) = _
  rw [broadcastTo_col_apply c _ r d]
  refine congrArg (acc (ix2 r d) * c (ix2 r 0) + ·) ?_
  refine (Ideal.multiReduction_add_single _ 0x00000000#32 rd2 (.inl rfl) rfl (ix2 r d)).trans ?_
  refine Finset.sum_congr rfl fun j _ => ?_
  rw [lift0 rd2 r d j]
  show broadcastTo (T3 n 40) p bc4 (ix3 j r d) * e (ix3 j r d) = _
  rw [broadcastTo_last3_apply p bc4 j r d]

/-- The weight of product (j, r): exp(score - new maximum). -/
theorem wts_apply (n : ℕ) (bc3 : S1x512x1.Broadcasts (T3 n 1)) (lg : FVec Ideal (T3 n 1) .f32)
    (m' : FVec Ideal S512x1 .f32) (j : Fin n) (r : Fin 512) (u : Fin 1) :
    wts n bc3 lg m' (ix3 j r u) = Ideal.exp (lg (ix3 j r u) - m' (ix2 r u)) := by
  unfold wts
  show Ideal.exp (lg (ix3 j r u) - broadcastTo (T3 n 1) (shapeCast S1x512x1 m' (by decide)) bc3 (ix3 j r u)) = _
  rw [broadcastTo_lead3_apply _ bc3 j r u, shapeCast_ab_1ab_apply]

end Cert.Afm.KStepIdx
end
-- ==== Proof.KStepIdx.lean ====
/-
  The kernel body's recurrence at one batch row is the scalar recurrence.

  With every operation of a step read at an index, row r of the state after a step is the scalar step of
  row r of the state before it; so the state after k fields is, row by row, the scalar iteration, and the
  body's output at row r is the scalar recurrence run on row r of the block.
-/
import proofs.«413975_j5944234738104_2_alg».proof.Proof.KStepIdxA

noncomputable section
namespace Cert.Afm.KStepIdx
open Idealize.ShloMosaic Idealize.ShloMosaic.ValueIdx Cert.KernelIdeal Cert.Afm.KStep

/-! ## One step at one batch row -/

/-- Whatever the product vectors and the weights are, once they are known at row r as the scalar recurrence's
    products and weights, the new state's row r is the scalar step of the old state's row r. -/
theorem core_row (n : ℕ) (sc1 : (T3 n 40).ShapeCasts (T2 n 40)) (bc2 : S1x8.Broadcasts (T2 n 8))
    (sc2 : (T2 n 1).ShapeCasts (T3 n 1)) (rd1 : (T3 n 1).Reduces [0] S512x1) (bc4 : (T3 n 1).Broadcasts (T3 n 40))
    (rd2 : (T3 n 40).Reduces [0] S512x40) (e : FVec Ideal (T3 n 40) .f32) (v4 : FVec Ideal S8x40 .f32)
    (v6 v7 : FVec Ideal S1x8 .f32) (s : State Ideal) (p : FVec Ideal (T3 n 1) .f32) (r : Fin 512)
    (xi : Fin 40 → EReal) (xc : Fin n → Fin 40 → EReal)
    (he : ∀ j d, e (ix3 j r d) = xi d * xc j d)
    (hp : ∀ j, p (ix3 j r 0) = Ideal.exp (logits n sc1 bc2 sc2 e v4 v6 v7 (ix3 j r 0)
      - newM n rd1 (logits n sc1 bc2 sc2 e v4 v6 v7) s.m (ix2 r 0))) :
    rowSt ⟨newM n rd1 (logits n sc1 bc2 sc2 e v4 v6 v7) s.m,
        newL n rd1 s.l (corr s.m (newM n rd1 (logits n sc1 bc2 sc2 e v4 v6 v7) s.m)) p,
        newAcc n bc4 rd2 s.acc (corr s.m (newM n rd1 (logits n sc1 bc2 sc2 e v4 v6 v7) s.m)) p e⟩ r
      = KScalar.stepE (Wk v4) (bk v6) (Pk v7) n xi xc (rowSt s r) := by
  have hsc : ∀ j : Fin n, logits n sc1 bc2 sc2 e v4 v6 v7 (ix3 j r 0)
      = KScalar.scE (Wk v4) (bk v6) (Pk v7) (fun d => xi d * xc j d) := fun j =>
    (logits_apply n sc1 bc2 sc2 e v4 v6 v7 j r 0).trans (congrArg _ (funext fun d => he j d))
  have hm : newM n rd1 (logits n sc1 bc2 sc2 e v4 v6 v7) s.m (ix2 r 0)
      = max (s.m (ix2 r 0)) (Finset.univ.sup fun j : Fin n => KScalar.scE (Wk v4) (bk v6) (Pk v7) (fun d => xi d * xc j d)) :=
    (newM_apply n rd1 _ s.m r 0).trans
      (congrArg (max (s.m (ix2 r 0))) (congrArg (Finset.sup Finset.univ) (funext hsc)))
  have hpj : ∀ j : Fin n, p (ix3 j r 0) = Ideal.exp (KScalar.scE (Wk v4) (bk v6) (Pk v7) (fun d => xi d * xc j d)
      - max (s.m (ix2 r 0)) (Finset.univ.sup fun j : Fin n => KScalar.scE (Wk v4) (bk v6) (Pk v7) (fun d => xi d * xc j d))) :=
    fun j => by rw [hp j, hsc j, hm]
  refine St_ext hm ?_ ?_
  · show newL n rd1 s.l (corr s.m _) p (ix2 r 0) = _
    refine (newL_apply n rd1 s.l _ p r 0).trans ?_
    show s.l (ix2 r 0) * Ideal.exp (s.m (ix2 r 0) - newM n rd1 _ s.m (ix2 r 0)) + _ = _
    rw [hm]
    simp only [hpj]
    rfl
  · funext d
    show newAcc n bc4 rd2 s.acc (corr s.m _) p e (ix2 r d) = _
    refine (newAcc_apply n bc4 rd2 s.acc _ p e r d).trans ?_
    show s.acc (ix2 r d) * Ideal.exp (s.m (ix2 r 0) - newM n rd1 _ s.m (ix2 r 0)) + _ = _
    rw [hm]
    simp only [hpj, he]
    rfl

/-- One step of the kernel at batch row r is the scalar step on that row. -/
theorem step_row (i n : ℕ) (hn : i + 1 + n = 39) (ev : Evid i n) (v3 : FVec Ideal S39x512x40 .f32)
    (v4 : FVec Ideal S8x40 .f32) (v6 v7 : FVec Ideal S1x8 .f32) (s : State Ideal) (r : Fin 512) :
    rowSt (step i n ev v3 v4 v6 v7 s) r
      = KScalar.stepE (Wk v4) (bk v6) (Pk v7) n (fun d => v3 (ix3 ⟨i, by omega⟩ r d))
          (fun j d => v3 (ix3 ⟨i + 1 + j.val, by have := j.isLt; omega⟩ r d)) (rowSt s r) :=
  core_row n ev.sc1 ev.bc2 ev.sc2 ev.rd1 ev.bc4 ev.rd2 (ewp i n ev v3) v4 v6 v7 s (wts n ev.bc3 _ _) r _ _
    (fun j d => ewp_apply i n hn ev v3 j r d) (fun j => wts_apply n ev.bc3 _ _ j r 0)

/-! ## The last field pair -/

theorem ewpLast_apply (ev : EvidLast) (v3 : FVec Ideal S39x512x40 .f32) (j : Fin 1) (r : Fin 512) (d : Fin 40) :
    ewpLast ev v3 (ix3 j r d) = v3 (ix3 (37 : Fin 39) r d) * v3 (ix3 (38 : Fin 39) r d) := by
  unfold ewpLast
  have h1 : shapeCast S1x512x40 (fieldAt 37 v3 ev.sl1) (by decide) (ix3 j r d) = v3 (ix3 (37 : Fin 39) r d) :=
    (shapeCast_ab_1ab_apply _ _ j r d).trans (fieldAt_apply 37 (by decide) v3 ev.sl1 r d)
  have h2 : extractStridedSlice S1x512x40 ![38, 0, 0] v3 ev.sl2 (ix3 j r d) = v3 (ix3 (38 : Fin 39) r d) :=
    slice3_axis0_apply 38 v3 ev.sl2 j r d (38 : Fin 39) (by
      show 38 = 38 + j.val
      have := j.isLt; omega)
  show _ * _ = _
  rw [h1, h2]

theorem wtsLast_apply (lg : FVec Ideal S1x512x1 .f32) (m' : FVec Ideal S512x1 .f32) (j : Fin 1) (r : Fin 512) (u : Fin 1) :
    wtsLast lg m' (ix3 j r u) = Ideal.exp (lg (ix3 j r u) - m' (ix2 r u)) := by
  unfold wtsLast
  show Ideal.exp (lg (ix3 j r u) - shapeCast S1x512x1 m' (by decide) (ix3 j r u)) = _
  rw [shapeCast_ab_1ab_apply]

/-- The last step (field 37 with field 38) at batch row r. -/
theorem stepLast_row (ev : EvidLast) (v3 : FVec Ideal S39x512x40 .f32) (v4 : FVec Ideal S8x40 .f32)
    (v6 v7 : FVec Ideal S1x8 .f32) (s : State Ideal) (r : Fin 512) :
    rowSt (stepLast ev v3 v4 v6 v7 s) r
      = KScalar.stepE (Wk v4) (bk v6) (Pk v7) 1 (fun d => v3 (ix3 (37 : Fin 39) r d))
          (fun _ d => v3 (ix3 (38 : Fin 39) r d)) (rowSt s r) :=
  core_row 1 (by decide) (by decide) (by decide) (by decide) (by decide) (by decide) (ewpLast ev v3) v4 v6 v7 s
    (wtsLast _ _) r _ _ (fun j d => ewpLast_apply ev v3 j r d) (fun j => wtsLast_apply _ _ j r 0)

/-! ## Start, iteration, finish -/

/-- Before any field every row is the scalar start. -/
theorem init_row (r : Fin 512) : rowSt (init (F := Ideal)) r = KScalar.initE := by
  refine St_ext ?_ ?_ ?_
  · show Ideal.ofBits .f32 0xFF800000#32 = ⊥
    simp [Ideal.ofBits, Ideal.ieee]
  · exact Ideal.ofBits_zero_f32
  · funext d
    exact Ideal.ofBits_zero_f32

theorem iterE_succ (W : Fin 8 → Fin 40 → EReal) (b P : Fin 8 → EReal) (x : Fin 39 → Fin 40 → EReal) (k : ℕ) (h : k < 38) :
    KScalar.iterE W b P x (k + 1) = KScalar.stepE W b P (38 - k) (x ⟨k, by omega⟩)
      (fun j => x ⟨k + 1 + j.val, by have := j.isLt; omega⟩) (KScalar.iterE W b P x k) := by
  rw [KScalar.iterE, dif_pos h]

theorem iter_succ (v3 : FVec Ideal S39x512x40 .f32) (v4 : FVec Ideal S8x40 .f32) (v6 v7 : FVec Ideal S1x8 .f32)
    (k : ℕ) (h : k < 37) :
    iter v3 v4 v6 v7 (k + 1) = step k (38 - k) (evid_all ⟨k, h⟩) v3 v4 v6 v7 (iter v3 v4 v6 v7 k) := by
  rw [iter, dif_pos h]

/-- After k ≤ 37 fields, row r of the kernel's state is the scalar recurrence's state on that row. -/
theorem iter_row (v3 : FVec Ideal S39x512x40 .f32) (v4 : FVec Ideal S8x40 .f32) (v6 v7 : FVec Ideal S1x8 .f32)
    (r : Fin 512) : ∀ k : ℕ, k ≤ 37 →
      rowSt (iter v3 v4 v6 v7 k) r = KScalar.iterE (Wk v4) (bk v6) (Pk v7) (fun f d => v3 (ix3 f r d)) k
  | 0, _ => init_row r
  | k + 1, hk => by
    rw [iter_succ v3 v4 v6 v7 k (by omega), iterE_succ _ _ _ _ k (by omega),
      step_row k (38 - k) (by omega) _ v3 v4 v6 v7 _ r, iter_row v3 v4 v6 v7 r k (by omega)]

/-- The output at row r from the final state's row r. -/
theorem finish_row (v8 : FVec Ideal S1x40 .f32) (v10 : FVec Ideal S1x1 .f32) (s : State Ideal) (r : Fin 512) :
    finish v8 v10 s (ix2 0 r) = KScalar.finishE (fun d => v8 (ix2 0 d)) (v10 (ix2 0 0)) (rowSt s r) := by
  unfold finish
  refine (transpose_ix2_apply _ _ (0 : Fin 1) r).trans ?_
  have h1 : matmul (DotDims.plain 512 40 1) none (divf s.acc (broadcastTo S512x40 s.l (by decide)))
      (transpose S40x1 [1, 0] v8 (by decide)) (constant S512x1 .f32 0x00000000#32) (ix2 r (0 : Fin 1))
      = ∑ d : Fin 40, Ideal.div (s.acc (ix2 r d)) (s.l (ix2 r 0)) * v8 (ix2 0 d) := by
    refine (matmul_plain_zero_apply _ _ r (0 : Fin 1)).trans ?_
    refine Finset.sum_congr rfl fun d _ => ?_
    rw [transpose_ix2_apply]
    show Ideal.div (s.acc (ix2 r d)) (broadcastTo S512x40 s.l (by decide) (ix2 r d)) * _ = _
    rw [broadcastTo_col_apply]
  have h2 : broadcastTo S512x1 v10 (by decide) (ix2 r (0 : Fin 1)) = v10 (ix2 0 0) :=
    broadcastTo_1b_ab_apply v10 _ r 0
  show Ideal.logistic (_ + _) = _
  rw [h1, h2]
  rfl

/-- The whole recurrence at row r, for any transposed block v3. -/
theorem whole_row (v3 : FVec Ideal S39x512x40 .f32) (v4 : FVec Ideal S8x40 .f32) (v6 v7 : FVec Ideal S1x8 .f32)
    (v8 : FVec Ideal S1x40 .f32) (v10 : FVec Ideal S1x1 .f32) (r : Fin 512) :
    finish v8 v10 (stepLast evidLast v3 v4 v6 v7 (iter v3 v4 v6 v7 37)) (ix2 0 r)
      = KScalar.rowE (Wk v4) (bk v6) (Pk v7) (fun d => v8 (ix2 0 d)) (v10 (ix2 0 0)) (fun f d => v3 (ix3 f r d)) := by
  refine (finish_row v8 v10 _ r).trans ?_
  rw [stepLast_row, iter_row v3 v4 v6 v7 r 37 (le_refl _)]
  unfold KScalar.rowE
  refine congrArg _ ?_
  refine Eq.trans ?_ (iterE_succ _ _ _ _ 37 (by decide)).symm
  have hx : (fun (j : Fin 1) (d : Fin 40) => v3 (ix3 (⟨37 + 1 + j.val, by have := j.isLt; omega⟩ : Fin 39) r d))
      = fun _ d => v3 (ix3 (38 : Fin 39) r d) := by
    funext j d
    obtain rfl : j = 0 := Subsingleton.elim _ _
    rfl
  exact congrArg (fun xc => KScalar.stepE (Wk v4) (bk v6) (Pk v7) 1 (fun d => v3 (ix3 (37 : Fin 39) r d)) xc
    (KScalar.iterE (Wk v4) (bk v6) (Pk v7) (fun f d => v3 (ix3 f r d)) 37)) hx.symm

/-- The kernel body's output at batch row r is the scalar recurrence run on that row of the block. -/
theorem body_row (x0 : Vec Ideal S512x39x40 .bf16) (x1 : Vec Ideal S8x40 .f32) (x2 x3 : Vec Ideal S1x8 .f32)
    (x4 : Vec Ideal S1x40 .f32) (x5 : Vec Ideal S1x1 .f32) (r : Fin 512) :
    body x0 x1 x2 x3 x4 x5 (ix2 0 r)
      = KScalar.rowE (fun k d => x1 (ix2 k d)) (fun k => x2 (ix2 0 k)) (fun k => x3 (ix2 0 k))
          (fun d => x4 (ix2 0 d)) (x5 (ix2 0 0)) (fun f d => x0 (ix3 r f d)) := by
  unfold body
  refine (whole_row _ x1 _ x3 x4 _ r).trans ?_
  have h6 : shapeCast S1x8 x2 (by decide) = x2 := shapeCast_self x2 _
  have h5 : shapeCast S1x1 x5 (by decide) = x5 := shapeCast_self x5 _
  have h0 : ∀ (f : Fin 39) (d : Fin 40),
      transpose S39x512x40 [1, 0, 2] (extf (F := Ideal) (φ := .bf16) .f32
          (shapeCast (s := S512x39x40) S512x39x40 (x0 : FVec Ideal S512x39x40 .bf16) (by decide)) (by decide)) (by decide) (ix3 f r d)
        = x0 (ix3 r f d) := fun f d => by
    refine (transpose_apply [1, 0, 2] _ _ (ix3 f r d) (ix3 r f d) fun c => ?_).trans ?_
    · match c with
      | ⟨0, _⟩ => rfl
      | ⟨1, _⟩ => rfl
      | ⟨2, _⟩ => rfl
    · show shapeCast S512x39x40 x0 (by decide) (ix3 r f d) = _
      rw [shapeCast_self]
  rw [h6, h5]
  simp only [h0]
  rfl

end Cert.Afm.KStepIdx
end
-- ==== Proof.RowMath.lean ====
/-
  The streaming softmax equals the two-pass softmax.

  A state of the streaming pass describes a finite set S of scored items: its first component is the largest
  score over S (-∞ when S is empty), its second the sum over S of exp(score - largest), its third the same
  sum weighted by the items' vectors.  Folding in a disjoint nonempty set T replaces the largest score by
  the larger of the old one and T's, multiplies the old sums by exp(old largest - new largest), which turns
  every exp(score - old largest) into exp(score - new largest), and adds T's terms: the new state describes
  S ∪ T.  The pairs with first field below k grow with k from the empty set to all pairs, so the final state
  describes all pairs, and dividing its weighted sum by its plain sum gives the softmax-weighted mean.
-/
import proofs.«413975_j5944234738104_2_alg».proof.Proof.Spec
import proofs.«413975_j5944234738104_2_alg».proof.Proof.KScalar
import Idealize.ShloMosaic.PureOps.Ideal
import Mathlib.Data.EReal.Basic
import Mathlib.Data.EReal.Operations
import Mathlib.Analysis.SpecialFunctions.Exp
import Mathlib.Data.Finset.Lattice.Fold
import Mathlib.Algebra.BigOperators.Fin

noncomputable section
namespace Cert.Afm.RowMath
open Idealize.ShloMosaic Finset

/-! ## Real numbers inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with the maximum of two numbers. -/
theorem coe_max (a b : ℝ) : ((max a b : ℝ) : EReal) = max (a : EReal) (b : EReal) :=
  EReal.coe_strictMono.monotone.map_max

/-- The score network on embedded reals is the embedded real score. -/
theorem scE_coe (W : Fin 8 → Fin 40 → ℝ) (bA P : Fin 8 → ℝ) (e : Fin 40 → ℝ) :
    KScalar.scE (fun k d => (W k d : EReal)) (fun k => (bA k : EReal)) (fun k => (P k : EReal))
        (fun d => (e d : EReal))
      = ((∑ k : Fin 8, max (∑ d : Fin 40, e d * W k d + bA k) 0 * P k : ℝ) : EReal) := by
  unfold KScalar.scE
  rw [coe_sum]
  refine Finset.sum_congr rfl fun k _ => ?_
  rw [EReal.coe_mul, coe_max, EReal.coe_add, coe_sum, EReal.coe_zero]
  simp only [EReal.coe_mul]

/-! ## States describing a finite set of scored items -/

section Abstract

variable {ι : Type*} [DecidableEq ι] (f : ι → ℝ) (g : ι → Fin 40 → ℝ)

/-- The largest score over S on the extended reals: -∞ on the empty set. -/
def topE (S : Finset ι) : EReal := S.sup fun q => (f q : EReal)

/-- Its real value (0 on the empty set, where it is never used). -/
def topR (S : Finset ι) : ℝ := (topE f S).toReal

theorem topE_empty : topE f (∅ : Finset ι) = ⊥ := Finset.sup_empty

theorem topE_eq_coe {S : Finset ι} (h : S.Nonempty) : topE f S = (topR f S : EReal) := by
  obtain ⟨i, _, hi⟩ := Finset.exists_mem_eq_sup S h fun q => (f q : EReal)
  unfold topR topE
  rw [hi, EReal.toReal_coe]

theorem topE_union (S T : Finset ι) : topE f (S ∪ T) = max (topE f S) (topE f T) := Finset.sup_union

/-- The state s describes the set S. -/
def Desc (S : Finset ι) (s : KScalar.St) : Prop :=
  s.m = topE f S ∧ s.l = ((∑ q ∈ S, Real.exp (f q - topR f S) : ℝ) : EReal) ∧
    ∀ d, s.acc d = ((∑ q ∈ S, Real.exp (f q - topR f S) * g q d : ℝ) : EReal)

/-- Multiplying a sum of exponentials shifted by S's largest score by exp(that largest - μ) shifts them
    by μ instead; on the empty set both sides are 0 (exp(-∞) = 0). -/
theorem rescale (S : Finset ι) (h : ι → ℝ) (μ : ℝ) :
    ((∑ q ∈ S, Real.exp (f q - topR f S) * h q : ℝ) : EReal) * Ideal.exp (topE f S - (μ : EReal))
      = ((∑ q ∈ S, Real.exp (f q - μ) * h q : ℝ) : EReal) := by
  rcases S.eq_empty_or_nonempty with rfl | hS
  · simp
  · rw [topE_eq_coe f hS, ← EReal.coe_sub, Ideal.exp_coe, ← EReal.coe_mul, Finset.sum_mul]
    congr 1
    refine Finset.sum_congr rfl fun q _ => ?_
    rw [mul_right_comm, ← Real.exp_add]
    congr 2
    ring

theorem desc_step {S T : Finset ι} (hd : Disjoint S T) (hT : T.Nonempty) {s : KScalar.St}
    (hs : Desc f g S s) :
    Desc f g (S ∪ T)
      ⟨max s.m (topE f T),
       s.l * Ideal.exp (s.m - max s.m (topE f T)) + ∑ q ∈ T, Ideal.exp ((f q : EReal) - max s.m (topE f T)),
       fun d => s.acc d * Ideal.exp (s.m - max s.m (topE f T))
         + ∑ q ∈ T, Ideal.exp ((f q : EReal) - max s.m (topE f T)) * (g q d : EReal)⟩ := by
  obtain ⟨hm, hl, ha⟩ := hs
  have hST : (S ∪ T).Nonempty := hT.mono Finset.subset_union_right
  have hm' : max s.m (topE f T) = (topR f (S ∪ T) : EReal) := by
    rw [hm, ← topE_union, topE_eq_coe f hST]
  have hnew : ∀ h : ι → ℝ,
      ∑ q ∈ T, Ideal.exp ((f q : EReal) - (topR f (S ∪ T) : EReal)) * (h q : EReal)
        = ((∑ q ∈ T, Real.exp (f q - topR f (S ∪ T)) * h q : ℝ) : EReal) := by
    intro h
    rw [coe_sum]
    refine Finset.sum_congr rfl fun q _ => ?_
    rw [← EReal.coe_sub, Ideal.exp_coe, EReal.coe_mul]
  refine ⟨?_, ?_, ?_⟩
  · show max s.m (topE f T) = topE f (S ∪ T)
    rw [hm, topE_union]
  · show s.l * _ + _ = _
    rw [hm', Finset.sum_union hd, EReal.coe_add, hl, hm]
    congr 1
    · have h1 := rescale f S (fun _ => 1) (topR f (S ∪ T))
      simp only [mul_one] at h1
      exact h1
    · have h2 := hnew (fun _ => 1)
      simp only [mul_one, EReal.coe_one] at h2
      exact h2
  · intro d
    show s.acc d * _ + _ = _
    rw [hm', Finset.sum_union hd, EReal.coe_add, ha d, hm]
    congr 1
    · exact rescale f S (fun q => g q d) _
    · exact hnew (fun q => g q d)

end Abstract

/-! ## The pairs seen after k fields -/

section Row

variable (x : Fin 39 → Fin 40 → ℝ) (W : Fin 8 → Fin 40 → ℝ) (bA P : Fin 8 → ℝ)

/-- The score of a pair. -/
def sc (q : Fin 39 × Fin 39) : ℝ := score x W bA P q.1 q.2

/-- The product vector of a pair. -/
def vec (q : Fin 39 × Fin 39) (d : Fin 40) : ℝ := ew x q.1 q.2 d

/-- The pairs whose smaller field is among the first k. -/
def B (k : ℕ) : Finset (Fin 39 × Fin 39) := pairs.filter fun q => q.1.val < k

/-- The j-th pair that field k forms with a later field. -/
def newPair (k : ℕ) (hk : k < 38) (j : Fin (38 - k)) : Fin 39 × Fin 39 :=
  (⟨k, by omega⟩, ⟨k + 1 + j.val, by have := j.isLt; omega⟩)

/-- The pairs that field k forms with the later fields. -/
def New (k : ℕ) (hk : k < 38) : Finset (Fin 39 × Fin 39) := Finset.univ.image (newPair k hk)

theorem B_zero : B 0 = ∅ := by
  simp [B]

theorem B_last : B 38 = pairs := by
  unfold B
  refine Finset.filter_true_of_mem fun q hq => ?_
  have h1 : q.1.val < q.2.val := mem_pairs.1 hq
  have h2 := q.2.isLt
  omega

theorem B_succ (k : ℕ) (hk : k < 38) : B (k + 1) = B k ∪ New k hk := by
  ext ⟨i, j⟩
  simp only [B, New, newPair, Finset.mem_filter, Finset.mem_union, Finset.mem_image, Finset.mem_univ,
    true_and, mem_pairs, Prod.mk.injEq]
  constructor
  · rintro ⟨hij, hik⟩
    have hij' : i.val < j.val := hij
    by_cases h : i.val < k
    · exact Or.inl ⟨hij, h⟩
    · right
      have hj := j.isLt
      refine ⟨⟨j.val - k - 1, by omega⟩, Fin.ext ?_, Fin.ext ?_⟩
      · show k = i.val
        omega
      · show k + 1 + (j.val - k - 1) = j.val
        omega
  · rintro (⟨hij, hik⟩ | ⟨a, rfl, rfl⟩)
    · exact ⟨hij, by omega⟩
    · refine ⟨?_, ?_⟩
      · show k < k + 1 + a.val
        omega
      · show k < k + 1
        omega

theorem disjoint_B_New (k : ℕ) (hk : k < 38) : Disjoint (B k) (New k hk) := by
  rw [Finset.disjoint_left]
  intro q hq hq'
  simp only [B, Finset.mem_filter] at hq
  simp only [New, Finset.mem_image, Finset.mem_univ, true_and] at hq'
  obtain ⟨a, rfl⟩ := hq'
  exact absurd hq.2 (lt_irrefl k)

theorem newPair_injective (k : ℕ) (hk : k < 38) : Function.Injective (newPair k hk) := by
  intro a b h
  have h2 : k + 1 + a.val = k + 1 + b.val := congrArg (fun q => q.2.val) h
  exact Fin.ext (by omega)

theorem New_nonempty (k : ℕ) (hk : k < 38) : (New k hk).Nonempty :=
  ⟨newPair k hk ⟨0, by omega⟩, Finset.mem_image_of_mem _ (Finset.mem_univ _)⟩

/-- One field folded in: the state describing the pairs of the first k fields becomes the state describing
    the pairs of the first k + 1. -/
theorem stepE_desc (k : ℕ) (hk : k < 38) {s : KScalar.St} (hs : Desc (sc x W bA P) (vec x) (B k) s) :
    Desc (sc x W bA P) (vec x) (B (k + 1))
      (KScalar.stepE (fun k d => (W k d : EReal)) (fun k => (bA k : EReal)) (fun k => (P k : EReal)) (38 - k)
        (fun d => (x ⟨k, by omega⟩ d : EReal))
        (fun j d => (x ⟨k + 1 + j.val, by have := j.isLt; omega⟩ d : EReal)) s) := by
  have hv : ∀ (j : Fin (38 - k)) (d : Fin 40),
      (x ⟨k, by omega⟩ d : EReal) * (x ⟨k + 1 + j.val, by have := j.isLt; omega⟩ d : EReal)
        = ((vec x (newPair k hk j) d : ℝ) : EReal) := by
    intro j d
    rw [← EReal.coe_mul]
    rfl
  have hsc : ∀ j : Fin (38 - k),
      KScalar.scE (fun k d => (W k d : EReal)) (fun k => (bA k : EReal)) (fun k => (P k : EReal))
          (fun d => ((vec x (newPair k hk j) d : ℝ) : EReal))
        = (sc x W bA P (newPair k hk j) : EReal) := by
    intro j
    rw [scE_coe]
    rfl
  have hsup : (Finset.univ.sup fun j : Fin (38 - k) => (sc x W bA P (newPair k hk j) : EReal))
      = topE (sc x W bA P) (New k hk) := by
    unfold topE New
    rw [Finset.sup_image]
    rfl
  have hsum : ∀ F : Fin 39 × Fin 39 → EReal, ∑ q ∈ New k hk, F q = ∑ j : Fin (38 - k), F (newPair k hk j) :=
    fun F => Finset.sum_image fun a _ b _ h => newPair_injective k hk h
  have key := desc_step (sc x W bA P) (vec x) (disjoint_B_New k hk) (New_nonempty k hk) hs
  simp only [hsum] at key
  rw [B_succ k hk]
  unfold KScalar.stepE
  simp only [hv, hsc, hsup]
  exact key

theorem iter_desc (k : ℕ) (hk : k ≤ 38) :
    Desc (sc x W bA P) (vec x) (B k)
      (KScalar.iterE (fun k d => (W k d : EReal)) (fun k => (bA k : EReal)) (fun k => (P k : EReal))
        (fun f d => (x f d : EReal)) k) := by
  induction k with
  | zero =>
    show Desc _ _ (B 0) KScalar.initE
    rw [B_zero]
    refine ⟨(topE_empty _).symm, ?_, fun d => ?_⟩
    · simp [KScalar.initE]
    · simp [KScalar.initE]
  | succ k ih =>
    have hk' : k < 38 := by omega
    have key := stepE_desc x W bA P k hk' (ih (by omega))
    rw [KScalar.iterE, dif_pos hk']
    exact key

/-- On all pairs the largest score is the specification's. -/
theorem topR_pairs : topR (sc x W bA P) pairs = topScore x W bA P := by
  have h : topE (sc x W bA P) pairs = ((topScore x W bA P : ℝ) : EReal) := by
    unfold topE topScore
    rw [← Finset.sup'_eq_sup pairs_nonempty]
    exact (Finset.comp_sup'_eq_sup'_comp pairs_nonempty (fun r : ℝ => (r : EReal))
      (fun a b => coe_max a b)).symm
  unfold topR
  rw [h, EReal.toReal_coe]

/-- The softmax denominator is positive: a nonempty sum of exponentials. -/
theorem norm_pos : 0 < norm x W bA P :=
  Finset.sum_pos (fun _ _ => Real.exp_pos _) pairs_nonempty

end Row

theorem rowE_eq (x : Fin 39 → Fin 40 → ℝ) (W : Fin 8 → Fin 40 → ℝ) (bA P : Fin 8 → ℝ) (fcW : Fin 40 → ℝ)
    (fcB : ℝ) :
    KScalar.rowE (fun k d => (W k d : EReal)) (fun k => (bA k : EReal)) (fun k => (P k : EReal))
        (fun d => (fcW d : EReal)) (fcB : EReal) (fun f d => (x f d : EReal))
      = ((Cert.Afm.outRow x W bA P fcW fcB : ℝ) : EReal) := by
  obtain ⟨_, hl, ha⟩ := iter_desc x W bA P 38 le_rfl
  rw [B_last, topR_pairs] at hl
  have hl' : (KScalar.iterE (fun k d => (W k d : EReal)) (fun k => (bA k : EReal)) (fun k => (P k : EReal))
      (fun f d => (x f d : EReal)) 38).l = ((norm x W bA P : ℝ) : EReal) := hl
  have hn : norm x W bA P ≠ 0 := (norm_pos x W bA P).ne'
  have hacc : ∀ d : Fin 40,
      Ideal.div ((KScalar.iterE (fun k d => (W k d : EReal)) (fun k => (bA k : EReal))
          (fun k => (P k : EReal)) (fun f d => (x f d : EReal)) 38).acc d)
        (KScalar.iterE (fun k d => (W k d : EReal)) (fun k => (bA k : EReal)) (fun k => (P k : EReal))
          (fun f d => (x f d : EReal)) 38).l = ((pooled x W bA P d : ℝ) : EReal) := by
    intro d
    rw [hl', Ideal.div_coe hn, ha d, ← EReal.coe_mul, B_last, topR_pairs]
    refine congrArg Real.toEReal ?_
    unfold pooled
    rw [Finset.sum_mul]
    refine Finset.sum_congr rfl fun q _ => ?_
    unfold vec sc
    ring
  unfold KScalar.rowE KScalar.finishE
  simp only [hacc]
  have hsum : (∑ d : Fin 40, ((pooled x W bA P d : ℝ) : EReal) * ((fcW d : ℝ) : EReal) + ((fcB : ℝ) : EReal))
      = ((∑ d : Fin 40, pooled x W bA P d * fcW d + fcB : ℝ) : EReal) := by
    rw [EReal.coe_add, coe_sum]
    simp only [EReal.coe_mul]
  rw [hsum, Ideal.logistic_coe]
  unfold outRow
  rw [one_div]

end Cert.Afm.RowMath
end
-- ==== Proof.KerTop.lean ====
/-
  The kernel program's run, with its result named: under the precondition every fair execution ends with the
  result array at the common value of SpecArr.lean and the arguments unchanged.

  The generated frame run names the output array block by block; a block is the body function of the six
  input blocks; the body at a batch row is the scalar streaming recurrence on the row's embedded fields; the
  embedded fields are, inside the table's range, the real rows of the specification; and the streaming
  recurrence on reals is the specification's row output.
-/
import proofs.«413975_j5944234738104_2_alg».proof.Defs
import proofs.«413975_j5944234738104_2_alg».proof.Proof.Gen.KernelIdeal.Frame
import proofs.«413975_j5944234738104_2_alg».proof.Proof.Gen.Pre_finite_inputs
import proofs.«413975_j5944234738104_2_alg».proof.Proof.SpecArr
import proofs.«413975_j5944234738104_2_alg».proof.Proof.Glue
import proofs.«413975_j5944234738104_2_alg».proof.Proof.PreFacts
import proofs.«413975_j5944234738104_2_alg».proof.Proof.KArr
import proofs.«413975_j5944234738104_2_alg».proof.Proof.KerX
import proofs.«413975_j5944234738104_2_alg».proof.Proof.KStepIdx
import proofs.«413975_j5944234738104_2_alg».proof.Proof.RowMath

noncomputable section
namespace Cert.Afm
open Idealize.ShloMosaic Idealize.ShloMosaic.TcCoe Idealize.SL.Sem Idealize.ShloMosaic.ValueIdx
open Cert.KernelIdeal Cert.KernelIdeal.Gen

/-- The kernel's value at a batch row, from the pieces: the body on the row's block is the scalar streaming
    recurrence on the row's embedded fields, which is the row output of the specification. -/
theorem ker_value (m : (ℓ : Loc nD τ sig) → Buf (Elt Ideal) ℓ) (c : Dev nD)
    (h0 : ∀ i, ∃ r : ℝ, m ((c.tc : Thread nD τ).loc main_arg0) i = (r : EReal))
    (h3 : ∀ i, ∃ r : ℝ, m ((c.tc : Thread nD τ).loc main_arg3) i = (r : EReal))
    (h4 : ∀ i, ∃ r : ℝ, m ((c.tc : Thread nD τ).loc main_arg4) i = (r : EReal))
    (h5 : ∀ i, ∃ r : ℝ, m ((c.tc : Thread nD τ).loc main_arg5) i = (r : EReal))
    (h6 : ∀ i, ∃ r : ℝ, m ((c.tc : Thread nD τ).loc main_arg6) i = (r : EReal))
    (h7 : ∀ i, ∃ r : ℝ, m ((c.tc : Thread nD τ).loc main_arg7) i = (r : EReal))
    (h8 : ∀ i, ∃ r : ℝ, m ((c.tc : Thread nD τ).loc main_arg8) i = (r : EReal))
    (hc : ∀ i, (m ((c.tc : Thread nD τ).loc main_arg1) i).toNat < 100000) :
    (fun idx : S4096x1.Idx => KStep.body (KArr.blockOf (V m c main_v8) ⟨(idx 0).val / 512, by have h : (idx 0).val < 4096 := (idx 0).isLt; omega⟩)
          (V m c main_arg4) (V m c main_v9) (V m c main_arg6) (V m c main_arg7) (V m c main_v10)
          (ix2 (0 : Fin 1) (⟨(idx 0).val % 512, Nat.mod_lt _ (by norm_num)⟩ : Fin 512)))
      = G (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  funext idx
  rw [KStepIdx.body_row]
  have e1 : (fun (k : Fin 8) (d : Fin 40) => V m c main_arg4 (ix2 k d))
      = fun k d => (((m ((c.tc : Thread nD τ).loc main_arg4) (ix2 k d)).toReal : ℝ) : EReal) := by
    funext k d; rw [V_main_arg4]; exact Glue.coe_toReal_of (h4 _)
  have e2 : (fun (k : Fin 8) => V m c main_v9 (ix2 (0 : Fin 1) k))
      = fun k => (((m ((c.tc : Thread nD τ).loc main_arg5) (ix1 k)).toReal : ℝ) : EReal) := by
    funext k; rw [KerX.V_v9_apply]; exact Glue.coe_toReal_of (h5 _)
  have e3 : (fun (k : Fin 8) => V m c main_arg6 (ix2 (0 : Fin 1) k))
      = fun k => (((m ((c.tc : Thread nD τ).loc main_arg6) (ix2 (0 : Fin 1) k)).toReal : ℝ) : EReal) := by
    funext k; rw [V_main_arg6]; exact Glue.coe_toReal_of (h6 _)
  have e4 : (fun (d : Fin 40) => V m c main_arg7 (ix2 (0 : Fin 1) d))
      = fun d => (((m ((c.tc : Thread nD τ).loc main_arg7) (ix2 (0 : Fin 1) d)).toReal : ℝ) : EReal) := by
    funext d; rw [V_main_arg7]; exact Glue.coe_toReal_of (h7 _)
  have e5 : V m c main_v10 (ix2 (0 : Fin 1) (0 : Fin 1))
      = (((m ((c.tc : Thread nD τ).loc main_arg8) (ix1 (0 : Fin 1))).toReal : ℝ) : EReal) := by
    rw [KerX.V_v10_apply]; exact Glue.coe_toReal_of (h8 _)
  have ex : (fun (f : Fin 39) (d : Fin 40) => KArr.blockOf (V m c main_v8) ⟨(idx 0).val / 512, by have h : (idx 0).val < 4096 := (idx 0).isLt; omega⟩
        (ix3 (⟨(idx 0).val % 512, Nat.mod_lt _ (by norm_num)⟩ : Fin 512) f d))
      = fun f d => ((rowsOf (m ((c.tc : Thread nD τ).loc main_arg0)) (m ((c.tc : Thread nD τ).loc main_arg1)) (m ((c.tc : Thread nD τ).loc main_arg3))
          (⟨(idx 0).val, (idx 0).isLt⟩ : Fin 4096) f d : ℝ) : EReal) := by
    funext f d
    rw [KerX.V_v8]
    have hi : (ix3 (⟨512 * ((idx 0).val / 512) + (idx 0).val % 512, by have h : (idx 0).val < 4096 := (idx 0).isLt; omega⟩ : Fin 4096)
        (⟨f.val, f.isLt⟩ : Fin 39) (⟨d.val, d.isLt⟩ : Fin 40) : (⟨3, ![4096, 39, 40]⟩ : Shape).Idx)
        = ix3 (⟨(idx 0).val, (idx 0).isLt⟩ : Fin 4096) f d := by
      congr 1
      exact Fin.ext (Nat.div_add_mod _ _)
    refine Eq.trans ?_ (Glue.field_coe _ _ _ h0 h3 hc _ f d)
    refine Eq.trans ?_ (KerX.xKer_apply _ _ _ hc _ f d)
    exact congrArg _ hi
  rw [e1, e2, e3, e4, e5, ex, RowMath.rowE_eq]
  rfl

/-- The run, under the precondition. -/
theorem ker_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v12) = Cert.Afm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
  refine (θ_run Cert.KernelIdeal.defs _ _).mono (fun r h c => ?_) (Cert.Afm.KArr.run_value (F := Ideal) m ρ)
  obtain ⟨h0, h3, h4, h5, h6, h7, h8, hc⟩ := PreFacts.finite_of_pre _ _ _ _ _ _ _ _ _ (hpre c)
  exact ⟨(h c).1.trans (ker_value m c h0 h3 h4 h5 h6 h7 h8 (fun i => (hc i).1)), (h c).2⟩

end Cert.Afm
end
-- ==== Proof.RefRun.lean ====
/- The reference program's @main as a list of its host operations, its calls inlined, and its run read back:
   every weakly fair execution terminates with each buffer at the operations' fold over the launch contents. -/
import proofs.«413975_j5944234738104_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60, each call's body listed in its place over the call's buffer record: 146 operations. -/
abbrev ops0 : List (HloOp τ sig (Elt F)) :=
  [
    nullary main_v0 (iotaInDim S13 32 0),
    nullary main_c (constantI S_ 32 0#32),
    unary main_c main_v1 (broadcastInDim S13 ![] bcast_S_S13 : (⟨S_, .i32⟩ : BufTy).Contents (Elt F) → (⟨S13, .i32⟩ : BufTy).Contents (Elt F)),
    binary main_v0 main_v1 main_v2 (cmpi .slt : (⟨S13, .i32⟩ : BufTy).Contents (Elt F) → (⟨S13, .i32⟩ : BufTy).Contents (Elt F) → (⟨S13, .i1⟩ : BufTy).Contents (Elt F)),
    nullary main_c_0 (constantI S_ 32 100000#32),
    unary main_c_0 main_v3 (broadcastInDim S13 ![] bcast_S_S13 : (⟨S_, .i32⟩ : BufTy).Contents (Elt F) → (⟨S13, .i32⟩ : BufTy).Contents (Elt F)),
    binary main_v0 main_v3 main_v4 (addi : (⟨S13, .i32⟩ : BufTy).Contents (Elt F) → (⟨S13, .i32⟩ : BufTy).Contents (Elt F) → (⟨S13, .i32⟩ : BufTy).Contents (Elt F)),
    ternary main_v2 main_v4 main_v0 main_v5 (select : (⟨S13, .i1⟩ : BufTy).Contents (Elt F) → (⟨S13, .i32⟩ : BufTy).Contents (Elt F) → (⟨S13, .i32⟩ : BufTy).Contents (Elt F) → (⟨S13, .i32⟩ : BufTy).Contents (Elt F)),
    unary main_v5 main_v6 (broadcastInDim S13x1 ![0] bcast_S13_S13x1_0 : (⟨S13, .i32⟩ : BufTy).Contents (Elt F) → (⟨S13x1, .i32⟩ : BufTy).Contents (Elt F)),
    binary main_arg3 main_v6 main_v7 ((fun x i => Host.gather gather_S100000x40_S13x1_S13x40_1_0_n_n_0_1_140 x i) : (⟨S100000x40, .f32⟩ : BufTy).Contents (Elt F) → (⟨S13x1, .i32⟩ : BufTy).Contents (Elt F) → (⟨S13x40, .f32⟩ : BufTy).Contents (Elt F)),
    unary main_v7 main_v8 (broadcastInDim S1x13x40 ![1, 2] bcast_S13x40_S1x13x40_1_2 : (⟨S13x40, .f32⟩ : BufTy).Contents (Elt F) → (⟨S1x13x40, .f32⟩ : BufTy).Contents (Elt F)),
    unary main_arg0 main_v9 (broadcastInDim S4096x13x1 ![0, 1] bcast_S4096x13_S4096x13x1_0_1 : (⟨S4096x13, .f32⟩ : BufTy).Contents (Elt F) → (⟨S4096x13x1, .f32⟩ : BufTy).Contents (Elt F)),
    unary main_v8 main_v10 (broadcastInDim S4096x13x40 ![0, 1, 2] bcast_S1x13x40_S4096x13x40_0_1_2 : (⟨S1x13x40, .f32⟩ : BufTy).Contents (Elt F) → (⟨S4096x13x40, .f32⟩ : BufTy).Contents (Elt F)),
    unary main_v9 main_v11 (broadcastInDim S4096x13x40 ![0, 1, 2] bcast_S4096x13x1_S4096x13x40_0_1_2 : (⟨S4096x13x1, .f32⟩ : BufTy).Contents (Elt F) → (⟨S4096x13x40, .f32⟩ : BufTy).Contents (Elt F)),
    binary main_v10 main_v11 main_v12 (mulf : (⟨S4096x13x40, .f32⟩ : BufTy).Contents (Elt F) → (⟨S4096x13x40, .f32⟩ : BufTy).Contents (Elt F) → (⟨S4096x13x40, .f32⟩ : BufTy).Contents (Elt F)),
    nullary main_c_1 (constantI S_ 32 0#32),
    unary main_c_1 main_v13 (broadcastInDim S4096x26 ![] bcast_S_S4096x26 : (⟨S_, .i32⟩ : BufTy).Contents (Elt F) → (⟨S4096x26, .i32⟩ : BufTy).Contents (Elt F)),
    binary main_arg1 main_v13 main_v14 (cmpi .slt : (⟨S4096x26, .i32⟩ : BufTy).Contents (Elt F) → (⟨S4096x26, .i32⟩ : BufTy).Contents (Elt F) → (⟨S4096x26, .i1⟩ : BufTy).Contents (Elt F)),
    nullary main_c_2 (constantI S_ 32 100000#32),
    unary main_c_2 main_v15 (broadcastInDim S4096x26 ![] bcast_S_S4096x26 : (⟨S_, .i32⟩ : BufTy).Contents (Elt F) → (⟨S4096x26, .i32⟩ : BufTy).Contents (Elt F)),
    binary main_arg1 main_v15 main_v16 (addi : (⟨S4096x26, .i32⟩ : BufTy).Contents (Elt F) → (⟨S4096x26, .i32⟩ : BufTy).Contents (Elt F) → (⟨S4096x26, .i32⟩ : BufTy).Contents (Elt F)),
    ternary main_v14 main_v16 main_arg1 main_v17 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v17 main_v18 (broadcastInDim S4096x26x1 ![0, 1] bcast_S4096x26_S4096x26x1_0_1 : (⟨S4096x26, .i32⟩ : BufTy).Contents (Elt F) → (⟨S4096x26x1, .i32⟩ : BufTy).Contents (Elt F)),
    binary main_arg3 main_v18 main_v19 ((fun x i => Host.gather gather_S100000x40_S4096x26x1_S4096x26x40_2_0_n_n_0_2_140 x i) : (⟨S100000x40, .f32⟩ : BufTy).Contents (Elt F) → (⟨S4096x26x1, .i32⟩ : BufTy).Contents (Elt F) → (⟨S4096x26x40, .f32⟩ : BufTy).Contents (Elt F)),
    binary main_v12 main_v19 main_v20 ((fun a b => concatenate S4096x39x40 1 [⟨S4096x13x40, a⟩, ⟨S4096x26x40, b⟩] concatenates_S4096x13x40_S4096x26x40_S4096x39x40_d1) : (⟨S4096x13x40, .f32⟩ : BufTy).Contents (Elt F) → (⟨S4096x26x40, .f32⟩ : BufTy).Contents (Elt F) → (⟨S4096x39x40, .f32⟩ : BufTy).Contents (Elt F)),
    nullary main_cst (constant S_ .f32 0x3F800000#32),
    unary main_cst main_v21 (broadcastInDim S39x39 ![] bcast_S_S39x39 : (⟨S_, .f32⟩ : BufTy).Contents (Elt F) → (⟨S39x39, .f32⟩ : BufTy).Contents (Elt F)),
    TRef.nullary main_call0.v0 (iotaInDim S39x39 32 0),
    TRef.nullary main_call0.c (constantI S_ 32 0#32),
    TRef.unary main_call0.c main_call0.v1 (broadcastInDim S39x39 ![] bcast_S_S39x39),
    TRef.binary main_call0.v0 main_call0.v1 main_call0.v2 addi,
    TRef.nullary main_call0.v3 (iotaInDim S39x39 32 1),
    TRef.binary main_call0.v2 main_call0.v3 main_call0.v4 (cmpi .sge),
    TRef.nullary main_call0.cst (constant S_ .f32 0x00000000#32),
    TRef.unary main_call0.cst main_call0.v5 (broadcastInDim S39x39 ![] bcast_S_S39x39),
    TRef.ternary main_call0.v4 main_call0.v5 (TRef.of main_v21 : StableHlo.TRef sig ⟨S39x39, .f32⟩) main_call0.v6 select,
    nullary main_cst_3 (constant S_ .f32 0x00000000#32),
    unary main_cst_3 main_v23 (broadcastInDim S39x39 ![] bcast_S_S39x39 : (⟨S_, .f32⟩ : BufTy).Contents (Elt F) → (⟨S39x39, .f32⟩ : BufTy).Contents (Elt F)),
    binary main_v22 main_v23 main_v24 (cmpf .une : (⟨S39x39, .f32⟩ : BufTy).Contents (Elt F) → (⟨S39x39, .f32⟩ : BufTy).Contents (Elt F) → (⟨S39x39, .i1⟩ : BufTy).Contents (Elt F)),
    TRef.reshape (TRef.of main_v24 : StableHlo.TRef sig ⟨S39x39, .i1⟩) main_call1.v0 rfl shapeCasts_S39x39_S1521,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1521] ![1] ![1520] ![0] x v reduceWindows_S1521_S1521_w1521s1p1520_0 h_S_),
    nullary main_c_4 (constantI S_ 32 0#32),
    unary main_c_4 main_v26 (broadcastInDim S741 ![] bcast_S_S741 : (⟨S_, .i32⟩ : BufTy).Contents (Elt F) → (⟨S741, .i32⟩ : BufTy).Contents (Elt F)),
    nullary main_c_5 (constantI S_ 32 0#32),
    TRef.unary (TRef.of main_c_5 : StableHlo.TRef sig ⟨S_, .i32⟩) main_call2.v0 id,
    TRef.unary main_call2.v0 main_call2.v1 (broadcastInDim S1521 ![] bcast_S_S1521),
    TRef.binary main_call2.v1 (TRef.of main_v25 : StableHlo.TRef sig ⟨S1521, .i32⟩) main_call2.v2 maxsi,
    nullary main_c_6 (constantI S_ 32 0#32),
    unary main_c_6 main_v28 (broadcastInDim S1521 ![] bcast_S_S1521 : (⟨S_, .i32⟩ : BufTy).Contents (Elt F) → (⟨S1521, .i32⟩ : BufTy).Contents (Elt F)),
    binary main_v27 main_v28 main_v29 (cmpi .slt : (⟨S1521, .i32⟩ : BufTy).Contents (Elt F) → (⟨S1521, .i32⟩ : BufTy).Contents (Elt F) → (⟨S1521, .i1⟩ : BufTy).Contents (Elt F)),
    nullary main_c_7 (constantI S_ 32 741#32),
    unary main_c_7 main_v30 (broadcastInDim S1521 ![] bcast_S_S1521 : (⟨S_, .i32⟩ : BufTy).Contents (Elt F) → (⟨S1521, .i32⟩ : BufTy).Contents (Elt F)),
    binary main_v27 main_v30 main_v31 (addi : (⟨S1521, .i32⟩ : BufTy).Contents (Elt F) → (⟨S1521, .i32⟩ : BufTy).Contents (Elt F) → (⟨S1521, .i32⟩ : BufTy).Contents (Elt F)),
    ternary main_v29 main_v31 main_v27 main_v32 (select : (⟨S1521, .i1⟩ : BufTy).Contents (Elt F) → (⟨S1521, .i32⟩ : BufTy).Contents (Elt F) → (⟨S1521, .i32⟩ : BufTy).Contents (Elt F) → (⟨S1521, .i32⟩ : BufTy).Contents (Elt F)),
    unary main_v32 main_v33 (broadcastInDim S1521x1 ![0] bcast_S1521_S1521x1_0 : (⟨S1521, .i32⟩ : BufTy).Contents (Elt F) → (⟨S1521x1, .i32⟩ : BufTy).Contents (Elt F)),
    nullary main_c_8 (constantI S_ 32 1#32),
    unary main_c_8 main_v34 (broadcastInDim S1521 ![] bcast_S_S1521 : (⟨S_, .i32⟩ : BufTy).Contents (Elt F) → (⟨S1521, .i32⟩ : BufTy).Contents (Elt F)),
    ternary main_v26 main_v33 main_v34 main_v35 ((fun x i u => Host.scatter scatter_S741_S1521x1_S1521_n_0_0_1 IntOp.addi x i u) : (⟨S741, .i32⟩ : BufTy).Contents (Elt F) → (⟨S1521x1, .i32⟩ : BufTy).Contents (Elt F) → (⟨S1521, .i32⟩ : BufTy).Contents (Elt F) → (⟨S741, .i32⟩ : BufTy).Contents (Elt F)),
    TRef.nullary main_call3.call0.c (constantI S_ 32 0#32),
    TRef.unary main_call3.call0.c main_call3.call0.v0 (broadcastInDim S_ ![] bcast_S_S_),
    TRef.binary (TRef.of main_v35 : StableHlo.TRef sig ⟨S741, .i32⟩) main_call3.call0.v0 main_call3.call0.v1 (fun x v => Host.reduceWindow IntOp.addi ![741] ![1] ![740] ![0] x v reduceWindows_S741_S741_w741s1p740_0 h_S_),
    nullary main_c_9 (constantI S_ 32 39#32),
    TRef.unary (TRef.of main_c_9 : StableHlo.TRef sig ⟨S_, .i32⟩) main_call4.v0 (broadcastInDim S741 ![] bcast_S_S741),
    TRef.binary (TRef.of main_v36 : StableHlo.TRef sig ⟨S741, .i32⟩) main_call4.v0 main_call4.v1 Host.divsi,
    TRef.unary (TRef.of main_v36 : StableHlo.TRef sig ⟨S741, .i32⟩) main_call4.v2 signi,
    TRef.unary (TRef.of main_c_9 : StableHlo.TRef sig ⟨S_, .i32⟩) main_call4.v3 signi,
    TRef.unary main_call4.v3 main_call4.v4 (broadcastInDim S741 ![] bcast_S_S741),
    TRef.binary main_call4.v2 main_call4.v4 main_call4.v5 (cmpi .ne),
    TRef.unary (TRef.of main_c_9 : StableHlo.TRef sig ⟨S_, .i32⟩) main_call4.v6 (broadcastInDim S741 ![] bcast_S_S741),
    TRef.binary (TRef.of main_v36 : StableHlo.TRef sig ⟨S741, .i32⟩) main_call4.v6 main_call4.v7 Host.remsi,
    TRef.nullary main_call4.c (constantI S_ 32 0#32),
    TRef.unary main_call4.c main_call4.v8 (broadcastInDim S741 ![] bcast_S_S741),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S741 ![] bcast_S_S741),
    TRef.binary main_call4.v1 main_call4.v11 main_call4.v12 subi,
    TRef.ternary main_call4.v10 main_call4.v12 main_call4.v1 main_call4.call0.v0 select,
    nullary main_c_10 (constantI S_ 32 39#32),
    TRef.unary (TRef.of main_c_10 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S741 ![] bcast_S_S741),
    TRef.binary (TRef.of main_v37 : StableHlo.TRef sig ⟨S741, .i32⟩) main_call5.v3 main_call5.v4 Host.remsi,
    TRef.nullary main_call5.c_1 (constantI S_ 32 0#32),
    TRef.unary main_call5.c_1 main_call5.v5 (broadcastInDim S741 ![] bcast_S_S741),
    TRef.binary main_call5.v4 main_call5.v5 main_call5.v6 (cmpi .ne),
    TRef.nullary main_call5.c_2 (constantI S_ 32 0#32),
    TRef.unary main_call5.c_2 main_call5.v7 (broadcastInDim S741 ![] bcast_S_S741),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S741 ![] bcast_S_S741),
    TRef.binary main_call5.v8 main_call5.v10 main_call5.v11 (cmpi .ne),
    TRef.binary main_call5.v11 main_call5.v6 main_call5.v12 andi,
    TRef.unary main_call5.call0.v0 main_call5.v13 (broadcastInDim S741 ![] bcast_S_S741),
    TRef.binary main_call5.v4 main_call5.v13 main_call5.v14 addi,
    TRef.ternary main_call5.v12 main_call5.v14 main_call5.v4 main_call5.v15 select,
    nullary main_c_11 (constantI S_ 32 1#32),
    TRef.unary (TRef.of main_c_11 : StableHlo.TRef sig ⟨S_, .i32⟩) main_call6.v0 (broadcastInDim S741 ![] bcast_S_S741),
    TRef.binary (TRef.of main_v36 : StableHlo.TRef sig ⟨S741, .i32⟩) main_call6.v0 main_call6.v1 Host.divsi,
    TRef.unary (TRef.of main_v36 : StableHlo.TRef sig ⟨S741, .i32⟩) main_call6.v2 signi,
    TRef.unary (TRef.of main_c_11 : StableHlo.TRef sig ⟨S_, .i32⟩) main_call6.v3 signi,
    TRef.unary main_call6.v3 main_call6.v4 (broadcastInDim S741 ![] bcast_S_S741),
    TRef.binary main_call6.v2 main_call6.v4 main_call6.v5 (cmpi .ne),
    TRef.unary (TRef.of main_c_11 : StableHlo.TRef sig ⟨S_, .i32⟩) main_call6.v6 (broadcastInDim S741 ![] bcast_S_S741),
    TRef.binary (TRef.of main_v36 : StableHlo.TRef sig ⟨S741, .i32⟩) main_call6.v6 main_call6.v7 Host.remsi,
    TRef.nullary main_call6.c (constantI S_ 32 0#32),
    TRef.unary main_call6.c main_call6.v8 (broadcastInDim S741 ![] bcast_S_S741),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S741 ![] bcast_S_S741),
    TRef.binary main_call6.v1 main_call6.v11 main_call6.v12 subi,
    TRef.ternary main_call6.v10 main_call6.v12 main_call6.v1 main_call6.call0.v0 select,
    nullary main_c_12 (constantI S_ 32 39#32),
    TRef.unary (TRef.of main_c_12 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S741 ![] bcast_S_S741),
    TRef.binary (TRef.of main_v39 : StableHlo.TRef sig ⟨S741, .i32⟩) main_call7.v3 main_call7.v4 Host.remsi,
    TRef.nullary main_call7.c_1 (constantI S_ 32 0#32),
    TRef.unary main_call7.c_1 main_call7.v5 (broadcastInDim S741 ![] bcast_S_S741),
    TRef.binary main_call7.v4 main_call7.v5 main_call7.v6 (cmpi .ne),
    TRef.nullary main_call7.c_2 (constantI S_ 32 0#32),
    TRef.unary main_call7.c_2 main_call7.v7 (broadcastInDim S741 ![] bcast_S_S741),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S741 ![] bcast_S_S741),
    TRef.binary main_call7.v8 main_call7.v10 main_call7.v11 (cmpi .ne),
    TRef.binary main_call7.v11 main_call7.v6 main_call7.v12 andi,
    TRef.unary main_call7.call0.v0 main_call7.v13 (broadcastInDim S741 ![] bcast_S_S741),
    TRef.binary main_call7.v4 main_call7.v13 main_call7.v14 addi,
    TRef.ternary main_call7.v12 main_call7.v14 main_call7.v4 main_call7.v15 select,
    nullary main_c_13 (constantI S_ 32 0#32),
    unary main_c_13 main_v41 (broadcastInDim S741 ![] bcast_S_S741 : (⟨S_, .i32⟩ : BufTy).Contents (Elt F) → (⟨S741, .i32⟩ : BufTy).Contents (Elt F)),
    binary main_v38 main_v41 main_v42 (cmpi .slt : (⟨S741, .i32⟩ : BufTy).Contents (Elt F) → (⟨S741, .i32⟩ : BufTy).Contents (Elt F) → (⟨S741, .i1⟩ : BufTy).Contents (Elt F)),
    nullary main_c_14 (constantI S_ 32 39#32) ]

/-- @main's statements 61 … 113, the call's body listed in its place: 54 operations. -/
abbrev ops1 : List (HloOp τ sig (Elt F)) :=
  [
    unary main_c_14 main_v43 (broadcastInDim S741 ![] bcast_S_S741 : (⟨S_, .i32⟩ : BufTy).Contents (Elt F) → (⟨S741, .i32⟩ : BufTy).Contents (Elt F)),
    binary main_v38 main_v43 main_v44 (addi : (⟨S741, .i32⟩ : BufTy).Contents (Elt F) → (⟨S741, .i32⟩ : BufTy).Contents (Elt F) → (⟨S741, .i32⟩ : BufTy).Contents (Elt F)),
    ternary main_v42 main_v44 main_v38 main_v45 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v45 main_v46 (broadcastInDim S741x1 ![0] bcast_S741_S741x1_0 : (⟨S741, .i32⟩ : BufTy).Contents (Elt F) → (⟨S741x1, .i32⟩ : BufTy).Contents (Elt F)),
    binary main_v20 main_v46 main_v47 ((fun x i => Host.gather gather_S4096x39x40_S741x1_S4096x741x40_02_1_n_n_1_1_4096140 x i) : (⟨S4096x39x40, .f32⟩ : BufTy).Contents (Elt F) → (⟨S741x1, .i32⟩ : BufTy).Contents (Elt F) → (⟨S4096x741x40, .f32⟩ : BufTy).Contents (Elt F)),
    nullary main_c_15 (constantI S_ 32 0#32),
    unary main_c_15 main_v48 (broadcastInDim S741 ![] bcast_S_S741 : (⟨S_, .i32⟩ : BufTy).Contents (Elt F) → (⟨S741, .i32⟩ : BufTy).Contents (Elt F)),
    binary main_v40 main_v48 main_v49 (cmpi .slt : (⟨S741, .i32⟩ : BufTy).Contents (Elt F) → (⟨S741, .i32⟩ : BufTy).Contents (Elt F) → (⟨S741, .i1⟩ : BufTy).Contents (Elt F)),
    nullary main_c_16 (constantI S_ 32 39#32),
    unary main_c_16 main_v50 (broadcastInDim S741 ![] bcast_S_S741 : (⟨S_, .i32⟩ : BufTy).Contents (Elt F) → (⟨S741, .i32⟩ : BufTy).Contents (Elt F)),
    binary main_v40 main_v50 main_v51 (addi : (⟨S741, .i32⟩ : BufTy).Contents (Elt F) → (⟨S741, .i32⟩ : BufTy).Contents (Elt F) → (⟨S741, .i32⟩ : BufTy).Contents (Elt F)),
    ternary main_v49 main_v51 main_v40 main_v52 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v52 main_v53 (broadcastInDim S741x1 ![0] bcast_S741_S741x1_0 : (⟨S741, .i32⟩ : BufTy).Contents (Elt F) → (⟨S741x1, .i32⟩ : BufTy).Contents (Elt F)),
    binary main_v20 main_v53 main_v54 ((fun x i => Host.gather gather_S4096x39x40_S741x1_S4096x741x40_02_1_n_n_1_1_4096140 x i) : (⟨S4096x39x40, .f32⟩ : BufTy).Contents (Elt F) → (⟨S741x1, .i32⟩ : BufTy).Contents (Elt F) → (⟨S4096x741x40, .f32⟩ : BufTy).Contents (Elt F)),
    binary main_v47 main_v54 main_v55 (mulf : (⟨S4096x741x40, .f32⟩ : BufTy).Contents (Elt F) → (⟨S4096x741x40, .f32⟩ : BufTy).Contents (Elt F) → (⟨S4096x741x40, .f32⟩ : BufTy).Contents (Elt F)),
    binary main_v55 main_arg4 main_v56 ((fun l r => Host.dotGeneral dot_S4096x741x40_S8x40_S4096x741x8_2_1_01_0_n_n none l r) : (⟨S4096x741x40, .f32⟩ : BufTy).Contents (Elt F) → (⟨S8x40, .f32⟩ : BufTy).Contents (Elt F) → (⟨S4096x741x8, .f32⟩ : BufTy).Contents (Elt F)),
    unary main_arg5 main_v57 (broadcastInDim S1x1x8 ![2] bcast_S8_S1x1x8_2 : (⟨S8, .f32⟩ : BufTy).Contents (Elt F) → (⟨S1x1x8, .f32⟩ : BufTy).Contents (Elt F)),
    unary main_v57 main_v58 (broadcastInDim S4096x741x8 ![0, 1, 2] bcast_S1x1x8_S4096x741x8_0_1_2 : (⟨S1x1x8, .f32⟩ : BufTy).Contents (Elt F) → (⟨S4096x741x8, .f32⟩ : BufTy).Contents (Elt F)),
    binary main_v56 main_v58 main_v59 (addf : (⟨S4096x741x8, .f32⟩ : BufTy).Contents (Elt F) → (⟨S4096x741x8, .f32⟩ : BufTy).Contents (Elt F) → (⟨S4096x741x8, .f32⟩ : BufTy).Contents (Elt F)),
    TRef.nullary main_call8.cst (constant S_ .f32 0x00000000#32),
    TRef.unary main_call8.cst main_call8.v0 (broadcastInDim S4096x741x8 ![] bcast_S_S4096x741x8),
    TRef.binary (TRef.of main_v59 : StableHlo.TRef sig ⟨S4096x741x8, .f32⟩) main_call8.v0 main_call8.v1 maximumf,
    binary main_v60 main_arg6 main_v61 ((fun l r => Host.dotGeneral dot_S4096x741x8_S1x8_S4096x741x1_2_1_01_0_n_n none l r) : (⟨S4096x741x8, .f32⟩ : BufTy).Contents (Elt F) → (⟨S1x8, .f32⟩ : BufTy).Contents (Elt F) → (⟨S4096x741x1, .f32⟩ : BufTy).Contents (Elt F)),
    nullary main_cst_17 (constant S_ .f32 0xFF800000#32),
    binary main_v61 main_cst_17 main_v62 ((fun x v => Host.reduce FloatOps.maximumf x v reducesTo_S4096x741x1_S4096x1_d1 h_S_) : (⟨S4096x741x1, .f32⟩ : BufTy).Contents (Elt F) → (⟨S_, .f32⟩ : BufTy).Contents (Elt F) → (⟨S4096x1, .f32⟩ : BufTy).Contents (Elt F)),
    nullary main_cst_18 (constant S_ .f32 0xFF800000#32),
    unary main_cst_18 main_v63 (broadcastInDim S4096x1 ![] bcast_S_S4096x1 : (⟨S_, .f32⟩ : BufTy).Contents (Elt F) → (⟨S4096x1, .f32⟩ : BufTy).Contents (Elt F)),
    binary main_v63 main_v62 main_v64 (maximumf : (⟨S4096x1, .f32⟩ : BufTy).Contents (Elt F) → (⟨S4096x1, .f32⟩ : BufTy).Contents (Elt F) → (⟨S4096x1, .f32⟩ : BufTy).Contents (Elt F)),
    unary main_v64 main_v65 (broadcastInDim S4096x1x1 ![0, 2] bcast_S4096x1_S4096x1x1_0_2 : (⟨S4096x1, .f32⟩ : BufTy).Contents (Elt F) → (⟨S4096x1x1, .f32⟩ : BufTy).Contents (Elt F)),
    unary main_v65 main_v66 (broadcastInDim S4096x741x1 ![0, 1, 2] bcast_S4096x1x1_S4096x741x1_0_1_2 : (⟨S4096x1x1, .f32⟩ : BufTy).Contents (Elt F) → (⟨S4096x741x1, .f32⟩ : BufTy).Contents (Elt F)),
    binary main_v61 main_v66 main_v67 (subf : (⟨S4096x741x1, .f32⟩ : BufTy).Contents (Elt F) → (⟨S4096x741x1, .f32⟩ : BufTy).Contents (Elt F) → (⟨S4096x741x1, .f32⟩ : BufTy).Contents (Elt F)),
    unary main_v67 main_v68 (Host.exp : (⟨S4096x741x1, .f32⟩ : BufTy).Contents (Elt F) → (⟨S4096x741x1, .f32⟩ : BufTy).Contents (Elt F)),
    nullary main_cst_19 (constant S_ .f32 0x00000000#32),
    binary main_v68 main_cst_19 main_v69 ((fun x v => Host.reduceAdd x v reducesTo_S4096x741x1_S4096x1_d1 h_S_) : (⟨S4096x741x1, .f32⟩ : BufTy).Contents (Elt F) → (⟨S_, .f32⟩ : BufTy).Contents (Elt F) → (⟨S4096x1, .f32⟩ : BufTy).Contents (Elt F)),
    unary main_v69 main_v70 (broadcastInDim S4096x1x1 ![0, 2] bcast_S4096x1_S4096x1x1_0_2 : (⟨S4096x1, .f32⟩ : BufTy).Contents (Elt F) → (⟨S4096x1x1, .f32⟩ : BufTy).Contents (Elt F)),
    unary main_v70 main_v71 (broadcastInDim S4096x741x1 ![0, 1, 2] bcast_S4096x1x1_S4096x741x1_0_1_2 : (⟨S4096x1x1, .f32⟩ : BufTy).Contents (Elt F) → (⟨S4096x741x1, .f32⟩ : BufTy).Contents (Elt F)),
    binary main_v68 main_v71 main_v72 (Host.divf : (⟨S4096x741x1, .f32⟩ : BufTy).Contents (Elt F) → (⟨S4096x741x1, .f32⟩ : BufTy).Contents (Elt F) → (⟨S4096x741x1, .f32⟩ : BufTy).Contents (Elt F)),
    unary main_v72 main_v73 (broadcastInDim S4096x741x40 ![0, 1, 2] bcast_S4096x741x1_S4096x741x40_0_1_2 : (⟨S4096x741x1, .f32⟩ : BufTy).Contents (Elt F) → (⟨S4096x741x40, .f32⟩ : BufTy).Contents (Elt F)),
    binary main_v73 main_v55 main_v74 (mulf : (⟨S4096x741x40, .f32⟩ : BufTy).Contents (Elt F) → (⟨S4096x741x40, .f32⟩ : BufTy).Contents (Elt F) → (⟨S4096x741x40, .f32⟩ : BufTy).Contents (Elt F)),
    nullary main_cst_20 (constant S_ .f32 0x00000000#32),
    binary main_v74 main_cst_20 main_v75 ((fun x v => Host.reduceAdd x v reducesTo_S4096x741x40_S4096x40_d1 h_S_) : (⟨S4096x741x40, .f32⟩ : BufTy).Contents (Elt F) → (⟨S_, .f32⟩ : BufTy).Contents (Elt F) → (⟨S4096x40, .f32⟩ : BufTy).Contents (Elt F)),
    unary main_arg7 main_v76 ((transpose S40x1 [1, 0] · transposes_S1x40_S40x1_1_0) : (⟨S1x40, .f32⟩ : BufTy).Contents (Elt F) → (⟨S40x1, .f32⟩ : BufTy).Contents (Elt F)),
    binary main_v75 main_v76 main_v77 ((fun l r => Host.dotGeneral dot_S4096x40_S40x1_S4096x1_1_0_0_1_n_n none l r) : (⟨S4096x40, .f32⟩ : BufTy).Contents (Elt F) → (⟨S40x1, .f32⟩ : BufTy).Contents (Elt F) → (⟨S4096x1, .f32⟩ : BufTy).Contents (Elt F)),
    unary main_arg8 main_v78 (broadcastInDim S1x1 ![1] bcast_S1_S1x1_1 : (⟨S1, .f32⟩ : BufTy).Contents (Elt F) → (⟨S1x1, .f32⟩ : BufTy).Contents (Elt F)),
    unary main_v78 main_v79 (broadcastInDim S4096x1 ![0, 1] bcast_S1x1_S4096x1_0_1 : (⟨S1x1, .f32⟩ : BufTy).Contents (Elt F) → (⟨S4096x1, .f32⟩ : BufTy).Contents (Elt F)),
    binary main_v77 main_v79 main_v80 (addf : (⟨S4096x1, .f32⟩ : BufTy).Contents (Elt F) → (⟨S4096x1, .f32⟩ : BufTy).Contents (Elt F) → (⟨S4096x1, .f32⟩ : BufTy).Contents (Elt F)),
    unary main_v80 main_v81 (Host.negf : (⟨S4096x1, .f32⟩ : BufTy).Contents (Elt F) → (⟨S4096x1, .f32⟩ : BufTy).Contents (Elt F)),
    unary main_v81 main_v82 (Host.exp : (⟨S4096x1, .f32⟩ : BufTy).Contents (Elt F) → (⟨S4096x1, .f32⟩ : BufTy).Contents (Elt F)),
    nullary main_cst_21 (constant S_ .f32 0x3F800000#32),
    unary main_cst_21 main_v83 (broadcastInDim S4096x1 ![] bcast_S_S4096x1 : (⟨S_, .f32⟩ : BufTy).Contents (Elt F) → (⟨S4096x1, .f32⟩ : BufTy).Contents (Elt F)),
    binary main_v83 main_v82 main_v84 (addf : (⟨S4096x1, .f32⟩ : BufTy).Contents (Elt F) → (⟨S4096x1, .f32⟩ : BufTy).Contents (Elt F) → (⟨S4096x1, .f32⟩ : BufTy).Contents (Elt F)),
    nullary main_cst_22 (constant S_ .f32 0x3F800000#32),
    unary main_cst_22 main_v85 (broadcastInDim S4096x1 ![] bcast_S_S4096x1 : (⟨S_, .f32⟩ : BufTy).Contents (Elt F) → (⟨S4096x1, .f32⟩ : BufTy).Contents (Elt F)),
    binary main_v85 main_v84 main_v86 (Host.divf : (⟨S4096x1, .f32⟩ : BufTy).Contents (Elt F) → (⟨S4096x1, .f32⟩ : BufTy).Contents (Elt F) → (⟨S4096x1, .f32⟩ : BufTy).Contents (Elt F)) ]

/-- @main's 200 operations, in order. -/
abbrev ops : List (HloOp τ sig (Elt F)) := ops0 ++ ops1

set_option maxRecDepth 8192 in
set_option maxHeartbeats 4000000 in
/-- The first window is its straight line: the callees' definitions unfolded at their calls and the records at their
    fields, both sides are one chain of steps once sequencing is reassociated. -/
theorem main_part0_eq (c : Dev nD) : main_part0 (F := F) c = seq ops0 := by
  simp only [main_part0, fn_triu.body, fn_cumsum.body, fn_cumsum_0.body, fn_clip.body, fn_cumsum_1.body, fn_cumsum_2.body,
    fn_floor_divide.body, fn_where.body, fn_remainder.body, fn_where_3.body, seq, bind_assoc, pure_bind]
  try rfl

set_option maxRecDepth 8192 in
set_option maxHeartbeats 4000000 in
/-- The second window likewise. -/
theorem main_part1_eq (c : Dev nD) : main_part1 (F := F) c = seq ops1 := by
  simp only [main_part1, fn_relu.body, seq, bind_assoc, pure_bind]
  try rfl

/-- @main is the two windows in order, and two lines run in order are their concatenation. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub ..⟩

set_option maxRecDepth 8192 in
theorem ops1_sub : (ops1 : List (HloOp τ sig (Elt F))).Forall fun op => op.bufs ⊆ tcRefs τ sig :=
  ⟨
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., binary_bufs_sub .., nullary_bufs_sub .., binary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
set_option maxHeartbeats 4000000 in
/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines in order is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers the first window's operations write: one each, its result. -/
abbrev W0 : List (Ref sig .tc) :=
  [
    main_v0, main_c, main_v1, main_v2, main_c_0, main_v3, main_v4, main_v5, main_v6, main_v7,
    main_v8, main_v9, main_v10, main_v11, main_v12, main_c_1, main_v13, main_v14, main_c_2, main_v15,
    main_v16, main_v17, main_v18, main_v19, main_v20, main_cst, main_v21, main_call0_v0, main_call0_c, main_call0_v1,
    main_call0_v2, main_call0_v3, main_call0_v4, main_call0_cst, main_call0_v5, main_v22, main_cst_3, main_v23, main_v24, main_call1_v0,
    main_call1_v1, main_call1_call0_c, main_call1_call0_v0, main_v25, main_c_4, main_v26, main_c_5, main_call2_v0, main_call2_v1, main_v27,
    main_c_6, main_v28, main_v29, main_c_7, main_v30, main_v31, main_v32, main_v33, main_c_8, main_v34,
    main_v35, main_call3_call0_c, main_call3_call0_v0, main_v36, main_c_9, main_call4_v0, main_call4_v1, main_call4_v2, main_call4_v3, main_call4_v4,
    main_call4_v5, main_call4_v6, main_call4_v7, main_call4_c, main_call4_v8, main_call4_v9, main_call4_v10, main_call4_c_0, main_call4_v11, main_call4_v12,
    main_v37, main_c_10, main_call5_v0, main_call5_c, main_call5_v1, main_call5_c_0, main_call5_v2, main_call5_v3, main_call5_v4, main_call5_c_1,
    main_call5_v5, main_call5_v6, main_call5_c_2, main_call5_v7, main_call5_v8, main_call5_c_3, main_call5_v9, main_call5_v10, main_call5_v11, main_call5_v12,
    main_call5_v13, main_call5_v14, main_v38, main_c_11, main_call6_v0, main_call6_v1, main_call6_v2, main_call6_v3, main_call6_v4, main_call6_v5,
    main_call6_v6, main_call6_v7, main_call6_c, main_call6_v8, main_call6_v9, main_call6_v10, main_call6_c_0, main_call6_v11, main_call6_v12, main_v39,
    main_c_12, main_call7_v0, main_call7_c, main_call7_v1, main_call7_c_0, main_call7_v2, main_call7_v3, main_call7_v4, main_call7_c_1, main_call7_v5,
    main_call7_v6, main_call7_c_2, main_call7_v7, main_call7_v8, main_call7_c_3, main_call7_v9, main_call7_v10, main_call7_v11, main_call7_v12, main_call7_v13,
    main_call7_v14, main_v40, main_c_13, main_v41, main_v42, main_c_14]

/-- The buffers the second window's operations write. -/
abbrev W1 : List (Ref sig .tc) :=
  [
    main_v43, main_v44, main_v45, main_v46, main_v47, main_c_15, main_v48, main_v49, main_c_16, main_v50,
    main_v51, main_v52, main_v53, main_v54, main_v55, main_v56, main_v57, main_v58, main_v59, main_call8_cst,
    main_call8_v0, main_v60, main_v61, main_cst_17, main_v62, main_cst_18, main_v63, main_v64, main_v65, main_v66,
    main_v67, main_v68, main_cst_19, main_v69, main_v70, main_v71, main_v72, main_v73, main_v74, main_cst_20,
    main_v75, main_v76, main_v77, main_v78, main_v79, main_v80, main_v81, main_v82, main_cst_21, main_v83,
    main_v84, main_cst_22, main_v85, main_v86]

set_option maxRecDepth 8192 in
set_option maxHeartbeats 4000000 in
theorem ops0_writes : (ops0 : List (HloOp τ sig (Elt F))).Forall fun op =>
    op.writes ⊆ (W0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
set_option maxHeartbeats 4000000 in
theorem ops1_writes : (ops1 : List (HloOp τ sig (Elt F))).Forall fun op =>
    op.writes ⊆ (W1.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer neither window writes keeps its launch contents through @main. -/
theorem after_keep (V : Valuation τ sig (Elt F)) (r : Ref sig .tc) (h0 : r ∉ W0) (h1 : r ∉ W1) :
    after ops V (Proc.devRef .tc r) = V (Proc.devRef .tc r) := by
  rw [show (ops : List (HloOp τ sig (Elt F))) = ops0 ++ ops1 from rfl, after_app,
    after_of_writes_sub ops1 _ ops1_writes h1, after_of_writes_sub ops0 _ ops0_writes h0]

/-! No operation writes an argument. -/
theorem arg0_eq (V : Valuation τ sig (Elt F)) :
    after ops V (main_arg0 : DevRef τ sig) = V (main_arg0 : DevRef τ sig) :=
  after_keep V main_arg0 (by decide) (by decide)
theorem arg1_eq (V : Valuation τ sig (Elt F)) :
    after ops V (main_arg1 : DevRef τ sig) = V (main_arg1 : DevRef τ sig) :=
  after_keep V main_arg1 (by decide) (by decide)
theorem arg2_eq (V : Valuation τ sig (Elt F)) :
    after ops V (main_arg2 : DevRef τ sig) = V (main_arg2 : DevRef τ sig) :=
  after_keep V main_arg2 (by decide) (by decide)
theorem arg3_eq (V : Valuation τ sig (Elt F)) :
    after ops V (main_arg3 : DevRef τ sig) = V (main_arg3 : DevRef τ sig) :=
  after_keep V main_arg3 (by decide) (by decide)
theorem arg4_eq (V : Valuation τ sig (Elt F)) :
    after ops V (main_arg4 : DevRef τ sig) = V (main_arg4 : DevRef τ sig) :=
  after_keep V main_arg4 (by decide) (by decide)
theorem arg5_eq (V : Valuation τ sig (Elt F)) :
    after ops V (main_arg5 : DevRef τ sig) = V (main_arg5 : DevRef τ sig) :=
  after_keep V main_arg5 (by decide) (by decide)
theorem arg6_eq (V : Valuation τ sig (Elt F)) :
    after ops V (main_arg6 : DevRef τ sig) = V (main_arg6 : DevRef τ sig) :=
  after_keep V main_arg6 (by decide) (by decide)
theorem arg7_eq (V : Valuation τ sig (Elt F)) :
    after ops V (main_arg7 : DevRef τ sig) = V (main_arg7 : DevRef τ sig) :=
  after_keep V main_arg7 (by decide) (by decide)
theorem arg8_eq (V : Valuation τ sig (Elt F)) :
    after ops V (main_arg8 : DevRef τ sig) = V (main_arg8 : DevRef τ sig) :=
  after_keep V main_arg8 (by decide) (by decide)

end Cert.ReferenceIdeal.Value

end
-- ==== Proof.RefIntDefs.lean ====
/-
  The integer index tables of the reference program, as closed terms.

  The reference obtains the row and column index of each of the 741 pairs of fields by a computation that reads
  no argument: a triangular mask of the 39 × 39 square, its running count, a histogram of the running count, the
  running count of the histogram, and a quotient and a remainder by 39.  This file writes that computation as a chain
  of closed terms, one per value of the program, with the program's own operations and evidence in the program's
  order; nothing is proved here.
-/
import proofs.«413975_j5944234738104_2_alg».proof.ReferenceIdeal
import proofs.«413975_j5944234738104_2_alg».proof.Proof.Gen.ReferenceIdeal
import Idealize.ShloMosaic.PureOps.Ideal

noncomputable section

namespace Cert.Afm.RefInt

open Idealize.ShloMosaic Cert.ReferenceIdeal Cert.ReferenceIdeal.Facts₀

/-! ## The outlined helper functions, as functions of their arguments -/

/-- The strict upper triangle of a square array: zero where the row index is at least the column index. -/
def triuF (a : FVec Ideal S39x39 .f32) : FVec Ideal S39x39 .f32 :=
  select
    (cmpi .sge
      (addi (iotaInDim S39x39 32 0) (broadcastInDim S39x39 ![] bcast_S_S39x39 (constantI S_ 32 0#32)))
      (iotaInDim S39x39 32 1))
    (broadcastInDim S39x39 ![] bcast_S_S39x39 (constant (F := Ideal) S_ .f32 0x00000000#32))
    a

/-- The inclusive running sum of 1521 words. -/
def cumsum0F (a : IVec S1521 32) : IVec S1521 32 :=
  Host.reduceWindow IntOp.addi ![1521] ![1] ![1520] ![0] a
    (broadcastInDim S_ ![] bcast_S_S_ (constantI S_ 32 0#32))
    reduceWindows_S1521_S1521_w1521s1p1520_0 h_S_

/-- The running count of a 39 × 39 mask read in row-major order. -/
def cumsumF (a : IVec S39x39 1) : IVec S1521 32 :=
  cumsum0F (extui 32 (shapeCast S1521 a shapeCasts_S39x39_S1521) natLt_1_32)

/-- The larger of a scalar bound and each word. -/
def clipF (a : IVec S1521 32) (b : IVec S_ 32) : IVec S1521 32 :=
  maxsi (broadcastInDim S1521 ![] bcast_S_S1521 (id b)) a

/-- The inclusive running sum of 741 words. -/
def cumsum2F (a : IVec S741 32) : IVec S741 32 :=
  Host.reduceWindow IntOp.addi ![741] ![1] ![740] ![0] a
    (broadcastInDim S_ ![] bcast_S_S_ (constantI S_ 32 0#32))
    reduceWindows_S741_S741_w741s1p740_0 h_S_

/-- The quotient rounded toward minus infinity: the truncated quotient, less one where the signs differ and the
    remainder is not zero. -/
def floorDivideF (a : IVec S741 32) (b : IVec S_ 32) : IVec S741 32 :=
  select
    (andi
      (cmpi .ne (signi a) (broadcastInDim S741 ![] bcast_S_S741 (signi b)))
      (cmpi .ne (Host.remsi a (broadcastInDim S741 ![] bcast_S_S741 b))
        (broadcastInDim S741 ![] bcast_S_S741 (constantI S_ 32 0#32))))
    (subi (Host.divsi a (broadcastInDim S741 ![] bcast_S_S741 b))
      (broadcastInDim S741 ![] bcast_S_S741 (constantI S_ 32 1#32)))
    (Host.divsi a (broadcastInDim S741 ![] bcast_S_S741 b))

/-- The divisor the remainder is taken by: one in place of zero. -/
def remDivisor (b : IVec S_ 32) : IVec S_ 32 :=
  select (cmpi .eq (id b) (constantI S_ 32 0#32)) (constantI S_ 32 1#32) (id b)

/-- The remainder with the divisor's sign: the truncated remainder, plus the divisor where the signs differ and the
    remainder is not zero. -/
def remainderF (a : IVec S741 32) (b : IVec S_ 32) : IVec S741 32 :=
  select
    (andi
      (cmpi .ne
        (cmpi .slt (Host.remsi a (broadcastInDim S741 ![] bcast_S_S741 (remDivisor b)))
          (broadcastInDim S741 ![] bcast_S_S741 (constantI S_ 32 0#32)))
        (broadcastInDim S741 ![] bcast_S_S741 (cmpi .slt (remDivisor b) (constantI S_ 32 0#32))))
      (cmpi .ne (Host.remsi a (broadcastInDim S741 ![] bcast_S_S741 (remDivisor b)))
        (broadcastInDim S741 ![] bcast_S_S741 (constantI S_ 32 0#32))))
    (addi (Host.remsi a (broadcastInDim S741 ![] bcast_S_S741 (remDivisor b)))
      (broadcastInDim S741 ![] bcast_S_S741 (remDivisor b)))
    (Host.remsi a (broadcastInDim S741 ![] bcast_S_S741 (remDivisor b)))

/-- An index counted from the end when negative: plus the axis length where the word is below zero. -/
def wrapF (s : Shape) (h : S_.BroadcastsInDim s (![] : Fin 0 → Fin s.rank)) (n : BitVec 32) (a : IVec s 32) : IVec s 32 :=
  select (cmpi .slt a (broadcastInDim s ![] h (constantI S_ 32 0#32)))
    (addi a (broadcastInDim s ![] h (constantI S_ 32 n))) a

/-! ## The chain of values -/

/-- The square of ones. -/
def tblV21 : FVec Ideal S39x39 .f32 :=
  broadcastInDim S39x39 ![] bcast_S_S39x39 (constant (F := Ideal) S_ .f32 0x3F800000#32)
/-- One strictly above the diagonal, zero elsewhere. -/
def tblV22 : FVec Ideal S39x39 .f32 := triuF tblV21
/-- The square of zeros. -/
def tblV23 : FVec Ideal S39x39 .f32 :=
  broadcastInDim S39x39 ![] bcast_S_S39x39 (constant (F := Ideal) S_ .f32 0x00000000#32)
/-- The mask of the strict upper triangle. -/
def tblV24 : IVec S39x39 1 := cmpf .une tblV22 tblV23
/-- At each flat position, the number of mask entries up to and including it. -/
def tblV25 : IVec S1521 32 := cumsumF tblV24
/-- The empty histogram. -/
def tblV26 : IVec S741 32 := broadcastInDim S741 ![] bcast_S_S741 (constantI S_ 32 0#32)
/-- The running count, bounded below by zero. -/
def tblV27 : IVec S1521 32 := clipF tblV25 (constantI S_ 32 0#32)
/-- The same read as indices into 741 bins. -/
def tblV32 : IVec S1521 32 := wrapF S1521 bcast_S_S1521 741#32 tblV27
/-- The bin of each flat position, as a column of index vectors. -/
def tblV33 : IVec S1521x1 32 := broadcastInDim S1521x1 ![0] bcast_S1521_S1521x1_0 tblV32
/-- One for each flat position. -/
def tblV34 : IVec S1521 32 := broadcastInDim S1521 ![] bcast_S_S1521 (constantI S_ 32 1#32)
/-- The histogram of the running count: how many flat positions have each count below 741. -/
def tblV35 : IVec S741 32 := Host.scatter scatter_S741_S1521x1_S1521_n_0_0_1 IntOp.addi tblV26 tblV33 tblV34
/-- The running sum of the histogram: the flat position of each mask entry in turn. -/
def tblV36 : IVec S741 32 := cumsum2F tblV35
/-- That position's row … -/
def tblV37 : IVec S741 32 := floorDivideF tblV36 (constantI S_ 32 39#32)
def tblV38 : IVec S741 32 := remainderF tblV37 (constantI S_ 32 39#32)
/-- … and its column. -/
def tblV39 : IVec S741 32 := floorDivideF tblV36 (constantI S_ 32 1#32)
def tblV40 : IVec S741 32 := remainderF tblV39 (constantI S_ 32 39#32)
def tblV45 : IVec S741 32 := wrapF S741 bcast_S_S741 39#32 tblV38
def tblV52 : IVec S741 32 := wrapF S741 bcast_S_S741 39#32 tblV40

/-- The smaller field of each pair, as the first gather's column of start indices. -/
def rowTab : IVec S741x1 32 := broadcastInDim S741x1 ![0] bcast_S741_S741x1_0 tblV45
/-- The larger field of each pair, as the second gather's column of start indices. -/
def colTab : IVec S741x1 32 := broadcastInDim S741x1 ![0] bcast_S741_S741x1_0 tblV52

end Cert.Afm.RefInt

end
-- ==== Proof.RefX.lean ====
/-
  The first half of the reference program: the 39 field vectors of every batch row, written as one pure
  function per printed value, and that array read at an index.

  Fields 0 to 12 are rows 0 to 12 of the embedding table scaled by the row's continuous values; fields 13 to
  38 are the table rows that the row's categorical indices select.  Every definition below applies the same
  pure operation to the same operands in the same order as the printed line it is named after.
-/
import proofs.«413975_j5944234738104_2_alg».proof.Proof.Gen.ReferenceIdeal
import proofs.«413975_j5944234738104_2_alg».proof.Proof.Spec
import Idealize.ShloMosaic.Lib.ValueIdx
import Idealize.ShloMosaic.Lib.IdealHost
import Idealize.ShloMosaic.PureOps.Ideal.Laws
import Idealize.ShloMosaic.Lib.Pipeline.Value
import Idealize.ShloMosaic.Lib.StableHlo.Predicate

noncomputable section

namespace Cert.Afm.RefValue

open Idealize.ShloMosaic Idealize.ShloMosaic.ValueIdx
open Cert.ReferenceIdeal Cert.ReferenceIdeal.Facts₀

/-! ## The printed values, one definition each -/

/-- %0: the numbers 0 to 12. -/
def v0 : IVec S13 32 := iotaInDim S13 32 0

/-- %1. -/
def v1 : IVec S13 32 := broadcastInDim S13 ![] bcast_S_S13 (constantI S_ 32 0#32)

/-- %2: which of them are negative (none). -/
def v2 : IVec S13 1 := cmpi .slt v0 v1

/-- %3. -/
def v3 : IVec S13 32 := broadcastInDim S13 ![] bcast_S_S13 (constantI S_ 32 100000#32)

/-- %4. -/
def v4 : IVec S13 32 := addi v0 v3

/-- %5: a negative index wrapped round the table's end, the others kept. -/
def v5 : IVec S13 32 := select v2 v4 v0

/-- %6. -/
def v6 : IVec S13x1 32 := broadcastInDim S13x1 ![0] bcast_S13_S13x1_0 v5

/-- %7: rows 0 to 12 of the table. -/
def v7 (a3 : FVec Ideal S100000x40 .f32) : FVec Ideal S13x40 .f32 :=
  Host.gather gather_S100000x40_S13x1_S13x40_1_0_n_n_0_1_140 a3 v6

/-- %8. -/
def v8 (a3 : FVec Ideal S100000x40 .f32) : FVec Ideal S1x13x40 .f32 :=
  broadcastInDim S1x13x40 ![1, 2] bcast_S13x40_S1x13x40_1_2 (v7 a3)

/-- %9. -/
def v9 (a0 : FVec Ideal S4096x13 .f32) : FVec Ideal S4096x13x1 .f32 :=
  broadcastInDim S4096x13x1 ![0, 1] bcast_S4096x13_S4096x13x1_0_1 a0

/-- %10. -/
def v10 (a3 : FVec Ideal S100000x40 .f32) : FVec Ideal S4096x13x40 .f32 :=
  broadcastInDim S4096x13x40 ![0, 1, 2] bcast_S1x13x40_S4096x13x40_0_1_2 (v8 a3)

/-- %11. -/
def v11 (a0 : FVec Ideal S4096x13 .f32) : FVec Ideal S4096x13x40 .f32 :=
  broadcastInDim S4096x13x40 ![0, 1, 2] bcast_S4096x13x1_S4096x13x40_0_1_2 (v9 a0)

/-- %12: the continuous fields. -/
def v12 (a0 : FVec Ideal S4096x13 .f32) (a3 : FVec Ideal S100000x40 .f32) : FVec Ideal S4096x13x40 .f32 :=
  mulf (v10 a3) (v11 a0)

/-- %13. -/
def v13 : IVec S4096x26 32 := broadcastInDim S4096x26 ![] bcast_S_S4096x26 (constantI S_ 32 0#32)

/-- %14: which categorical indices are negative. -/
def v14 (a1 : IVec S4096x26 32) : IVec S4096x26 1 := cmpi .slt a1 v13

/-- %15. -/
def v15 : IVec S4096x26 32 := broadcastInDim S4096x26 ![] bcast_S_S4096x26 (constantI S_ 32 100000#32)

/-- %16. -/
def v16 (a1 : IVec S4096x26 32) : IVec S4096x26 32 := addi a1 v15

/-- %17: a negative index wrapped round the table's end, the others kept. -/
def v17 (a1 : IVec S4096x26 32) : IVec S4096x26 32 := select (v14 a1) (v16 a1) a1

/-- %18. -/
def v18 (a1 : IVec S4096x26 32) : IVec S4096x26x1 32 :=
  broadcastInDim S4096x26x1 ![0, 1] bcast_S4096x26_S4096x26x1_0_1 (v17 a1)

/-- %19: the categorical fields. -/
def v19 (a1 : IVec S4096x26 32) (a3 : FVec Ideal S100000x40 .f32) : FVec Ideal S4096x26x40 .f32 :=
  Host.gather gather_S100000x40_S4096x26x1_S4096x26x40_2_0_n_n_0_2_140 a3 (v18 a1)

/-- %20: the 39 fields of every row, the continuous ones first. -/
def xRef (a0 : FVec Ideal S4096x13 .f32) (a1 : IVec S4096x26 32) (a3 : FVec Ideal S100000x40 .f32) :
    FVec Ideal S4096x39x40 .f32 :=
  concatenate S4096x39x40 1 [⟨S4096x13x40, v12 a0 a3⟩, ⟨S4096x26x40, v19 a1 a3⟩]
    concatenates_S4096x13x40_S4096x26x40_S4096x39x40_d1

/-! ## Index words -/

/-- A word below 2³¹, read signed, is its value. -/
theorem toNat_toInt_of_small (w : BitVec 32) (hw : w.toNat < 2 ^ 31) : w.toInt.toNat = w.toNat := by
  rw [StableHlo.Predicate.toInt_eq_toNat_of_lt hw]; simp

/-- An index word that is not negative is kept by the select that wraps negative indices round the table's end. -/
theorem wrap_of_small (w : BitVec 32) (hw : w.toNat < 2 ^ 31) :
    Scalar.select (IntOp.cmpi .slt w 0#32) (IntOp.addi w 100000#32) w = w := by
  have h : ¬ IntOp.cmpi .slt w 0#32 = 1#1 := by
    rw [StableHlo.Predicate.slt_iff_toNat hw (by decide)]
    simp
  rw [eq_zero_of_ne_one h, select_zero]

theorem toNat_ofNat_small (n : Nat) (h : n < 2 ^ 31) : (BitVec.ofNat 32 n).toNat = n := by
  rw [BitVec.toNat_ofNat]; omega

/-! ## The continuous fields -/

theorem splat13 (c : BitVec 32) (j : S13.Idx) : broadcastInDim S13 ![] bcast_S_S13 (constantI S_ 32 c) j = c := by
  rw [broadcastInDim_scalar_apply]; rfl

theorem v5_apply (f : Fin 13) : v5 (ix1 f) = BitVec.ofNat 32 f.val := by
  have h0 : v0 (ix1 f) = BitVec.ofNat 32 f.val := rfl
  unfold v5
  rw [select_apply]
  show Scalar.select (IntOp.cmpi .slt (v0 (ix1 f)) (v1 (ix1 f))) (IntOp.addi (v0 (ix1 f)) (v3 (ix1 f))) (v0 (ix1 f)) = _
  rw [h0, show v1 (ix1 f) = 0#32 from splat13 _ _, show v3 (ix1 f) = 100000#32 from splat13 _ _]
  exact wrap_of_small _ (by rw [toNat_ofNat_small _ (by omega)]; omega)

theorem v6_apply (f : Fin 13) : v6 (ix2 f (0 : Fin 1)) = BitVec.ofNat 32 f.val := by
  unfold v6
  refine (broadcastInDim_apply _ _ _ _ (ix1 f) (fun a => ?_)).trans (v5_apply f)
  match a with
  | ⟨0, _⟩ => rfl

theorem v7_apply (a3 : FVec Ideal S100000x40 .f32) (f : Fin 13) (d : Fin 40) :
    v7 a3 (ix2 f d) = a3 (ix2 (⟨f.val, by omega⟩ : Fin 100000) d) := by
  unfold v7 Host.gather
  congr 1
  funext a
  refine Fin.ext ?_
  show gather_S100000x40_S13x1_S13x40_1_0_n_n_0_1_140.start (ix2 f d) v6 a
      + gather_S100000x40_S13x1_S13x40_1_0_n_n_0_1_140.batchCoord (ix2 f d) a
      + gather_S100000x40_S13x1_S13x40_1_0_n_n_0_1_140.offCoord (ix2 f d) a = _
  rw [GatherDims.batchCoord_eq_zero _ _ _ List.not_mem_nil]
  match a with
  | ⟨0, h0⟩ =>
    rw [GatherDims.offCoord_eq_zero _ _ _ (by decide +revert)]
    unfold GatherDims.start
    rw [dif_pos (by decide +revert)]
    have hsi : gather_S100000x40_S13x1_S13x40_1_0_n_n_0_1_140.siIdx (ix2 f d)
        ⟨List.idxOf (⟨0, h0⟩ : Fin S100000x40.rank) gather_S100000x40_S13x1_S13x40_1_0_n_n_0_1_140.startIndexMap,
          List.idxOf_lt_length_iff.2 (by decide +revert)⟩ = ix2 f (0 : Fin 1) := by
      funext c; refine Fin.ext ?_
      match c with
      | ⟨0, _⟩ => rfl
      | ⟨1, _⟩ => rfl
    rw [hsi, v6_apply, toNat_toInt_of_small _ (by rw [toNat_ofNat_small _ (by omega)]; omega), toNat_ofNat_small _ (by omega)]
    show min f.val (100000 - 1) + 0 + 0 = f.val
    omega
  | ⟨1, _⟩ =>
    unfold GatherDims.start GatherDims.offCoord
    rw [dif_neg (by decide +revert), dif_pos (by decide +revert)]
    simp only [Nat.zero_add]
    rfl

theorem v10_apply (a3 : FVec Ideal S100000x40 .f32) (b : Fin 4096) (f : Fin 13) (d : Fin 40) :
    v10 a3 (ix3 b f d) = v7 a3 (ix2 f d) := by
  unfold v10 v8
  refine (broadcastInDim_apply _ _ _ (ix3 b f d) (ix3 (0 : Fin 1) f d) (fun a => ?_)).trans ?_
  · match a with
    | ⟨0, _⟩ => rfl
    | ⟨1, _⟩ => rfl
    | ⟨2, _⟩ => rfl
  · refine broadcastInDim_apply _ _ _ _ (ix2 f d) (fun a => ?_)
    match a with
    | ⟨0, _⟩ => rfl
    | ⟨1, _⟩ => rfl

theorem v11_apply (a0 : FVec Ideal S4096x13 .f32) (b : Fin 4096) (f : Fin 13) (d : Fin 40) :
    v11 a0 (ix3 b f d) = a0 (ix2 b f) := by
  unfold v11 v9
  refine (broadcastInDim_apply _ _ _ (ix3 b f d) (ix3 b f (0 : Fin 1)) (fun a => ?_)).trans ?_
  · match a with
    | ⟨0, _⟩ => rfl
    | ⟨1, _⟩ => rfl
    | ⟨2, _⟩ => rfl
  · refine broadcastInDim_apply _ _ _ _ (ix2 b f) (fun a => ?_)
    match a with
    | ⟨0, _⟩ => rfl
    | ⟨1, _⟩ => rfl

theorem v12_apply (a0 : FVec Ideal S4096x13 .f32) (a3 : FVec Ideal S100000x40 .f32) (b : Fin 4096) (f : Fin 13) (d : Fin 40) :
    v12 a0 a3 (ix3 b f d) = a3 (ix2 (⟨f.val, by omega⟩ : Fin 100000) d) * a0 (ix2 b f) := by
  unfold v12
  rw [mulf_apply, v10_apply, v7_apply, v11_apply]

/-! ## The categorical fields -/

theorem splat26 (c : BitVec 32) (j : S4096x26.Idx) :
    broadcastInDim S4096x26 ![] bcast_S_S4096x26 (constantI S_ 32 c) j = c := by
  rw [broadcastInDim_scalar_apply]; rfl

theorem v17_apply (a1 : IVec S4096x26 32) (j : S4096x26.Idx) (hj : (a1 j).toNat < 100000) : v17 a1 j = a1 j := by
  unfold v17
  rw [select_apply]
  show Scalar.select (IntOp.cmpi .slt (a1 j) (v13 j)) (IntOp.addi (a1 j) (v15 j)) (a1 j) = _
  rw [show v13 j = 0#32 from splat26 _ _, show v15 j = 100000#32 from splat26 _ _]
  exact wrap_of_small _ (by omega)

theorem v18_apply (a1 : IVec S4096x26 32) (b : Fin 4096) (c : Fin 26) :
    v18 a1 (ix3 b c (0 : Fin 1)) = v17 a1 (ix2 b c) := by
  unfold v18
  refine broadcastInDim_apply _ _ _ _ (ix2 b c) (fun a => ?_)
  match a with
  | ⟨0, _⟩ => rfl
  | ⟨1, _⟩ => rfl

theorem v19_apply (a1 : IVec S4096x26 32) (a3 : FVec Ideal S100000x40 .f32) (hc : ∀ i, (a1 i).toNat < 100000)
    (b : Fin 4096) (c : Fin 26) (d : Fin 40) :
    v19 a1 a3 (ix3 b c d) = a3 (ix2 (⟨(a1 (ix2 b c)).toNat, hc _⟩ : Fin 100000) d) := by
  unfold v19 Host.gather
  congr 1
  funext a
  refine Fin.ext ?_
  show gather_S100000x40_S4096x26x1_S4096x26x40_2_0_n_n_0_2_140.start (ix3 b c d) (v18 a1) a
      + gather_S100000x40_S4096x26x1_S4096x26x40_2_0_n_n_0_2_140.batchCoord (ix3 b c d) a
      + gather_S100000x40_S4096x26x1_S4096x26x40_2_0_n_n_0_2_140.offCoord (ix3 b c d) a = _
  rw [GatherDims.batchCoord_eq_zero _ _ _ List.not_mem_nil]
  match a with
  | ⟨0, h0⟩ =>
    rw [GatherDims.offCoord_eq_zero _ _ _ (by decide +revert)]
    unfold GatherDims.start
    rw [dif_pos (by decide +revert)]
    have hsi : gather_S100000x40_S4096x26x1_S4096x26x40_2_0_n_n_0_2_140.siIdx (ix3 b c d)
        ⟨List.idxOf (⟨0, h0⟩ : Fin S100000x40.rank) gather_S100000x40_S4096x26x1_S4096x26x40_2_0_n_n_0_2_140.startIndexMap,
          List.idxOf_lt_length_iff.2 (by decide +revert)⟩ = ix3 b c (0 : Fin 1) := by
      funext e; refine Fin.ext ?_
      match e with
      | ⟨0, _⟩ => rfl
      | ⟨1, _⟩ => rfl
      | ⟨2, _⟩ => rfl
    have hlt := hc (ix2 b c)
    rw [hsi, v18_apply, v17_apply a1 _ hlt, toNat_toInt_of_small _ (by omega)]
    show min (a1 (ix2 b c)).toNat (100000 - 1) + 0 + 0 = (a1 (ix2 b c)).toNat
    omega
  | ⟨1, _⟩ =>
    unfold GatherDims.start GatherDims.offCoord
    rw [dif_neg (by decide +revert), dif_pos (by decide +revert)]
    simp only [Nat.zero_add]
    rfl

/-! ## The field array read at an index -/

/-- With every categorical index inside the table, field `f` of row `b` at coordinate `d` is the table's
    row `f` scaled by the row's `f`-th continuous value for `f < 13`, and the table's row at the row's
    `(f - 13)`-th categorical index otherwise. -/
theorem xRef_apply (a0 : FVec Ideal S4096x13 .f32) (a1 : IVec S4096x26 32) (a3 : FVec Ideal S100000x40 .f32)
    (hc : ∀ i, (a1 i).toNat < 100000) (b : Fin 4096) (f : Fin 39) (d : Fin 40) :
    xRef a0 a1 a3 (ix3 b f d)
      = if h : f.val < 13 then a3 (ix2 (⟨f.val, by omega⟩ : Fin 100000) d) * a0 (ix2 b (⟨f.val, h⟩ : Fin 13))
        else a3 (ix2 (⟨(a1 (ix2 b (⟨f.val - 13, by omega⟩ : Fin 26))).toNat, hc _⟩ : Fin 100000) d) := by
  unfold xRef
  by_cases h : f.val < 13
  · rw [dif_pos h]
    refine (concatenate_pair_apply_left (t := S4096x39x40) (s₁ := S4096x13x40) (s₂ := S4096x26x40) (1 : Fin 3) _ _ _
      (ix3 b f d) rfl (ix3 b (⟨f.val, h⟩ : Fin 13) d) (fun a => ?_)).trans (v12_apply a0 a3 b ⟨f.val, h⟩ d)
    match a with
    | ⟨0, _⟩ => rfl
    | ⟨1, _⟩ => rfl
    | ⟨2, _⟩ => rfl
  · rw [dif_neg h]
    refine (concatenate_pair_apply_right (t := S4096x39x40) (s₁ := S4096x13x40) (s₂ := S4096x26x40) (1 : Fin 3) _ _ _
      (ix3 b f d) rfl rfl (ix3 b (⟨f.val - 13, by omega⟩ : Fin 26) d) (fun a ha => ?_) ?_).trans
      (v19_apply a1 a3 hc b ⟨f.val - 13, by omega⟩ d)
    · match a with
      | ⟨0, _⟩ => rfl
      | ⟨1, _⟩ => exact absurd rfl ha
      | ⟨2, _⟩ => rfl
    · show f.val - 13 + 13 = f.val
      omega

end Cert.Afm.RefValue

end
-- ==== Proof.RefTailDefs.lean ====
/-
  The second half of the reference program, from the two gathers of the field array along its field axis to
  the logistic output, written as one pure function per printed value.

  Every definition below applies the same pure operation to the same operands in the same order as the
  printed line it is named after; `refTail` is their composition.
-/
import proofs.«413975_j5944234738104_2_alg».proof.Proof.Gen.ReferenceIdeal
import proofs.«413975_j5944234738104_2_alg».proof.Proof.Spec
import Idealize.ShloMosaic.Lib.ValueIdx
import Idealize.ShloMosaic.Lib.IdealHost
import Idealize.ShloMosaic.PureOps.Ideal.Laws

noncomputable section

namespace Cert.Afm.RefValue

open Idealize.ShloMosaic Idealize.ShloMosaic.ValueIdx
open Cert.ReferenceIdeal Cert.ReferenceIdeal.Facts₀

/-! ## The printed values, one definition each -/

/-- %47 and %54: the field array read along its field axis at the fields a table names. -/
def fieldsAt (x : FVec Ideal S4096x39x40 .f32) (tbl : IVec S741x1 32) : FVec Ideal S4096x741x40 .f32 :=
  Host.gather gather_S4096x39x40_S741x1_S4096x741x40_02_1_n_n_1_1_4096140 x tbl

/-- %55: the elementwise product of the two fields of each pair. -/
def v55 (x : FVec Ideal S4096x39x40 .f32) (rT cT : IVec S741x1 32) : FVec Ideal S4096x741x40 .f32 :=
  mulf (fieldsAt x rT) (fieldsAt x cT)

/-- %56: the pair products against the rows of the attention matrix. -/
def v56 (e : FVec Ideal S4096x741x40 .f32) (a4 : FVec Ideal S8x40 .f32) : FVec Ideal S4096x741x8 .f32 :=
  Host.dotGeneral dot_S4096x741x40_S8x40_S4096x741x8_2_1_01_0_n_n none e a4

/-- %57. -/
def v57 (a5 : FVec Ideal S8 .f32) : FVec Ideal S1x1x8 .f32 :=
  broadcastInDim S1x1x8 ![2] bcast_S8_S1x1x8_2 a5

/-- %58: the attention bias at every row and pair. -/
def v58 (a5 : FVec Ideal S8 .f32) : FVec Ideal S4096x741x8 .f32 :=
  broadcastInDim S4096x741x8 ![0, 1, 2] bcast_S1x1x8_S4096x741x8_0_1_2 (v57 a5)

/-- %59. -/
def v59 (e : FVec Ideal S4096x741x40 .f32) (a4 : FVec Ideal S8x40 .f32) (a5 : FVec Ideal S8 .f32) :
    FVec Ideal S4096x741x8 .f32 :=
  addf (v56 e a4) (v58 a5)

/-- %60: the rectifier, a maximum with the zero splat. -/
def v60 (h : FVec Ideal S4096x741x8 .f32) : FVec Ideal S4096x741x8 .f32 :=
  maximumf h (broadcastInDim S4096x741x8 ![] bcast_S_S4096x741x8 (constant (F := Ideal) S_ .f32 0x00000000#32))

/-- %61: the scores. -/
def v61 (h : FVec Ideal S4096x741x8 .f32) (a6 : FVec Ideal S1x8 .f32) : FVec Ideal S4096x741x1 .f32 :=
  Host.dotGeneral dot_S4096x741x8_S1x8_S4096x741x1_2_1_01_0_n_n none h a6

/-- %62: each row's largest score, folded from minus infinity. -/
def v62 (l : FVec Ideal S4096x741x1 .f32) : FVec Ideal S4096x1 .f32 :=
  Host.reduce FloatOps.maximumf l (constant (F := Ideal) S_ .f32 0xFF800000#32) reducesTo_S4096x741x1_S4096x1_d1 h_S_

/-- %63. -/
def v63 : FVec Ideal S4096x1 .f32 :=
  broadcastInDim S4096x1 ![] bcast_S_S4096x1 (constant (F := Ideal) S_ .f32 0xFF800000#32)

/-- %64. -/
def v64 (l : FVec Ideal S4096x741x1 .f32) : FVec Ideal S4096x1 .f32 :=
  maximumf v63 (v62 l)

/-- %65. -/
def v65 (l : FVec Ideal S4096x741x1 .f32) : FVec Ideal S4096x1x1 .f32 :=
  broadcastInDim S4096x1x1 ![0, 2] bcast_S4096x1_S4096x1x1_0_2 (v64 l)

/-- %66: the row's largest score at every pair. -/
def v66 (l : FVec Ideal S4096x741x1 .f32) : FVec Ideal S4096x741x1 .f32 :=
  broadcastInDim S4096x741x1 ![0, 1, 2] bcast_S4096x1x1_S4096x741x1_0_1_2 (v65 l)

/-- %67. -/
def v67 (l : FVec Ideal S4096x741x1 .f32) : FVec Ideal S4096x741x1 .f32 :=
  subf l (v66 l)

/-- %68: the shifted exponentials. -/
def v68 (l : FVec Ideal S4096x741x1 .f32) : FVec Ideal S4096x741x1 .f32 :=
  Host.exp (v67 l)

/-- %69: their sum over the pairs. -/
def v69 (l : FVec Ideal S4096x741x1 .f32) : FVec Ideal S4096x1 .f32 :=
  Host.reduceAdd (v68 l) (constant (F := Ideal) S_ .f32 0x00000000#32) reducesTo_S4096x741x1_S4096x1_d1 h_S_

/-- %70. -/
def v70 (l : FVec Ideal S4096x741x1 .f32) : FVec Ideal S4096x1x1 .f32 :=
  broadcastInDim S4096x1x1 ![0, 2] bcast_S4096x1_S4096x1x1_0_2 (v69 l)

/-- %71. -/
def v71 (l : FVec Ideal S4096x741x1 .f32) : FVec Ideal S4096x741x1 .f32 :=
  broadcastInDim S4096x741x1 ![0, 1, 2] bcast_S4096x1x1_S4096x741x1_0_1_2 (v70 l)

/-- %72: the softmax weights. -/
def v72 (l : FVec Ideal S4096x741x1 .f32) : FVec Ideal S4096x741x1 .f32 :=
  Host.divf (v68 l) (v71 l)

/-- %73. -/
def v73 (l : FVec Ideal S4096x741x1 .f32) : FVec Ideal S4096x741x40 .f32 :=
  broadcastInDim S4096x741x40 ![0, 1, 2] bcast_S4096x741x1_S4096x741x40_0_1_2 (v72 l)

/-- %74. -/
def v74 (l : FVec Ideal S4096x741x1 .f32) (e : FVec Ideal S4096x741x40 .f32) : FVec Ideal S4096x741x40 .f32 :=
  mulf (v73 l) e

/-- %75: the weighted sum of the pair products. -/
def v75 (l : FVec Ideal S4096x741x1 .f32) (e : FVec Ideal S4096x741x40 .f32) : FVec Ideal S4096x40 .f32 :=
  Host.reduceAdd (v74 l e) (constant (F := Ideal) S_ .f32 0x00000000#32) reducesTo_S4096x741x40_S4096x40_d1 h_S_

/-- %76. -/
def v76 (a7 : FVec Ideal S1x40 .f32) : FVec Ideal S40x1 .f32 :=
  transpose S40x1 [1, 0] a7 transposes_S1x40_S40x1_1_0

/-- %77. -/
def v77 (q : FVec Ideal S4096x40 .f32) (a7 : FVec Ideal S1x40 .f32) : FVec Ideal S4096x1 .f32 :=
  Host.dotGeneral dot_S4096x40_S40x1_S4096x1_1_0_0_1_n_n none q (v76 a7)

/-- %78. -/
def v78 (a8 : FVec Ideal S1 .f32) : FVec Ideal S1x1 .f32 :=
  broadcastInDim S1x1 ![1] bcast_S1_S1x1_1 a8

/-- %79. -/
def v79 (a8 : FVec Ideal S1 .f32) : FVec Ideal S4096x1 .f32 :=
  broadcastInDim S4096x1 ![0, 1] bcast_S1x1_S4096x1_0_1 (v78 a8)

/-- %80: the logit. -/
def v80 (q : FVec Ideal S4096x40 .f32) (a7 : FVec Ideal S1x40 .f32) (a8 : FVec Ideal S1 .f32) : FVec Ideal S4096x1 .f32 :=
  addf (v77 q a7) (v79 a8)

/-- %81. -/
def v81 (z : FVec Ideal S4096x1 .f32) : FVec Ideal S4096x1 .f32 := Host.negf z

/-- %82. -/
def v82 (z : FVec Ideal S4096x1 .f32) : FVec Ideal S4096x1 .f32 := Host.exp (v81 z)

/-- %83 and %85: the splat of one. -/
def ones : FVec Ideal S4096x1 .f32 :=
  broadcastInDim S4096x1 ![] bcast_S_S4096x1 (constant (F := Ideal) S_ .f32 0x3F800000#32)

/-- %84. -/
def v84 (z : FVec Ideal S4096x1 .f32) : FVec Ideal S4096x1 .f32 := addf ones (v82 z)

/-- %86: the logistic function of the logit. -/
def v86 (z : FVec Ideal S4096x1 .f32) : FVec Ideal S4096x1 .f32 := Host.divf ones (v84 z)

/-- The scores %61 as a function of the pair products. -/
def scores (e : FVec Ideal S4096x741x40 .f32) (a4 : FVec Ideal S8x40 .f32) (a5 : FVec Ideal S8 .f32)
    (a6 : FVec Ideal S1x8 .f32) : FVec Ideal S4096x741x1 .f32 :=
  v61 (v60 (v59 e a4 a5)) a6

/-- %47 … %86 composed: the reference's output from the field array, the two index tables and the weights. -/
def refTail (x : FVec Ideal S4096x39x40 .f32) (rT cT : IVec S741x1 32) (a4 : FVec Ideal S8x40 .f32)
    (a5 : FVec Ideal S8 .f32) (a6 : FVec Ideal S1x8 .f32) (a7 : FVec Ideal S1x40 .f32) (a8 : FVec Ideal S1 .f32) :
    FVec Ideal S4096x1 .f32 :=
  v86 (v80 (v75 (scores (v55 x rT cT) a4 a5 a6) (v55 x rT cT)) a7 a8)

end Cert.Afm.RefValue

end
-- ==== Proof.RefTailIdx.lean ====
/-
  Each printed operation of the reference's second half, read at explicit coordinates (batch row `b`, pair
  position `p`, hidden unit `k`, embedding coordinate `d`): the gather along the field axis, the three
  contractions as finite sums, the two reductions over the pair axis, and the broadcasts and the transpose
  as re-indexings.
-/
import proofs.«413975_j5944234738104_2_alg».proof.Proof.RefTailDefs
import Idealize.ShloMosaic.Lib.Pipeline.Value

noncomputable section

namespace Cert.Afm.RefValue

open Idealize.ShloMosaic Idealize.ShloMosaic.ValueIdx
open Cert.ReferenceIdeal Cert.ReferenceIdeal.Facts₀

/-! ## The gather along the field axis -/

theorem toNat_toInt_ofNat (n : Nat) (h : n < 2147483648) : (BitVec.ofNat 32 n).toInt.toNat = n := by
  have h1 : (BitVec.ofNat 32 n).toNat = n := by simp [BitVec.toNat_ofNat]; omega
  rw [BitVec.toInt_eq_toNat_cond, h1]
  rw [if_pos (by omega)]
  simp

theorem fieldsAt_apply (x : FVec Ideal S4096x39x40 .f32) (tbl : IVec S741x1 32) (b : Fin 4096) (p : Fin 741) (d : Fin 40) :
    fieldsAt x tbl (ix3 b p d)
      = x (ix3 b (⟨min (tbl (ix2 p (0 : Fin 1))).toInt.toNat 38, by omega⟩ : Fin 39) d) := by
  unfold fieldsAt Host.gather
  congr 1
  funext a
  refine Fin.ext ?_
  show gather_S4096x39x40_S741x1_S4096x741x40_02_1_n_n_1_1_4096140.start (ix3 b p d) tbl a
      + gather_S4096x39x40_S741x1_S4096x741x40_02_1_n_n_1_1_4096140.batchCoord (ix3 b p d) a
      + gather_S4096x39x40_S741x1_S4096x741x40_02_1_n_n_1_1_4096140.offCoord (ix3 b p d) a = _
  rw [GatherDims.batchCoord_eq_zero _ _ _ List.not_mem_nil]
  match a with
  | ⟨0, _⟩ =>
    unfold GatherDims.start GatherDims.offCoord
    rw [dif_neg (by decide +revert), dif_pos (by decide +revert)]
    simp only [Nat.zero_add]
    rfl
  | ⟨1, h1⟩ =>
    rw [GatherDims.offCoord_eq_zero _ _ _ (by decide +revert)]
    unfold GatherDims.start
    rw [dif_pos (by decide +revert)]
    have hsi : gather_S4096x39x40_S741x1_S4096x741x40_02_1_n_n_1_1_4096140.siIdx (ix3 b p d)
        ⟨List.idxOf (⟨1, h1⟩ : Fin S4096x39x40.rank) gather_S4096x39x40_S741x1_S4096x741x40_02_1_n_n_1_1_4096140.startIndexMap,
          List.idxOf_lt_length_iff.2 (by decide +revert)⟩ = ix2 p (0 : Fin 1) := by
      funext c; refine Fin.ext ?_
      match c with
      | ⟨0, _⟩ => rfl
      | ⟨1, _⟩ => rfl
    rw [hsi]
    rfl
  | ⟨2, _⟩ =>
    unfold GatherDims.start GatherDims.offCoord
    rw [dif_neg (by decide +revert), dif_pos (by decide +revert)]
    simp only [Nat.zero_add]
    rfl

/-- The gather at a table entry that names field `n`. -/
theorem fieldsAt_of_eq (x : FVec Ideal S4096x39x40 .f32) (tbl : IVec S741x1 32) (b : Fin 4096) (p : Fin 741) (d : Fin 40)
    (n : Fin 39) (hn : tbl (ix2 p (0 : Fin 1)) = BitVec.ofNat 32 n.val) :
    fieldsAt x tbl (ix3 b p d) = x (ix3 b n d) := by
  rw [fieldsAt_apply]
  congr 1
  have : min (tbl (ix2 p (0 : Fin 1))).toInt.toNat 38 = n.val := by
    rw [hn, toNat_toInt_ofNat _ (by omega)]; omega
  funext a
  match a with
  | ⟨0, _⟩ => rfl
  | ⟨1, _⟩ => exact Fin.ext this
  | ⟨2, _⟩ => rfl

/-! ## The first contraction, the bias and the rectifier -/

theorem v56_apply (e : FVec Ideal S4096x741x40 .f32) (a4 : FVec Ideal S8x40 .f32) (b : Fin 4096) (p : Fin 741) (k : Fin 8) :
    v56 e a4 (ix3 b p k) = ∑ d : Fin 40, e (ix3 b p d) * a4 (ix2 k d) := by
  unfold v56 Host.dotGeneral
  rw [Ideal.dotGeneral_apply,
    ← Equiv.sum_comp (contrEquiv1 dot_S4096x741x40_S8x40_S4096x741x8_2_1_01_0_n_n 40 rfl rfl).symm]
  refine Finset.sum_congr rfl fun c _ => ?_
  have c1 := contrEquiv1_symm_val dot_S4096x741x40_S8x40_S4096x741x8_2_1_01_0_n_n 40 rfl rfl c
  have hl : dot_S4096x741x40_S8x40_S4096x741x8_2_1_01_0_n_n.lhsIdx (ix3 b p k)
      ((contrEquiv1 dot_S4096x741x40_S8x40_S4096x741x8_2_1_01_0_n_n 40 rfl rfl).symm c) = ix3 b p c := by
    funext a
    refine Fin.ext ?_
    match a with
    | ⟨0, _⟩ => simp [DotDims.lhsIdx, dot_S4096x741x40_S8x40_S4096x741x8_2_1_01_0_n_n]; rfl
    | ⟨1, _⟩ => simp [DotDims.lhsIdx, dot_S4096x741x40_S8x40_S4096x741x8_2_1_01_0_n_n]; rfl
    | ⟨2, _⟩ => simp [DotDims.lhsIdx, dot_S4096x741x40_S8x40_S4096x741x8_2_1_01_0_n_n]; exact c1
  have hr : dot_S4096x741x40_S8x40_S4096x741x8_2_1_01_0_n_n.rhsIdx (ix3 b p k)
      ((contrEquiv1 dot_S4096x741x40_S8x40_S4096x741x8_2_1_01_0_n_n 40 rfl rfl).symm c) = ix2 k c := by
    funext a
    refine Fin.ext ?_
    match a with
    | ⟨0, _⟩ => simp [DotDims.rhsIdx, dot_S4096x741x40_S8x40_S4096x741x8_2_1_01_0_n_n]; rfl
    | ⟨1, _⟩ => simp [DotDims.rhsIdx, dot_S4096x741x40_S8x40_S4096x741x8_2_1_01_0_n_n]; exact c1
  rw [hl, hr]

theorem v58_apply (a5 : FVec Ideal S8 .f32) (b : Fin 4096) (p : Fin 741) (k : Fin 8) :
    v58 a5 (ix3 b p k) = a5 (ix1 k) := by
  unfold v58 v57
  refine (broadcastInDim_apply _ _ _ (ix3 b p k) (ix3 (0 : Fin 1) (0 : Fin 1) k) (fun a => ?_)).trans ?_
  · match a with
    | ⟨0, _⟩ => rfl
    | ⟨1, _⟩ => rfl
    | ⟨2, _⟩ => rfl
  · refine broadcastInDim_apply _ _ _ _ (ix1 k) (fun a => ?_)
    match a with
    | ⟨0, _⟩ => rfl

theorem v60_apply (h : FVec Ideal S4096x741x8 .f32) (j : S4096x741x8.Idx) : v60 h j = max (h j) 0 := by
  unfold v60
  rw [maximumf_apply, broadcastInDim_scalar_apply, constant_apply, Ideal.ofBits_zero_f32]

/-! ## The scores, the reductions over the pairs, and the output layer -/

theorem v61_apply (h : FVec Ideal S4096x741x8 .f32) (a6 : FVec Ideal S1x8 .f32) (b : Fin 4096) (p : Fin 741) :
    v61 h a6 (ix3 b p (0 : Fin 1)) = ∑ k : Fin 8, h (ix3 b p k) * a6 (ix2 (0 : Fin 1) k) := by
  unfold v61 Host.dotGeneral
  rw [Ideal.dotGeneral_apply,
    ← Equiv.sum_comp (contrEquiv1 dot_S4096x741x8_S1x8_S4096x741x1_2_1_01_0_n_n 8 rfl rfl).symm]
  refine Finset.sum_congr rfl fun c _ => ?_
  have c1 := contrEquiv1_symm_val dot_S4096x741x8_S1x8_S4096x741x1_2_1_01_0_n_n 8 rfl rfl c
  have hl : dot_S4096x741x8_S1x8_S4096x741x1_2_1_01_0_n_n.lhsIdx (ix3 b p (0 : Fin 1))
      ((contrEquiv1 dot_S4096x741x8_S1x8_S4096x741x1_2_1_01_0_n_n 8 rfl rfl).symm c) = ix3 b p c := by
    funext a
    refine Fin.ext ?_
    match a with
    | ⟨0, _⟩ => simp [DotDims.lhsIdx, dot_S4096x741x8_S1x8_S4096x741x1_2_1_01_0_n_n]; rfl
    | ⟨1, _⟩ => simp [DotDims.lhsIdx, dot_S4096x741x8_S1x8_S4096x741x1_2_1_01_0_n_n]; rfl
    | ⟨2, _⟩ => simp [DotDims.lhsIdx, dot_S4096x741x8_S1x8_S4096x741x1_2_1_01_0_n_n]; exact c1
  have hr : dot_S4096x741x8_S1x8_S4096x741x1_2_1_01_0_n_n.rhsIdx (ix3 b p (0 : Fin 1))
      ((contrEquiv1 dot_S4096x741x8_S1x8_S4096x741x1_2_1_01_0_n_n 8 rfl rfl).symm c) = ix2 (0 : Fin 1) c := by
    funext a
    refine Fin.ext ?_
    match a with
    | ⟨0, _⟩ => simp [DotDims.rhsIdx, dot_S4096x741x8_S1x8_S4096x741x1_2_1_01_0_n_n]
    | ⟨1, _⟩ => simp [DotDims.rhsIdx, dot_S4096x741x8_S1x8_S4096x741x1_2_1_01_0_n_n]; exact c1
  rw [hl, hr]

theorem red1 : S4096x741x1.Reduces [1] S4096x1 := by decide
theorem red40 : S4096x741x40.Reduces [1] S4096x40 := by decide

theorem lift1 (b : Fin 4096) (p : Fin 741) : red1.lift (ix2 b (0 : Fin 1)) p = ix3 b p (0 : Fin 1) := by
  funext a
  refine Fin.ext ?_
  match a with
  | ⟨0, _⟩ => rfl
  | ⟨1, _⟩ => rfl
  | ⟨2, _⟩ => rfl

theorem lift40 (b : Fin 4096) (d : Fin 40) (p : Fin 741) : red40.lift (ix2 b d) p = ix3 b p d := by
  funext a
  refine Fin.ext ?_
  match a with
  | ⟨0, _⟩ => rfl
  | ⟨1, _⟩ => rfl
  | ⟨2, _⟩ => rfl

theorem ofBits_neg_inf : Ideal.ofBits .f32 0xFF800000#32 = ⊥ := by simp [Ideal.ofBits, Ideal.ieee]

theorem v62_apply (l : FVec Ideal S4096x741x1 .f32) (b : Fin 4096) :
    v62 l (ix2 b (0 : Fin 1)) = (Finset.univ : Finset (Fin 741)).fold max ⊥ (fun p => l (ix3 b p (0 : Fin 1))) := by
  unfold v62
  rw [Host.reduce_eq_fold_single FloatOps.maximumf l _ reducesTo_S4096x741x1_S4096x1_d1 red1 h_S_]
  rw [constant_apply, ofBits_neg_inf]
  refine congrArg (Finset.fold _ ⊥ · Finset.univ) (funext fun p => ?_)
  exact congrArg l (lift1 b p)

theorem v64_apply (l : FVec Ideal S4096x741x1 .f32) (j : S4096x1.Idx) : v64 l j = v62 l j := by
  unfold v64 v63
  rw [maximumf_apply, broadcastInDim_scalar_apply, constant_apply, ofBits_neg_inf]
  exact max_eq_right bot_le

theorem bcastRow_apply (y : FVec Ideal S4096x1 .f32) (b : Fin 4096) (p : Fin 741) :
    broadcastInDim S4096x741x1 ![0, 1, 2] bcast_S4096x1x1_S4096x741x1_0_1_2
      (broadcastInDim S4096x1x1 ![0, 2] bcast_S4096x1_S4096x1x1_0_2 y) (ix3 b p (0 : Fin 1)) = y (ix2 b (0 : Fin 1)) := by
  refine (broadcastInDim_apply _ _ _ (ix3 b p (0 : Fin 1)) (ix3 b (0 : Fin 1) (0 : Fin 1)) (fun a => ?_)).trans ?_
  · match a with
    | ⟨0, _⟩ => rfl
    | ⟨1, _⟩ => rfl
    | ⟨2, _⟩ => rfl
  · refine broadcastInDim_apply _ _ _ _ (ix2 b (0 : Fin 1)) (fun a => ?_)
    match a with
    | ⟨0, _⟩ => rfl
    | ⟨1, _⟩ => rfl

theorem v66_apply (l : FVec Ideal S4096x741x1 .f32) (b : Fin 4096) (p : Fin 741) :
    v66 l (ix3 b p (0 : Fin 1)) = v64 l (ix2 b (0 : Fin 1)) := by
  unfold v66 v65; exact bcastRow_apply _ b p

theorem v71_apply (l : FVec Ideal S4096x741x1 .f32) (b : Fin 4096) (p : Fin 741) :
    v71 l (ix3 b p (0 : Fin 1)) = v69 l (ix2 b (0 : Fin 1)) := by
  unfold v71 v70; exact bcastRow_apply _ b p

theorem v69_apply (l : FVec Ideal S4096x741x1 .f32) (b : Fin 4096) :
    v69 l (ix2 b (0 : Fin 1)) = ∑ p : Fin 741, v68 l (ix3 b p (0 : Fin 1)) := by
  unfold v69
  rw [hostReduceAdd_apply, Ideal.hostReduceAdd_single reducesTo_S4096x741x1_S4096x1_d1 red1, constant_apply,
    Ideal.ofBits_zero_f32, zero_add]
  refine Finset.sum_congr rfl fun p _ => ?_
  exact congrArg (v68 l) (lift1 b p)

theorem v73_apply (l : FVec Ideal S4096x741x1 .f32) (b : Fin 4096) (p : Fin 741) (d : Fin 40) :
    v73 l (ix3 b p d) = v72 l (ix3 b p (0 : Fin 1)) := by
  unfold v73
  refine broadcastInDim_apply _ _ _ _ (ix3 b p (0 : Fin 1)) (fun a => ?_)
  match a with
  | ⟨0, _⟩ => rfl
  | ⟨1, _⟩ => rfl
  | ⟨2, _⟩ => rfl

theorem v75_apply (l : FVec Ideal S4096x741x1 .f32) (e : FVec Ideal S4096x741x40 .f32) (b : Fin 4096) (d : Fin 40) :
    v75 l e (ix2 b d) = ∑ p : Fin 741, v74 l e (ix3 b p d) := by
  unfold v75
  rw [hostReduceAdd_apply, Ideal.hostReduceAdd_single reducesTo_S4096x741x40_S4096x40_d1 red40, constant_apply,
    Ideal.ofBits_zero_f32, zero_add]
  refine Finset.sum_congr rfl fun p _ => ?_
  exact congrArg (v74 l e) (lift40 b d p)

theorem v76_apply (a7 : FVec Ideal S1x40 .f32) (d : Fin 40) : v76 a7 (ix2 d (0 : Fin 1)) = a7 (ix2 (0 : Fin 1) d) := by
  unfold v76
  refine transpose_apply _ _ _ _ (ix2 (0 : Fin 1) d) (fun c => ?_)
  match c with
  | ⟨0, _⟩ => rfl
  | ⟨1, _⟩ => rfl

theorem v77_apply (q : FVec Ideal S4096x40 .f32) (a7 : FVec Ideal S1x40 .f32) (b : Fin 4096) :
    v77 q a7 (ix2 b (0 : Fin 1)) = ∑ d : Fin 40, q (ix2 b d) * a7 (ix2 (0 : Fin 1) d) := by
  unfold v77 Host.dotGeneral
  rw [Ideal.dotGeneral_apply,
    ← Equiv.sum_comp (contrEquiv1 dot_S4096x40_S40x1_S4096x1_1_0_0_1_n_n 40 rfl rfl).symm]
  refine Finset.sum_congr rfl fun c _ => ?_
  have c1 := contrEquiv1_symm_val dot_S4096x40_S40x1_S4096x1_1_0_0_1_n_n 40 rfl rfl c
  have hl : dot_S4096x40_S40x1_S4096x1_1_0_0_1_n_n.lhsIdx (ix2 b (0 : Fin 1))
      ((contrEquiv1 dot_S4096x40_S40x1_S4096x1_1_0_0_1_n_n 40 rfl rfl).symm c) = ix2 b c := by
    funext a
    refine Fin.ext ?_
    match a with
    | ⟨0, _⟩ => simp [DotDims.lhsIdx, dot_S4096x40_S40x1_S4096x1_1_0_0_1_n_n]; rfl
    | ⟨1, _⟩ => simp [DotDims.lhsIdx, dot_S4096x40_S40x1_S4096x1_1_0_0_1_n_n]; exact c1
  have hr : dot_S4096x40_S40x1_S4096x1_1_0_0_1_n_n.rhsIdx (ix2 b (0 : Fin 1))
      ((contrEquiv1 dot_S4096x40_S40x1_S4096x1_1_0_0_1_n_n 40 rfl rfl).symm c) = ix2 c (0 : Fin 1) := by
    funext a
    refine Fin.ext ?_
    match a with
    | ⟨0, _⟩ => simp [DotDims.rhsIdx, dot_S4096x40_S40x1_S4096x1_1_0_0_1_n_n]; exact c1
    | ⟨1, _⟩ => simp [DotDims.rhsIdx, dot_S4096x40_S40x1_S4096x1_1_0_0_1_n_n]
  rw [hl, hr, v76_apply]

theorem v79_apply (a8 : FVec Ideal S1 .f32) (b : Fin 4096) : v79 a8 (ix2 b (0 : Fin 1)) = a8 (ix1 (0 : Fin 1)) := by
  unfold v79 v78
  refine (broadcastInDim_apply _ _ _ (ix2 b (0 : Fin 1)) (ix2 (0 : Fin 1) (0 : Fin 1)) (fun a => ?_)).trans ?_
  · match a with
    | ⟨0, _⟩ => rfl
    | ⟨1, _⟩ => rfl
  · refine broadcastInDim_apply _ _ _ _ (ix1 (0 : Fin 1)) (fun a => ?_)
    match a with
    | ⟨0, _⟩ => rfl

theorem ones_apply (j : S4096x1.Idx) : ones j = 1 := by
  unfold ones
  rw [broadcastInDim_scalar_apply, constant_apply, Ideal.ofBits_one_f32]

end Cert.Afm.RefValue

end
-- ==== Proof.RefPairs.lean ====
/-
  The 741 positions of the strict upper triangle, listed row by row, are the pairs of distinct fields with the
  smaller first, each once: a sum or a maximum over the positions is the sum or maximum over the pairs.
-/
import proofs.«413975_j5944234738104_2_alg».proof.Proof.Spec
import Mathlib.Data.List.Nodup
import Mathlib.Data.List.NodupEquivFin
import Mathlib.Data.Finset.Lattice.Fold
import Mathlib.Algebra.BigOperators.Group.Finset.Basic

namespace Cert.Afm.RefValue

open Finset Cert.Afm

/-- The listed pairs are exactly the pairs with the smaller field first. -/
theorem mem_pairList (q : Fin 39 × Fin 39) : q ∈ pairList ↔ q.1 < q.2 := by
  obtain ⟨i, j⟩ := q
  simp only [pairList, List.mem_flatMap, List.mem_map, List.mem_filter, List.mem_finRange, true_and,
    decide_eq_true_eq, Prod.mk.injEq]
  constructor
  · rintro ⟨i', j', h, rfl, rfl⟩; exact h
  · intro h; exact ⟨i, j, h, rfl, rfl⟩

/-- No pair is listed twice. -/
theorem pairList_nodup : pairList.Nodup := by
  unfold pairList
  rw [List.nodup_flatMap]
  refine ⟨fun i _ => ((List.nodup_finRange 39).filter _).map (fun a b h => (Prod.mk.inj h).2), ?_⟩
  refine (List.nodup_finRange 39).pairwise_of_forall_ne fun i _ i' _ hne => ?_
  intro q hq hq'
  simp only [List.mem_map, List.mem_filter] at hq hq'
  obtain ⟨j, _, rfl⟩ := hq
  obtain ⟨j', _, h⟩ := hq'
  exact hne (Prod.mk.inj h).1.symm

theorem pairOf_injective : Function.Injective pairOf := by
  intro p p' h
  unfold pairOf at h
  have := (pairList_nodup.get_inj_iff).1 h
  exact Fin.ext (by simpa using congrArg Fin.val this)

theorem pairs_eq_image : pairs = Finset.univ.image pairOf := by
  ext q
  rw [mem_pairs, ← mem_pairList, Finset.mem_image]
  constructor
  · intro h
    obtain ⟨n, hn⟩ := List.get_of_mem h
    exact ⟨n.cast pairList_length, Finset.mem_univ _, by unfold pairOf; simpa using hn⟩
  · rintro ⟨p, _, rfl⟩
    exact List.get_mem _ _

/-- A sum over the 741 positions is the sum over the pairs. -/
theorem sum_pairOf {M : Type*} [AddCommMonoid M] (f : Fin 39 × Fin 39 → M) :
    ∑ p : Fin 741, f (pairOf p) = ∑ q ∈ pairs, f q := by
  rw [pairs_eq_image, Finset.sum_image (fun a _ b _ h => pairOf_injective h)]

/-- A maximum over the 741 positions is the maximum over the pairs. -/
theorem sup'_pairOf {α : Type*} [SemilatticeSup α] (f : Fin 39 × Fin 39 → α) :
    (Finset.univ : Finset (Fin 741)).sup' ⟨0, Finset.mem_univ _⟩ (fun p => f (pairOf p)) = pairs.sup' pairs_nonempty f := by
  have key : ∀ (s : Finset (Fin 39 × Fin 39)) (_ : s = Finset.univ.image pairOf) (H : s.Nonempty),
      s.sup' H f = (Finset.univ : Finset (Fin 741)).sup' ⟨0, Finset.mem_univ _⟩ (fun p => f (pairOf p)) := by
    intro s hs H
    subst hs
    rw [Finset.sup'_image]
    rfl
  exact (key pairs pairs_eq_image pairs_nonempty).symm

end Cert.Afm.RefValue
-- ==== Proof.RefCoe.lean ====
/-
  Finite reals inside the extended reals: the coercion commutes with finite sums, with the larger of two
  numbers, with a quotient by a divisor that is not zero, and with a maximum taken from minus infinity over a
  set that is not empty.
-/
import Idealize.ShloMosaic.PureOps.Ideal
import Mathlib.Data.EReal.Basic
import Mathlib.Data.EReal.Operations
import Mathlib.Data.Finset.Lattice.Fold
import Mathlib.Algebra.BigOperators.Group.Finset.Basic

namespace Cert.Afm.RefValue

open Idealize.ShloMosaic

/-- A finite sum of reals, each read as an extended real, is the real sum read as one. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]
  congr 1
  ring

/-- The larger of two reals, read as an extended real. -/
theorem coe_max (a b : ℝ) : ((max a b : ℝ) : EReal) = max (a : EReal) (b : EReal) :=
  EReal.coe_strictMono.monotone.map_max

/-- The maximum from minus infinity of finitely many reals, over a set that is not empty, is their largest. -/
theorem fold_max_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun x : ℝ => (x : EReal)) (fun a b => coe_max a b)).symm

end Cert.Afm.RefValue
-- ==== Proof.RefTail.lean ====
/-
  The second half of the reference program read at a batch row: with every float input finite and the two
  index tables listing the pairs of fields, the printed values %47 … %86 compute the attentional
  factorization machine's output for that row, over the reals.

  The chain follows the program: the pair products, the scores (eight rectified units and a linear
  read-out), the largest score (a maximum folded from minus infinity), the shifted exponentials and their
  sum (positive, so the quotient is the real one), the weighted sum of the pair products, and the logistic
  function of its projection.  Sums and the maximum over the 741 positions become sums and the maximum over
  the pairs of fields.
-/
import proofs.«413975_j5944234738104_2_alg».proof.Proof.RefTailIdx
import proofs.«413975_j5944234738104_2_alg».proof.Proof.RefPairs
import proofs.«413975_j5944234738104_2_alg».proof.Proof.RefCoe
import Mathlib.Analysis.SpecialFunctions.Exp
import Mathlib.Tactic.Positivity

noncomputable section

namespace Cert.Afm.RefValue

open Idealize.ShloMosaic Idealize.ShloMosaic.ValueIdx
open Cert.ReferenceIdeal Cert.ReferenceIdeal.Facts₀

open Finset in
/-- The pair products of row `b`, over the reals. -/
theorem v55_coe (x : FVec Ideal S4096x39x40 .f32) (rT cT : IVec S741x1 32)
    (xr : Fin 4096 → Fin 39 → Fin 40 → ℝ) (hx : ∀ b f d, x (ix3 b f d) = ((xr b f d : ℝ) : EReal))
    (hrT : ∀ p : Fin 741, rT (ix2 p (0 : Fin 1)) = BitVec.ofNat 32 (Cert.Afm.pairOf p).1.val)
    (hcT : ∀ p : Fin 741, cT (ix2 p (0 : Fin 1)) = BitVec.ofNat 32 (Cert.Afm.pairOf p).2.val)
    (b : Fin 4096) (p : Fin 741) (d : Fin 40) :
    v55 x rT cT (ix3 b p d)
      = ((Cert.Afm.ew (xr b) (Cert.Afm.pairOf p).1 (Cert.Afm.pairOf p).2 d : ℝ) : EReal) := by
  unfold v55
  rw [mulf_apply, fieldsAt_of_eq x rT b p d _ (hrT p), fieldsAt_of_eq x cT b p d _ (hcT p), hx, hx, ← EReal.coe_mul]
  rfl

section Scores

variable (e : FVec Ideal S4096x741x40 .f32) (a4 : FVec Ideal S8x40 .f32) (a5 : FVec Ideal S8 .f32)
  (a6 : FVec Ideal S1x8 .f32) (b : Fin 4096)
  (E : Fin 741 → Fin 40 → ℝ) (he : ∀ p d, e (ix3 b p d) = ((E p d : ℝ) : EReal))
  (Wr : Fin 8 → Fin 40 → ℝ) (hW : ∀ k d, a4 (ix2 k d) = (Wr k d : EReal))
  (bAr : Fin 8 → ℝ) (hbA : ∀ k, a5 (ix1 k) = (bAr k : EReal))
  (Pr : Fin 8 → ℝ) (hP : ∀ k, a6 (ix2 (0 : Fin 1) k) = (Pr k : EReal))

include he hW hbA in
/-- A hidden unit before the rectifier. -/
theorem v59_coe (p : Fin 741) (k : Fin 8) :
    v59 e a4 a5 (ix3 b p k) = ((∑ d : Fin 40, E p d * Wr k d + bAr k : ℝ) : EReal) := by
  unfold v59
  rw [addf_apply, v56_apply, v58_apply, hbA, EReal.coe_add, ← coe_sum]
  congr 1
  refine Finset.sum_congr rfl fun d _ => ?_
  rw [he, hW, EReal.coe_mul]

include he hW hbA hP in
/-- The score of a pair. -/
theorem scores_coe (p : Fin 741) :
    scores e a4 a5 a6 (ix3 b p (0 : Fin 1))
      = ((∑ k : Fin 8, max (∑ d : Fin 40, E p d * Wr k d + bAr k) 0 * Pr k : ℝ) : EReal) := by
  unfold scores
  rw [v61_apply, ← coe_sum]
  refine Finset.sum_congr rfl fun k _ => ?_
  rw [v60_apply, v59_coe e a4 a5 b E he Wr hW bAr hbA p k, hP, ← EReal.coe_zero, ← coe_max, EReal.coe_mul]

end Scores

section Softmax

variable (l : FVec Ideal S4096x741x1 .f32) (e : FVec Ideal S4096x741x40 .f32) (b : Fin 4096)
  (S : Fin 741 → ℝ) (hl : ∀ p, l (ix3 b p (0 : Fin 1)) = ((S p : ℝ) : EReal))
  (E : Fin 741 → Fin 40 → ℝ) (he : ∀ p d, e (ix3 b p d) = ((E p d : ℝ) : EReal))

/-- The largest of the 741 scores. -/
def topR (S : Fin 741 → ℝ) : ℝ := (Finset.univ : Finset (Fin 741)).sup' ⟨0, Finset.mem_univ _⟩ S

/-- The sum of the shifted exponentials. -/
def normR (S : Fin 741 → ℝ) : ℝ := ∑ p : Fin 741, Real.exp (S p - topR S)

theorem normR_ne_zero (S : Fin 741 → ℝ) : normR S ≠ 0 :=
  (Finset.sum_pos (fun p _ => Real.exp_pos _) ⟨0, Finset.mem_univ _⟩).ne'

include hl in
theorem v64_coe : v64 l (ix2 b (0 : Fin 1)) = ((topR S : ℝ) : EReal) := by
  rw [v64_apply, v62_apply, show (fun p => l (ix3 b p (0 : Fin 1))) = fun p => ((S p : ℝ) : EReal) from funext hl]
  exact fold_max_coe _ _ S

include hl in
theorem v68_coe (p : Fin 741) : v68 l (ix3 b p (0 : Fin 1)) = ((Real.exp (S p - topR S) : ℝ) : EReal) := by
  unfold v68 v67
  show Ideal.exp (subf l (v66 l) (ix3 b p (0 : Fin 1))) = _
  rw [subf_apply, hl, v66_apply, v64_coe l b S hl, ← EReal.coe_sub, Ideal.exp_coe]

include hl in
theorem v69_coe : v69 l (ix2 b (0 : Fin 1)) = ((normR S : ℝ) : EReal) := by
  unfold normR
  rw [v69_apply, ← coe_sum]
  exact Finset.sum_congr rfl fun p _ => v68_coe l b S hl p

include hl in
/-- A softmax weight. -/
theorem v72_coe (p : Fin 741) :
    v72 l (ix3 b p (0 : Fin 1)) = ((Real.exp (S p - topR S) / normR S : ℝ) : EReal) := by
  unfold v72
  rw [hostDivf_apply, v68_coe l b S hl, v71_apply, v69_coe l b S hl, div_coe_coe _ _ (normR_ne_zero S)]

include hl he in
/-- The pooled vector. -/
theorem v75_coe (d : Fin 40) :
    v75 l e (ix2 b d) = ((∑ p : Fin 741, Real.exp (S p - topR S) / normR S * E p d : ℝ) : EReal) := by
  rw [v75_apply, ← coe_sum]
  refine Finset.sum_congr rfl fun p _ => ?_
  unfold v74
  rw [mulf_apply, v73_apply, v72_coe l b S hl, he, EReal.coe_mul]

end Softmax

/-- The output layer: the logistic function of the projected pooled vector. -/
theorem out_coe (q : FVec Ideal S4096x40 .f32) (a7 : FVec Ideal S1x40 .f32) (a8 : FVec Ideal S1 .f32) (b : Fin 4096)
    (Q : Fin 40 → ℝ) (hq : ∀ d, q (ix2 b d) = ((Q d : ℝ) : EReal))
    (fcWr : Fin 40 → ℝ) (hfW : ∀ d, a7 (ix2 (0 : Fin 1) d) = (fcWr d : EReal))
    (fcBr : ℝ) (hfB : a8 (ix1 (0 : Fin 1)) = (fcBr : EReal)) :
    v86 (v80 q a7 a8) (ix2 b (0 : Fin 1))
      = ((1 / (1 + Real.exp (-(∑ d : Fin 40, Q d * fcWr d + fcBr))) : ℝ) : EReal) := by
  have hz : v80 q a7 a8 (ix2 b (0 : Fin 1)) = ((∑ d : Fin 40, Q d * fcWr d + fcBr : ℝ) : EReal) := by
    unfold v80
    rw [addf_apply, v77_apply, v79_apply, hfB, EReal.coe_add, ← coe_sum]
    congr 1
    refine Finset.sum_congr rfl fun d _ => ?_
    rw [hq, hfW, EReal.coe_mul]
  have h82 : v82 (v80 q a7 a8) (ix2 b (0 : Fin 1))
      = ((Real.exp (-(∑ d : Fin 40, Q d * fcWr d + fcBr)) : ℝ) : EReal) := by
    unfold v82 v81
    show Ideal.exp (-(v80 q a7 a8 (ix2 b (0 : Fin 1)))) = _
    rw [hz, ← EReal.coe_neg, Ideal.exp_coe]
  unfold v86
  rw [hostDivf_apply, ones_apply]
  unfold v84
  rw [addf_apply, ones_apply, h82, ← EReal.coe_one, ← EReal.coe_add, div_coe_coe _ _ (by positivity)]

/-! ## The composition read at a batch row -/

theorem refTail_apply (x : FVec Ideal S4096x39x40 .f32) (rT cT : IVec S741x1 32) (a4 : FVec Ideal S8x40 .f32)
    (a5 : FVec Ideal S8 .f32) (a6 : FVec Ideal S1x8 .f32) (a7 : FVec Ideal S1x40 .f32) (a8 : FVec Ideal S1 .f32)
    (xr : Fin 4096 → Fin 39 → Fin 40 → ℝ) (hx : ∀ b f d, x (ix3 b f d) = ((xr b f d : ℝ) : EReal))
    (Wr : Fin 8 → Fin 40 → ℝ) (hW : ∀ k d, a4 (ix2 k d) = (Wr k d : EReal))
    (bAr : Fin 8 → ℝ) (hbA : ∀ k, a5 (ix1 k) = (bAr k : EReal))
    (Pr : Fin 8 → ℝ) (hP : ∀ k, a6 (ix2 (0 : Fin 1) k) = (Pr k : EReal))
    (fcWr : Fin 40 → ℝ) (hfW : ∀ d, a7 (ix2 (0 : Fin 1) d) = (fcWr d : EReal))
    (fcBr : ℝ) (hfB : a8 (ix1 (0 : Fin 1)) = (fcBr : EReal))
    (hrT : ∀ p : Fin 741, rT (ix2 p (0 : Fin 1)) = BitVec.ofNat 32 (Cert.Afm.pairOf p).1.val)
    (hcT : ∀ p : Fin 741, cT (ix2 p (0 : Fin 1)) = BitVec.ofNat 32 (Cert.Afm.pairOf p).2.val)
    (b : Fin 4096) :
    refTail x rT cT a4 a5 a6 a7 a8 (ix2 b (0 : Fin 1)) = ((Cert.Afm.outRow (xr b) Wr bAr Pr fcWr fcBr : ℝ) : EReal) := by
  -- the score and the product vector of a pair, as functions of the pair
  let g : Fin 39 × Fin 39 → ℝ := fun q => Cert.Afm.score (xr b) Wr bAr Pr q.1 q.2
  let E : Fin 741 → Fin 40 → ℝ := fun p d => Cert.Afm.ew (xr b) (Cert.Afm.pairOf p).1 (Cert.Afm.pairOf p).2 d
  let S : Fin 741 → ℝ := fun p => g (Cert.Afm.pairOf p)
  have he : ∀ p d, v55 x rT cT (ix3 b p d) = ((E p d : ℝ) : EReal) := v55_coe x rT cT xr hx hrT hcT b
  have hl : ∀ p, scores (v55 x rT cT) a4 a5 a6 (ix3 b p (0 : Fin 1)) = ((S p : ℝ) : EReal) := fun p =>
    scores_coe (v55 x rT cT) a4 a5 a6 b E he Wr hW bAr hbA Pr hP p
  -- the three quantities of the softmax are the specification's
  have hT : topR S = Cert.Afm.topScore (xr b) Wr bAr Pr := sup'_pairOf g
  have hN : normR S = Cert.Afm.norm (xr b) Wr bAr Pr := by
    unfold normR Cert.Afm.norm
    rw [hT]
    exact sum_pairOf fun q => Real.exp (g q - Cert.Afm.topScore (xr b) Wr bAr Pr)
  have hQ : ∀ d : Fin 40, (∑ p : Fin 741, Real.exp (S p - topR S) / normR S * E p d) = Cert.Afm.pooled (xr b) Wr bAr Pr d := by
    intro d
    unfold Cert.Afm.pooled
    rw [hT, hN]
    exact sum_pairOf fun q =>
      Real.exp (g q - Cert.Afm.topScore (xr b) Wr bAr Pr) / Cert.Afm.norm (xr b) Wr bAr Pr * Cert.Afm.ew (xr b) q.1 q.2 d
  unfold refTail
  rw [out_coe _ a7 a8 b (fun d => ∑ p : Fin 741, Real.exp (S p - topR S) / normR S * E p d)
    (fun d => v75_coe _ _ b S hl E he d) fcWr hfW fcBr hfB]
  simp only [hQ]
  rfl

end Cert.Afm.RefValue

end
-- ==== Proof.RefOut.lean ====
/- The reference program's result buffer after its run, at the ideal instance, as the composition of the three
   transcribed sub-terms: the two integer index tables (closed terms), the field array (a function of the continuous
   values, the categorical indices and the embedding table) and everything after it. -/
import proofs.«413975_j5944234738104_2_alg».proof.Proof.RefRun
import proofs.«413975_j5944234738104_2_alg».proof.Proof.RefIntDefs
import proofs.«413975_j5944234738104_2_alg».proof.Proof.RefX
import proofs.«413975_j5944234738104_2_alg».proof.Proof.RefTail

noncomputable section

namespace Cert.ReferenceIdeal.Value

open Cert.ReferenceIdeal Cert.ReferenceIdeal.Gen Idealize.ShloMosaic Idealize.ShloMosaic.TcCoe Idealize.SL.Sem Idealize.ShloMosaic.StableHlo

/-- A buffer the first window does not write keeps its contents through it. -/
theorem keep0 (V : Valuation τ sig (Elt Ideal)) (r : Ref sig .tc) (h0 : r ∉ W0) :
    after ops0 V (Proc.devRef .tc r) = V (Proc.devRef .tc r) :=
  after_of_writes_sub ops0 V ops0_writes h0

set_option maxRecDepth 8192 in
set_option maxHeartbeats 4000000 in
/-- The field array after the first window. -/
theorem w0_v20 (V : Valuation τ sig (Elt Ideal)) :
    after ops0 V (main_v20 : DevRef τ sig)
      = Cert.Afm.RefValue.xRef (V (main_arg0 : DevRef τ sig)) (V (main_arg1 : DevRef τ sig)) (V (main_arg3 : DevRef τ sig)) := by
  after_results_simp
  rfl

variable {F : FTy → Type} [FloatOps F]

/-! ## The first window's operations in eleven stretches

The field array; the triangular mask; its running count; the count bounded below; the count read as a bin; the
histogram of the bins and that histogram's running count (the flat position of each pair); then the row and the
column of that position, each a quotient followed by a remainder; and the comparison that starts the row's wrap. -/

/-- Operations 1 … 25 of the first window. -/
abbrev wA : List (HloOp τ sig (Elt F)) :=
  [
    nullary main_v0 (iotaInDim S13 32 0),
    nullary main_c (constantI S_ 32 0#32),
    unary main_c main_v1 (broadcastInDim S13 ![] bcast_S_S13 : (⟨S_, .i32⟩ : BufTy).Contents (Elt F) → (⟨S13, .i32⟩ : BufTy).Contents (Elt F)),
    binary main_v0 main_v1 main_v2 (cmpi .slt : (⟨S13, .i32⟩ : BufTy).Contents (Elt F) → (⟨S13, .i32⟩ : BufTy).Contents (Elt F) → (⟨S13, .i1⟩ : BufTy).Contents (Elt F)),
    nullary main_c_0 (constantI S_ 32 100000#32),
    unary main_c_0 main_v3 (broadcastInDim S13 ![] bcast_S_S13 : (⟨S_, .i32⟩ : BufTy).Contents (Elt F) → (⟨S13, .i32⟩ : BufTy).Contents (Elt F)),
    binary main_v0 main_v3 main_v4 (addi : (⟨S13, .i32⟩ : BufTy).Contents (Elt F) → (⟨S13, .i32⟩ : BufTy).Contents (Elt F) → (⟨S13, .i32⟩ : BufTy).Contents (Elt F)),
    ternary main_v2 main_v4 main_v0 main_v5 (select : (⟨S13, .i1⟩ : BufTy).Contents (Elt F) → (⟨S13, .i32⟩ : BufTy).Contents (Elt F) → (⟨S13, .i32⟩ : BufTy).Contents (Elt F) → (⟨S13, .i32⟩ : BufTy).Contents (Elt F)),
    unary main_v5 main_v6 (broadcastInDim S13x1 ![0] bcast_S13_S13x1_0 : (⟨S13, .i32⟩ : BufTy).Contents (Elt F) → (⟨S13x1, .i32⟩ : BufTy).Contents (Elt F)),
    binary main_arg3 main_v6 main_v7 ((fun x i => Host.gather gather_S100000x40_S13x1_S13x40_1_0_n_n_0_1_140 x i) : (⟨S100000x40, .f32⟩ : BufTy).Contents (Elt F) → (⟨S13x1, .i32⟩ : BufTy).Contents (Elt F) → (⟨S13x40, .f32⟩ : BufTy).Contents (Elt F)),
    unary main_v7 main_v8 (broadcastInDim S1x13x40 ![1, 2] bcast_S13x40_S1x13x40_1_2 : (⟨S13x40, .f32⟩ : BufTy).Contents (Elt F) → (⟨S1x13x40, .f32⟩ : BufTy).Contents (Elt F)),
    unary main_arg0 main_v9 (broadcastInDim S4096x13x1 ![0, 1] bcast_S4096x13_S4096x13x1_0_1 : (⟨S4096x13, .f32⟩ : BufTy).Contents (Elt F) → (⟨S4096x13x1, .f32⟩ : BufTy).Contents (Elt F)),
    unary main_v8 main_v10 (broadcastInDim S4096x13x40 ![0, 1, 2] bcast_S1x13x40_S4096x13x40_0_1_2 : (⟨S1x13x40, .f32⟩ : BufTy).Contents (Elt F) → (⟨S4096x13x40, .f32⟩ : BufTy).Contents (Elt F)),
    unary main_v9 main_v11 (broadcastInDim S4096x13x40 ![0, 1, 2] bcast_S4096x13x1_S4096x13x40_0_1_2 : (⟨S4096x13x1, .f32⟩ : BufTy).Contents (Elt F) → (⟨S4096x13x40, .f32⟩ : BufTy).Contents (Elt F)),
    binary main_v10 main_v11 main_v12 (mulf : (⟨S4096x13x40, .f32⟩ : BufTy).Contents (Elt F) → (⟨S4096x13x40, .f32⟩ : BufTy).Contents (Elt F) → (⟨S4096x13x40, .f32⟩ : BufTy).Contents (Elt F)),
    nullary main_c_1 (constantI S_ 32 0#32),
    unary main_c_1 main_v13 (broadcastInDim S4096x26 ![] bcast_S_S4096x26 : (⟨S_, .i32⟩ : BufTy).Contents (Elt F) → (⟨S4096x26, .i32⟩ : BufTy).Contents (Elt F)),
    binary main_arg1 main_v13 main_v14 (cmpi .slt : (⟨S4096x26, .i32⟩ : BufTy).Contents (Elt F) → (⟨S4096x26, .i32⟩ : BufTy).Contents (Elt F) → (⟨S4096x26, .i1⟩ : BufTy).Contents (Elt F)),
    nullary main_c_2 (constantI S_ 32 100000#32),
    unary main_c_2 main_v15 (broadcastInDim S4096x26 ![] bcast_S_S4096x26 : (⟨S_, .i32⟩ : BufTy).Contents (Elt F) → (⟨S4096x26, .i32⟩ : BufTy).Contents (Elt F)),
    binary main_arg1 main_v15 main_v16 (addi : (⟨S4096x26, .i32⟩ : BufTy).Contents (Elt F) → (⟨S4096x26, .i32⟩ : BufTy).Contents (Elt F) → (⟨S4096x26, .i32⟩ : BufTy).Contents (Elt F)),
    ternary main_v14 main_v16 main_arg1 main_v17 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v17 main_v18 (broadcastInDim S4096x26x1 ![0, 1] bcast_S4096x26_S4096x26x1_0_1 : (⟨S4096x26, .i32⟩ : BufTy).Contents (Elt F) → (⟨S4096x26x1, .i32⟩ : BufTy).Contents (Elt F)),
    binary main_arg3 main_v18 main_v19 ((fun x i => Host.gather gather_S100000x40_S4096x26x1_S4096x26x40_2_0_n_n_0_2_140 x i) : (⟨S100000x40, .f32⟩ : BufTy).Contents (Elt F) → (⟨S4096x26x1, .i32⟩ : BufTy).Contents (Elt F) → (⟨S4096x26x40, .f32⟩ : BufTy).Contents (Elt F)),
    binary main_v12 main_v19 main_v20 ((fun a b => concatenate S4096x39x40 1 [⟨S4096x13x40, a⟩, ⟨S4096x26x40, b⟩] concatenates_S4096x13x40_S4096x26x40_S4096x39x40_d1) : (⟨S4096x13x40, .f32⟩ : BufTy).Contents (Elt F) → (⟨S4096x26x40, .f32⟩ : BufTy).Contents (Elt F) → (⟨S4096x39x40, .f32⟩ : BufTy).Contents (Elt F)) ]

/-- The buffers they write. -/
abbrev wA_W : List (Ref sig .tc) :=
  [main_v0, main_c, main_v1, main_v2, main_c_0, main_v3, main_v4, main_v5, main_v6, main_v7, main_v8, main_v9, main_v10, main_v11, main_v12, main_c_1, main_v13, main_v14, main_c_2, main_v15, main_v16, main_v17, main_v18, main_v19, main_v20]

set_option maxRecDepth 8192 in
theorem wA_writes : (wA : List (HloOp τ sig (Elt F))).Forall fun op =>
    op.writes ⊆ (wA_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wA_keep (Z : Valuation τ sig (Elt F)) (r : Ref sig .tc) (h : r ∉ wA_W) :
    after wA Z (Proc.devRef .tc r) = Z (Proc.devRef .tc r) :=
  after_of_writes_sub wA Z wA_writes h

/-- Operations 26 … 39 of the first window. -/
abbrev wB1 : List (HloOp τ sig (Elt F)) :=
  [
    nullary main_cst (constant S_ .f32 0x3F800000#32),
    unary main_cst main_v21 (broadcastInDim S39x39 ![] bcast_S_S39x39 : (⟨S_, .f32⟩ : BufTy).Contents (Elt F) → (⟨S39x39, .f32⟩ : BufTy).Contents (Elt F)),
    TRef.nullary main_call0.v0 (iotaInDim S39x39 32 0),
    TRef.nullary main_call0.c (constantI S_ 32 0#32),
    TRef.unary main_call0.c main_call0.v1 (broadcastInDim S39x39 ![] bcast_S_S39x39),
    TRef.binary main_call0.v0 main_call0.v1 main_call0.v2 addi,
    TRef.nullary main_call0.v3 (iotaInDim S39x39 32 1),
    TRef.binary main_call0.v2 main_call0.v3 main_call0.v4 (cmpi .sge),
    TRef.nullary main_call0.cst (constant S_ .f32 0x00000000#32),
    TRef.unary main_call0.cst main_call0.v5 (broadcastInDim S39x39 ![] bcast_S_S39x39),
    TRef.ternary main_call0.v4 main_call0.v5 (TRef.of main_v21 : StableHlo.TRef sig ⟨S39x39, .f32⟩) main_call0.v6 select,
    nullary main_cst_3 (constant S_ .f32 0x00000000#32),
    unary main_cst_3 main_v23 (broadcastInDim S39x39 ![] bcast_S_S39x39 : (⟨S_, .f32⟩ : BufTy).Contents (Elt F) → (⟨S39x39, .f32⟩ : BufTy).Contents (Elt F)),
    binary main_v22 main_v23 main_v24 (cmpf .une : (⟨S39x39, .f32⟩ : BufTy).Contents (Elt F) → (⟨S39x39, .f32⟩ : BufTy).Contents (Elt F) → (⟨S39x39, .i1⟩ : BufTy).Contents (Elt F)) ]

/-- The buffers they write. -/
abbrev wB1_W : List (Ref sig .tc) :=
  [main_cst, main_v21, main_call0_v0, main_call0_c, main_call0_v1, main_call0_v2, main_call0_v3, main_call0_v4, main_call0_cst, main_call0_v5, main_v22, main_cst_3, main_v23, main_v24]

set_option maxRecDepth 8192 in
theorem wB1_writes : (wB1 : List (HloOp τ sig (Elt F))).Forall fun op =>
    op.writes ⊆ (wB1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wB1_keep (Z : Valuation τ sig (Elt F)) (r : Ref sig .tc) (h : r ∉ wB1_W) :
    after wB1 Z (Proc.devRef .tc r) = Z (Proc.devRef .tc r) :=
  after_of_writes_sub wB1 Z wB1_writes h

/-- Operations 40 … 44 of the first window. -/
abbrev wB2 : List (HloOp τ sig (Elt F)) :=
  [
    TRef.reshape (TRef.of main_v24 : StableHlo.TRef sig ⟨S39x39, .i1⟩) main_call1.v0 rfl shapeCasts_S39x39_S1521,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1521] ![1] ![1520] ![0] x v reduceWindows_S1521_S1521_w1521s1p1520_0 h_S_) ]

/-- The buffers they write. -/
abbrev wB2_W : List (Ref sig .tc) :=
  [main_call1_v0, main_call1_v1, main_call1_call0_c, main_call1_call0_v0, main_v25]

set_option maxRecDepth 8192 in
theorem wB2_writes : (wB2 : List (HloOp τ sig (Elt F))).Forall fun op =>
    op.writes ⊆ (wB2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wB2_keep (Z : Valuation τ sig (Elt F)) (r : Ref sig .tc) (h : r ∉ wB2_W) :
    after wB2 Z (Proc.devRef .tc r) = Z (Proc.devRef .tc r) :=
  after_of_writes_sub wB2 Z wB2_writes h

/-- Operations 45 … 50 of the first window. -/
abbrev wB3 : List (HloOp τ sig (Elt F)) :=
  [
    nullary main_c_4 (constantI S_ 32 0#32),
    unary main_c_4 main_v26 (broadcastInDim S741 ![] bcast_S_S741 : (⟨S_, .i32⟩ : BufTy).Contents (Elt F) → (⟨S741, .i32⟩ : BufTy).Contents (Elt F)),
    nullary main_c_5 (constantI S_ 32 0#32),
    TRef.unary (TRef.of main_c_5 : StableHlo.TRef sig ⟨S_, .i32⟩) main_call2.v0 id,
    TRef.unary main_call2.v0 main_call2.v1 (broadcastInDim S1521 ![] bcast_S_S1521),
    TRef.binary main_call2.v1 (TRef.of main_v25 : StableHlo.TRef sig ⟨S1521, .i32⟩) main_call2.v2 maxsi ]

/-- The buffers they write. -/
abbrev wB3_W : List (Ref sig .tc) :=
  [main_c_4, main_v26, main_c_5, main_call2_v0, main_call2_v1, main_v27]

set_option maxRecDepth 8192 in
theorem wB3_writes : (wB3 : List (HloOp τ sig (Elt F))).Forall fun op =>
    op.writes ⊆ (wB3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wB3_keep (Z : Valuation τ sig (Elt F)) (r : Ref sig .tc) (h : r ∉ wB3_W) :
    after wB3 Z (Proc.devRef .tc r) = Z (Proc.devRef .tc r) :=
  after_of_writes_sub wB3 Z wB3_writes h

/-- Operations 51 … 57 of the first window. -/
abbrev wB4 : List (HloOp τ sig (Elt F)) :=
  [
    nullary main_c_6 (constantI S_ 32 0#32),
    unary main_c_6 main_v28 (broadcastInDim S1521 ![] bcast_S_S1521 : (⟨S_, .i32⟩ : BufTy).Contents (Elt F) → (⟨S1521, .i32⟩ : BufTy).Contents (Elt F)),
    binary main_v27 main_v28 main_v29 (cmpi .slt : (⟨S1521, .i32⟩ : BufTy).Contents (Elt F) → (⟨S1521, .i32⟩ : BufTy).Contents (Elt F) → (⟨S1521, .i1⟩ : BufTy).Contents (Elt F)),
    nullary main_c_7 (constantI S_ 32 741#32),
    unary main_c_7 main_v30 (broadcastInDim S1521 ![] bcast_S_S1521 : (⟨S_, .i32⟩ : BufTy).Contents (Elt F) → (⟨S1521, .i32⟩ : BufTy).Contents (Elt F)),
    binary main_v27 main_v30 main_v31 (addi : (⟨S1521, .i32⟩ : BufTy).Contents (Elt F) → (⟨S1521, .i32⟩ : BufTy).Contents (Elt F) → (⟨S1521, .i32⟩ : BufTy).Contents (Elt F)),
    ternary main_v29 main_v31 main_v27 main_v32 (select : (⟨S1521, .i1⟩ : BufTy).Contents (Elt F) → (⟨S1521, .i32⟩ : BufTy).Contents (Elt F) → (⟨S1521, .i32⟩ : BufTy).Contents (Elt F) → (⟨S1521, .i32⟩ : BufTy).Contents (Elt F)) ]

/-- The buffers they write. -/
abbrev wB4_W : List (Ref sig .tc) :=
  [main_c_6, main_v28, main_v29, main_c_7, main_v30, main_v31, main_v32]

set_option maxRecDepth 8192 in
theorem wB4_writes : (wB4 : List (HloOp τ sig (Elt F))).Forall fun op =>
    op.writes ⊆ (wB4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wB4_keep (Z : Valuation τ sig (Elt F)) (r : Ref sig .tc) (h : r ∉ wB4_W) :
    after wB4 Z (Proc.devRef .tc r) = Z (Proc.devRef .tc r) :=
  after_of_writes_sub wB4 Z wB4_writes h

/-- Operations 58 … 64 of the first window. -/
abbrev wB5 : List (HloOp τ sig (Elt F)) :=
  [
    unary main_v32 main_v33 (broadcastInDim S1521x1 ![0] bcast_S1521_S1521x1_0 : (⟨S1521, .i32⟩ : BufTy).Contents (Elt F) → (⟨S1521x1, .i32⟩ : BufTy).Contents (Elt F)),
    nullary main_c_8 (constantI S_ 32 1#32),
    unary main_c_8 main_v34 (broadcastInDim S1521 ![] bcast_S_S1521 : (⟨S_, .i32⟩ : BufTy).Contents (Elt F) → (⟨S1521, .i32⟩ : BufTy).Contents (Elt F)),
    ternary main_v26 main_v33 main_v34 main_v35 ((fun x i u => Host.scatter scatter_S741_S1521x1_S1521_n_0_0_1 IntOp.addi x i u) : (⟨S741, .i32⟩ : BufTy).Contents (Elt F) → (⟨S1521x1, .i32⟩ : BufTy).Contents (Elt F) → (⟨S1521, .i32⟩ : BufTy).Contents (Elt F) → (⟨S741, .i32⟩ : BufTy).Contents (Elt F)),
    TRef.nullary main_call3.call0.c (constantI S_ 32 0#32),
    TRef.unary main_call3.call0.c main_call3.call0.v0 (broadcastInDim S_ ![] bcast_S_S_),
    TRef.binary (TRef.of main_v35 : StableHlo.TRef sig ⟨S741, .i32⟩) main_call3.call0.v0 main_call3.call0.v1 (fun x v => Host.reduceWindow IntOp.addi ![741] ![1] ![740] ![0] x v reduceWindows_S741_S741_w741s1p740_0 h_S_) ]

/-- The buffers they write. -/
abbrev wB5_W : List (Ref sig .tc) :=
  [main_v33, main_c_8, main_v34, main_v35, main_call3_call0_c, main_call3_call0_v0, main_v36]

set_option maxRecDepth 8192 in
theorem wB5_writes : (wB5 : List (HloOp τ sig (Elt F))).Forall fun op =>
    op.writes ⊆ (wB5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wB5_keep (Z : Valuation τ sig (Elt F)) (r : Ref sig .tc) (h : r ∉ wB5_W) :
    after wB5 Z (Proc.devRef .tc r) = Z (Proc.devRef .tc r) :=
  after_of_writes_sub wB5 Z wB5_writes h

/-- Operations 65 … 81 of the first window. -/
abbrev wC : List (HloOp τ sig (Elt F)) :=
  [
    nullary main_c_9 (constantI S_ 32 39#32),
    TRef.unary (TRef.of main_c_9 : StableHlo.TRef sig ⟨S_, .i32⟩) main_call4.v0 (broadcastInDim S741 ![] bcast_S_S741),
    TRef.binary (TRef.of main_v36 : StableHlo.TRef sig ⟨S741, .i32⟩) main_call4.v0 main_call4.v1 Host.divsi,
    TRef.unary (TRef.of main_v36 : StableHlo.TRef sig ⟨S741, .i32⟩) main_call4.v2 signi,
    TRef.unary (TRef.of main_c_9 : StableHlo.TRef sig ⟨S_, .i32⟩) main_call4.v3 signi,
    TRef.unary main_call4.v3 main_call4.v4 (broadcastInDim S741 ![] bcast_S_S741),
    TRef.binary main_call4.v2 main_call4.v4 main_call4.v5 (cmpi .ne),
    TRef.unary (TRef.of main_c_9 : StableHlo.TRef sig ⟨S_, .i32⟩) main_call4.v6 (broadcastInDim S741 ![] bcast_S_S741),
    TRef.binary (TRef.of main_v36 : StableHlo.TRef sig ⟨S741, .i32⟩) main_call4.v6 main_call4.v7 Host.remsi,
    TRef.nullary main_call4.c (constantI S_ 32 0#32),
    TRef.unary main_call4.c main_call4.v8 (broadcastInDim S741 ![] bcast_S_S741),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S741 ![] bcast_S_S741),
    TRef.binary main_call4.v1 main_call4.v11 main_call4.v12 subi,
    TRef.ternary main_call4.v10 main_call4.v12 main_call4.v1 main_call4.call0.v0 select ]

/-- The buffers they write. -/
abbrev wC_W : List (Ref sig .tc) :=
  [main_c_9, main_call4_v0, main_call4_v1, main_call4_v2, main_call4_v3, main_call4_v4, main_call4_v5, main_call4_v6, main_call4_v7, main_call4_c, main_call4_v8, main_call4_v9, main_call4_v10, main_call4_c_0, main_call4_v11, main_call4_v12, main_v37]

set_option maxRecDepth 8192 in
theorem wC_writes : (wC : List (HloOp τ sig (Elt F))).Forall fun op =>
    op.writes ⊆ (wC_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wC_keep (Z : Valuation τ sig (Elt F)) (r : Ref sig .tc) (h : r ∉ wC_W) :
    after wC Z (Proc.devRef .tc r) = Z (Proc.devRef .tc r) :=
  after_of_writes_sub wC Z wC_writes h

/-- Operations 82 … 103 of the first window. -/
abbrev wD : List (HloOp τ sig (Elt F)) :=
  [
    nullary main_c_10 (constantI S_ 32 39#32),
    TRef.unary (TRef.of main_c_10 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S741 ![] bcast_S_S741),
    TRef.binary (TRef.of main_v37 : StableHlo.TRef sig ⟨S741, .i32⟩) main_call5.v3 main_call5.v4 Host.remsi,
    TRef.nullary main_call5.c_1 (constantI S_ 32 0#32),
    TRef.unary main_call5.c_1 main_call5.v5 (broadcastInDim S741 ![] bcast_S_S741),
    TRef.binary main_call5.v4 main_call5.v5 main_call5.v6 (cmpi .ne),
    TRef.nullary main_call5.c_2 (constantI S_ 32 0#32),
    TRef.unary main_call5.c_2 main_call5.v7 (broadcastInDim S741 ![] bcast_S_S741),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S741 ![] bcast_S_S741),
    TRef.binary main_call5.v8 main_call5.v10 main_call5.v11 (cmpi .ne),
    TRef.binary main_call5.v11 main_call5.v6 main_call5.v12 andi,
    TRef.unary main_call5.call0.v0 main_call5.v13 (broadcastInDim S741 ![] bcast_S_S741),
    TRef.binary main_call5.v4 main_call5.v13 main_call5.v14 addi,
    TRef.ternary main_call5.v12 main_call5.v14 main_call5.v4 main_call5.v15 select ]

/-- The buffers they write. -/
abbrev wD_W : List (Ref sig .tc) :=
  [main_c_10, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v38]

set_option maxRecDepth 8192 in
theorem wD_writes : (wD : List (HloOp τ sig (Elt F))).Forall fun op =>
    op.writes ⊆ (wD_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wD_keep (Z : Valuation τ sig (Elt F)) (r : Ref sig .tc) (h : r ∉ wD_W) :
    after wD Z (Proc.devRef .tc r) = Z (Proc.devRef .tc r) :=
  after_of_writes_sub wD Z wD_writes h

/-- Operations 104 … 120 of the first window. -/
abbrev wE : List (HloOp τ sig (Elt F)) :=
  [
    nullary main_c_11 (constantI S_ 32 1#32),
    TRef.unary (TRef.of main_c_11 : StableHlo.TRef sig ⟨S_, .i32⟩) main_call6.v0 (broadcastInDim S741 ![] bcast_S_S741),
    TRef.binary (TRef.of main_v36 : StableHlo.TRef sig ⟨S741, .i32⟩) main_call6.v0 main_call6.v1 Host.divsi,
    TRef.unary (TRef.of main_v36 : StableHlo.TRef sig ⟨S741, .i32⟩) main_call6.v2 signi,
    TRef.unary (TRef.of main_c_11 : StableHlo.TRef sig ⟨S_, .i32⟩) main_call6.v3 signi,
    TRef.unary main_call6.v3 main_call6.v4 (broadcastInDim S741 ![] bcast_S_S741),
    TRef.binary main_call6.v2 main_call6.v4 main_call6.v5 (cmpi .ne),
    TRef.unary (TRef.of main_c_11 : StableHlo.TRef sig ⟨S_, .i32⟩) main_call6.v6 (broadcastInDim S741 ![] bcast_S_S741),
    TRef.binary (TRef.of main_v36 : StableHlo.TRef sig ⟨S741, .i32⟩) main_call6.v6 main_call6.v7 Host.remsi,
    TRef.nullary main_call6.c (constantI S_ 32 0#32),
    TRef.unary main_call6.c main_call6.v8 (broadcastInDim S741 ![] bcast_S_S741),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S741 ![] bcast_S_S741),
    TRef.binary main_call6.v1 main_call6.v11 main_call6.v12 subi,
    TRef.ternary main_call6.v10 main_call6.v12 main_call6.v1 main_call6.call0.v0 select ]

/-- The buffers they write. -/
abbrev wE_W : List (Ref sig .tc) :=
  [main_c_11, main_call6_v0, main_call6_v1, main_call6_v2, main_call6_v3, main_call6_v4, main_call6_v5, main_call6_v6, main_call6_v7, main_call6_c, main_call6_v8, main_call6_v9, main_call6_v10, main_call6_c_0, main_call6_v11, main_call6_v12, main_v39]

set_option maxRecDepth 8192 in
theorem wE_writes : (wE : List (HloOp τ sig (Elt F))).Forall fun op =>
    op.writes ⊆ (wE_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wE_keep (Z : Valuation τ sig (Elt F)) (r : Ref sig .tc) (h : r ∉ wE_W) :
    after wE Z (Proc.devRef .tc r) = Z (Proc.devRef .tc r) :=
  after_of_writes_sub wE Z wE_writes h

/-- Operations 121 … 142 of the first window. -/
abbrev wF : List (HloOp τ sig (Elt F)) :=
  [
    nullary main_c_12 (constantI S_ 32 39#32),
    TRef.unary (TRef.of main_c_12 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S741 ![] bcast_S_S741),
    TRef.binary (TRef.of main_v39 : StableHlo.TRef sig ⟨S741, .i32⟩) main_call7.v3 main_call7.v4 Host.remsi,
    TRef.nullary main_call7.c_1 (constantI S_ 32 0#32),
    TRef.unary main_call7.c_1 main_call7.v5 (broadcastInDim S741 ![] bcast_S_S741),
    TRef.binary main_call7.v4 main_call7.v5 main_call7.v6 (cmpi .ne),
    TRef.nullary main_call7.c_2 (constantI S_ 32 0#32),
    TRef.unary main_call7.c_2 main_call7.v7 (broadcastInDim S741 ![] bcast_S_S741),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S741 ![] bcast_S_S741),
    TRef.binary main_call7.v8 main_call7.v10 main_call7.v11 (cmpi .ne),
    TRef.binary main_call7.v11 main_call7.v6 main_call7.v12 andi,
    TRef.unary main_call7.call0.v0 main_call7.v13 (broadcastInDim S741 ![] bcast_S_S741),
    TRef.binary main_call7.v4 main_call7.v13 main_call7.v14 addi,
    TRef.ternary main_call7.v12 main_call7.v14 main_call7.v4 main_call7.v15 select ]

/-- The buffers they write. -/
abbrev wF_W : List (Ref sig .tc) :=
  [main_c_12, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v40]

set_option maxRecDepth 8192 in
theorem wF_writes : (wF : List (HloOp τ sig (Elt F))).Forall fun op =>
    op.writes ⊆ (wF_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wF_keep (Z : Valuation τ sig (Elt F)) (r : Ref sig .tc) (h : r ∉ wF_W) :
    after wF Z (Proc.devRef .tc r) = Z (Proc.devRef .tc r) :=
  after_of_writes_sub wF Z wF_writes h

/-- Operations 143 … 146 of the first window. -/
abbrev wG : List (HloOp τ sig (Elt F)) :=
  [
    nullary main_c_13 (constantI S_ 32 0#32),
    unary main_c_13 main_v41 (broadcastInDim S741 ![] bcast_S_S741 : (⟨S_, .i32⟩ : BufTy).Contents (Elt F) → (⟨S741, .i32⟩ : BufTy).Contents (Elt F)),
    binary main_v38 main_v41 main_v42 (cmpi .slt : (⟨S741, .i32⟩ : BufTy).Contents (Elt F) → (⟨S741, .i32⟩ : BufTy).Contents (Elt F) → (⟨S741, .i1⟩ : BufTy).Contents (Elt F)),
    nullary main_c_14 (constantI S_ 32 39#32) ]

/-- The buffers they write. -/
abbrev wG_W : List (Ref sig .tc) :=
  [main_c_13, main_v41, main_v42, main_c_14]

set_option maxRecDepth 8192 in
theorem wG_writes : (wG : List (HloOp τ sig (Elt F))).Forall fun op =>
    op.writes ⊆ (wG_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the stretch does not write keeps its contents through it. -/
theorem wG_keep (Z : Valuation τ sig (Elt F)) (r : Ref sig .tc) (h : r ∉ wG_W) :
    after wG Z (Proc.devRef .tc r) = Z (Proc.devRef .tc r) :=
  after_of_writes_sub wG Z wG_writes h

set_option maxRecDepth 8192 in
/-- The first window is the stretches in order. -/
theorem ops0_split : (ops0 : List (HloOp τ sig (Elt F))) = wA ++ (wB1 ++ (wB2 ++ (wB3 ++ (wB4 ++ (wB5 ++ (wC ++ (wD ++ (wE ++ (wF ++ (wG)))))))))) := rfl

/-- The fold over the first window, stretch by stretch. -/
theorem after_ops0 (V : Valuation τ sig (Elt F)) :
    after ops0 V = after wG (after wF (after wE (after wD (after wC (after wB5 (after wB4 (after wB3 (after wB2 (after wB1 (after wA V)))))))))) := by
  rw [ops0_split, after_app, after_app, after_app, after_app, after_app, after_app, after_app, after_app, after_app, after_app]

set_option maxRecDepth 8192 in
set_option maxHeartbeats 1000000 in
/-- The mask of the strict upper triangle: a closed term. -/
theorem wB1_v24 (Z : Valuation τ sig (Elt Ideal)) :
    after wB1 Z (main_v24 : DevRef τ sig) = Cert.Afm.RefInt.tblV24 := by
  after_results_simp
  rfl

set_option maxRecDepth 8192 in
set_option maxHeartbeats 1000000 in
/-- The mask's running count in row-major order. -/
theorem wB2_v25 (Z : Valuation τ sig (Elt F)) :
    after wB2 Z (main_v25 : DevRef τ sig) = Cert.Afm.RefInt.cumsumF (Z (main_v24 : DevRef τ sig)) := by
  after_results_simp
  -- the typed references' transports are the identity; then the two sides are the same fold over the same operands
  simp only [TRef.ofBuf, TRef.toBuf, cast_eq]
  unfold Cert.Afm.RefInt.cumsumF Cert.Afm.RefInt.cumsum0F
  rfl

set_option maxRecDepth 8192 in
set_option maxHeartbeats 1000000 in
/-- The count bounded below by zero. -/
theorem wB3_v27 (Z : Valuation τ sig (Elt F)) :
    after wB3 Z (main_v27 : DevRef τ sig)
      = Cert.Afm.RefInt.clipF (Z (main_v25 : DevRef τ sig)) (constantI S_ 32 0#32) := by
  after_results_simp
  rfl

set_option maxRecDepth 8192 in
set_option maxHeartbeats 1000000 in
/-- The empty histogram. -/
theorem wB3_v26 (Z : Valuation τ sig (Elt F)) :
    after wB3 Z (main_v26 : DevRef τ sig) = Cert.Afm.RefInt.tblV26 := by
  after_results_simp
  rfl

set_option maxRecDepth 8192 in
set_option maxHeartbeats 1000000 in
/-- The count read as a bin among 741. -/
theorem wB4_v32 (Z : Valuation τ sig (Elt F)) :
    after wB4 Z (main_v32 : DevRef τ sig)
      = Cert.Afm.RefInt.wrapF S1521 bcast_S_S1521 741#32 (Z (main_v27 : DevRef τ sig)) := by
  after_results_simp
  rfl

set_option maxRecDepth 8192 in
set_option maxHeartbeats 1000000 in
/-- The histogram of the bins, and its running count. -/
theorem wB5_v36 (Z : Valuation τ sig (Elt F)) :
    after wB5 Z (main_v36 : DevRef τ sig)
      = Cert.Afm.RefInt.cumsum2F
          (Host.scatter scatter_S741_S1521x1_S1521_n_0_0_1 IntOp.addi (Z (main_v26 : DevRef τ sig))
            (broadcastInDim S1521x1 ![0] bcast_S1521_S1521x1_0 (Z (main_v32 : DevRef τ sig)))
            Cert.Afm.RefInt.tblV34) := by
  after_results_simp
  -- the typed references' transports are the identity; then the two sides are the same fold over the same operands
  simp only [TRef.ofBuf, TRef.toBuf, cast_eq]
  unfold Cert.Afm.RefInt.cumsum2F Cert.Afm.RefInt.tblV34
  rfl

/-! ## Each stretch's result, from any contents before it -/

set_option maxRecDepth 8192 in
set_option maxHeartbeats 2000000 in
/-- The quotient by 39, rounded down. -/
theorem wC_v37 (Z : Valuation τ sig (Elt F)) :
    after wC Z (main_v37 : DevRef τ sig)
      = Cert.Afm.RefInt.floorDivideF (Z (main_v36 : DevRef τ sig)) (constantI S_ 32 39#32) := by
  after_results_simp
  rfl

set_option maxRecDepth 8192 in
set_option maxHeartbeats 2000000 in
/-- Its remainder by 39. -/
theorem wD_v38 (Z : Valuation τ sig (Elt F)) :
    after wD Z (main_v38 : DevRef τ sig)
      = Cert.Afm.RefInt.remainderF (Z (main_v37 : DevRef τ sig)) (constantI S_ 32 39#32) := by
  after_results_simp
  rfl

set_option maxRecDepth 8192 in
set_option maxHeartbeats 2000000 in
/-- The quotient by 1. -/
theorem wE_v39 (Z : Valuation τ sig (Elt F)) :
    after wE Z (main_v39 : DevRef τ sig)
      = Cert.Afm.RefInt.floorDivideF (Z (main_v36 : DevRef τ sig)) (constantI S_ 32 1#32) := by
  after_results_simp
  rfl

set_option maxRecDepth 8192 in
set_option maxHeartbeats 2000000 in
/-- Its remainder by 39. -/
theorem wF_v40 (Z : Valuation τ sig (Elt F)) :
    after wF Z (main_v40 : DevRef τ sig)
      = Cert.Afm.RefInt.remainderF (Z (main_v39 : DevRef τ sig)) (constantI S_ 32 39#32) := by
  after_results_simp
  rfl

set_option maxRecDepth 8192 in
/-- Which rows are negative. -/
theorem wG_v42 (Z : Valuation τ sig (Elt F)) :
    after wG Z (main_v42 : DevRef τ sig)
      = cmpi .slt (Z (main_v38 : DevRef τ sig)) (broadcastInDim S741 ![] bcast_S_S741 (constantI S_ 32 0#32)) := by
  after_results_simp
  try rfl

/-! ## The first window's results that the second reads -/

set_option maxHeartbeats 1000000 in
/-- The flat position of each pair, after the first six stretches: a closed term. -/
theorem v36_eq (V : Valuation τ sig (Elt Ideal)) :
    after wB5 (after wB4 (after wB3 (after wB2 (after wB1 (after wA V))))) (main_v36 : DevRef τ sig)
      = Cert.Afm.RefInt.tblV36 := by
  rw [wB5_v36, wB4_keep _ main_v26 (by decide), wB3_v26, wB4_v32, wB3_v27, wB2_v25, wB1_v24]
  rfl

/-- The row of each pair after the first window: a closed term. -/
theorem w0_v38 (V : Valuation τ sig (Elt Ideal)) :
    after ops0 V (main_v38 : DevRef τ sig) = Cert.Afm.RefInt.tblV38 := by
  rw [after_ops0, wG_keep _ main_v38 (by decide), wF_keep _ main_v38 (by decide), wE_keep _ main_v38 (by decide),
    wD_v38, wC_v37, v36_eq]
  rfl

/-- The column of each pair after the first window: a closed term. -/
theorem w0_v40 (V : Valuation τ sig (Elt Ideal)) :
    after ops0 V (main_v40 : DevRef τ sig) = Cert.Afm.RefInt.tblV40 := by
  rw [after_ops0, wG_keep _ main_v40 (by decide), wF_v40, wE_v39, wD_keep _ main_v36 (by decide),
    wC_keep _ main_v36 (by decide), v36_eq]
  rfl

/-- Which rows are negative, after the first window. -/
theorem w0_v42 (V : Valuation τ sig (Elt Ideal)) :
    after ops0 V (main_v42 : DevRef τ sig)
      = cmpi .slt Cert.Afm.RefInt.tblV38 (broadcastInDim S741 ![] bcast_S_S741 (constantI S_ 32 0#32)) := by
  rw [after_ops0, wG_v42, wF_keep _ main_v38 (by decide), wE_keep _ main_v38 (by decide), wD_v38, wC_v37, v36_eq]
  rfl

set_option maxRecDepth 8192 in
set_option maxHeartbeats 4000000 in
/-- The axis length 39, after the first window. -/
theorem w0_c_14 (V : Valuation τ sig (Elt Ideal)) :
    after ops0 V (main_c_14 : DevRef τ sig) = constantI S_ 32 39#32 := by
  after_results_simp

set_option maxRecDepth 8192 in
set_option maxHeartbeats 4000000 in
/-- The result after the second window, from any contents before it: everything after the field array, over the
    field array, the two tables' rows and columns wrapped and set in a column, and the weights. -/
theorem w1_out (W : Valuation τ sig (Elt Ideal)) :
    after ops1 W (main_v86 : DevRef τ sig)
      = Cert.Afm.RefValue.refTail (W (main_v20 : DevRef τ sig))
          (broadcastInDim S741x1 ![0] bcast_S741_S741x1_0
            (select (W (main_v42 : DevRef τ sig))
              (addi (W (main_v38 : DevRef τ sig)) (broadcastInDim S741 ![] bcast_S_S741 (W (main_c_14 : DevRef τ sig))))
              (W (main_v38 : DevRef τ sig))))
          (broadcastInDim S741x1 ![0] bcast_S741_S741x1_0
            (Cert.Afm.RefInt.wrapF S741 bcast_S_S741 39#32 (W (main_v40 : DevRef τ sig))))
          (W (main_arg4 : DevRef τ sig)) (W (main_arg5 : DevRef τ sig)) (W (main_arg6 : DevRef τ sig))
          (W (main_arg7 : DevRef τ sig)) (W (main_arg8 : DevRef τ sig)) := by
  after_results_simp
  rfl

/-- The reference's result after its run, from the launch contents: the tail of the program over the field array
    of the continuous values, categorical indices and table, the two index tables, and the five weights. -/
theorem out_eq (V : Valuation τ sig (Elt Ideal)) :
    after ops V (main_v86 : DevRef τ sig)
      = Cert.Afm.RefValue.refTail
          (Cert.Afm.RefValue.xRef (V (main_arg0 : DevRef τ sig)) (V (main_arg1 : DevRef τ sig)) (V (main_arg3 : DevRef τ sig)))
          Cert.Afm.RefInt.rowTab Cert.Afm.RefInt.colTab
          (V (main_arg4 : DevRef τ sig)) (V (main_arg5 : DevRef τ sig)) (V (main_arg6 : DevRef τ sig))
          (V (main_arg7 : DevRef τ sig)) (V (main_arg8 : DevRef τ sig)) := by
  rw [show (ops : List (HloOp τ sig (Elt Ideal))) = ops0 ++ ops1 from rfl, after_app, w1_out, w0_v20, w0_v38, w0_v40,
    w0_v42, w0_c_14, keep0 V main_arg4 (by decide), keep0 V main_arg5 (by decide), keep0 V main_arg6 (by decide),
    keep0 V main_arg7 (by decide), keep0 V main_arg8 (by decide)]
  rfl

/-- The launch contents at a reference are the memory at its location on the device's TensorCore. -/
theorem launchContents_apply (m : (ℓ : Loc nD τ sig) → Buf (Elt Ideal) ℓ) (c : Dev nD) (b : Ref sig .tc) :
    launchContents m c (b : DevRef τ sig) = m ((c.tc : Thread nD τ).loc b) := rfl

end Cert.ReferenceIdeal.Value

end
-- ==== Proof.RefValue.lean ====
/-
  The float part of the reference program read at an index: the field array (RefX) and everything after it
  (RefTail).
-/
import proofs.«413975_j5944234738104_2_alg».proof.Proof.RefX
import proofs.«413975_j5944234738104_2_alg».proof.Proof.RefTail
-- ==== Proof.RefIntPairs.lean ====
/-
  The p-th pair of the strict upper triangle, in row-major order: the pairs are listed by increasing flat position
  39 i + j in the 39 × 39 square, each pair with i < j exactly once.  So position p ↦ pair is a bijection from the 741
  positions onto the pairs, and sums and maxima over positions are sums and maxima over pairs.
-/
import proofs.«413975_j5944234738104_2_alg».proof.Proof.Spec
import Idealize.ShloMosaic.Lib.Decide
import Mathlib.Data.List.Chain
import Mathlib.Data.List.Pairwise
import Mathlib.Algebra.BigOperators.Group.Finset.Basic
import Mathlib.Order.Monotone.Basic

namespace Cert.Afm.RefInt

open Cert.Afm

/-- The flat position of the square's entry (i, j), rows first. -/
def flat (q : Fin 39 × Fin 39) : Nat := 39 * q.1.val + q.2.val

theorem flat_lt (q : Fin 39 × Fin 39) : flat q < 1521 := by
  have h1 := q.1.isLt; have h2 := q.2.isLt; unfold flat; omega

theorem flat_div (q : Fin 39 × Fin 39) : flat q / 39 = q.1.val := by
  have h2 := q.2.isLt; unfold flat; omega

theorem flat_mod (q : Fin 39 × Fin 39) : flat q % 39 = q.2.val := by
  have h2 := q.2.isLt; unfold flat; omega

theorem flat_injective : Function.Injective flat := by
  intro a b h
  have h1 := flat_div a; have h2 := flat_div b; have h3 := flat_mod a; have h4 := flat_mod b
  rw [h] at h1 h3
  exact Prod.ext (Fin.ext (h1.symm.trans h2)) (Fin.ext (h3.symm.trans h4))

/-- The list holds exactly the pairs with the smaller field first. -/
theorem mem_pairList {q : Fin 39 × Fin 39} : q ∈ pairList ↔ q.1 < q.2 := by
  obtain ⟨i, j⟩ := q
  simp only [pairList, List.mem_flatMap, List.mem_finRange, List.mem_map, List.mem_filter, true_and,
    decide_eq_true_eq, Prod.mk.injEq]
  constructor
  · rintro ⟨a, b, hab, rfl, rfl⟩; exact hab
  · intro h; exact ⟨i, j, h, rfl, rfl⟩

/-- One flat position is below another. -/
def FlatLt (a b : Fin 39 × Fin 39) : Prop := flat a < flat b

instance : DecidableRel FlatLt := fun a b => inferInstanceAs (Decidable (flat a < flat b))

instance : Trans FlatLt FlatLt FlatLt := ⟨fun h₁ h₂ => Nat.lt_trans h₁ h₂⟩

/-- Each pair of the list lies at a later flat position than the one before it. -/
theorem pairList_isChain : pairList.IsChain FlatLt := by decide +kernel

theorem pairList_pairwise : pairList.Pairwise FlatLt := List.isChain_iff_pairwise.mp pairList_isChain

/-- The flat position of the p-th pair. -/
def pos (p : Fin 741) : Nat := flat (pairOf p)

theorem pos_lt (p : Fin 741) : pos p < 1521 := flat_lt _

/-- Later pairs lie at later flat positions. -/
theorem pos_strictMono : StrictMono pos := by
  intro a b hab
  exact pairList_pairwise.rel_get_of_lt (a := a.cast pairList_length.symm) (b := b.cast pairList_length.symm) hab

theorem pairOf_mem (p : Fin 741) : pairOf p ∈ pairs :=
  mem_pairs.mpr (mem_pairList.mp (List.get_mem _ _))

theorem pairOf_injective : Function.Injective pairOf := fun _ _ h =>
  pos_strictMono.injective (congrArg flat h)

theorem pairOf_surj : ∀ q ∈ pairs, ∃ p, pairOf p = q := by
  intro q hq
  obtain ⟨n, hn⟩ := List.get_of_mem (mem_pairList.mpr (mem_pairs.mp hq))
  exact ⟨n.cast pairList_length, hn⟩

/-- The flat positions of the pairs are the positions strictly above the diagonal. -/
theorem exists_pos_eq_iff {n : Nat} (hn : n < 1521) : (∃ p, pos p = n) ↔ n / 39 < n % 39 := by
  have hd : n / 39 < 39 := by omega
  have hm : n % 39 < 39 := Nat.mod_lt _ (by decide)
  constructor
  · rintro ⟨p, rfl⟩
    have := mem_pairs.mp (pairOf_mem p)
    show flat (pairOf p) / 39 < flat (pairOf p) % 39
    rw [flat_div, flat_mod]; exact this
  · intro h
    obtain ⟨p, hp⟩ := pairOf_surj (⟨n / 39, hd⟩, ⟨n % 39, hm⟩) (mem_pairs.mpr h)
    refine ⟨p, ?_⟩
    show flat (pairOf p) = n
    rw [hp]; show 39 * (n / 39) + n % 39 = n; omega

theorem image_pairOf : Finset.univ.image pairOf = pairs := by
  ext q
  simp only [Finset.mem_image, Finset.mem_univ, true_and]
  exact ⟨fun ⟨p, h⟩ => h ▸ pairOf_mem p, pairOf_surj q⟩

/-- A sum over the 741 positions is the sum over the pairs. -/
theorem sum_pairOf {M : Type*} [AddCommMonoid M] (f : Fin 39 × Fin 39 → M) :
    ∑ p : Fin 741, f (pairOf p) = ∑ q ∈ pairs, f q := by
  rw [← image_pairOf, Finset.sum_image fun a _ b _ h => pairOf_injective h]

/-- A maximum over the 741 positions is the maximum over the pairs. -/
theorem sup'_pairOf {α : Type*} [LinearOrder α] (f : Fin 39 × Fin 39 → α) :
    (Finset.univ : Finset (Fin 741)).sup' ⟨0, Finset.mem_univ _⟩ (fun p => f (pairOf p))
      = pairs.sup' pairs_nonempty f := by
  have key : ∀ (s : Finset (Fin 39 × Fin 39)) (hs : s.Nonempty), s = pairs →
      s.sup' hs f = pairs.sup' pairs_nonempty f := by
    intro s hs e; subst e; rfl
  rw [← key _ (Finset.image_nonempty.mpr ⟨0, Finset.mem_univ _⟩) image_pairOf, Finset.sup'_image]
  rfl

end Cert.Afm.RefInt
-- ==== Proof.RefIntTail.lean ====
/-
  From a flat position of the 39 × 39 square to its row and its column, as the reference computes them: the floored
  quotient and the divisor-signed remainder by 39 of a word between 0 and 1520 are the row n / 39 and the column
  n % 39 (no sign correction fires on a non-negative word), and neither is negative, so the final wrap-around of
  negative indices leaves them alone.
-/
import proofs.«413975_j5944234738104_2_alg».proof.Proof.RefIntDefs
import Idealize.ShloMosaic.Lib.Decide
import Idealize.ShloMosaic.Lib.ValueIdx

noncomputable section

namespace Cert.Afm.RefInt

open Idealize.ShloMosaic Idealize.ShloMosaic.ValueIdx Cert.ReferenceIdeal

/-! ## The same functions on one word -/

/-- The sign of a word: -1, 0 or 1. -/
def sgnW (x : BitVec 32) : BitVec 32 := if x = 0 then 0 else if x.msb then -1 else 1

/-- The floored quotient of two words. -/
def fdivW (a b : BitVec 32) : BitVec 32 :=
  Scalar.select
    (IntOp.andi (IntOp.cmpi .ne (sgnW a) (sgnW b)) (IntOp.cmpi .ne (IntOp.remsi .host a b) 0#32))
    (IntOp.subi (IntOp.divsi .host a b) 1#32)
    (IntOp.divsi .host a b)

/-- The divisor a remainder is taken by. -/
def rdivW (b : BitVec 32) : BitVec 32 := Scalar.select (IntOp.cmpi .eq b 0#32) 1#32 b

/-- The divisor-signed remainder of two words. -/
def remW (a b : BitVec 32) : BitVec 32 :=
  Scalar.select
    (IntOp.andi
      (IntOp.cmpi .ne (IntOp.cmpi .slt (IntOp.remsi .host a (rdivW b)) 0#32) (IntOp.cmpi .slt (rdivW b) 0#32))
      (IntOp.cmpi .ne (IntOp.remsi .host a (rdivW b)) 0#32))
    (IntOp.addi (IntOp.remsi .host a (rdivW b)) (rdivW b))
    (IntOp.remsi .host a (rdivW b))

/-- A negative index counted from the end. -/
def wrapW (n a : BitVec 32) : BitVec 32 := Scalar.select (IntOp.cmpi .slt a 0#32) (IntOp.addi a n) a

theorem floorDivideF_apply (a : IVec S741 32) (c : BitVec 32) (j : S741.Idx) :
    floorDivideF a (constantI S_ 32 c) j = fdivW (a j) c := rfl

theorem remainderF_apply (a : IVec S741 32) (c : BitVec 32) (j : S741.Idx) :
    remainderF a (constantI S_ 32 c) j = remW (a j) c := rfl

theorem wrapF_apply (s : Shape) (h : S_.BroadcastsInDim s (![] : Fin 0 → Fin s.rank)) (n : BitVec 32) (a : IVec s 32)
    (j : s.Idx) : wrapF s h n a j = wrapW n (a j) := rfl

/-! ## On the words 0 … 1520 -/

/-- The row of flat position n. -/
theorem rowW (n : Fin 1521) :
    wrapW 39#32 (remW (fdivW (BitVec.ofNat 32 n.val) 39#32) 39#32) = BitVec.ofNat 32 (n.val / 39) := by
  revert n; decide +kernel

/-- The column of flat position n. -/
theorem colW (n : Fin 1521) :
    wrapW 39#32 (remW (fdivW (BitVec.ofNat 32 n.val) 1#32) 39#32) = BitVec.ofNat 32 (n.val % 39) := by
  revert n; decide +kernel

/-- The row table's entry from the flat position's word. -/
theorem tblV45_apply (j : S741.Idx) : tblV45 j = wrapW 39#32 (remW (fdivW (tblV36 j) 39#32) 39#32) := rfl

/-- The column table's entry from the flat position's word. -/
theorem tblV52_apply (j : S741.Idx) : tblV52 j = wrapW 39#32 (remW (fdivW (tblV36 j) 1#32) 39#32) := rfl

end Cert.Afm.RefInt

end
-- ==== Proof.RefIntWin.lean ====
/-
  Two host operations read at an index, for one axis.

  A window sum whose window is the whole axis, padded below by the axis length less one, is the inclusive running sum:
  entry j adds the entries 0 … j.  A scatter that adds into a histogram leaves at each bin what was there plus every
  update whose index lands on the bin.
-/
import Idealize.ShloMosaic.PureOps
import Idealize.ShloMosaic.Lib.ValueIdx
import Mathlib.Data.BitVec
import Mathlib.Algebra.BigOperators.Fin
import Mathlib.Algebra.BigOperators.Group.Finset.Basic

namespace Cert.Afm.RefInt

open Idealize.ShloMosaic Idealize.ShloMosaic.ValueIdx

/-! ## Folds that add -/

/-- A left fold that adds one word per list element is the start plus the sum of the words. -/
theorem foldl_add_eq {ι : Type*} (g : ι → BitVec 32) (l : List ι) (v : BitVec 32) :
    l.foldl (fun r n => IntOp.addi r (g n)) v = v + (l.map g).sum := by
  induction l generalizing v with
  | nil => simp
  | cons a l ih =>
    rw [List.foldl_cons, ih, List.map_cons, List.sum_cons]
    show v + g a + _ = _
    rw [add_assoc]

/-- A rank-one shape's row-major position is the coordinate, read backwards. -/
theorem rowMajor_symm_one {d : Fin 1 → Nat} (n : Fin (⟨1, d⟩ : Shape).numel) :
    (((⟨1, d⟩ : Shape).rowMajor.symm n) 0).val = n.val := by
  have h := Shape.rowMajor_val_one ((⟨1, d⟩ : Shape).rowMajor.symm n)
  rw [Equiv.apply_symm_apply] at h
  exact h.symm

/-! ## The running sum -/

/-- The operand read at a natural number: zero past the end. -/
def atNat {N : Nat} (x : (⟨1, ![N]⟩ : Shape).Idx → BitVec 32) (k : Nat) : BitVec 32 :=
  if h : k < N then x (ix1 ⟨k, h⟩) else 0

theorem atNat_lt {N : Nat} (x : (⟨1, ![N]⟩ : Shape).Idx → BitVec 32) {k : Nat} (h : k < N) :
    atNat x k = x (ix1 ⟨k, h⟩) := dif_pos h

/-- The window sum over the whole axis, padded below by the axis length less one, at entry j: the sum of the entries
    0 … j. -/
theorem reduceWindow_prefix {N lo : Nat} (hlo : lo + 1 = N) (x : (⟨1, ![N]⟩ : Shape).Idx → BitVec 32)
    (init : (⟨0, ![]⟩ : Shape).Idx → BitVec 32)
    (h : (⟨1, ![N]⟩ : Shape).ReduceWindows ![N] ![1] ![lo] ![0] ⟨1, ![N]⟩) (hu : 0 < (⟨0, ![]⟩ : Shape).numel)
    (hinit : init (Shape.Idx.first hu) = 0) (j : (⟨1, ![N]⟩ : Shape).Idx) :
    Host.reduceWindow IntOp.addi ![N] ![1] ![lo] ![0] x init h hu j
      = ∑ k ∈ Finset.range N, if k ≤ (j 0).val then atNat x k else 0 := by
  have hj : (j 0).val < N := (j 0).isLt
  -- one window position's contribution, as a function of the position's number
  let G : Nat → BitVec 32 := fun n => if lo ≤ (j 0).val + n then atNat x ((j 0).val + n - lo) else 0
  have hnum : (⟨1, ![N]⟩ : Shape).numel = N := Shape.numel_rank1 _
  unfold Host.reduceWindow
  simp only [hinit]
  have hstep : ∀ (r : BitVec 32) (n : Fin (⟨1, ![N]⟩ : Shape).numel),
      IntOp.addi r
        (if hin : ∀ a : Fin 1, (![lo] : Fin 1 → Nat) a ≤
              (j (a.cast h.1.symm)).val * (![1] : Fin 1 → Nat) a + ((⟨1, ![N]⟩ : Shape).rowMajor.symm n a).val ∧
            (j (a.cast h.1.symm)).val * (![1] : Fin 1 → Nat) a + ((⟨1, ![N]⟩ : Shape).rowMajor.symm n a).val
              - (![lo] : Fin 1 → Nat) a < (⟨1, ![N]⟩ : Shape).size a
          then x (fun a => ⟨(j (a.cast h.1.symm)).val * (![1] : Fin 1 → Nat) a
              + ((⟨1, ![N]⟩ : Shape).rowMajor.symm n a).val - (![lo] : Fin 1 → Nat) a, (hin a).2⟩)
          else 0)
      = IntOp.addi r (G n.val) := by
    intro r n
    congr 1
    have hn : n.val < N := Nat.lt_of_lt_of_eq n.isLt hnum
    have hrm := rowMajor_symm_one n
    by_cases hc : lo ≤ (j 0).val + n.val
    · have hin : ∀ a : Fin 1, (![lo] : Fin 1 → Nat) a ≤
              (j (a.cast h.1.symm)).val * (![1] : Fin 1 → Nat) a + ((⟨1, ![N]⟩ : Shape).rowMajor.symm n a).val ∧
            (j (a.cast h.1.symm)).val * (![1] : Fin 1 → Nat) a + ((⟨1, ![N]⟩ : Shape).rowMajor.symm n a).val
              - (![lo] : Fin 1 → Nat) a < (⟨1, ![N]⟩ : Shape).size a := by
        intro a
        obtain rfl : a = 0 := Subsingleton.elim _ _
        show lo ≤ (j 0).val * 1 + ((⟨1, ![N]⟩ : Shape).rowMajor.symm n 0).val ∧
          (j 0).val * 1 + ((⟨1, ![N]⟩ : Shape).rowMajor.symm n 0).val - lo < N
        rw [hrm]; omega
      rw [dif_pos hin]
      show _ = if lo ≤ (j 0).val + n.val then atNat x ((j 0).val + n.val - lo) else 0
      rw [if_pos hc, atNat_lt x (by omega : (j 0).val + n.val - lo < N)]
      congr 1
      funext a
      obtain rfl : a = 0 := Subsingleton.elim _ _
      refine Fin.ext ?_
      show (j 0).val * 1 + ((⟨1, ![N]⟩ : Shape).rowMajor.symm n 0).val - lo = (j 0).val + n.val - lo
      rw [hrm]; omega
    · have hin : ¬ ∀ a : Fin 1, (![lo] : Fin 1 → Nat) a ≤
              (j (a.cast h.1.symm)).val * (![1] : Fin 1 → Nat) a + ((⟨1, ![N]⟩ : Shape).rowMajor.symm n a).val ∧
            (j (a.cast h.1.symm)).val * (![1] : Fin 1 → Nat) a + ((⟨1, ![N]⟩ : Shape).rowMajor.symm n a).val
              - (![lo] : Fin 1 → Nat) a < (⟨1, ![N]⟩ : Shape).size a := by
        intro hall
        have := (hall 0).1
        have h0 : lo ≤ (j 0).val * 1 + ((⟨1, ![N]⟩ : Shape).rowMajor.symm n 0).val := this
        rw [hrm] at h0; omega
      rw [dif_neg hin]
      show _ = if lo ≤ (j 0).val + n.val then atNat x ((j 0).val + n.val - lo) else 0
      rw [if_neg hc]
  simp only [hstep]
  rw [foldl_add_eq (fun n : Fin (⟨1, ![N]⟩ : Shape).numel => G n.val), zero_add, ← Fin.sum_univ_def,
    Fin.sum_univ_eq_sum_range (fun n => G n) (⟨1, ![N]⟩ : Shape).numel, hnum]
  -- the positions inside the operand are N - 1 - j … N - 1, which read the entries 0 … j
  rw [← Finset.sum_filter, ← Finset.sum_filter]
  refine Finset.sum_nbij' (fun n => (j 0).val + n - lo) (fun k => k + lo - (j 0).val) ?_ ?_ ?_ ?_ ?_
  · intro n hn
    simp only [Finset.mem_filter, Finset.mem_range] at hn ⊢
    omega
  · intro k hk
    simp only [Finset.mem_filter, Finset.mem_range] at hk ⊢
    omega
  · intro n hn
    simp only [Finset.mem_filter, Finset.mem_range] at hn
    omega
  · intro k hk
    simp only [Finset.mem_filter, Finset.mem_range] at hk
    omega
  · intro n hn
    rfl

end Cert.Afm.RefInt
-- ==== Proof.RefIntScat.lean ====
/-
  A scatter whose body adds, read at an index: what the operand held there plus every update whose index lands there
  (an update whose index falls outside the operand is dropped).
-/
import Idealize.ShloMosaic.PureOps
import Mathlib.Data.BitVec
import Mathlib.Algebra.BigOperators.Fin
import Mathlib.Algebra.BigOperators.Group.Finset.Basic

namespace Cert.Afm.RefInt

open Idealize.ShloMosaic

theorem scatter_add_apply {s si u : Shape} {w : Nat} (d : ScatterDims s si u) (x : s.Idx → BitVec 32)
    (idx : IVec si w) (upd : u.Idx → BitVec 32) (i : s.Idx) :
    Host.scatter d IntOp.addi x idx upd i
      = x i + ∑ n : Fin u.numel,
          if d.resultIdx? (u.rowMajor.symm n) idx = some i then upd (u.rowMajor.symm n) else 0 := by
  unfold Host.scatter
  rw [Fin.sum_univ_def]
  generalize List.finRange u.numel = l
  induction l generalizing x with
  | nil => simp
  | cons a l ih =>
    rw [List.foldl_cons, ih, List.map_cons, List.sum_cons, ← add_assoc]
    congr 1
    generalize d.resultIdx? (u.rowMajor.symm a) idx = o
    cases o with
    | none => simp
    | some k =>
      by_cases hik : i = k
      · subst hik
        simp [IntOp.addi]
      · have hne : ¬ (some k = some i) := fun h => hik (Option.some.inj h).symm
        simp [hik, hne]

end Cert.Afm.RefInt
-- ==== Proof.RefIntMask.lean ====
/-
  The mask of the strict upper triangle, and the same mask read along the flattened square.

  Entry (i, j) of the triangle array is 0.0 where i ≥ j and 1.0 where i < j; comparing it with 0.0 for inequality
  gives the bit i < j.  Flat position n of the square is entry (n / 39, n % 39).
-/
import proofs.«413975_j5944234738104_2_alg».proof.Proof.RefIntDefs
import Idealize.ShloMosaic.Lib.Decide
import Idealize.ShloMosaic.Lib.ValueIdx
import Idealize.ShloMosaic.PureOps.IdealRules

noncomputable section

namespace Cert.Afm.RefInt

open Idealize.ShloMosaic Idealize.ShloMosaic.ValueIdx Cert.ReferenceIdeal Cert.ReferenceIdeal.Facts₀

/-- The comparison that cuts the triangle, on the words of a row and a column index. -/
theorem sge_word (i j : Fin 39) :
    IntOp.cmpi .sge (IntOp.addi (BitVec.ofNat 32 i.val) 0#32) (BitVec.ofNat 32 j.val)
      = if i < j then 0#1 else 1#1 := by
  revert i j; decide +kernel

theorem one_f32 : Ideal.ofBits .f32 0x3F800000#32 = 1 := IdealRules.sign_bit.ideal_onePat .f32

theorem zero_f32 : Ideal.ofBits .f32 0x00000000#32 = 0 := IdealRules.sign_bit.ideal_zero .f32

/-- The mask's bit at (i, j): whether i < j. -/
theorem tblV24_apply (i j : Fin 39) : tblV24 (ix2 i j) = if i < j then 1#1 else 0#1 := by
  show Ideal.cmp .une
      (Scalar.select (IntOp.cmpi .sge (IntOp.addi (BitVec.ofNat 32 i.val) 0#32) (BitVec.ofNat 32 j.val))
        (Ideal.ofBits .f32 0x00000000#32) (Ideal.ofBits .f32 0x3F800000#32))
      (Ideal.ofBits .f32 0x00000000#32) = _
  rw [sge_word, one_f32, zero_f32]
  by_cases h : i < j
  · rw [if_pos h, if_pos h, select_zero]
    simp [Ideal.cmp]
  · rw [if_neg h, if_neg h, select_one]
    simp [Ideal.cmp]

/-- The mask along the flattened square, widened to words. -/
def maskFlat : IVec S1521 32 := extui 32 (shapeCast S1521 tblV24 shapeCasts_S39x39_S1521) natLt_1_32

/-- The running count is the running sum of the flattened mask. -/
theorem tblV25_eq : tblV25 = cumsum0F maskFlat := rfl

/-- Flat position n of the 39 × 39 square is entry (n / 39, n % 39). -/
theorem reshape_flat (n : Fin 1521) (hd : n.val / 39 < 39) (hm : n.val % 39 < 39) :
    Shape.reshapeEquiv (s := S39x39) (s' := S1521) shapeCasts_S39x39_S1521 (ix1 n)
      = ix2 ⟨n.val / 39, hd⟩ ⟨n.val % 39, hm⟩ := by
  apply Shape.reshapeEquiv_eq_of_rowMajor
  rw [Shape.rowMajor_val_two, Shape.rowMajor_val_one]
  show n.val / 39 * 39 + n.val % 39 = n.val
  omega

/-- The flattened mask at position n: one where the column n % 39 is past the row n / 39. -/
theorem maskFlat_apply (n : Fin 1521) :
    maskFlat (ix1 n) = BitVec.ofNat 32 (if n.val / 39 < n.val % 39 then 1 else 0) := by
  have hd : n.val / 39 < 39 := by have := n.isLt; omega
  have hm : n.val % 39 < 39 := Nat.mod_lt _ (by decide)
  show (tblV24 (Shape.reshapeEquiv (s := S39x39) (s' := S1521) shapeCasts_S39x39_S1521 (ix1 n))).setWidth 32 = _
  rw [reshape_flat n hd hm, tblV24_apply]
  by_cases h : n.val / 39 < n.val % 39
  · rw [if_pos (show (⟨n.val / 39, hd⟩ : Fin 39) < ⟨n.val % 39, hm⟩ from h), if_pos h]; rfl
  · rw [if_neg (show ¬ (⟨n.val / 39, hd⟩ : Fin 39) < ⟨n.val % 39, hm⟩ from h), if_neg h]; rfl

end Cert.Afm.RefInt

end
-- ==== Proof.RefIntCountN.lean ====
/-
  The counting argument, over the natural numbers.

  Write c(n) for the number of entries of the strict upper triangle at flat positions 0 … n.  The pairs are listed by
  increasing flat position, so c(n) counts the pairs p with pos p ≤ n, and these form an initial segment of the list:
  c(n) ≤ p exactly when n < pos p.  Hence the number of flat positions n with c(n) ≤ p is pos p: summing, over the
  counts v = 0 … p, the number of flat positions with c(n) = v gives the flat position of the p-th pair.
-/
import proofs.«413975_j5944234738104_2_alg».proof.Proof.RefIntPairs
import Mathlib.Algebra.BigOperators.Group.Finset.Basic
import Mathlib.Algebra.BigOperators.Ring.Finset
import Mathlib.Order.Interval.Finset.Fin

namespace Cert.Afm.RefInt

open Cert.Afm Finset

/-- The mask at a flat position, as a number: one where the column n % 39 is past the row n / 39. -/
def maskN (k : Nat) : Nat := if k / 39 < k % 39 then 1 else 0

/-- The running count of the mask: the number of mask entries at flat positions 0 … n. -/
def cN (n : Nat) : Nat := ∑ k ∈ range 1521, if k ≤ n then maskN k else 0

/-- The running count at n is the number of pairs whose flat position is at most n. -/
theorem cN_eq_card (n : Nat) : cN n = (univ.filter fun q : Fin 741 => pos q ≤ n).card := by
  unfold cN maskN
  have h1 : (∑ k ∈ range 1521, if k ≤ n then (if k / 39 < k % 39 then 1 else 0) else 0)
      = ∑ k ∈ range 1521, if (k ≤ n ∧ k / 39 < k % 39) then 1 else 0 := by
    refine sum_congr rfl fun k _ => ?_
    by_cases hk : k ≤ n
    · simp [hk]
    · simp [hk]
  have himg : (range 1521).filter (fun k => k ≤ n ∧ k / 39 < k % 39)
      = (univ.filter fun q : Fin 741 => pos q ≤ n).image pos := by
    ext k
    simp only [mem_filter, mem_range, mem_image, mem_univ, true_and]
    constructor
    · rintro ⟨hk, hkn, hmask⟩
      obtain ⟨q, hq⟩ := (exists_pos_eq_iff hk).mpr hmask
      exact ⟨q, hq ▸ hkn, hq⟩
    · rintro ⟨q, hqn, rfl⟩
      exact ⟨pos_lt q, hqn, (exists_pos_eq_iff (pos_lt q)).mp ⟨q, rfl⟩⟩
  rw [h1, sum_boole, Nat.cast_id, himg, card_image_of_injective _ pos_strictMono.injective]

/-- There are 741 pairs in all. -/
theorem cN_le (n : Nat) : cN n ≤ 741 := by
  rw [cN_eq_card]
  exact (card_filter_le _ _).trans (by simp)

/-- The pairs at flat positions up to n are an initial segment of the list: there are at most p of them exactly when
    the p-th pair lies beyond n. -/
theorem cN_le_iff (n : Nat) (p : Fin 741) : cN n ≤ p.val ↔ n < pos p := by
  rw [cN_eq_card]
  constructor
  · intro h
    by_contra hn
    have hn' : pos p ≤ n := Nat.le_of_not_lt hn
    have hsub : Finset.Iic p ⊆ univ.filter fun q : Fin 741 => pos q ≤ n := by
      intro q hq
      rw [mem_Iic] at hq
      rw [mem_filter]
      exact ⟨mem_univ _, (pos_strictMono.monotone hq).trans hn'⟩
    have := card_le_card hsub
    rw [Fin.card_Iic] at this
    omega
  · intro h
    have hsub : (univ.filter fun q : Fin 741 => pos q ≤ n) ⊆ Finset.Iio p := by
      intro q hq
      rw [mem_filter] at hq
      rw [mem_Iio]
      exact pos_strictMono.lt_iff_lt.mp (lt_of_le_of_lt hq.2 h)
    have := card_le_card hsub
    rw [Fin.card_Iio] at this
    exact this

/-- Summing the histogram of the running count over the bins 0 … p gives the flat position of the p-th pair. -/
theorem count_identity (p : Fin 741) :
    (∑ v ∈ range 741, if v ≤ p.val then (∑ k ∈ range 1521, if cN k = v then 1 else 0) else 0) = pos p := by
  calc (∑ v ∈ range 741, if v ≤ p.val then (∑ k ∈ range 1521, if cN k = v then 1 else 0) else 0)
      = ∑ v ∈ range 741, ∑ k ∈ range 1521, if (v ≤ p.val ∧ cN k = v) then 1 else 0 := by
        refine sum_congr rfl fun v _ => ?_
        by_cases hv : v ≤ p.val
        · simp [hv]
        · simp [hv]
    _ = ∑ k ∈ range 1521, ∑ v ∈ range 741, if (v ≤ p.val ∧ cN k = v) then 1 else 0 := sum_comm
    _ = ∑ k ∈ range 1521, if cN k ≤ p.val then 1 else 0 := by
        refine sum_congr rfl fun k _ => ?_
        by_cases hk : cN k ≤ p.val
        · rw [if_pos hk, sum_eq_single (cN k)]
          · rw [if_pos ⟨hk, rfl⟩]
          · intro v _ hv
            rw [if_neg]
            intro h
            exact hv h.2.symm
          · intro h
            exfalso
            apply h
            rw [mem_range]
            have := p.isLt
            omega
        · rw [if_neg hk]
          refine sum_eq_zero fun v _ => ?_
          rw [if_neg]
          rintro ⟨h1, h2⟩
          exact hk (h2 ▸ h1)
    _ = ∑ k ∈ range 1521, if k < pos p then 1 else 0 := by
        refine sum_congr rfl fun k _ => ?_
        simp only [cN_le_iff]
    _ = pos p := by
        rw [sum_boole, Nat.cast_id]
        have hr : (range 1521).filter (· < pos p) = range (pos p) := by
          ext k
          simp only [mem_filter, mem_range]
          have := pos_lt p
          omega
        rw [hr, card_range]

end Cert.Afm.RefInt
-- ==== Proof.RefIntCount.lean ====
/-
  The counting argument, on the program's words.

  The running count of the flattened mask holds the number c(n) at flat position n; the clip at zero and the
  wrap-around of negative indices leave it alone (it is between 0 and 741); the histogram holds at bin v the number of
  flat positions with c(n) = v (the last position, whose count 741 is no bin, is dropped); and the running sum of the
  histogram holds at p the number of flat positions with c(n) ≤ p, which is the flat position of the p-th pair.
-/
import proofs.«413975_j5944234738104_2_alg».proof.Proof.RefIntDefs
import proofs.«413975_j5944234738104_2_alg».proof.Proof.RefIntPairs
import proofs.«413975_j5944234738104_2_alg».proof.Proof.RefIntWin
import proofs.«413975_j5944234738104_2_alg».proof.Proof.RefIntScat
import proofs.«413975_j5944234738104_2_alg».proof.Proof.RefIntMask
import proofs.«413975_j5944234738104_2_alg».proof.Proof.RefIntTail
import proofs.«413975_j5944234738104_2_alg».proof.Proof.RefIntCountN

noncomputable section

namespace Cert.Afm.RefInt

open Idealize.ShloMosaic Idealize.ShloMosaic.ValueIdx Cert.ReferenceIdeal Cert.ReferenceIdeal.Facts₀ Finset

/-- A number as a word, in the two spellings. -/
theorem natCast_eq (m : Nat) : ((m : ℕ) : BitVec 32) = BitVec.ofNat 32 m := BitVec.natCast_eq_ofNat 32 m

/-- On the words 0 … 741: zero is not larger, the word is not negative, and its signed reading is the number. -/
theorem small_word (m : Fin 742) :
    IntOp.maxsi 0#32 (BitVec.ofNat 32 m.val) = BitVec.ofNat 32 m.val ∧
      IntOp.cmpi .slt (BitVec.ofNat 32 m.val) 0#32 = 0#1 ∧ (BitVec.ofNat 32 m.val).toInt = (m.val : Int) := by
  revert m; decide +kernel

/-- A column of index vectors made from a list reads the list. -/
theorem bcast_col {K : Nat} (hK : K ≠ 1) (h : (⟨1, ![K]⟩ : Shape).BroadcastsInDim ⟨2, ![K, 1]⟩ ![0]) {α : Type}
    (x : (⟨1, ![K]⟩ : Shape).Idx → α) (j : (⟨2, ![K, 1]⟩ : Shape).Idx) :
    broadcastInDim ⟨2, ![K, 1]⟩ ![0] h x j = x (ix1 (j 0)) := by
  unfold broadcastInDim
  congr 1
  funext a
  obtain rfl : a = 0 := Subsingleton.elim _ _
  rw [dif_neg (show ¬ (⟨1, ![K]⟩ : Shape).size 0 = 1 from hK)]
  rfl

/-! ## The running count of the mask -/

theorem tblV25_apply (n : Fin 1521) : tblV25 (ix1 n) = BitVec.ofNat 32 (cN n.val) := by
  have h := reduceWindow_prefix (N := 1521) (lo := 1520) rfl maskFlat
    (broadcastInDim S_ ![] bcast_S_S_ (constantI S_ 32 0#32)) reduceWindows_S1521_S1521_w1521s1p1520_0 h_S_ rfl (ix1 n)
  refine h.trans ?_
  unfold cN
  rw [← natCast_eq, Nat.cast_sum]
  refine sum_congr rfl fun k hk => ?_
  have hk' : k < 1521 := mem_range.mp hk
  show (if k ≤ n.val then atNat maskFlat k else 0) = ((if k ≤ n.val then maskN k else 0 : ℕ) : BitVec 32)
  rw [atNat_lt maskFlat hk', maskFlat_apply ⟨k, hk'⟩, Nat.cast_ite, Nat.cast_zero, natCast_eq]
  rfl

theorem cN_lt (n : Nat) : cN n < 742 := by have := cN_le n; omega

/-- The clip and the wrap-around change nothing. -/
theorem tblV32_apply (n : Fin 1521) : tblV32 (ix1 n) = BitVec.ofNat 32 (cN n.val) := by
  obtain ⟨h1, h2, _⟩ := small_word ⟨cN n.val, cN_lt n.val⟩
  show wrapW 741#32 (IntOp.maxsi 0#32 (tblV25 (ix1 n))) = _
  rw [tblV25_apply, h1]
  unfold wrapW
  rw [h2, select_zero]

/-! ## The histogram -/

/-- Where update j of the histogram lands: the bin its index word names, read signed. -/
theorem hist_resultIdx (j : S1521.Idx) (idx : IVec S1521x1 32) (v : Fin 741) :
    scatter_S741_S1521x1_S1521_n_0_0_1.resultIdx? j idx = some (ix1 v)
      ↔ (idx (ix2 (j 0) 0)).toInt = (v.val : Int) := by
  have hstart : scatter_S741_S1521x1_S1521_n_0_0_1.start j idx 0 = (idx (ix2 (j 0) 0)).toInt := by
    unfold ScatterDims.start
    rw [dif_pos (show (0 : Fin 1) ∈ scatter_S741_S1521x1_S1521_n_0_0_1.scatterDimsToOperandDims from
      List.mem_singleton.mpr rfl)]
    congr 2
    funext b
    refine Fin.ext ?_
    match b with
    | ⟨0, _⟩ => rfl
    | ⟨1, _⟩ => rfl
  have hwin : scatter_S741_S1521x1_S1521_n_0_0_1.window j 0 = 0 := by
    unfold ScatterDims.window
    rw [dif_neg (by decide)]
  unfold ScatterDims.resultIdx?
  by_cases hc : ∀ a : Fin 1, 0 ≤ scatter_S741_S1521x1_S1521_n_0_0_1.start j idx a
        + scatter_S741_S1521x1_S1521_n_0_0_1.window j a ∧
      scatter_S741_S1521x1_S1521_n_0_0_1.start j idx a + scatter_S741_S1521x1_S1521_n_0_0_1.window j a
        < S741.size a
  · rw [dif_pos hc]
    have h0 := hc 0
    rw [hstart, hwin] at h0
    constructor
    · intro he
      have h1 := congrArg Fin.val (congrFun (Option.some.inj he) 0)
      have h2 : (scatter_S741_S1521x1_S1521_n_0_0_1.start j idx 0
          + scatter_S741_S1521x1_S1521_n_0_0_1.window j 0).toNat = v.val := h1
      rw [hstart, hwin] at h2
      omega
    · intro ht
      congr 1
      funext a
      obtain rfl : a = 0 := Subsingleton.elim _ _
      refine Fin.ext ?_
      show (scatter_S741_S1521x1_S1521_n_0_0_1.start j idx 0
          + scatter_S741_S1521x1_S1521_n_0_0_1.window j 0).toNat = v.val
      rw [hstart, hwin, ht]
      omega
  · rw [dif_neg hc]
    constructor
    · intro h; cases h
    · intro ht
      exfalso
      apply hc
      intro a
      obtain rfl : a = 0 := Subsingleton.elim _ _
      rw [hstart, hwin, ht]
      have := v.isLt
      show 0 ≤ (v.val : Int) + ((0 : ℕ) : Int) ∧ (v.val : Int) + ((0 : ℕ) : Int) < ((741 : ℕ) : Int)
      omega

/-- Bin v of the histogram: the number of flat positions whose running count is v. -/
theorem tblV35_apply (v : Fin 741) :
    tblV35 (ix1 v) = BitVec.ofNat 32 (∑ k ∈ range 1521, if cN k = v.val then 1 else 0) := by
  unfold tblV35
  rw [scatter_add_apply]
  have h26 : tblV26 (ix1 v) = 0 := rfl
  rw [h26, zero_add]
  have hstep : ∀ n : Fin S1521.numel,
      (if scatter_S741_S1521x1_S1521_n_0_0_1.resultIdx? (S1521.rowMajor.symm n) tblV33 = some (ix1 v)
        then tblV34 (S1521.rowMajor.symm n) else 0)
      = (fun k : Nat => if cN k = v.val then (1 : BitVec 32) else 0) n.val := by
    intro n
    have hn : n.val < 1521 := Nat.lt_of_lt_of_eq n.isLt (Shape.numel_rank1 _)
    have hj : (S1521.rowMajor.symm n) 0 = ⟨n.val, hn⟩ := Fin.ext (rowMajor_symm_one n)
    have h33 : tblV33 (ix2 ((S1521.rowMajor.symm n) 0) 0) = BitVec.ofNat 32 (cN n.val) := by
      rw [hj]
      unfold tblV33
      rw [bcast_col (by decide) bcast_S1521_S1521x1_0 tblV32]
      exact tblV32_apply ⟨n.val, hn⟩
    have htoInt := (small_word ⟨cN n.val, cN_lt n.val⟩).2.2
    have hiff := hist_resultIdx (S1521.rowMajor.symm n) tblV33 v
    rw [h33, htoInt] at hiff
    show (if _ then tblV34 _ else 0) = if cN n.val = v.val then (1 : BitVec 32) else 0
    by_cases h : cN n.val = v.val
    · rw [if_pos (hiff.mpr (by exact_mod_cast h)), if_pos h]; rfl
    · rw [if_neg (fun h' => h (by exact_mod_cast hiff.mp h')), if_neg h]
  rw [Finset.sum_congr rfl (fun n _ => hstep n),
    Fin.sum_univ_eq_sum_range (fun k => if cN k = v.val then (1 : BitVec 32) else 0) S1521.numel,
    Shape.numel_rank1]
  show ∑ k ∈ range 1521, (if cN k = v.val then (1 : BitVec 32) else 0) = _
  rw [← natCast_eq, Nat.cast_sum]
  refine sum_congr rfl fun k _ => ?_
  rw [Nat.cast_ite, Nat.cast_one, Nat.cast_zero]

/-! ## The running sum of the histogram -/

/-- Entry p: the flat position of the p-th pair. -/
theorem tblV36_apply (p : Fin 741) : tblV36 (ix1 p) = BitVec.ofNat 32 (pos p) := by
  have h := reduceWindow_prefix (N := 741) (lo := 740) rfl tblV35
    (broadcastInDim S_ ![] bcast_S_S_ (constantI S_ 32 0#32)) reduceWindows_S741_S741_w741s1p740_0 h_S_ rfl (ix1 p)
  refine h.trans ?_
  rw [← count_identity p, ← natCast_eq, Nat.cast_sum]
  refine sum_congr rfl fun v hv => ?_
  have hv' : v < 741 := mem_range.mp hv
  show (if v ≤ p.val then atNat tblV35 v else 0)
    = ((if v ≤ p.val then (∑ k ∈ range 1521, if cN k = v then 1 else 0) else 0 : ℕ) : BitVec 32)
  rw [atNat_lt tblV35 hv', tblV35_apply ⟨v, hv'⟩, Nat.cast_ite, Nat.cast_zero, natCast_eq]

end Cert.Afm.RefInt

end
-- ==== Proof.RefInt.lean ====
/-
  The integer index tables of the reference program: entry p of the row table is the smaller field of the p-th pair
  of the strict upper triangle in row-major order, entry p of the column table the larger.  (That the p-th pair runs
  through the pairs bijectively, and what follows for sums and maxima, is in RefIntPairs.)

  The running sum of the histogram holds at p the flat position 39 i + j of the p-th pair (i, j) (RefIntCount); its
  floored quotient by 39 is i and its remainder is j, neither negative (RefIntTail).
-/
import proofs.«413975_j5944234738104_2_alg».proof.Proof.Spec
import proofs.«413975_j5944234738104_2_alg».proof.Proof.RefIntDefs
import proofs.«413975_j5944234738104_2_alg».proof.Proof.RefIntPairs
import proofs.«413975_j5944234738104_2_alg».proof.Proof.RefIntTail
import proofs.«413975_j5944234738104_2_alg».proof.Proof.RefIntCount
import Idealize.ShloMosaic.Lib.ValueIdx

noncomputable section

namespace Cert.Afm.RefInt

open Idealize.ShloMosaic Cert.ReferenceIdeal Cert.ReferenceIdeal.Facts₀

theorem rowTab_apply (p : Fin 741) :
    rowTab (ValueIdx.ix2 p 0) = BitVec.ofNat 32 (Cert.Afm.pairOf p).1.val := by
  unfold rowTab
  rw [bcast_col (by decide) bcast_S741_S741x1_0 tblV45, tblV45_apply]
  show wrapW 39#32 (remW (fdivW (tblV36 (ValueIdx.ix1 p)) 39#32) 39#32) = _
  rw [tblV36_apply, rowW ⟨pos p, pos_lt p⟩]
  show BitVec.ofNat 32 (flat (Cert.Afm.pairOf p) / 39) = _
  rw [flat_div]

theorem colTab_apply (p : Fin 741) :
    colTab (ValueIdx.ix2 p 0) = BitVec.ofNat 32 (Cert.Afm.pairOf p).2.val := by
  unfold colTab
  rw [bcast_col (by decide) bcast_S741_S741x1_0 tblV52, tblV52_apply]
  show wrapW 39#32 (remW (fdivW (tblV36 (ValueIdx.ix1 p)) 1#32) 39#32) = _
  rw [tblV36_apply, colW ⟨pos p, pos_lt p⟩]
  show BitVec.ofNat 32 (flat (Cert.Afm.pairOf p) % 39) = _
  rw [flat_mod]

end Cert.Afm.RefInt

end
-- ==== Proof.RefTop.lean ====
/-
  The reference program's run, with its result named: under the precondition every fair execution ends with
  the result array at the common value of SpecArr.lean and the arguments unchanged.

  The run gives every buffer as the fold of the program's operations over the launch contents;
  the result buffer's fold is the float tail applied to the embedded field array and the two index tables;
  inside the table's range the field array is the specification's real rows, the tables list the pairs of
  the strict upper triangle, and the float tail at a batch row is the specification's row output.
-/
import proofs.«413975_j5944234738104_2_alg».proof.Defs
import proofs.«413975_j5944234738104_2_alg».proof.Proof.Gen.ReferenceIdeal
import proofs.«413975_j5944234738104_2_alg».proof.Proof.Gen.Pre_finite_inputs
import proofs.«413975_j5944234738104_2_alg».proof.Proof.SpecArr
import proofs.«413975_j5944234738104_2_alg».proof.Proof.Glue
import proofs.«413975_j5944234738104_2_alg».proof.Proof.PreFacts
import proofs.«413975_j5944234738104_2_alg».proof.Proof.RefRun
import proofs.«413975_j5944234738104_2_alg».proof.Proof.RefOut
import proofs.«413975_j5944234738104_2_alg».proof.Proof.RefValue
import proofs.«413975_j5944234738104_2_alg».proof.Proof.RefInt

noncomputable section
namespace Cert.Afm
open Idealize.ShloMosaic Idealize.ShloMosaic.TcCoe Idealize.SL.Sem Idealize.ShloMosaic.ValueIdx Idealize.ShloMosaic.StableHlo

/-- The reference's value at a batch row, from the pieces. -/
theorem ref_value (a0 : FVec Ideal ⟨2, ![4096, 13]⟩ .f32) (a1 : IVec ⟨2, ![4096, 26]⟩ 32) (a3 : FVec Ideal ⟨2, ![100000, 40]⟩ .f32)
    (a4 : FVec Ideal ⟨2, ![8, 40]⟩ .f32) (a5 : FVec Ideal ⟨1, ![8]⟩ .f32) (a6 : FVec Ideal ⟨2, ![1, 8]⟩ .f32)
    (a7 : FVec Ideal ⟨2, ![1, 40]⟩ .f32) (a8 : FVec Ideal ⟨1, ![1]⟩ .f32)
    (h0 : ∀ i, ∃ r : ℝ, a0 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal))
    (h8 : ∀ i, ∃ r : ℝ, a8 i = (r : EReal)) (hc : ∀ i, (a1 i).toNat < 100000) :
    RefValue.refTail (RefValue.xRef a0 a1 a3) RefInt.rowTab RefInt.colTab a4 a5 a6 a7 a8 = G a0 a1 a3 a4 a5 a6 a7 a8 := by
  funext idx
  have hb : idx = ix2 (⟨(idx 0).val, (idx 0).isLt⟩ : Fin 4096) (0 : Fin 1) := by
    refine (eq_ix2 idx).trans ?_
    congr 1
    exact Fin.ext (Nat.lt_one_iff.mp (idx 1).isLt)
  rw [hb]
  rw [RefValue.refTail_apply (RefValue.xRef a0 a1 a3) RefInt.rowTab RefInt.colTab a4 a5 a6 a7 a8
    (rowsOf a0 a1 a3) (fun b f d => (RefValue.xRef_apply a0 a1 a3 hc b f d).trans (Glue.field_coe a0 a1 a3 h0 h3 hc b f d))
    (fun k d => (a4 (ix2 k d)).toReal) (fun k d => Glue.coe_toReal_of (h4 _))
    (fun k => (a5 (ix1 k)).toReal) (fun k => Glue.coe_toReal_of (h5 _))
    (fun k => (a6 (ix2 (0 : Fin 1) k)).toReal) (fun k => Glue.coe_toReal_of (h6 _))
    (fun d => (a7 (ix2 (0 : Fin 1) d)).toReal) (fun d => Glue.coe_toReal_of (h7 _))
    (a8 (ix1 (0 : Fin 1))).toReal (Glue.coe_toReal_of (h8 _))
    RefInt.rowTab_apply RefInt.colTab_apply]
  rfl

theorem ref_run (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v86) = Cert.Afm.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) := by
  refine (θ_run Cert.ReferenceIdeal.defs _ _).mono (fun r h c => ?_) (Cert.ReferenceIdeal.Value.run_main (F := Ideal) m ρ)
  obtain ⟨h0, h3, h4, h5, h6, h7, h8, hc⟩ := PreFacts.finite_of_pre _ _ _ _ _ _ _ _ _ (hpre c)
  refine ⟨?_, (h c _).trans (Cert.ReferenceIdeal.Value.arg0_eq _), (h c _).trans (Cert.ReferenceIdeal.Value.arg1_eq _), (h c _).trans (Cert.ReferenceIdeal.Value.arg2_eq _),
    (h c _).trans (Cert.ReferenceIdeal.Value.arg3_eq _), (h c _).trans (Cert.ReferenceIdeal.Value.arg4_eq _), (h c _).trans (Cert.ReferenceIdeal.Value.arg5_eq _),
    (h c _).trans (Cert.ReferenceIdeal.Value.arg6_eq _), (h c _).trans (Cert.ReferenceIdeal.Value.arg7_eq _), (h c _).trans (Cert.ReferenceIdeal.Value.arg8_eq _)⟩
  refine (h c _).trans ((Cert.ReferenceIdeal.Value.out_eq _).trans ?_)
  exact ref_value _ _ _ _ _ _ _ _ h0 h3 h4 h5 h6 h7 h8 (fun i => (hc i).1)

end Cert.Afm
end
-- ==== Proof.lean ====
/-
  The certificate of the attentional factorization machine kernel against its jnp reference, over the
  extended reals, under the precondition that every float input is finite and every categorical index lies
  inside the embedding table.

  Both programs embed a batch row as 39 field vectors, score the 741 pairwise products with a small
  network, and return the logistic function of the projected softmax-weighted sum of the products.  The
  reference does this in two passes over all pairs at once; the kernel streams over the fields with a
  running maximum and rescaled running sums.  Over the reals the two agree (Spec.lean states the common
  value, RowMath.lean proves the streaming form equal to it); the frames are the generated frame
  certificates for the two kernel programs and the reference's run with its results dropped;
  the idealization rewrote nothing, so there is nothing to preserve.
-/
import proofs.«413975_j5944234738104_2_alg».proof.Defs
import proofs.«413975_j5944234738104_2_alg».proof.Proof.Gen.Kernel
import proofs.«413975_j5944234738104_2_alg».proof.Proof.Gen.Kernel.Frame
import proofs.«413975_j5944234738104_2_alg».proof.Proof.Gen.KernelIdeal
import proofs.«413975_j5944234738104_2_alg».proof.Proof.Gen.KernelIdeal.Frame
import proofs.«413975_j5944234738104_2_alg».proof.Proof.Gen.ReferenceIdeal
import proofs.«413975_j5944234738104_2_alg».proof.Proof.Gen.Pre_finite_inputs
import proofs.«413975_j5944234738104_2_alg».proof.Proof.KerTop
import proofs.«413975_j5944234738104_2_alg».proof.Proof.RefTop
import Idealize.ShloMosaic.Adequacy
import Idealize.ShloMosaic.Init

noncomputable section

namespace Cert.Proof

open Idealize.ShloMosaic Idealize.SL.Sem

/-- The word-level kernel runs and leaves its arguments alone: the generated frame certificate. -/
theorem frame_k : Cert.frame_Kernel (hKernel := Cert.Kernel.Gen.facts) (hPre_finite_inputs := Cert.Pre_finite_inputs.Gen.facts) :=
  fun m ρ _ => Cert.Kernel.Gen.frame m ρ

/-- The same for the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ hpre => (θ_run Cert.ReferenceIdeal.defs _ _).mono (fun _ h c => (h c).2) (Cert.Afm.ref_run m ρ hpre)

/-- From memories that agree on the arguments both runs end at the common value of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hpre' : Cert.Pre_ReferenceIdeal (hPre_finite_inputs := Cert.Pre_finite_inputs.Gen.facts) m' := by
    intro c
    have h := hpre c
    obtain ⟨h0, h1, h2, h3, h4, h5, h6, h7, h8⟩ := hagree c
    rw [h0, h1, h2, h3, h4, h5, h6, h7, h8]
    exact h
  refine ⟨_, Cert.Afm.ker_run m ρ hpre, ?_⟩
  refine (θ_run Cert.ReferenceIdeal.defs _ _).mono (fun _ h c => ⟨(h c).1.trans ?_, (h c).2⟩) (Cert.Afm.ref_run m' ρ' hpre')
  obtain ⟨h0, h1, h2, h3, h4, h5, h6, h7, h8⟩ := hagree c
  rw [h0, h1, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
